-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x6x30x9x9 : Shape := ⟨5, ![1024, 6, 30, 9, 9]⟩
abbrev S100000x128 : Shape := ⟨2, ![100000, 128]⟩
abbrev S5x6 : Shape := ⟨2, ![5, 6]⟩
abbrev S8x128 : Shape := ⟨2, ![8, 128]⟩
abbrev S100000 : Shape := ⟨1, ![100000]⟩
abbrev S_ : Shape := ⟨0, ![]⟩

class Facts : Prop where
  bcast_S_S1024x6x30x9x9 : S_.BroadcastsInDim S1024x6x30x9x9 (![] : Fin 0 → Fin S1024x6x30x9x9.rank)
  reducesTo_S1024x6x30x9x9_S_d0_1_2_3_4 : S1024x6x30x9x9.ReducesTo [0, 1, 2, 3, 4] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S5x6 : S_.BroadcastsInDim S5x6 (![] : Fin 0 → Fin S5x6.rank)
  reducesTo_S5x6_S_d0_1 : S5x6.ReducesTo [0, 1] S_
  bcast_S_S8x128 : S_.BroadcastsInDim S8x128 (![] : Fin 0 → Fin S8x128.rank)
  reducesTo_S8x128_S_d0_1 : S8x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg7 : IVec S100000 32) (main_v32 : IVec S_ 1) (main_c_12 : IVec S_ 32) : IVec S_ 1 :=
  let main_v33 : IVec S100000 32 := broadcastInDim S100000 ![] bcast_S_S100000 main_c_12
  let main_v34 : IVec S100000 1 := cmpi .slt main_arg7 main_v33
  let main_c_13 : IVec S_ 1 := constantI S_ 1 1#1
  let main_v35 : IVec S_ 1 := (fun x v => Host.reduce IntOp.andi x v reducesTo_S100000_S_d0 h_S_) main_v34 main_c_13
  let main_v36 : IVec S_ 1 := andi main_v32 main_v35
  main_v36

def fn_part1 {F : FTy → Type} [FloatOps F] (main_arg4 : FVec F S5x6 .f32) (main_arg5 : FVec F S8x128 .f32) (main_arg6 : IVec S100000 32) (main_arg7 : IVec S100000 32) (main_v13 : IVec S_ 1) (main_v16 : IVec S5x6 1) : IVec S_ 1 :=
  let main_c_5 : IVec S_ 1 := constantI S_ 1 1#1
  let main_v17 : IVec S_ 1 := (fun x v => Host.reduce IntOp.andi x v reducesTo_S5x6_S_d0_1 h_S_) main_v16 main_c_5
  let main_v18 : IVec S_ 1 := andi main_v13 main_v17
  let main_v19 : FVec F S5x6 .f32 := Host.absf main_arg4
  let main_cst_6 : FVec F S_ .f32 := constant S_ .f32 0x7F800000#32
  let main_v20 : FVec F S5x6 .f32 := broadcastInDim S5x6 ![] bcast_S_S5x6 main_cst_6
  let main_v21 : IVec S5x6 1 := cmpf .olt main_v19 main_v20
  let main_c_7 : IVec S_ 1 := constantI S_ 1 1#1
  let main_v22 : IVec S_ 1 := (fun x v => Host.reduce IntOp.andi x v reducesTo_S5x6_S_d0_1 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_c_10 : IVec S_ 32 := constantI S_ 32 8#32
  let main_v29 : IVec S100000 32 := broadcastInDim S100000 ![] bcast_S_S100000 main_c_10
  let main_v30 : IVec S100000 1 := cmpi .slt main_arg6 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v28 main_v31
  let main_c_12 : IVec S_ 32 := constantI S_ 32 8#32
  fn_part2 (F := F) main_arg7 main_v32 main_c_12

def fn {F : FTy → Type} [FloatOps F] (main_arg0 : FVec F S1024x6x30x9x9 .f32) (main_arg1 : FVec F S100000x128 .f32) (main_arg2 : FVec F S100000x128 .f32) (main_arg3 : FVec F S5x6 .f32) (main_arg4 : FVec F S5x6 .f32) (main_arg5 : FVec F S8x128 .f32) (main_arg6 : IVec S100000 32) (main_arg7 : IVec S100000 32) : IVec S_ 1 :=
  let main_v0 : FVec F S1024x6x30x9x9 .f32 := Host.absf main_arg0
  let main_cst : FVec F S_ .f32 := constant S_ .f32 0x7F800000#32
  let main_v1 : FVec F S1024x6x30x9x9 .f32 := broadcastInDim S1024x6x30x9x9 ![] bcast_S_S1024x6x30x9x9 main_cst
  let main_v2 : IVec S1024x6x30x9x9 1 := cmpf .olt main_v0 main_v1
  let main_c : IVec S_ 1 := constantI S_ 1 1#1
  let main_v3 : IVec S_ 1 := (fun x v => Host.reduce IntOp.andi x v reducesTo_S1024x6x30x9x9_S_d0_1_2_3_4 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S5x6 .f32 := Host.absf main_arg3
  let main_cst_4 : FVec F S_ .f32 := constant S_ .f32 0x7F800000#32
  let main_v15 : FVec F S5x6 .f32 := broadcastInDim S5x6 ![] bcast_S_S5x6 main_cst_4
  let main_v16 : IVec S5x6 1 := cmpf .olt main_v14 main_v15
  fn_part1 (F := F) main_arg4 main_arg5 main_arg6 main_arg7 main_v13 main_v16
-- ==== Kernel.lean ====
abbrev S1024x6x30x9x9 : Shape := ⟨5, ![1024, 6, 30, 9, 9]⟩
abbrev S100000x128 : Shape := ⟨2, ![100000, 128]⟩
abbrev S5x6 : Shape := ⟨2, ![5, 6]⟩
abbrev S8x128 : Shape := ⟨2, ![8, 128]⟩
abbrev S100000 : Shape := ⟨1, ![100000]⟩
abbrev S_ : Shape := ⟨0, ![]⟩
abbrev S5 : Shape := ⟨1, ![5]⟩
abbrev S5x1 : Shape := ⟨2, ![5, 1]⟩
abbrev S8 : Shape := ⟨1, ![8]⟩
abbrev S8x1 : Shape := ⟨2, ![8, 1]⟩
abbrev S1024x6x2430 : Shape := ⟨3, ![1024, 6, 2430]⟩
abbrev S1024x5x5 : Shape := ⟨3, ![1024, 5, 5]⟩
abbrev S64x6x2430 : Shape := ⟨3, ![64, 6, 2430]⟩
abbrev S64x5x5 : Shape := ⟨3, ![64, 5, 5]⟩
abbrev S64x5x2430 : Shape := ⟨3, ![64, 5, 2430]⟩
abbrev S64x1x2430 : Shape := ⟨3, ![64, 1, 2430]⟩
abbrev S64x2430 : Shape := ⟨2, ![64, 2430]⟩
abbrev S1x5x1 : Shape := ⟨3, ![1, 5, 1]⟩
abbrev S64 : Shape := ⟨1, ![64]⟩
abbrev S64x1 : Shape := ⟨2, ![64, 1]⟩
abbrev S64x5 : Shape := ⟨2, ![64, 5]⟩
abbrev S64x1x5 : Shape := ⟨3, ![64, 1, 5]⟩
abbrev S5x5 : Shape := ⟨2, ![5, 5]⟩
abbrev S1x5 : Shape := ⟨2, ![1, 5]⟩
abbrev S1x5x5 : Shape := ⟨3, ![1, 5, 5]⟩
abbrev S1024 : Shape := ⟨1, ![1024]⟩
abbrev S1024x10x10 : Shape := ⟨3, ![1024, 10, 10]⟩
abbrev S16x6x2430 : Shape := ⟨3, ![16, 6, 2430]⟩
abbrev S16x10x10 : Shape := ⟨3, ![16, 10, 10]⟩
abbrev S16x5x2430 : Shape := ⟨3, ![16, 5, 2430]⟩
abbrev S16x1x2430 : Shape := ⟨3, ![16, 1, 2430]⟩
abbrev S16x2430 : Shape := ⟨2, ![16, 2430]⟩
abbrev S16x10x2430 : Shape := ⟨3, ![16, 10, 2430]⟩
abbrev S16 : Shape := ⟨1, ![16]⟩
abbrev S16x1 : Shape := ⟨2, ![16, 1]⟩
abbrev S16x10 : Shape := ⟨2, ![16, 10]⟩
abbrev S16x1x10 : Shape := ⟨3, ![16, 1, 10]⟩
abbrev S10x10 : Shape := ⟨2, ![10, 10]⟩
abbrev S10 : Shape := ⟨1, ![10]⟩
abbrev S10x1 : Shape := ⟨2, ![10, 1]⟩
abbrev S1x10 : Shape := ⟨2, ![1, 10]⟩
abbrev S1x10x10 : Shape := ⟨3, ![1, 10, 10]⟩
abbrev S1024x10x2430 : Shape := ⟨3, ![1024, 10, 2430]⟩
abbrev S32x6x2430 : Shape := ⟨3, ![32, 6, 2430]⟩
abbrev S32x10x2430 : Shape := ⟨3, ![32, 10, 2430]⟩
abbrev S32x5x2430 : Shape := ⟨3, ![32, 5, 2430]⟩
abbrev S32x1x2430 : Shape := ⟨3, ![32, 1, 2430]⟩
abbrev S32x2430 : Shape := ⟨2, ![32, 2430]⟩
abbrev S1x10x1 : Shape := ⟨3, ![1, 10, 1]⟩
abbrev S1024x10x30x9x9 : Shape := ⟨5, ![1024, 10, 30, 9, 9]⟩
abbrev S100352x128 : Shape := ⟨2, ![100352, 128]⟩
abbrev S100352 : Shape := ⟨1, ![100352]⟩
abbrev S1x1 : Shape := ⟨2, ![1, 1]⟩
abbrev S1024x128 : Shape := ⟨2, ![1024, 128]⟩
abbrev S1024x1 : Shape := ⟨2, ![1024, 1]⟩
abbrev S1x128 : Shape := ⟨2, ![1, 128]⟩
abbrev S1x1024 : Shape := ⟨2, ![1, 1024]⟩
abbrev S1 : Shape := ⟨1, ![1]⟩

abbrev nBuf : Space → Nat
  | .hbm => 210
  | .vmem => 28
  | .smem => 0
  | _ => 0

abbrev hbmTy0_0 (i : Nat) : BufTy := match i % 128 with
  | 0 => ⟨S1024x6x30x9x9, .f32⟩
  | 1 => ⟨S100000x128, .f32⟩
  | 2 => ⟨S100000x128, .f32⟩
  | 3 => ⟨S5x6, .f32⟩
  | 4 => ⟨S5x6, .f32⟩
  | 5 => ⟨S8x128, .f32⟩
  | 6 => ⟨S100000, .i32⟩
  | 7 => ⟨S100000, .i32⟩
  | 8 => ⟨S5x6, .f32⟩
  | 9 => ⟨S_, .f32⟩
  | 10 => ⟨S5x6, .f32⟩
  | 11 => ⟨S5x6, .f32⟩
  | 12 => ⟨S_, .f32⟩
  | 13 => ⟨S5x6, .f32⟩
  | 14 => ⟨S5x6, .f32⟩
  | 15 => ⟨S5x6, .i32⟩
  | 16 => ⟨S5x6, .i32⟩
  | 17 => ⟨S_, .i32⟩
  | 18 => ⟨S5x6, .i32⟩
  | 19 => ⟨S5x6, .i32⟩
  | 20 => ⟨S5x6, .i1⟩
  | 21 => ⟨S5x6, .f32⟩
  | 22 => ⟨S_, .f32⟩
  | 23 => ⟨S5x6, .f32⟩
  | 24 => ⟨S5x6, .f32⟩
  | 25 => ⟨S5x6, .f32⟩
  | 26 => ⟨S_, .f32⟩
  | 27 => ⟨S5x6, .f32⟩
  | 28 => ⟨S5x6, .f32⟩
  | 29 => ⟨S5x6, .f32⟩
  | 30 => ⟨S5x6, .f32⟩
  | 31 => ⟨S5x6, .f32⟩
  | 32 => ⟨S_, .f32⟩
  | 33 => ⟨S5, .f32⟩
  | 34 => ⟨S5x1, .f32⟩
  | 35 => ⟨S5x1, .f32⟩
  | 36 => ⟨S_, .f32⟩
  | 37 => ⟨S5x1, .f32⟩
  | 38 => ⟨S5x1, .f32⟩
  | 39 => ⟨S5x6, .f32⟩
  | 40 => ⟨S5x6, .f32⟩
  | 41 => ⟨S8x128, .f32⟩
  | 42 => ⟨S_, .f32⟩
  | 43 => ⟨S8, .f32⟩
  | 44 => ⟨S8x1, .f32⟩
  | 45 => ⟨S8x1, .f32⟩
  | 46 => ⟨S_, .f32⟩
  | 47 => ⟨S8x1, .f32⟩
  | 48 => ⟨S8x1, .f32⟩
  | 49 => ⟨S8x128, .f32⟩
  | 50 => ⟨S8x128, .f32⟩
  | 51 => ⟨S1024x6x2430, .f32⟩
  | 52 => ⟨S1024x5x5, .f32⟩
  | 53 => ⟨S_, .f32⟩
  | 54 => ⟨S5x5, .f32⟩
  | 55 => ⟨S5x5, .i32⟩
  | 56 => ⟨S5x5, .i32⟩
  | 57 => ⟨S5x5, .i1⟩
  | 58 => ⟨S_, .f32⟩
  | 59 => ⟨S5x5, .f32⟩
  | 60 => ⟨S5x5, .f32⟩
  | 61 => ⟨S_, .f32⟩
  | 62 => ⟨S5, .f32⟩
  | 63 => ⟨S5, .f32⟩
  | 64 => ⟨S_, .f32⟩
  | 65 => ⟨S5, .f32⟩
  | 66 => ⟨S5, .f32⟩
  | 67 => ⟨S_, .f32⟩
  | 68 => ⟨S5, .f32⟩
  | 69 => ⟨S5, .f32⟩
  | 70 => ⟨S5x1, .f32⟩
  | 71 => ⟨S1x5, .f32⟩
  | 72 => ⟨S5x5, .f32⟩
  | 73 => ⟨S5x5, .f32⟩
  | 74 => ⟨S5x5, .f32⟩
  | 75 => ⟨S5x5, .i32⟩
  | 76 => ⟨S5x5, .i32⟩
  | 77 => ⟨S_, .i32⟩
  | 78 => ⟨S5x5, .i32⟩
  | 79 => ⟨S5x5, .i32⟩
  | 80 => ⟨S5x5, .i1⟩
  | 81 => ⟨S5x5, .f32⟩
  | 82 => ⟨S1x5x5, .f32⟩
  | 83 => ⟨S1024x5x5, .f32⟩
  | 84 => ⟨S1024x5x5, .f32⟩
  | 85 => ⟨S_, .f32⟩
  | 86 => ⟨S1024x5x5, .f32⟩
  | 87 => ⟨S1024x5x5, .f32⟩
  | 88 => ⟨S1x5x5, .f32⟩
  | 89 => ⟨S_, .f32⟩
  | 90 => ⟨S1x5x5, .f32⟩
  | 91 => ⟨S1x5x5, .f32⟩
  | 92 => ⟨S1024x5x5, .f32⟩
  | 93 => ⟨S1024x5x5, .f32⟩
  | 94 => ⟨S_, .f32⟩
  | 95 => ⟨S5x5, .f32⟩
  | 96 => ⟨S5x5, .i32⟩
  | 97 => ⟨S_, .i32⟩
  | 98 => ⟨S5x5, .i32⟩
  | 99 => ⟨S5x5, .i32⟩
  | 100 => ⟨S5x5, .i32⟩
  | 101 => ⟨S5x5, .i1⟩
  | 102 => ⟨S_, .f32⟩
  | 103 => ⟨S5x5, .f32⟩
  | 104 => ⟨S5x5, .f32⟩
  | 105 => ⟨S_, .f32⟩
  | 106 => ⟨S_, .f32⟩
  | 107 => ⟨S1x5x5, .f32⟩
  | 108 => ⟨S1024x5x5, .f32⟩
  | 109 => ⟨S1024x5x5, .f32⟩
  | 110 => ⟨S1024x5x5, .f32⟩
  | 111 => ⟨S_, .f32⟩
  | 112 => ⟨S1024, .f32⟩
  | 113 => ⟨S1024, .f32⟩
  | 114 => ⟨S1024, .f32⟩
  | 115 => ⟨S_, .f32⟩
  | 116 => ⟨S1024, .f32⟩
  | 117 => ⟨S1024, .f32⟩
  | 118 => ⟨S_, .f32⟩
  | 119 => ⟨S_, .f32⟩
  | 120 => ⟨S_, .f32⟩
  | 121 => ⟨S_, .f32⟩
  | 122 => ⟨S1024x10x10, .f32⟩
  | 123 => ⟨S_, .f32⟩
  | 124 => ⟨S10x10, .f32⟩
  | 125 => ⟨S10x10, .i32⟩
  | 126 => ⟨S10x10, .i32⟩
  | 127 => ⟨S10x10, .i1⟩
  | _ => ⟨S1024x6x30x9x9, .f32⟩

abbrev hbmTy0_1 (i : Nat) : BufTy := match i % 128 with
  | 0 => ⟨S_, .f32⟩
  | 1 => ⟨S10x10, .f32⟩
  | 2 => ⟨S10x10, .f32⟩
  | 3 => ⟨S_, .f32⟩
  | 4 => ⟨S10, .f32⟩
  | 5 => ⟨S10, .f32⟩
  | 6 => ⟨S_, .f32⟩
  | 7 => ⟨S10, .f32⟩
  | 8 => ⟨S10, .f32⟩
  | 9 => ⟨S_, .f32⟩
  | 10 => ⟨S10, .f32⟩
  | 11 => ⟨S10, .f32⟩
  | 12 => ⟨S10x1, .f32⟩
  | 13 => ⟨S1x10, .f32⟩
  | 14 => ⟨S10x10, .f32⟩
  | 15 => ⟨S10x10, .f32⟩
  | 16 => ⟨S10x10, .f32⟩
  | 17 => ⟨S10x10, .i32⟩
  | 18 => ⟨S10x10, .i32⟩
  | 19 => ⟨S_, .i32⟩
  | 20 => ⟨S10x10, .i32⟩
  | 21 => ⟨S10x10, .i32⟩
  | 22 => ⟨S10x10, .i1⟩
  | 23 => ⟨S10x10, .f32⟩
  | 24 => ⟨S1x10x10, .f32⟩
  | 25 => ⟨S1024x10x10, .f32⟩
  | 26 => ⟨S1024x10x10, .f32⟩
  | 27 => ⟨S_, .f32⟩
  | 28 => ⟨S1024x10x10, .f32⟩
  | 29 => ⟨S1024x10x10, .f32⟩
  | 30 => ⟨S1x10x10, .f32⟩
  | 31 => ⟨S_, .f32⟩
  | 32 => ⟨S1x10x10, .f32⟩
  | 33 => ⟨S1x10x10, .f32⟩
  | 34 => ⟨S1024x10x10, .f32⟩
  | 35 => ⟨S1024x10x10, .f32⟩
  | 36 => ⟨S_, .f32⟩
  | 37 => ⟨S10x10, .f32⟩
  | 38 => ⟨S10x10, .i32⟩
  | 39 => ⟨S_, .i32⟩
  | 40 => ⟨S10x10, .i32⟩
  | 41 => ⟨S10x10, .i32⟩
  | 42 => ⟨S10x10, .i32⟩
  | 43 => ⟨S10x10, .i1⟩
  | 44 => ⟨S_, .f32⟩
  | 45 => ⟨S10x10, .f32⟩
  | 46 => ⟨S10x10, .f32⟩
  | 47 => ⟨S_, .f32⟩
  | 48 => ⟨S_, .f32⟩
  | 49 => ⟨S1x10x10, .f32⟩
  | 50 => ⟨S1024x10x10, .f32⟩
  | 51 => ⟨S1024x10x10, .f32⟩
  | 52 => ⟨S1024x10x10, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | 60 => ⟨S_, .f32⟩
  | 61 => ⟨S_, .f32⟩
  | 62 => ⟨S_, .f32⟩
  | 63 => ⟨S_, .f32⟩
  | 64 => ⟨S1024x10x2430, .f32⟩
  | 65 => ⟨S1024x10x30x9x9, .f32⟩
  | 66 => ⟨S_, .i32⟩
  | 67 => ⟨S_, .f32⟩
  | 68 => ⟨S100352x128, .f32⟩
  | 69 => ⟨S_, .i32⟩
  | 70 => ⟨S_, .f32⟩
  | 71 => ⟨S100352x128, .f32⟩
  | 72 => ⟨S_, .i32⟩
  | 73 => ⟨S_, .i32⟩
  | 74 => ⟨S100352, .i32⟩
  | 75 => ⟨S_, .i32⟩
  | 76 => ⟨S_, .i32⟩
  | 77 => ⟨S100352, .i32⟩
  | 78 => ⟨S1x1, .f32⟩
  | 79 => ⟨S_, .f32⟩
  | 80 => ⟨S_, .f32⟩
  | 81 => ⟨S_, .f32⟩
  | _ => ⟨S1024x6x30x9x9, .f32⟩

abbrev hbmTy (i : Nat) : BufTy := match i / 128 with
  | 0 => hbmTy0_0 i
  | 1 => hbmTy0_1 i
  | _ => ⟨S1024x6x30x9x9, .f32⟩

abbrev bufTy : (tb : Table) → Fin (tcTables nBuf tb) → BufTy
  | .hbm, ⟨i, _⟩ => hbmTy i
  | .local _ .vmem, ⟨0, _⟩ => ⟨S64x6x2430, .f32⟩
  | .local _ .vmem, ⟨1, _⟩ => ⟨S64x6x2430, .f32⟩
  | .local _ .vmem, ⟨2, _⟩ => ⟨S5x6, .f32⟩
  | .local _ .vmem, ⟨3, _⟩ => ⟨S64x5x5, .f32⟩
  | .local _ .vmem, ⟨4, _⟩ => ⟨S64x5x5, .f32⟩
  | .local _ .vmem, ⟨5, _⟩ => ⟨S16x6x2430, .f32⟩
  | .local _ .vmem, ⟨6, _⟩ => ⟨S16x6x2430, .f32⟩
  | .local _ .vmem, ⟨7, _⟩ => ⟨S5x6, .f32⟩
  | .local _ .vmem, ⟨8, _⟩ => ⟨S5, .f32⟩
  | .local _ .vmem, ⟨9, _⟩ => ⟨S16x10x10, .f32⟩
  | .local _ .vmem, ⟨10, _⟩ => ⟨S16x10x10, .f32⟩
  | .local _ .vmem, ⟨11, _⟩ => ⟨S32x6x2430, .f32⟩
  | .local _ .vmem, ⟨12, _⟩ => ⟨S32x6x2430, .f32⟩
  | .local _ .vmem, ⟨13, _⟩ => ⟨S5x6, .f32⟩
  | .local _ .vmem, ⟨14, _⟩ => ⟨S5, .f32⟩
  | .local _ .vmem, ⟨15, _⟩ => ⟨S10, .f32⟩
  | .local _ .vmem, ⟨16, _⟩ => ⟨S32x10x2430, .f32⟩
  | .local _ .vmem, ⟨17, _⟩ => ⟨S32x10x2430, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024, .i32⟩
  | .local _ .vmem, ⟨23, _⟩ => ⟨S1024, .i32⟩
  | .local _ .vmem, ⟨24, _⟩ => ⟨S1024, .i32⟩
  | .local _ .vmem, ⟨25, _⟩ => ⟨S1024, .i32⟩
  | .local _ .vmem, ⟨26, _⟩ => ⟨S8x128, .f32⟩
  | .local _ .vmem, ⟨27, _⟩ => ⟨S1x1, .f32⟩
  | _, _ => ⟨S1024x6x30x9x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_call2_v0 : Ref sig .tc := ⟨.hbm, 96, rfl⟩
abbrev main_call2_c : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_cst : Ref sig .tc := ⟨.hbm, 102, rfl⟩
abbrev main_call2_v5 : Ref sig .tc := ⟨.hbm, 103, rfl⟩
abbrev main_v64 : Ref sig .tc := ⟨.hbm, 104, rfl⟩
abbrev main_cst_14 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_15 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_16 : Ref sig .tc := ⟨.hbm, 115, rfl⟩
abbrev main_v73 : Ref sig .tc := ⟨.hbm, 116, rfl⟩
abbrev main_v74 : Ref sig .tc := ⟨.hbm, 117, rfl⟩
abbrev main_cst_17 : Ref sig .tc := ⟨.hbm, 118, rfl⟩
abbrev main_v75 : Ref sig .tc := ⟨.hbm, 119, rfl⟩
abbrev main_cst_18 : Ref sig .tc := ⟨.hbm, 120, rfl⟩
abbrev main_v76 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_20 : Ref sig .tc := ⟨.hbm, 128, rfl⟩
abbrev main_v82 : Ref sig .tc := ⟨.hbm, 129, rfl⟩
abbrev main_v83 : Ref sig .tc := ⟨.hbm, 130, rfl⟩
abbrev main_cst_21 : Ref sig .tc := ⟨.hbm, 131, rfl⟩
abbrev main_v84 : Ref sig .tc := ⟨.hbm, 132, rfl⟩
abbrev main_v85 : Ref sig .tc := ⟨.hbm, 133, rfl⟩
abbrev main_cst_22 : Ref sig .tc := ⟨.hbm, 134, rfl⟩
abbrev main_v86 : Ref sig .tc := ⟨.hbm, 135, rfl⟩
abbrev main_v87 : Ref sig .tc := ⟨.hbm, 136, rfl⟩
abbrev main_cst_23 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_c_24 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_25 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_26 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_27 : Ref sig .tc := ⟨.hbm, 164, rfl⟩
abbrev main_v111 : Ref sig .tc := ⟨.hbm, 165, rfl⟩
abbrev main_call3_v0 : Ref sig .tc := ⟨.hbm, 166, rfl⟩
abbrev main_call3_c : Ref sig .tc := ⟨.hbm, 167, rfl⟩
abbrev main_call3_v1 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_cst : Ref sig .tc := ⟨.hbm, 172, rfl⟩
abbrev main_call3_v5 : Ref sig .tc := ⟨.hbm, 173, rfl⟩
abbrev main_v112 : Ref sig .tc := ⟨.hbm, 174, rfl⟩
abbrev main_cst_28 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_29 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_30 : Ref sig .tc := ⟨.hbm, 185, rfl⟩
abbrev main_v121 : Ref sig .tc := ⟨.hbm, 186, rfl⟩
abbrev main_v122 : Ref sig .tc := ⟨.hbm, 187, rfl⟩
abbrev main_cst_31 : Ref sig .tc := ⟨.hbm, 188, rfl⟩
abbrev main_v123 : Ref sig .tc := ⟨.hbm, 189, rfl⟩
abbrev main_cst_32 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_c_33 : Ref sig .tc := ⟨.hbm, 194, rfl⟩
abbrev main_call4_v0 : Ref sig .tc := ⟨.hbm, 195, rfl⟩
abbrev main_v127 : Ref sig .tc := ⟨.hbm, 196, rfl⟩
abbrev main_c_34 : Ref sig .tc := ⟨.hbm, 197, rfl⟩
abbrev main_call5_v0 : Ref sig .tc := ⟨.hbm, 198, rfl⟩
abbrev main_v128 : Ref sig .tc := ⟨.hbm, 199, rfl⟩
abbrev main_c_35 : Ref sig .tc := ⟨.hbm, 200, rfl⟩
abbrev main_call6_v0 : Ref sig .tc := ⟨.hbm, 201, rfl⟩
abbrev main_v129 : Ref sig .tc := ⟨.hbm, 202, rfl⟩
abbrev main_c_36 : Ref sig .tc := ⟨.hbm, 203, rfl⟩
abbrev main_call7_v0 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x6x2430 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x5x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x6x2430 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x10x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S32x6x2430 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S5x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S32x10x2430 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 1 → Nat :=
  let arg0 : BitVec 32 := BitVec.ofNat 32 (i 0).val
  let c0_i32 : BitVec 32 := 0#32
  ![arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  bcast_S_S5x6 : S_.BroadcastsInDim S5x6 (![] : Fin 0 → Fin S5x6.rank)
  reducesTo_S5x6_S5_d1 : S5x6.ReducesTo [1] S5
  h_S_ : 0 < S_.numel
  bcast_S5_S5x1_0 : S5.BroadcastsInDim S5x1 (![0] : Fin 1 → Fin S5x1.rank)
  bcast_S_S5x1 : S_.BroadcastsInDim S5x1 (![] : Fin 0 → Fin S5x1.rank)
  bcast_S5x1_S5x6_0_1 : S5x1.BroadcastsInDim S5x6 (![0, 1] : Fin 2 → Fin S5x6.rank)
  reducesTo_S8x128_S8_d1 : S8x128.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  shapeCasts_S1024x6x30x9x9_S1024x6x2430 : S1024x6x30x9x9.ShapeCasts S1024x6x2430
  inb_S64x6x2430_S64x6x2430_0_0_0 : ∀ a, (![0, 0, 0] : Fin 3 → Nat) a + S64x6x2430.size a ≤ S64x6x2430.size a
  h_S64x6x2430 : 0 < S64x6x2430.numel
  shapeCasts_S64x6x2430_S64x6x2430 : S64x6x2430.ShapeCasts S64x6x2430
  inb_S5x6_S5x6_0_0 : ∀ a, (![0, 0] : Fin 2 → Nat) a + S5x6.size a ≤ S5x6.size a
  h_S5x6 : 0 < S5x6.numel
  shapeCasts_S5x6_S5x6 : S5x6.ShapeCasts S5x6
  slices_S64x6x2430_o0_0_0_S64x1x2430 : S64x6x2430.Slices ![0, 0, 0] S64x1x2430
  shapeCasts_S64x1x2430_S64x2430 : S64x1x2430.ShapeCasts S64x2430
  slices_S5x6_o0_0_S5x1 : S5x6.Slices ![0, 0] S5x1
  shapeCasts_S5x1_S5 : S5x1.ShapeCasts S5
  shapeCasts_S64x2430_S64x1x2430 : S64x2430.ShapeCasts S64x1x2430
  shapeCasts_S5_S1x5x1 : S5.ShapeCasts S1x5x1
  broadcasts_S64x1x2430_S64x5x2430 : S64x1x2430.Broadcasts S64x5x2430
  broadcasts_S1x5x1_S64x5x2430 : S1x5x1.Broadcasts S64x5x2430
  slices_S64x6x2430_o0_1_0_S64x1x2430 : S64x6x2430.Slices ![0, 1, 0] S64x1x2430
  slices_S5x6_o0_1_S5x1 : S5x6.Slices ![0, 1] S5x1
  slices_S64x6x2430_o0_2_0_S64x1x2430 : S64x6x2430.Slices ![0, 2, 0] S64x1x2430
  slices_S5x6_o0_2_S5x1 : S5x6.Slices ![0, 2] S5x1
  slices_S64x6x2430_o0_3_0_S64x1x2430 : S64x6x2430.Slices ![0, 3, 0] S64x1x2430
  slices_S5x6_o0_3_S5x1 : S5x6.Slices ![0, 3] S5x1
  slices_S64x6x2430_o0_4_0_S64x1x2430 : S64x6x2430.Slices ![0, 4, 0] S64x1x2430
  slices_S5x6_o0_4_S5x1 : S5x6.Slices ![0, 4] S5x1
  slices_S64x6x2430_o0_5_0_S64x1x2430 : S64x6x2430.Slices ![0, 5, 0] S64x1x2430
  slices_S5x6_o0_5_S5x1 : S5x6.Slices ![0, 5] S5x1
  slices_S64x5x2430_o0_0_0_S64x1x2430 : S64x5x2430.Slices ![0, 0, 0] S64x1x2430
  reduces_S64x2430_S64 : S64x2430.Reduces [1] S64
  slices_S64x5x2430_o0_1_0_S64x1x2430 : S64x5x2430.Slices ![0, 1, 0] S64x1x2430
  slices_S64x5x2430_o0_2_0_S64x1x2430 : S64x5x2430.Slices ![0, 2, 0] S64x1x2430
  slices_S64x5x2430_o0_3_0_S64x1x2430 : S64x5x2430.Slices ![0, 3, 0] S64x1x2430
  slices_S64x5x2430_o0_4_0_S64x1x2430 : S64x5x2430.Slices ![0, 4, 0] S64x1x2430
  shapeCasts_S64_S64x1 : S64.ShapeCasts S64x1
  concatenates_S64x1_S64x1_S64x1_S64x1_S64x1_S64x5_d1 : Shape.Concatenates [S64x1, S64x1, S64x1, S64x1, S64x1] S64x5 1
  shapeCasts_S64x5_S64x1x5 : S64x5.ShapeCasts S64x1x5
  concatenates_S64x1x5_S64x1x5_S64x1x5_S64x1x5_S64x1x5_S64x5x5_d1 : Shape.Concatenates [S64x1x5, S64x1x5, S64x1x5, S64x1x5, S64x1x5] S64x5x5 1
  inb_S64x5x5_S64x5x5_0_0_0 : ∀ a, (![0, 0, 0] : Fin 3 → Nat) a + S64x5x5.size a ≤ S64x5x5.size a
  h_S64x5x5 : 0 < S64x5x5.numel
  reducesTo_S1024x5x5_S5x5_d0 : S1024x5x5.ReducesTo [0] S5x5
  bcast_S_S5x5 : S_.BroadcastsInDim S5x5 (![] : Fin 0 → Fin S5x5.rank)
  reducesTo_S5x5_S5_d0 : S5x5.ReducesTo [0] S5
  bcast_S_S5 : S_.BroadcastsInDim S5 (![] : Fin 0 → Fin S5.rank)
  bcast_S5_S1x5_1 : S5.BroadcastsInDim S1x5 (![1] : Fin 1 → Fin S1x5.rank)
  bcast_S5x1_S5x5_0_1 : S5x1.BroadcastsInDim S5x5 (![0, 1] : Fin 2 → Fin S5x5.rank)
  bcast_S1x5_S5x5_0_1 : S1x5.BroadcastsInDim S5x5 (![0, 1] : Fin 2 → Fin S5x5.rank)
  bcast_S5x5_S1x5x5_1_2 : S5x5.BroadcastsInDim S1x5x5 (![1, 2] : Fin 2 → Fin S1x5x5.rank)
  bcast_S1x5x5_S1024x5x5_0_1_2 : S1x5x5.BroadcastsInDim S1024x5x5 (![0, 1, 2] : Fin 3 → Fin S1024x5x5.rank)
  bcast_S_S1024x5x5 : S_.BroadcastsInDim S1024x5x5 (![] : Fin 0 → Fin S1024x5x5.rank)
  bcast_S_S1x5x5 : S_.BroadcastsInDim S1x5x5 (![] : Fin 0 → Fin S1x5x5.rank)
  reducesTo_S5x5_S_d0_1 : S5x5.ReducesTo [0, 1] S_
  reducesTo_S1024x5x5_S1024_d1_2 : S1024x5x5.ReducesTo [1, 2] S1024
  bcast_S_S1024 : S_.BroadcastsInDim S1024 (![] : Fin 0 → Fin S1024.rank)
  reducesTo_S1024_S_d0 : S1024.ReducesTo [0] S_
  inb_S16x6x2430_S16x6x2430_0_0_0 : ∀ a, (![0, 0, 0] : Fin 3 → Nat) a + S16x6x2430.size a ≤ S16x6x2430.size a
  h_S16x6x2430 : 0 < S16x6x2430.numel
  shapeCasts_S16x6x2430_S16x6x2430 : S16x6x2430.ShapeCasts S16x6x2430
  inb_S5_S5_0 : ∀ a, (![0] : Fin 1 → Nat) a + S5.size a ≤ S5.size a
  h_S5 : 0 < S5.numel
  shapeCasts_S5_S5 : S5.ShapeCasts S5
  slices_S16x6x2430_o0_0_0_S16x1x2430 : S16x6x2430.Slices ![0, 0, 0] S16x1x2430
  shapeCasts_S16x1x2430_S16x2430 : S16x1x2430.ShapeCasts S16x2430
  shapeCasts_S16x2430_S16x1x2430 : S16x2430.ShapeCasts S16x1x2430
  broadcasts_S16x1x2430_S16x5x2430 : S16x1x2430.Broadcasts S16x5x2430
  broadcasts_S1x5x1_S16x5x2430 : S1x5x1.Broadcasts S16x5x2430
  slices_S16x6x2430_o0_1_0_S16x1x2430 : S16x6x2430.Slices ![0, 1, 0] S16x1x2430
  slices_S16x6x2430_o0_2_0_S16x1x2430 : S16x6x2430.Slices ![0, 2, 0] S16x1x2430
  slices_S16x6x2430_o0_3_0_S16x1x2430 : S16x6x2430.Slices ![0, 3, 0] S16x1x2430
  slices_S16x6x2430_o0_4_0_S16x1x2430 : S16x6x2430.Slices ![0, 4, 0] S16x1x2430
  slices_S16x6x2430_o0_5_0_S16x1x2430 : S16x6x2430.Slices ![0, 5, 0] S16x1x2430
  slices_S16x5x2430_o0_0_0_S16x1x2430 : S16x5x2430.Slices ![0, 0, 0] S16x1x2430
  slices_S16x5x2430_o0_1_0_S16x1x2430 : S16x5x2430.Slices ![0, 1, 0] S16x1x2430
  slices_S16x5x2430_o0_2_0_S16x1x2430 : S16x5x2430.Slices ![0, 2, 0] S16x1x2430
  slices_S16x5x2430_o0_3_0_S16x1x2430 : S16x5x2430.Slices ![0, 3, 0] S16x1x2430
  slices_S16x5x2430_o0_4_0_S16x1x2430 : S16x5x2430.Slices ![0, 4, 0] S16x1x2430
  concatenates_S16x1x2430_S16x1x2430_S16x1x2430_S16x1x2430_S16x1x2430_S16x1x2430_S16x1x2430_S16x1x2430_S16x1x2430_S16x1x2430_S16x10x2430_d1 : Shape.Concatenates [S16x1x2430, S16x1x2430, S16x1x2430, S16x1x2430, S16x1x2430, S16x1x2430, S16x1x2430, S16x1x2430, S16x1x2430, S16x1x2430] S16x10x2430 1
  slices_S16x10x2430_o0_0_0_S16x1x2430 : S16x10x2430.Slices ![0, 0, 0] S16x1x2430
  reduces_S16x2430_S16 : S16x2430.Reduces [1] S16
  slices_S16x10x2430_o0_1_0_S16x1x2430 : S16x10x2430.Slices ![0, 1, 0] S16x1x2430
  slices_S16x10x2430_o0_2_0_S16x1x2430 : S16x10x2430.Slices ![0, 2, 0] S16x1x2430
  slices_S16x10x2430_o0_3_0_S16x1x2430 : S16x10x2430.Slices ![0, 3, 0] S16x1x2430
  slices_S16x10x2430_o0_4_0_S16x1x2430 : S16x10x2430.Slices ![0, 4, 0] S16x1x2430
  slices_S16x10x2430_o0_5_0_S16x1x2430 : S16x10x2430.Slices ![0, 5, 0] S16x1x2430
  slices_S16x10x2430_o0_6_0_S16x1x2430 : S16x10x2430.Slices ![0, 6, 0] S16x1x2430
  slices_S16x10x2430_o0_7_0_S16x1x2430 : S16x10x2430.Slices ![0, 7, 0] S16x1x2430
  slices_S16x10x2430_o0_8_0_S16x1x2430 : S16x10x2430.Slices ![0, 8, 0] S16x1x2430
  slices_S16x10x2430_o0_9_0_S16x1x2430 : S16x10x2430.Slices ![0, 9, 0] S16x1x2430
  shapeCasts_S16_S16x1 : S16.ShapeCasts S16x1
  concatenates_S16x1_S16x1_S16x1_S16x1_S16x1_S16x1_S16x1_S16x1_S16x1_S16x1_S16x10_d1 : Shape.Concatenates [S16x1, S16x1, S16x1, S16x1, S16x1, S16x1, S16x1, S16x1, S16x1, S16x1] S16x10 1
  shapeCasts_S16x10_S16x1x10 : S16x10.ShapeCasts S16x1x10
  concatenates_S16x1x10_S16x1x10_S16x1x10_S16x1x10_S16x1x10_S16x1x10_S16x1x10_S16x1x10_S16x1x10_S16x1x10_S16x10x10_d1 : Shape.Concatenates [S16x1x10, S16x1x10, S16x1x10, S16x1x10, S16x1x10, S16x1x10, S16x1x10, S16x1x10, S16x1x10, S16x1x10] S16x10x10 1
  inb_S16x10x10_S16x10x10_0_0_0 : ∀ a, (![0, 0, 0] : Fin 3 → Nat) a + S16x10x10.size a ≤ S16x10x10.size a
  h_S16x10x10 : 0 < S16x10x10.numel
  reducesTo_S1024x10x10_S10x10_d0 : S1024x10x10.ReducesTo [0] S10x10
  bcast_S_S10x10 : S_.BroadcastsInDim S10x10 (![] : Fin 0 → Fin S10x10.rank)
  reducesTo_S10x10_S10_d0 : S10x10.ReducesTo [0] S10
  bcast_S_S10 : S_.BroadcastsInDim S10 (![] : Fin 0 → Fin S10.rank)
  bcast_S10_S10x1_0 : S10.BroadcastsInDim S10x1 (![0] : Fin 1 → Fin S10x1.rank)
  bcast_S10_S1x10_1 : S10.BroadcastsInDim S1x10 (![1] : Fin 1 → Fin S1x10.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  bcast_S10x10_S1x10x10_1_2 : S10x10.BroadcastsInDim S1x10x10 (![1, 2] : Fin 2 → Fin S1x10x10.rank)
  bcast_S1x10x10_S1024x10x10_0_1_2 : S1x10x10.BroadcastsInDim S1024x10x10 (![0, 1, 2] : Fin 3 → Fin S1024x10x10.rank)
  bcast_S_S1024x10x10 : S_.BroadcastsInDim S1024x10x10 (![] : Fin 0 → Fin S1024x10x10.rank)
  bcast_S_S1x10x10 : S_.BroadcastsInDim S1x10x10 (![] : Fin 0 → Fin S1x10x10.rank)
  reducesTo_S10x10_S_d0_1 : S10x10.ReducesTo [0, 1] S_
  reducesTo_S1024x10x10_S1024_d1_2 : S1024x10x10.ReducesTo [1, 2] S1024
  inb_S32x6x2430_S32x6x2430_0_0_0 : ∀ a, (![0, 0, 0] : Fin 3 → Nat) a + S32x6x2430.size a ≤ S32x6x2430.size a
  h_S32x6x2430 : 0 < S32x6x2430.numel
  shapeCasts_S32x6x2430_S32x6x2430 : S32x6x2430.ShapeCasts S32x6x2430
  inb_S10_S10_0 : ∀ a, (![0] : Fin 1 → Nat) a + S10.size a ≤ S10.size a
  h_S10 : 0 < S10.numel
  shapeCasts_S10_S10 : S10.ShapeCasts S10
  slices_S32x6x2430_o0_0_0_S32x1x2430 : S32x6x2430.Slices ![0, 0, 0] S32x1x2430
  shapeCasts_S32x1x2430_S32x2430 : S32x1x2430.ShapeCasts S32x2430
  shapeCasts_S32x2430_S32x1x2430 : S32x2430.ShapeCasts S32x1x2430
  broadcasts_S32x1x2430_S32x5x2430 : S32x1x2430.Broadcasts S32x5x2430
  broadcasts_S1x5x1_S32x5x2430 : S1x5x1.Broadcasts S32x5x2430
  slices_S32x6x2430_o0_1_0_S32x1x2430 : S32x6x2430.Slices ![0, 1, 0] S32x1x2430
  slices_S32x6x2430_o0_2_0_S32x1x2430 : S32x6x2430.Slices ![0, 2, 0] S32x1x2430
  slices_S32x6x2430_o0_3_0_S32x1x2430 : S32x6x2430.Slices ![0, 3, 0] S32x1x2430
  slices_S32x6x2430_o0_4_0_S32x1x2430 : S32x6x2430.Slices ![0, 4, 0] S32x1x2430
  slices_S32x6x2430_o0_5_0_S32x1x2430 : S32x6x2430.Slices ![0, 5, 0] S32x1x2430
  slices_S32x5x2430_o0_0_0_S32x1x2430 : S32x5x2430.Slices ![0, 0, 0] S32x1x2430
  slices_S32x5x2430_o0_1_0_S32x1x2430 : S32x5x2430.Slices ![0, 1, 0] S32x1x2430
  slices_S32x5x2430_o0_2_0_S32x1x2430 : S32x5x2430.Slices ![0, 2, 0] S32x1x2430
  slices_S32x5x2430_o0_3_0_S32x1x2430 : S32x5x2430.Slices ![0, 3, 0] S32x1x2430
  slices_S32x5x2430_o0_4_0_S32x1x2430 : S32x5x2430.Slices ![0, 4, 0] S32x1x2430
  concatenates_S32x1x2430_S32x1x2430_S32x1x2430_S32x1x2430_S32x1x2430_S32x1x2430_S32x1x2430_S32x1x2430_S32x1x2430_S32x1x2430_S32x10x2430_d1 : Shape.Concatenates [S32x1x2430, S32x1x2430, S32x1x2430, S32x1x2430, S32x1x2430, S32x1x2430, S32x1x2430, S32x1x2430, S32x1x2430, S32x1x2430] S32x10x2430 1
  shapeCasts_S10_S1x10x1 : S10.ShapeCasts S1x10x1
  broadcasts_S1x10x1_S32x10x2430 : S1x10x1.Broadcasts S32x10x2430
  inb_S32x10x2430_S32x10x2430_0_0_0 : ∀ a, (![0, 0, 0] : Fin 3 → Nat) a + S32x10x2430.size a ≤ S32x10x2430.size a
  h_S32x10x2430 : 0 < S32x10x2430.numel
  shapeCasts_S1024x10x2430_S1024x10x30x9x9 : S1024x10x2430.ShapeCasts S1024x10x30x9x9
  pads_S100000x128_S100352x128_03520_000 : S100000x128.Pads (![0, 0] : Fin 2 → Nat) ![352, 0] ![0, 0] S100352x128
  pads_S100000_S100352_03520 : S100000.Pads (![0] : Fin 1 → Nat) ![352] ![0] S100352
  inb_S1x1_S1x1_0_0 : ∀ a, (![0, 0] : Fin 2 → Nat) a + S1x1.size a ≤ S1x1.size a
  h_S1x1 : 0 < S1x1.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024_S1024_0 : ∀ a, (![0] : Fin 1 → Nat) a + S1024.size a ≤ S1024.size a
  h_S1024 : 0 < S1024.numel
  shapeCasts_S1024_S1024 : S1024.ShapeCasts S1024
  reduces_S1024x128_S1024 : S1024x128.Reduces [1] S1024
  shapeCasts_S1024_S1024x1 : S1024.ShapeCasts S1024x1
  broadcasts_S1024x1_S1024x128 : S1024x1.Broadcasts S1024x128
  natLt_1_32 : 1 < 32
  slices_S8x128_o0_0_S1x128 : S8x128.Slices ![0, 0] S1x128
  broadcasts_S1x128_S1024x128 : S1x128.Broadcasts S1024x128
  slices_S8x128_o1_0_S1x128 : S8x128.Slices ![1, 0] S1x128
  slices_S8x128_o2_0_S1x128 : S8x128.Slices ![2, 0] S1x128
  slices_S8x128_o3_0_S1x128 : S8x128.Slices ![3, 0] S1x128
  slices_S8x128_o4_0_S1x128 : S8x128.Slices ![4, 0] S1x128
  slices_S8x128_o5_0_S1x128 : S8x128.Slices ![5, 0] S1x128
  slices_S8x128_o6_0_S1x128 : S8x128.Slices ![6, 0] S1x128
  slices_S8x128_o7_0_S1x128 : S8x128.Slices ![7, 0] S1x128
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x6x2430.size a ≤ S1024x6x2430.size a
  hwx0_0 : ∀ i : grid0.Coords, EltTy.bits .f32 = 32 ∨ (Rect.block (s := S1024x6x2430) S64x6x2430.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x6.size a ≤ S5x6.size a
  hwx0_1 : ∀ i : grid0.Coords, EltTy.bits .f32 = 32 ∨ (Rect.block (s := S5x6) S5x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x5x5.size a ≤ S1024x5x5.size a
  hwx0_2 : ∀ i : grid0.Coords, EltTy.bits .f32 = 32 ∨ (Rect.block (s := S1024x5x5) S64x5x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x6x2430.size a ≤ S1024x6x2430.size a
  hwx1_0 : ∀ i : grid1.Coords, EltTy.bits .f32 = 32 ∨ (Rect.block (s := S1024x6x2430) S16x6x2430.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x6.size a ≤ S5x6.size a
  hwx1_1 : ∀ i : grid1.Coords, EltTy.bits .f32 = 32 ∨ (Rect.block (s := S5x6) S5x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5.size a ≤ S5.size a
  hwx1_2 : ∀ i : grid1.Coords, EltTy.bits .f32 = 32 ∨ (Rect.block (s := S5) S5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x10x10.size a ≤ S1024x10x10.size a
  hwx1_3 : ∀ i : grid1.Coords, EltTy.bits .f32 = 32 ∨ (Rect.block (s := S1024x10x10) S16x10x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x6x2430.size a ≤ S1024x6x2430.size a
  hwx2_0 : ∀ i : grid2.Coords, EltTy.bits .f32 = 32 ∨ (Rect.block (s := S1024x6x2430) S32x6x2430.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x6.size a ≤ S5x6.size a
  hwx2_1 : ∀ i : grid2.Coords, EltTy.bits .f32 = 32 ∨ (Rect.block (s := S5x6) S5x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5.size a ≤ S5.size a
  hwx2_2 : ∀ i : grid2.Coords, EltTy.bits .f32 = 32 ∨ (Rect.block (s := S5) S5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10.size a ≤ S10.size a
  hwx2_3 : ∀ i : grid2.Coords, EltTy.bits .f32 = 32 ∨ (Rect.block (s := S10) S10.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S32x10x2430.size a ≤ S1024x10x2430.size a
  hwx2_4 : ∀ i : grid2.Coords, EltTy.bits .f32 = 32 ∨ (Rect.block (s := S1024x10x2430) S32x10x2430.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S100352x128.size a
  hwx3_0 : ∀ i : grid3.Coords, EltTy.bits .f32 = 32 ∨ (Rect.block (s := S100352x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S100352x128.size a
  hwx3_1 : ∀ i : grid3.Coords, EltTy.bits .f32 = 32 ∨ (Rect.block (s := S100352x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S100352.size a
  hwx3_2 : ∀ i : grid3.Coords, EltTy.bits .i32 = 32 ∨ (Rect.block (s := S100352) S1024.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024.size a ≤ S100352.size a
  hwx3_3 : ∀ i : grid3.Coords, EltTy.bits .i32 = 32 ∨ (Rect.block (s := S100352) S1024.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x128.size a ≤ S8x128.size a
  hwx3_4 : ∀ i : grid3.Coords, EltTy.bits .f32 = 32 ∨ (Rect.block (s := S8x128) S8x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)

variable [Facts₀]

abbrev win0_0 : Pipeline.Window sig grid0 :=
  Pipeline.Window.ofSpec (Memref.whole main_v28) S64x6x2430.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S64x5x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S16x6x2430.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v77) S16x10x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S32x6x2430.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v125) S32x10x2430.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v127) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v128) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v129) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v130) S1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v27) S8x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v131) S1x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1024x6x30x9x9 : Shape := ⟨5, ![1024, 6, 30, 9, 9]⟩
abbrev S100000x128 : Shape := ⟨2, ![100000, 128]⟩
abbrev S5x6 : Shape := ⟨2, ![5, 6]⟩
abbrev S8x128 : Shape := ⟨2, ![8, 128]⟩
abbrev S100000 : Shape := ⟨1, ![100000]⟩
abbrev S10 : Shape := ⟨1, ![10]⟩
abbrev S_ : Shape := ⟨0, ![]⟩
abbrev S5 : Shape := ⟨1, ![5]⟩
abbrev S5x1 : Shape := ⟨2, ![5, 1]⟩
abbrev S1024x6x2430 : Shape := ⟨3, ![1024, 6, 2430]⟩
abbrev S1024x2430x6 : Shape := ⟨3, ![1024, 2430, 6]⟩
abbrev S2488320x6 : Shape := ⟨2, ![2488320, 6]⟩
abbrev S6x5 : Shape := ⟨2, ![6, 5]⟩
abbrev S2488320x5 : Shape := ⟨2, ![2488320, 5]⟩
abbrev S1x5 : Shape := ⟨2, ![1, 5]⟩
abbrev S1024x2430x5 : Shape := ⟨3, ![1024, 2430, 5]⟩
abbrev S1024x5x2430 : Shape := ⟨3, ![1024, 5, 2430]⟩
abbrev S1024x5x5 : Shape := ⟨3, ![1024, 5, 5]⟩
abbrev S5x5 : Shape := ⟨2, ![5, 5]⟩
abbrev S1x5x5 : Shape := ⟨3, ![1, 5, 5]⟩
abbrev S1024 : Shape := ⟨1, ![1024]⟩
abbrev S10x1 : Shape := ⟨2, ![10, 1]⟩
abbrev S1024x10x2430 : Shape := ⟨3, ![1024, 10, 2430]⟩
abbrev S1024x2430x10 : Shape := ⟨3, ![1024, 2430, 10]⟩
abbrev S2488320x10 : Shape := ⟨2, ![2488320, 10]⟩
abbrev S1x10 : Shape := ⟨2, ![1, 10]⟩
abbrev S1024x10x10 : Shape := ⟨3, ![1024, 10, 10]⟩
abbrev S10x10 : Shape := ⟨2, ![10, 10]⟩
abbrev S1x10x10 : Shape := ⟨3, ![1, 10, 10]⟩
abbrev S1024x10x30x9x9 : Shape := ⟨5, ![1024, 10, 30, 9, 9]⟩
abbrev S8 : Shape := ⟨1, ![8]⟩
abbrev S8x1 : Shape := ⟨2, ![8, 1]⟩
abbrev S100000x1 : Shape := ⟨2, ![100000, 1]⟩

abbrev nBuf : Space → Nat
  | .hbm => 269
  | .vmem => 0
  | .smem => 0
  | _ => 0

abbrev hbmTy0_0 (i : Nat) : BufTy := match i % 128 with
  | 0 => ⟨S1024x6x30x9x9, .f32⟩
  | 1 => ⟨S100000x128, .f32⟩
  | 2 => ⟨S100000x128, .f32⟩
  | 3 => ⟨S5x6, .f32⟩
  | 4 => ⟨S5x6, .f32⟩
  | 5 => ⟨S8x128, .f32⟩
  | 6 => ⟨S100000, .i32⟩
  | 7 => ⟨S100000, .i32⟩
  | 8 => ⟨S10, .i32⟩
  | 9 => ⟨S10, .i1⟩
  | 10 => ⟨S10, .i32⟩
  | 11 => ⟨S10, .i1⟩
  | 12 => ⟨S5x6, .f32⟩
  | 13 => ⟨S_, .f32⟩
  | 14 => ⟨S5x6, .f32⟩
  | 15 => ⟨S5x6, .f32⟩
  | 16 => ⟨S_, .f32⟩
  | 17 => ⟨S5x6, .f32⟩
  | 18 => ⟨S5x6, .f32⟩
  | 19 => ⟨S5x6, .f32⟩
  | 20 => ⟨S5x6, .f32⟩
  | 21 => ⟨S5x6, .i32⟩
  | 22 => ⟨S5x6, .i32⟩
  | 23 => ⟨S_, .i32⟩
  | 24 => ⟨S5x6, .i32⟩
  | 25 => ⟨S5x6, .i32⟩
  | 26 => ⟨S5x6, .i1⟩
  | 27 => ⟨S5x6, .f32⟩
  | 28 => ⟨S_, .f32⟩
  | 29 => ⟨S5x6, .f32⟩
  | 30 => ⟨S5x6, .f32⟩
  | 31 => ⟨S5x6, .f32⟩
  | 32 => ⟨S_, .f32⟩
  | 33 => ⟨S5x6, .f32⟩
  | 34 => ⟨S5x6, .f32⟩
  | 35 => ⟨S5x6, .f32⟩
  | 36 => ⟨S5x6, .f32⟩
  | 37 => ⟨S5x6, .f32⟩
  | 38 => ⟨S_, .f32⟩
  | 39 => ⟨S5, .f32⟩
  | 40 => ⟨S5x1, .f32⟩
  | 41 => ⟨S5x1, .f32⟩
  | 42 => ⟨S_, .f32⟩
  | 43 => ⟨S5x1, .f32⟩
  | 44 => ⟨S5x1, .f32⟩
  | 45 => ⟨S5x6, .f32⟩
  | 46 => ⟨S5x6, .f32⟩
  | 47 => ⟨S1024x6x2430, .f32⟩
  | 48 => ⟨S1024x2430x6, .f32⟩
  | 49 => ⟨S2488320x6, .f32⟩
  | 50 => ⟨S6x5, .f32⟩
  | 51 => ⟨S2488320x5, .f32⟩
  | 52 => ⟨S2488320x5, .f32⟩
  | 53 => ⟨S_, .f32⟩
  | 54 => ⟨S5, .f32⟩
  | 55 => ⟨S1x5, .f32⟩
  | 56 => ⟨S1x5, .f32⟩
  | 57 => ⟨S_, .f32⟩
  | 58 => ⟨S1x5, .f32⟩
  | 59 => ⟨S1x5, .f32⟩
  | 60 => ⟨S2488320x5, .f32⟩
  | 61 => ⟨S2488320x5, .f32⟩
  | 62 => ⟨S1024x2430x5, .f32⟩
  | 63 => ⟨S1024x5x2430, .f32⟩
  | 64 => ⟨S1024x5x5, .f32⟩
  | 65 => ⟨S_, .f32⟩
  | 66 => ⟨S1024x5x5, .f32⟩
  | 67 => ⟨S1024x5x5, .f32⟩
  | 68 => ⟨S5x5, .i32⟩
  | 69 => ⟨S5x5, .i32⟩
  | 70 => ⟨S_, .i32⟩
  | 71 => ⟨S5x5, .i32⟩
  | 72 => ⟨S5x5, .i32⟩
  | 73 => ⟨S5x5, .i1⟩
  | 74 => ⟨S5x5, .f32⟩
  | 75 => ⟨S_, .f32⟩
  | 76 => ⟨S5x5, .f32⟩
  | 77 => ⟨S5x5, .f32⟩
  | 78 => ⟨S1x5x5, .f32⟩
  | 79 => ⟨S1024x5x5, .f32⟩
  | 80 => ⟨S1024x5x5, .f32⟩
  | 81 => ⟨S_, .f32⟩
  | 82 => ⟨S5x5, .f32⟩
  | 83 => ⟨S5x5, .i32⟩
  | 84 => ⟨S_, .i32⟩
  | 85 => ⟨S5x5, .i32⟩
  | 86 => ⟨S5x5, .i32⟩
  | 87 => ⟨S5x5, .i32⟩
  | 88 => ⟨S5x5, .i1⟩
  | 89 => ⟨S_, .f32⟩
  | 90 => ⟨S5x5, .f32⟩
  | 91 => ⟨S5x5, .f32⟩
  | 92 => ⟨S_, .f32⟩
  | 93 => ⟨S_, .f32⟩
  | 94 => ⟨S1x5x5, .f32⟩
  | 95 => ⟨S1024x5x5, .f32⟩
  | 96 => ⟨S1024x5x5, .f32⟩
  | 97 => ⟨S1024x5x5, .f32⟩
  | 98 => ⟨S_, .f32⟩
  | 99 => ⟨S1024, .f32⟩
  | 100 => ⟨S1024, .f32⟩
  | 101 => ⟨S1024, .f32⟩
  | 102 => ⟨S_, .f32⟩
  | 103 => ⟨S1024, .f32⟩
  | 104 => ⟨S1024, .f32⟩
  | 105 => ⟨S_, .f32⟩
  | 106 => ⟨S_, .f32⟩
  | 107 => ⟨S_, .f32⟩
  | 108 => ⟨S_, .f32⟩
  | 109 => ⟨S_, .i32⟩
  | 110 => ⟨S10, .i32⟩
  | 111 => ⟨S10, .i32⟩
  | 112 => ⟨S10, .i32⟩
  | 113 => ⟨S10x1, .i32⟩
  | 114 => ⟨S1024x10x2430, .f32⟩
  | 115 => ⟨S_, .i32⟩
  | 116 => ⟨S10, .i32⟩
  | 117 => ⟨S10, .i32⟩
  | 118 => ⟨S10, .i32⟩
  | 119 => ⟨S10x1, .i32⟩
  | 120 => ⟨S1024x10x2430, .f32⟩
  | 121 => ⟨S_, .f32⟩
  | 122 => ⟨S1024x10x2430, .f32⟩
  | 123 => ⟨S1024x10x2430, .f32⟩
  | 124 => ⟨S_, .f32⟩
  | 125 => ⟨S1024x10x2430, .f32⟩
  | 126 => ⟨S1024x10x2430, .f32⟩
  | 127 => ⟨S1024x10x2430, .f32⟩
  | _ => ⟨S1024x6x30x9x9, .f32⟩

abbrev hbmTy0_1 (i : Nat) : BufTy := match i % 128 with
  | 0 => ⟨S1024x2430x10, .f32⟩
  | 1 => ⟨S2488320x10, .f32⟩
  | 2 => ⟨S2488320x10, .f32⟩
  | 3 => ⟨S_, .f32⟩
  | 4 => ⟨S10, .f32⟩
  | 5 => ⟨S1x10, .f32⟩
  | 6 => ⟨S1x10, .f32⟩
  | 7 => ⟨S_, .f32⟩
  | 8 => ⟨S1x10, .f32⟩
  | 9 => ⟨S1x10, .f32⟩
  | 10 => ⟨S2488320x10, .f32⟩
  | 11 => ⟨S2488320x10, .f32⟩
  | 12 => ⟨S1024x2430x10, .f32⟩
  | 13 => ⟨S1024x10x2430, .f32⟩
  | 14 => ⟨S1024x10x10, .f32⟩
  | 15 => ⟨S_, .f32⟩
  | 16 => ⟨S1024x10x10, .f32⟩
  | 17 => ⟨S1024x10x10, .f32⟩
  | 18 => ⟨S10x10, .i32⟩
  | 19 => ⟨S10x10, .i32⟩
  | 20 => ⟨S_, .i32⟩
  | 21 => ⟨S10x10, .i32⟩
  | 22 => ⟨S10x10, .i32⟩
  | 23 => ⟨S10x10, .i1⟩
  | 24 => ⟨S10x10, .f32⟩
  | 25 => ⟨S_, .f32⟩
  | 26 => ⟨S10x10, .f32⟩
  | 27 => ⟨S10x10, .f32⟩
  | 28 => ⟨S1x10x10, .f32⟩
  | 29 => ⟨S1024x10x10, .f32⟩
  | 30 => ⟨S1024x10x10, .f32⟩
  | 31 => ⟨S_, .f32⟩
  | 32 => ⟨S10x10, .f32⟩
  | 33 => ⟨S10x10, .i32⟩
  | 34 => ⟨S_, .i32⟩
  | 35 => ⟨S10x10, .i32⟩
  | 36 => ⟨S10x10, .i32⟩
  | 37 => ⟨S10x10, .i32⟩
  | 38 => ⟨S10x10, .i1⟩
  | 39 => ⟨S_, .f32⟩
  | 40 => ⟨S10x10, .f32⟩
  | 41 => ⟨S10x10, .f32⟩
  | 42 => ⟨S_, .f32⟩
  | 43 => ⟨S_, .f32⟩
  | 44 => ⟨S1x10x10, .f32⟩
  | 45 => ⟨S1024x10x10, .f32⟩
  | 46 => ⟨S1024x10x10, .f32⟩
  | 47 => ⟨S1024x10x10, .f32⟩
  | 48 => ⟨S_, .f32⟩
  | 49 => ⟨S1024, .f32⟩
  | 50 => ⟨S1024, .f32⟩
  | 51 => ⟨S1024, .f32⟩
  | 52 => ⟨S_, .f32⟩
  | 53 => ⟨S1024, .f32⟩
  | 54 => ⟨S1024, .f32⟩
  | 55 => ⟨S_, .f32⟩
  | 56 => ⟨S_, .f32⟩
  | 57 => ⟨S_, .f32⟩
  | 58 => ⟨S_, .f32⟩
  | 59 => ⟨S1024x10x30x9x9, .f32⟩
  | 60 => ⟨S8x128, .f32⟩
  | 61 => ⟨S_, .f32⟩
  | 62 => ⟨S8, .f32⟩
  | 63 => ⟨S8x1, .f32⟩
  | 64 => ⟨S8x1, .f32⟩
  | 65 => ⟨S_, .f32⟩
  | 66 => ⟨S8x1, .f32⟩
  | 67 => ⟨S8x1, .f32⟩
  | 68 => ⟨S8x128, .f32⟩
  | 69 => ⟨S8x128, .f32⟩
  | 70 => ⟨S100000x128, .f32⟩
  | 71 => ⟨S_, .f32⟩
  | 72 => ⟨S100000, .f32⟩
  | 73 => ⟨S100000x1, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S_, .i32⟩
  | 81 => ⟨S100000, .i32⟩
  | 82 => ⟨S100000, .i1⟩
  | 83 => ⟨S_, .i32⟩
  | 84 => ⟨S100000, .i32⟩
  | 85 => ⟨S100000, .i32⟩
  | 86 => ⟨S100000, .i32⟩
  | 87 => ⟨S100000x1, .i32⟩
  | 88 => ⟨S100000x128, .f32⟩
  | 89 => ⟨S100000x128, .f32⟩
  | 90 => ⟨S_, .f32⟩
  | 91 => ⟨S100000, .f32⟩
  | 92 => ⟨S_, .i32⟩
  | 93 => ⟨S100000, .i32⟩
  | 94 => ⟨S100000, .i1⟩
  | 95 => ⟨S_, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S_, .f32⟩
  | 103 => ⟨S_, .f32⟩
  | 104 => ⟨S100000x128, .f32⟩
  | 105 => ⟨S_, .f32⟩
  | 106 => ⟨S100000, .f32⟩
  | 107 => ⟨S100000x1, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x128, .f32⟩
  | 123 => ⟨S100000x128, .f32⟩
  | 124 => ⟨S_, .f32⟩
  | 125 => ⟨S100000, .f32⟩
  | 126 => ⟨S_, .i32⟩
  | 127 => ⟨S100000, .i32⟩
  | _ => ⟨S1024x6x30x9x9, .f32⟩

abbrev hbmTy0_2 (i : Nat) : BufTy := match i % 128 with
  | 0 => ⟨S100000, .i1⟩
  | 1 => ⟨S_, .f32⟩
  | 2 => ⟨S100000, .f32⟩
  | 3 => ⟨S100000, .f32⟩
  | 4 => ⟨S_, .f32⟩
  | 5 => ⟨S_, .f32⟩
  | 6 => ⟨S100000, .f32⟩
  | 7 => ⟨S100000, .f32⟩
  | 8 => ⟨S_, .f32⟩
  | 9 => ⟨S_, .f32⟩
  | 10 => ⟨S_, .f32⟩
  | 11 => ⟨S_, .f32⟩
  | 12 => ⟨S_, .f32⟩
  | _ => ⟨S1024x6x30x9x9, .f32⟩

abbrev hbmTy (i : Nat) : BufTy := match i / 128 with
  | 0 => hbmTy0_0 i
  | 1 => hbmTy0_1 i
  | 2 => hbmTy0_2 i
  | _ => ⟨S1024x6x30x9x9, .f32⟩

abbrev bufTy : (tb : Table) → Fin (tcTables nBuf tb) → BufTy
  | .hbm, ⟨i, _⟩ => hbmTy i
  | _, _ => ⟨S1024x6x30x9x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_call2_v0 : Ref sig .tc := ⟨.hbm, 83, rfl⟩
abbrev main_call2_c : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_cst : Ref sig .tc := ⟨.hbm, 89, rfl⟩
abbrev main_call2_v5 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_14 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_15 : Ref sig .tc := ⟨.hbm, 102, rfl⟩
abbrev main_v61 : Ref sig .tc := ⟨.hbm, 103, rfl⟩
abbrev main_v62 : Ref sig .tc := ⟨.hbm, 104, rfl⟩
abbrev main_cst_16 : Ref sig .tc := ⟨.hbm, 105, rfl⟩
abbrev main_v63 : Ref sig .tc := ⟨.hbm, 106, rfl⟩
abbrev main_cst_17 : Ref sig .tc := ⟨.hbm, 107, rfl⟩
abbrev main_v64 : Ref sig .tc := ⟨.hbm, 108, rfl⟩
abbrev main_c_18 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_c_19 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_20 : Ref sig .tc := ⟨.hbm, 121, rfl⟩
abbrev main_v75 : Ref sig .tc := ⟨.hbm, 122, rfl⟩
abbrev main_v76 : Ref sig .tc := ⟨.hbm, 123, rfl⟩
abbrev main_cst_21 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call3_v0 : Ref sig .tc := ⟨.hbm, 130, rfl⟩
abbrev main_call3_cst : Ref sig .tc := ⟨.hbm, 131, rfl⟩
abbrev main_call3_v1 : Ref sig .tc := ⟨.hbm, 132, rfl⟩
abbrev main_call3_v2 : Ref sig .tc := ⟨.hbm, 133, rfl⟩
abbrev main_v82 : Ref sig .tc := ⟨.hbm, 134, rfl⟩
abbrev main_cst_22 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_23 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_24 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_25 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_26 : Ref sig .tc := ⟨.hbm, 159, rfl⟩
abbrev main_v103 : Ref sig .tc := ⟨.hbm, 160, rfl⟩
abbrev main_call4_v0 : Ref sig .tc := ⟨.hbm, 161, rfl⟩
abbrev main_call4_c : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_cst : Ref sig .tc := ⟨.hbm, 167, rfl⟩
abbrev main_call4_v5 : Ref sig .tc := ⟨.hbm, 168, rfl⟩
abbrev main_v104 : Ref sig .tc := ⟨.hbm, 169, rfl⟩
abbrev main_cst_27 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_28 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_cst_29 : Ref sig .tc := ⟨.hbm, 180, rfl⟩
abbrev main_v113 : Ref sig .tc := ⟨.hbm, 181, rfl⟩
abbrev main_v114 : Ref sig .tc := ⟨.hbm, 182, rfl⟩
abbrev main_cst_30 : Ref sig .tc := ⟨.hbm, 183, rfl⟩
abbrev main_v115 : Ref sig .tc := ⟨.hbm, 184, rfl⟩
abbrev main_cst_31 : Ref sig .tc := ⟨.hbm, 185, rfl⟩
abbrev main_v116 : Ref sig .tc := ⟨.hbm, 186, rfl⟩
abbrev main_v117 : Ref sig .tc := ⟨.hbm, 187, rfl⟩
abbrev main_call5_v0 : Ref sig .tc := ⟨.hbm, 188, rfl⟩
abbrev main_call5_cst : Ref sig .tc := ⟨.hbm, 189, rfl⟩
abbrev main_call5_v1 : Ref sig .tc := ⟨.hbm, 190, rfl⟩
abbrev main_call5_v2 : Ref sig .tc := ⟨.hbm, 191, rfl⟩
abbrev main_v118 : Ref sig .tc := ⟨.hbm, 192, rfl⟩
abbrev main_cst_32 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_call6_v0 : Ref sig .tc := ⟨.hbm, 198, rfl⟩
abbrev main_call6_cst : Ref sig .tc := ⟨.hbm, 199, rfl⟩
abbrev main_call6_v1 : Ref sig .tc := ⟨.hbm, 200, rfl⟩
abbrev main_call6_v2 : Ref sig .tc := ⟨.hbm, 201, rfl⟩
abbrev main_v123 : Ref sig .tc := ⟨.hbm, 202, rfl⟩
abbrev main_cst_33 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_c_34 : Ref sig .tc := ⟨.hbm, 208, rfl⟩
abbrev main_v128 : Ref sig .tc := ⟨.hbm, 209, rfl⟩
abbrev main_v129 : Ref sig .tc := ⟨.hbm, 210, rfl⟩
abbrev main_c_35 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_cst_36 : Ref sig .tc := ⟨.hbm, 218, rfl⟩
abbrev main_v136 : Ref sig .tc := ⟨.hbm, 219, rfl⟩
abbrev main_c_37 : Ref sig .tc := ⟨.hbm, 220, rfl⟩
abbrev main_v137 : Ref sig .tc := ⟨.hbm, 221, rfl⟩
abbrev main_v138 : Ref sig .tc := ⟨.hbm, 222, rfl⟩
abbrev main_cst_38 : Ref sig .tc := ⟨.hbm, 223, rfl⟩
abbrev main_v139 : Ref sig .tc := ⟨.hbm, 224, rfl⟩
abbrev main_v140 : Ref sig .tc := ⟨.hbm, 225, rfl⟩
abbrev main_cst_39 : Ref sig .tc := ⟨.hbm, 226, rfl⟩
abbrev main_call7_v0 : Ref sig .tc := ⟨.hbm, 227, rfl⟩
abbrev main_call7_v1 : Ref sig .tc := ⟨.hbm, 228, rfl⟩
abbrev main_v141 : Ref sig .tc := ⟨.hbm, 229, rfl⟩
abbrev main_cst_40 : Ref sig .tc := ⟨.hbm, 230, rfl⟩
abbrev main_v142 : Ref sig .tc := ⟨.hbm, 231, rfl⟩
abbrev main_call8_v0 : Ref sig .tc := ⟨.hbm, 232, rfl⟩
abbrev main_call8_cst : Ref sig .tc := ⟨.hbm, 233, rfl⟩
abbrev main_call8_v1 : Ref sig .tc := ⟨.hbm, 234, rfl⟩
abbrev main_call8_v2 : Ref sig .tc := ⟨.hbm, 235, rfl⟩
abbrev main_v143 : Ref sig .tc := ⟨.hbm, 236, rfl⟩
abbrev main_cst_41 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_c_42 : Ref sig .tc := ⟨.hbm, 242, rfl⟩
abbrev main_v148 : Ref sig .tc := ⟨.hbm, 243, rfl⟩
abbrev main_v149 : Ref sig .tc := ⟨.hbm, 244, rfl⟩
abbrev main_c_43 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_cst_44 : Ref sig .tc := ⟨.hbm, 252, rfl⟩
abbrev main_v156 : Ref sig .tc := ⟨.hbm, 253, rfl⟩
abbrev main_c_45 : Ref sig .tc := ⟨.hbm, 254, rfl⟩
abbrev main_v157 : Ref sig .tc := ⟨.hbm, 255, rfl⟩
abbrev main_v158 : Ref sig .tc := ⟨.hbm, 256, rfl⟩
abbrev main_cst_46 : Ref sig .tc := ⟨.hbm, 257, rfl⟩
abbrev main_v159 : Ref sig .tc := ⟨.hbm, 258, rfl⟩
abbrev main_v160 : Ref sig .tc := ⟨.hbm, 259, rfl⟩
abbrev main_cst_47 : Ref sig .tc := ⟨.hbm, 260, rfl⟩
abbrev main_call9_v0 : Ref sig .tc := ⟨.hbm, 261, rfl⟩
abbrev main_call9_v1 : Ref sig .tc := ⟨.hbm, 262, rfl⟩
abbrev main_v161 : Ref sig .tc := ⟨.hbm, 263, rfl⟩
abbrev main_cst_48 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩

abbrev nD : Nat := 1
abbrev τ : Topo := Topo.v7x

variable {F : FTy → Type} [FloatOps F]

class Facts₀ : Prop where
  bcast_S_S5x6 : S_.BroadcastsInDim S5x6 (![] : Fin 0 → Fin S5x6.rank)
  reducesTo_S5x6_S5_d1 : S5x6.ReducesTo [1] S5
  h_S_ : 0 < S_.numel
  bcast_S5_S5x1_0 : S5.BroadcastsInDim S5x1 (![0] : Fin 1 → Fin S5x1.rank)
  bcast_S_S5x1 : S_.BroadcastsInDim S5x1 (![] : Fin 0 → Fin S5x1.rank)
  bcast_S5x1_S5x6_0_1 : S5x1.BroadcastsInDim S5x6 (![0, 1] : Fin 2 → Fin S5x6.rank)
  shapeCasts_S1024x6x30x9x9_S1024x6x2430 : S1024x6x30x9x9.ShapeCasts S1024x6x2430
  transposes_S1024x6x2430_S1024x2430x6_0_2_1 : S1024x6x2430.Transposes [0, 2, 1] S1024x2430x6
  shapeCasts_S1024x2430x6_S2488320x6 : S1024x2430x6.ShapeCasts S2488320x6
  transposes_S5x6_S6x5_1_0 : S5x6.Transposes [1, 0] S6x5
  reducesTo_S2488320x5_S5_d0 : S2488320x5.ReducesTo [0] S5
  bcast_S5_S1x5_1 : S5.BroadcastsInDim S1x5 (![1] : Fin 1 → Fin S1x5.rank)
  bcast_S_S1x5 : S_.BroadcastsInDim S1x5 (![] : Fin 0 → Fin S1x5.rank)
  bcast_S1x5_S2488320x5_0_1 : S1x5.BroadcastsInDim S2488320x5 (![0, 1] : Fin 2 → Fin S2488320x5.rank)
  shapeCasts_S2488320x5_S1024x2430x5 : S2488320x5.ShapeCasts S1024x2430x5
  transposes_S1024x2430x5_S1024x5x2430_0_2_1 : S1024x2430x5.Transposes [0, 2, 1] S1024x5x2430
  bcast_S_S1024x5x5 : S_.BroadcastsInDim S1024x5x5 (![] : Fin 0 → Fin S1024x5x5.rank)
  bcast_S_S5x5 : S_.BroadcastsInDim S5x5 (![] : Fin 0 → Fin S5x5.rank)
  bcast_S5x5_S1x5x5_1_2 : S5x5.BroadcastsInDim S1x5x5 (![1, 2] : Fin 2 → Fin S1x5x5.rank)
  bcast_S1x5x5_S1024x5x5_0_1_2 : S1x5x5.BroadcastsInDim S1024x5x5 (![0, 1, 2] : Fin 3 → Fin S1024x5x5.rank)
  reducesTo_S5x5_S_d0_1 : S5x5.ReducesTo [0, 1] S_
  reducesTo_S1024x5x5_S1024_d1_2 : S1024x5x5.ReducesTo [1, 2] S1024
  bcast_S_S1024 : S_.BroadcastsInDim S1024 (![] : Fin 0 → Fin S1024.rank)
  reducesTo_S1024_S_d0 : S1024.ReducesTo [0] S_
  bcast_S_S10 : S_.BroadcastsInDim S10 (![] : Fin 0 → Fin S10.rank)
  bcast_S10_S10x1_0 : S10.BroadcastsInDim S10x1 (![0] : Fin 1 → Fin S10x1.rank)
  bcast_S_S1024x10x2430 : S_.BroadcastsInDim S1024x10x2430 (![] : Fin 0 → Fin S1024x10x2430.rank)
  transposes_S1024x10x2430_S1024x2430x10_0_2_1 : S1024x10x2430.Transposes [0, 2, 1] S1024x2430x10
  shapeCasts_S1024x2430x10_S2488320x10 : S1024x2430x10.ShapeCasts S2488320x10
  reducesTo_S2488320x10_S10_d0 : S2488320x10.ReducesTo [0] S10
  bcast_S10_S1x10_1 : S10.BroadcastsInDim S1x10 (![1] : Fin 1 → Fin S1x10.rank)
  bcast_S_S1x10 : S_.BroadcastsInDim S1x10 (![] : Fin 0 → Fin S1x10.rank)
  bcast_S1x10_S2488320x10_0_1 : S1x10.BroadcastsInDim S2488320x10 (![0, 1] : Fin 2 → Fin S2488320x10.rank)
  shapeCasts_S2488320x10_S1024x2430x10 : S2488320x10.ShapeCasts S1024x2430x10
  transposes_S1024x2430x10_S1024x10x2430_0_2_1 : S1024x2430x10.Transposes [0, 2, 1] S1024x10x2430
  bcast_S_S1024x10x10 : S_.BroadcastsInDim S1024x10x10 (![] : Fin 0 → Fin S1024x10x10.rank)
  bcast_S_S10x10 : S_.BroadcastsInDim S10x10 (![] : Fin 0 → Fin S10x10.rank)
  bcast_S10x10_S1x10x10_1_2 : S10x10.BroadcastsInDim S1x10x10 (![1, 2] : Fin 2 → Fin S1x10x10.rank)
  bcast_S1x10x10_S1024x10x10_0_1_2 : S1x10x10.BroadcastsInDim S1024x10x10 (![0, 1, 2] : Fin 3 → Fin S1024x10x10.rank)
  reducesTo_S10x10_S_d0_1 : S10x10.ReducesTo [0, 1] S_
  reducesTo_S1024x10x10_S1024_d1_2 : S1024x10x10.ReducesTo [1, 2] S1024
  shapeCasts_S1024x10x2430_S1024x10x30x9x9 : S1024x10x2430.ShapeCasts S1024x10x30x9x9
  reducesTo_S8x128_S8_d1 : S8x128.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x128_0_1 : S8x1.BroadcastsInDim S8x128 (![0, 1] : Fin 2 → Fin S8x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  reducesTo_S100000_S_d0 : S100000.ReducesTo [0] S_
  dot_S2488320x6_S6x5_S2488320x5_1_0_0_1_n_n_wf : DotDims.WF S2488320x6 S6x5 S2488320x5 [1] [0] [0] [1] [] []
  dot_S1024x5x2430_S1024x5x2430_S1024x5x5_2_2_1_1_0_0_wf : DotDims.WF S1024x5x2430 S1024x5x2430 S1024x5x5 [2] [2] [1] [1] [0] [0]
  gather_S1024x5x2430_S10x1_S1024x10x2430_02_1_n_n_1_1_102412430_wf : GatherDims.WF S1024x5x2430 S10x1 S1024x10x2430 [0, 2] [1] [] [1] [] 1 ![1024, 1, 2430]
  dot_S1024x10x2430_S1024x10x2430_S1024x10x10_2_2_1_1_0_0_wf : DotDims.WF S1024x10x2430 S1024x10x2430 S1024x10x10 [2] [2] [1] [1] [0] [0]
  gather_S8x128_S100000x1_S100000x128_1_0_n_n_0_1_1128_wf : GatherDims.WF S8x128 S100000x1 S100000x128 [1] [0] [] [0] [] 1 ![1, 128]

variable [Facts₀]

def dot_S2488320x6_S6x5_S2488320x5_1_0_0_1_n_n : DotDims S2488320x6 S6x5 S2488320x5 where
  lhsContracting := [1]
  rhsContracting := [0]
  lhsNonContracting := [0]
  rhsNonContracting := [1]
  lhsBatch := []
  rhsBatch := []
  wf := dot_S2488320x6_S6x5_S2488320x5_1_0_0_1_n_n_wf
def dot_S1024x5x2430_S1024x5x2430_S1024x5x5_2_2_1_1_0_0 : DotDims S1024x5x2430 S1024x5x2430 S1024x5x5 where
  lhsContracting := [2]
  rhsContracting := [2]
  lhsNonContracting := [1]
  rhsNonContracting := [1]
  lhsBatch := [0]
  rhsBatch := [0]
  wf := dot_S1024x5x2430_S1024x5x2430_S1024x5x5_2_2_1_1_0_0_wf
def gather_S1024x5x2430_S10x1_S1024x10x2430_02_1_n_n_1_1_102412430 : GatherDims S1024x5x2430 S10x1 S1024x10x2430 where
  offsetDims := [0, 2]
  collapsedSliceDims := [1]
  operandBatchingDims := []
  startIndicesBatchingDims := []
  startIndexMap := [1]
  indexVectorDim := 1
  sliceSizes := ![1024, 1, 2430]
  wf := gather_S1024x5x2430_S10x1_S1024x10x2430_02_1_n_n_1_1_102412430_wf
def dot_S1024x10x2430_S1024x10x2430_S1024x10x10_2_2_1_1_0_0 : DotDims S1024x10x2430 S1024x10x2430 S1024x10x10 where
  lhsContracting := [2]
  rhsContracting := [2]
  lhsNonContracting := [1]
  rhsNonContracting := [1]
  lhsBatch := [0]
  rhsBatch := [0]
  wf := dot_S1024x10x2430_S1024x10x2430_S1024x10x10_2_2_1_1_0_0_wf
def gather_S8x128_S100000x1_S100000x128_1_0_n_n_0_1_1128 : GatherDims S8x128 S100000x1 S100000x128 where
  offsetDims := [1]
  collapsedSliceDims := [0]
  operandBatchingDims := []
  startIndicesBatchingDims := []
  startIndexMap := [0]
  indexVectorDim := 1
  sliceSizes := ![1, 128]
  wf := gather_S8x128_S100000x1_S100000x128_1_0_n_n_0_1_1128_wf

class Facts : Prop extends Facts₀ where

variable [Facts]
-- ==== Proof.Spec.lean ====
/-
  The mathematics of both programs, index by index over the extended reals, with no program in sight.

  Input: a tensor x[b, c, n] (1024 samples, 6 channels, 2430 positions), a 5×6 weight and a 5×6 gate, eight class
  centres of 128 features, and two sets of 100000 feature rows with an integer label each.

  * The gate is binarised, g_bin = (sign g + 1) / 2; the reference prints the straight-through form g + (g_bin − g).
    The weight is masked by (1 − g)·eye + g·1 and each row is divided by max(‖row‖, 1e-12).
  * z[b, k, n] = Σ_c x[b, c, n]·w[k, c].  Each channel k is divided by m_k = max(√(Σ_{b,n} z²), 1e-6): the reference
    divides, the kernel multiplies by 1/m_k.
  * The whitening loss of a normalised tensor u: cov[b, k, l] = (Σ_n u_k u_l)/2429 + 1e-5·[k = l]; the reference sums
    products of normalised entries, the kernel scales the raw sum Σ_n z_k z_l by (1/m_k)(1/m_l); then the mean over b of
    max((Σ_{k<l} |cov|)/#{k<l}, 0).
  * Ten bilinear channels p = (i, j), i < j: u_i · (1 / (u_j + 1e-6)); normalised per channel as z was; that tensor is
    the first result, and its whitening loss the second summand of the scalar result.
  * The label term: for each row with label ≥ 1, one minus the inner product of the unit-normalised row with its label's
    unit-normalised centre.
-/
import Idealize.ShloMosaic.PureOps.Ideal
import Idealize.ShloMosaic.Lib.ValueIdx

noncomputable section

namespace Cert.Spec

open Idealize.ShloMosaic
open scoped BigOperators

/-! ## The literals (the same words in both programs) -/

/-- 0.0 -/ def c0 : EReal := Ideal.ofBits .f32 0x00000000#32
/-- 1.0 -/ def c1 : EReal := Ideal.ofBits .f32 0x3F800000#32
/-- 2.0 -/ def c2 : EReal := Ideal.ofBits .f32 0x40000000#32
/-- the float nearest 1e-12 -/ def e12 : EReal := Ideal.ofBits .f32 0x2B8CBCCC#32
/-- the float nearest 1e-6 -/ def e6 : EReal := Ideal.ofBits .f32 0x358637BD#32
/-- the float nearest 1e-5 -/ def e5 : EReal := Ideal.ofBits .f32 0x3727C5AC#32
/-- 2429.0 -/ def n2429 : EReal := Ideal.ofBits .f32 0x4517D000#32
/-- 1024.0 -/ def n1024 : EReal := Ideal.ofBits .f32 0x44800000#32

/-- A matrix, a rank-three tensor: plain functions of their coordinates. -/
abbrev A2 (n0 n1 : ℕ) : Type := Fin n0 → Fin n1 → EReal
abbrev A3 (n0 n1 n2 : ℕ) : Type := Fin n0 → Fin n1 → Fin n2 → EReal

/-- A program's array read at coordinates, and a coordinate function as a program's array. -/
def of2 {n0 n1 : ℕ} (a : (⟨2, ![n0, n1]⟩ : Shape).Idx → EReal) : A2 n0 n1 := fun i j => a (ValueIdx.ix2 i j)
def of3 {n0 n1 n2 : ℕ} (a : (⟨3, ![n0, n1, n2]⟩ : Shape).Idx → EReal) : A3 n0 n1 n2 := fun i j k => a (ValueIdx.ix3 i j k)
def ofLab {n : ℕ} (a : (⟨1, ![n]⟩ : Shape).Idx → BitVec 32) : Fin n → BitVec 32 := fun i => a (ValueIdx.ix1 i)
def to3 {n0 n1 n2 : ℕ} (f : A3 n0 n1 n2) : (⟨3, ![n0, n1, n2]⟩ : Shape).Idx → EReal := fun i => f (i 0) (i 1) (i 2)

/-- |x|, as both programs compute it. -/
def absE (x : EReal) : EReal := max x (-x)

/-- The indicator of the diagonal. -/
def eyeE {n0 n1 : ℕ} (k : Fin n0) (l : Fin n1) : EReal := if k.val = l.val then 1 else 0

/-! ## The gated, row-normalised weight -/

/-- The binarised gate (sign g + 1) / 2. -/
def gbin (g : A2 5 6) : A2 5 6 := fun k c => Ideal.div (Ideal.sign (g k c) + c1) c2
/-- Its straight-through form g + (g_bin − g). -/
def gste (g : A2 5 6) : A2 5 6 := fun k c => g k c + (gbin g k c - g k c)
/-- The weight under the gate's mask (1 − g)·eye + g·1. -/
def wpre (cw gb : A2 5 6) : A2 5 6 := fun k c => cw k c * ((c1 - gb k c) * eyeE k c + gb k c * c1)
/-- Every row divided by max(its Euclidean norm, 1e-12). -/
def rowUnit {n0 n1 : ℕ} (v : A2 n0 n1) : A2 n0 n1 :=
  fun k c => Ideal.div (v k c) (max (Ideal.sqrt (∑ c', v k c' * v k c')) e12)
def wn (cw gb : A2 5 6) : A2 5 6 := rowUnit (wpre cw gb)

/-! ## The channel mix and the per-channel normalisation -/

def zmix (x : A3 1024 6 2430) (w : A2 5 6) : A3 1024 5 2430 := fun b k n => ∑ c, x b c n * w k c

section Whiten
variable {C : ℕ}

/-- Channel k's sum of squares over all samples and positions. -/
def ssq (z : A3 1024 C 2430) (k : Fin C) : EReal := ∑ b, ∑ n, z b k n * z b k n
/-- m_k = max(√ssq_k, 1e-6). -/
def mnorm (z : A3 1024 C 2430) (k : Fin C) : EReal := max (Ideal.sqrt (ssq z k)) e6
/-- The reference divides by m_k. -/
def nrmR (z : A3 1024 C 2430) : A3 1024 C 2430 := fun b k n => Ideal.div (z b k n) (mnorm z k)
/-- The kernel's scale 1/m_k … -/
def sK (z : A3 1024 C 2430) (k : Fin C) : EReal := Ideal.div c1 (mnorm z k)
/-- … by which it multiplies. -/
def nrmK (z : A3 1024 C 2430) : A3 1024 C 2430 := fun b k n => z b k n * sK z k
/-- Σ_n z_k z_l per sample. -/
def covRaw (z : A3 1024 C 2430) : A3 1024 C C := fun b k l => ∑ n, z b k n * z b l n
/-- The reference's covariance: of the normalised tensor. -/
def covR (z : A3 1024 C 2430) : A3 1024 C C :=
  fun b k l => Ideal.div (covRaw (nrmR z) b k l) n2429 + e5 * eyeE k l
/-- The kernel's: the raw sum scaled by the two channels' scales. -/
def covK (z : A3 1024 C 2430) : A3 1024 C C :=
  fun b k l => Ideal.div ((sK z k * sK z l) * covRaw z b k l) n2429 + e5 * eyeE k l
/-- The strict upper triangle's indicator, as `select(k ≥ l, 0.0, 1.0)`. -/
def triu1 (k l : Fin C) : EReal := if l.val ≤ k.val then c0 else c1
/-- The mean over the samples of max((Σ_{k,l} |cov·triu|)/(Σ triu), 0). -/
def lossTail (cov : A3 1024 C C) : EReal :=
  Ideal.div (∑ b, max (Ideal.div (∑ k : Fin C, ∑ l : Fin C, absE (cov b k l * triu1 k l)) (∑ k : Fin C, ∑ l : Fin C, triu1 k l)) c0) n1024

end Whiten

/-! ## The ten bilinear channels -/

def pI : Fin 10 → Fin 5 := ![0, 0, 0, 0, 1, 1, 1, 2, 2, 3]
def pJ : Fin 10 → Fin 5 := ![1, 2, 3, 4, 2, 3, 4, 3, 4, 4]
def pairs (u : A3 1024 5 2430) : A3 1024 10 2430 :=
  fun b p n => u b (pI p) n * Ideal.div c1 (u b (pJ p) n + e6)

/-! ## The label term -/

/-- A label as a row of the centre table (used only where 1 ≤ label ≤ 7). -/
def labRow (l : BitVec 32) : Fin 8 := ⟨l.toNat % 8, Nat.mod_lt _ (by decide)⟩
def simTerm (cnv : A2 8 128) {N : ℕ} (f : A2 N 128) (lab : Fin N → BitVec 32) (i : Fin N) : EReal :=
  if 1 ≤ (lab i).toInt then c1 - ∑ d, rowUnit f i d * cnv (labRow (lab i)) d else c0
def simSum (cnv : A2 8 128) (f : A2 100000 128) (lab : Fin 100000 → BitVec 32) : EReal := ∑ i, simTerm cnv f lab i

/-- The kernel sums the label term over the rows padded to 98 blocks of 1024. -/
def simSumP (cnv : A2 8 128) (f : A2 100352 128) (lab : Fin 100352 → BitVec 32) : EReal := ∑ i, simTerm cnv f lab i

/-! ## The relayouts both programs share: the input's three trailing axes flattened, the result's last axis unflattened -/

def x3of (X : (⟨5, ![1024, 6, 30, 9, 9]⟩ : Shape).Idx → EReal)
    (h : (⟨5, ![1024, 6, 30, 9, 9]⟩ : Shape).ShapeCasts ⟨3, ![1024, 6, 2430]⟩) : A3 1024 6 2430 :=
  of3 (shapeCast ⟨3, ![1024, 6, 2430]⟩ X h)
def out5of (o : A3 1024 10 2430)
    (h : (⟨3, ![1024, 10, 2430]⟩ : Shape).ShapeCasts ⟨5, ![1024, 10, 30, 9, 9]⟩) :
    (⟨5, ![1024, 10, 30, 9, 9]⟩ : Shape).Idx → EReal :=
  shapeCast ⟨5, ![1024, 10, 30, 9, 9]⟩ (to3 o) h

/-! ## The two results, in the kernel's arrangement and in the reference's -/

def outK (x : A3 1024 6 2430) (cw g : A2 5 6) : A3 1024 10 2430 :=
  nrmK (pairs (nrmK (zmix x (wn cw (gbin g)))))
def outR (x : A3 1024 6 2430) (cw g : A2 5 6) : A3 1024 10 2430 :=
  nrmR (pairs (nrmR (zmix x (wn cw (gste g)))))
def lossK (x : A3 1024 6 2430) (cw g : A2 5 6) (cf : A2 8 128) (fA fB : A2 100000 128) (lA lB : Fin 100000 → BitVec 32) : EReal :=
  (lossTail (covK (zmix x (wn cw (gbin g)))) + lossTail (covK (pairs (nrmK (zmix x (wn cw (gbin g)))))))
    + (simSum (rowUnit cf) fA lA + simSum (rowUnit cf) fB lB)
def lossR (x : A3 1024 6 2430) (cw g : A2 5 6) (cf : A2 8 128) (fA fB : A2 100000 128) (lA lB : Fin 100000 → BitVec 32) : EReal :=
  (lossTail (covR (zmix x (wn cw (gste g)))) + lossTail (covR (pairs (nrmR (zmix x (wn cw (gste g)))))))
    + (simSum (rowUnit cf) fA lA + simSum (rowUnit cf) fB lB)

end Cert.Spec

end
-- ==== Proof.Algebra.lean ====
/-
  The extended-real algebra under the two arrangements of one computation.

  * The literals 0.0 and 1.0 are 0 and 1, and the literal nearest 1e-6 is a positive real.
  * At a finite gate g the straight-through form g + (b − g) is b.
  * m = max(·, 1e-6) is never 0, so dividing by m and multiplying by 1/m agree at every entry, the infinite ones
    included; 1/m is a nonnegative real (0 when m = ⊤), so it moves across a finite sum, and the covariance of the
    normalised tensor is the raw covariance scaled by the two channels' 1/m.
  * Hence both results agree between the two arrangements.
-/
import proofs.«414715_j46866683134133_3_alg».proof.Proof.Spec

noncomputable section

namespace Cert.Spec

open Idealize.ShloMosaic
open scoped BigOperators

/-! ## The literals -/

theorem c0_eq : c0 = 0 := by
  unfold c0; simp [Ideal.ofBits, Ideal.ieee]

theorem c1_eq : c1 = 1 := by
  unfold c1; simp [Ideal.ofBits, Ideal.ieee, -EReal.coe_mul]; norm_num

theorem e6_pos : (0 : EReal) < e6 := by
  unfold e6; simp [Ideal.ofBits, Ideal.ieee, -EReal.coe_mul]

theorem e6_ne_top : e6 ≠ ⊤ := by
  unfold e6; simp [Ideal.ofBits, Ideal.ieee, -EReal.coe_mul]

/-! ## The gate -/

/-- Adding back what was subtracted, at a real summand. -/
theorem coe_add_sub_coe (r : ℝ) (b : EReal) : (r : EReal) + (b - (r : EReal)) = b := by
  induction b using EReal.rec with
  | bot => simp
  | top => simp
  | coe x => norm_cast; ring

theorem gste_eq (g : A2 5 6) (hg : ∀ k c, g k c ≠ ⊤ ∧ g k c ≠ ⊥) : gste g = gbin g := by
  funext k c
  obtain ⟨ht, hb⟩ := hg k c
  unfold gste
  generalize gbin g k c = b
  lift g k c to ℝ using ⟨ht, hb⟩ with r
  exact coe_add_sub_coe r b

/-! ## Division by m against multiplication by 1/m -/

/-- Off zero, dividing is multiplying by the quotient of one. -/
theorem div_eq_mul_div_one (x y : EReal) (hy : y ≠ 0) : Ideal.div x y = x * Ideal.div 1 y := by
  rw [Ideal.div, Ideal.div, if_neg hy, if_neg hy, one_mul]

section Whiten
variable {C : ℕ}

theorem mnorm_pos (z : A3 1024 C 2430) (k : Fin C) : 0 < mnorm z k :=
  lt_of_lt_of_le e6_pos (le_max_right _ _)

theorem mnorm_ne_zero (z : A3 1024 C 2430) (k : Fin C) : mnorm z k ≠ 0 := (mnorm_pos z k).ne'

/-- The scale 1/m is a nonnegative real: 0 at m = ⊤, the reciprocal at a positive real m. -/
theorem sK_real (z : A3 1024 C 2430) (k : Fin C) : ∃ r : ℝ, 0 ≤ r ∧ sK z k = (r : EReal) := by
  have hpos := mnorm_pos z k
  unfold sK
  rw [Ideal.div, if_neg hpos.ne', c1_eq, one_mul]
  generalize mnorm z k = m at hpos
  induction m using EReal.rec with
  | bot => exact absurd hpos (by simp)
  | top => exact ⟨0, le_rfl, by simp⟩
  | coe x =>
    refine ⟨x⁻¹, ?_, (EReal.coe_inv x).symm⟩
    exact inv_nonneg.2 (EReal.coe_pos.1 hpos).le

theorem nrmK_eq_nrmR (z : A3 1024 C 2430) : nrmK z = nrmR z := by
  funext b k n
  unfold nrmK nrmR sK
  rw [c1_eq, div_eq_mul_div_one (z b k n) _ (mnorm_ne_zero z k)]

/-- A nonnegative real factor moves across a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- The covariance of the scaled tensor is the raw covariance scaled by the two channels' factors. -/
theorem covRaw_nrmK (z : A3 1024 C 2430) (b : Fin 1024) (k l : Fin C) :
    covRaw (nrmK z) b k l = (sK z k * sK z l) * covRaw z b k l := by
  obtain ⟨p, hp, hpk⟩ := sK_real z k
  obtain ⟨q, hq, hql⟩ := sK_real z l
  unfold covRaw nrmK
  rw [hpk, hql, ← EReal.coe_mul, coe_mul_sum _ _ (mul_nonneg hp hq)]
  refine Finset.sum_congr rfl fun n _ => ?_
  rw [EReal.coe_mul, mul_mul_mul_comm, mul_comm ((p : EReal) * (q : EReal))]

theorem covK_eq_covR (z : A3 1024 C 2430) : covK z = covR z := by
  funext b k l
  unfold covK covR
  rw [← nrmK_eq_nrmR, covRaw_nrmK]

end Whiten

/-! ## The two results -/

theorem outK_eq_outR (x : A3 1024 6 2430) (cw g : A2 5 6) (hg : ∀ k c, g k c ≠ ⊤ ∧ g k c ≠ ⊥) :
    outK x cw g = outR x cw g := by
  unfold outK outR
  rw [gste_eq g hg, nrmK_eq_nrmR, nrmK_eq_nrmR]

theorem lossK_eq_lossR (x : A3 1024 6 2430) (cw g : A2 5 6) (cf : A2 8 128) (fA fB : A2 100000 128)
    (lA lB : Fin 100000 → BitVec 32) (hg : ∀ k c, g k c ≠ ⊤ ∧ g k c ≠ ⊥) :
    lossK x cw g cf fA fB lA lB = lossR x cw g cf fA fB lA lB := by
  unfold lossK lossR
  rw [gste_eq g hg, covK_eq_covR, covK_eq_covR, nrmK_eq_nrmR]

end Cert.Spec

end
-- ==== Proof.PreFacts.lean ====
/-
  The input precondition, read back. The precondition is the conjunction of eight tests, each taken over a whole
  input array: for each of the six real-valued inputs, that every entry x has |x| below +∞, and for each of the two
  label vectors, that every label is below 8 as a signed word. From the conjunction being true this module draws
  the three facts the equivalence uses: every entry of the gate is a real number (neither +∞ nor -∞), and every
  label of either vector is below 8.
-/
import proofs.«414715_j46866683134133_3_alg».proof.Pre_finite_inputs
import proofs.«414715_j46866683134133_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic
open Cert.Pre_finite_inputs

/-- The shape of a scalar has one index. -/
instance : Subsingleton S_.Idx := ⟨fun a b => funext fun d => d.elim0⟩

/-- An extended real whose absolute value max x (-x) is strictly below +∞ is neither +∞ nor -∞. -/
theorem real_of_abs_lt_top (x : EReal)
    (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  simp only [Ideal.cmp, StableHlo.Predicate.ofBool_eq_one_iff, decide_eq_true_eq] at h
  induction x using EReal.rec with
  | bot => simp at h
  | coe r => exact ⟨EReal.coe_ne_top r, EReal.coe_ne_bot r⟩
  | top => simp at h

/-- The precondition holding, every entry of the gate is a real number and every label of either vector is below 8:
    the conjunction is true only if each of its eight tests is, a test over a whole array is true only if it is true at
    every entry, and at an entry the tests read |x| < +∞ and label < 8 (signed). -/
theorem of_pre [Cert.Pre_finite_inputs.Facts]
    (a0 : FVec Ideal S1024x6x30x9x9 .f32) (a1 a2 : FVec Ideal S100000x128 .f32) (a3 a4 : FVec Ideal S5x6 .f32)
    (a5 : FVec Ideal S8x128 .f32) (a6 a7 : IVec S100000 32)
    (h : Cert.Pre_finite_inputs.fn (F := Ideal) a0 a1 a2 a3 a4 a5 a6 a7 = fun _ => 1#1) :
    (∀ i, a4 i ≠ ⊤ ∧ a4 i ≠ ⊥) ∧ (∀ i, (a6 i).toInt < 8) ∧ (∀ i, (a7 i).toInt < 8) := by
  have e := congrFun h ValueIdx.ix0
  dsimp only [fn, fn_part1, fn_part2] at e
  simp only [andi, IntOp.andi_eq_one] at e
  obtain ⟨⟨⟨⟨⟨⟨⟨-, -⟩, -⟩, -⟩, h4⟩, -⟩, h6⟩, h7⟩ := e
  refine ⟨fun i => ?_, fun i => ?_, fun i => ?_⟩
  · exact real_of_abs_lt_top (a4 i) (Host.reduce_andi_all _ _ _ _ _ h4 i)
  · exact IntOp.cmpi_slt.1 (Host.reduce_andi_all _ _ _ _ _ h6 i)
  · exact IntOp.cmpi_slt.1 (Host.reduce_andi_all _ _ _ _ _ h7 i)

end Cert.PreFacts

end
-- ==== Proof.RefOps.lean ====
import proofs.«414715_j46866683134133_3_alg».proof.ReferenceIdeal
import proofs.«414715_j46866683134133_3_alg».proof.Proof.Gen.ReferenceIdeal
import Idealize.ShloMosaic.Lib.StableHlo.Run

/-! The reference program is a straight line of whole-array operations, each writing one buffer from the
    buffers written before it: 261 of them once every function it calls is read at its call, over that call's
    own buffers. Here the line is four consecutive lists; the program equals the line, and after its run every
    buffer holds the fold of the operations over what the buffers held at launch. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 56 of 261, in order. -/
abbrev opsA : List (HloOp τ sig (Elt F)) :=
  [ StableHlo.nullary main_c (fun i => lit0 (S10.rowMajor i)),
    StableHlo.nullary main_c_0 (constantI S10 1 0#1),
    StableHlo.nullary main_c_1 (fun i => lit1 (S10.rowMajor i)),
    StableHlo.nullary main_c_2 (constantI S10 1 0#1),
    StableHlo.unary main_arg4 main_v0 (Host.sign : (⟨S5x6, .f32⟩ : BufTy).Contents (Elt F) → (⟨S5x6, .f32⟩ : BufTy).Contents (Elt F)),
    StableHlo.nullary main_cst (constant S_ .f32 0x3F800000#32),
    StableHlo.unary main_cst main_v1 (broadcastInDim S5x6 ![] bcast_S_S5x6 : (⟨S_, .f32⟩ : BufTy).Contents (Elt F) → (⟨S5x6, .f32⟩ : BufTy).Contents (Elt F)),
    StableHlo.binary main_v0 main_v1 main_v2 (addf : (⟨S5x6, .f32⟩ : BufTy).Contents (Elt F) → (⟨S5x6, .f32⟩ : BufTy).Contents (Elt F) → (⟨S5x6, .f32⟩ : BufTy).Contents (Elt F)),
    StableHlo.nullary main_cst_3 (constant S_ .f32 0x40000000#32),
    StableHlo.unary main_cst_3 main_v3 (broadcastInDim S5x6 ![] bcast_S_S5x6 : (⟨S_, .f32⟩ : BufTy).Contents (Elt F) → (⟨S5x6, .f32⟩ : BufTy).Contents (Elt F)),
    StableHlo.binary main_v2 main_v3 main_v4 (Host.divf : (⟨S5x6, .f32⟩ : BufTy).Contents (Elt F) → (⟨S5x6, .f32⟩ : BufTy).Contents (Elt F) → (⟨S5x6, .f32⟩ : BufTy).Contents (Elt F)),
    StableHlo.binary main_v4 main_arg4 main_v5 (subf : (⟨S5x6, .f32⟩ : BufTy).Contents (Elt F) → (⟨S5x6, .f32⟩ : BufTy).Contents (Elt F) → (⟨S5x6, .f32⟩ : BufTy).Contents (Elt F)),
    StableHlo.binary main_arg4 main_v5 main_v6 (addf : (⟨S5x6, .f32⟩ : BufTy).Contents (Elt F) → (⟨S5x6, .f32⟩ : BufTy).Contents (Elt F) → (⟨S5x6, .f32⟩ : BufTy).Contents (Elt F)),
    StableHlo.nullary main_v7 (iotaInDim S5x6 32 0),
    StableHlo.nullary main_v8 (iotaInDim S5x6 32 1),
    StableHlo.nullary main_c_4 (constantI S_ 32 0#32),
    StableHlo.unary main_c_4 main_v9 (broadcastInDim S5x6 ![] bcast_S_S5x6 : (⟨S_, .i32⟩ : BufTy).Contents (Elt F) → (⟨S5x6, .i32⟩ : BufTy).Contents (Elt F)),
    StableHlo.binary main_v7 main_v9 main_v10 (addi : (⟨S5x6, .i32⟩ : BufTy).Contents (Elt F) → (⟨S5x6, .i32⟩ : BufTy).Contents (Elt F) → (⟨S5x6, .i32⟩ : BufTy).Contents (Elt F)),
    StableHlo.binary main_v10 main_v8 main_v11 (cmpi .eq : (⟨S5x6, .i32⟩ : BufTy).Contents (Elt F) → (⟨S5x6, .i32⟩ : BufTy).Contents (Elt F) → (⟨S5x6, .i1⟩ : BufTy).Contents (Elt F)),
    StableHlo.unary main_v11 main_v12 (uitofp .f32 : (⟨S5x6, .i1⟩ : BufTy).Contents (Elt F) → (⟨S5x6, .f32⟩ : BufTy).Contents (Elt F)),
    StableHlo.nullary main_cst_5 (constant S_ .f32 0x3F800000#32),
    StableHlo.unary main_cst_5 main_v13 (broadcastInDim S5x6 ![] bcast_S_S5x6 : (⟨S_, .f32⟩ : BufTy).Contents (Elt F) → (⟨S5x6, .f32⟩ : BufTy).Contents (Elt F)),
    StableHlo.binary main_v13 main_v6 main_v14 (subf : (⟨S5x6, .f32⟩ : BufTy).Contents (Elt F) → (⟨S5x6, .f32⟩ : BufTy).Contents (Elt F) → (⟨S5x6, .f32⟩ : BufTy).Contents (Elt F)),
    StableHlo.binary main_v14 main_v12 main_v15 (mulf : (⟨S5x6, .f32⟩ : BufTy).Contents (Elt F) → (⟨S5x6, .f32⟩ : BufTy).Contents (Elt F) → (⟨S5x6, .f32⟩ : BufTy).Contents (Elt F)),
    StableHlo.nullary main_cst_6 (constant S_ .f32 0x3F800000#32),
    StableHlo.unary main_cst_6 main_v16 (broadcastInDim S5x6 ![] bcast_S_S5x6 : (⟨S_, .f32⟩ : BufTy).Contents (Elt F) → (⟨S5x6, .f32⟩ : BufTy).Contents (Elt F)),
    StableHlo.binary main_v6 main_v16 main_v17 (mulf : (⟨S5x6, .f32⟩ : BufTy).Contents (Elt F) → (⟨S5x6, .f32⟩ : BufTy).Contents (Elt F) → (⟨S5x6, .f32⟩ : BufTy).Contents (Elt F)),
    StableHlo.binary main_v15 main_v17 main_v18 (addf : (⟨S5x6, .f32⟩ : BufTy).Contents (Elt F) → (⟨S5x6, .f32⟩ : BufTy).Contents (Elt F) → (⟨S5x6, .f32⟩ : BufTy).Contents (Elt F)),
    StableHlo.binary main_arg3 main_v18 main_v19 (mulf : (⟨S5x6, .f32⟩ : BufTy).Contents (Elt F) → (⟨S5x6, .f32⟩ : BufTy).Contents (Elt F) → (⟨S5x6, .f32⟩ : BufTy).Contents (Elt F)),
    StableHlo.TRef.binary (.of main_v19 : StableHlo.TRef sig ⟨S5x6, .f32⟩) (.of main_v19 : StableHlo.TRef sig ⟨S5x6, .f32⟩) main_call0.v0 mulf,
    StableHlo.TRef.nullary main_call0.cst (constant S_ .f32 0x00000000#32),
    StableHlo.TRef.binary main_call0.v0 main_call0.cst main_call0.v1 (fun x v => Host.reduceAdd x v reducesTo_S5x6_S5_d1 h_S_),
    StableHlo.TRef.unary main_call0.v1 main_call0.v2 (broadcastInDim S5x1 ![0] bcast_S5_S5x1_0),
    StableHlo.TRef.unary main_call0.v2 main_call0.v3 Host.sqrt,
    StableHlo.nullary main_cst_7 (constant S_ .f32 0x2B8CBCCC#32),
    StableHlo.unary main_cst_7 main_v21 (broadcastInDim S5x1 ![] bcast_S_S5x1 : (⟨S_, .f32⟩ : BufTy).Contents (Elt F) → (⟨S5x1, .f32⟩ : BufTy).Contents (Elt F)),
    StableHlo.binary main_v20 main_v21 main_v22 (maximumf : (⟨S5x1, .f32⟩ : BufTy).Contents (Elt F) → (⟨S5x1, .f32⟩ : BufTy).Contents (Elt F) → (⟨S5x1, .f32⟩ : BufTy).Contents (Elt F)),
    StableHlo.unary main_v22 main_v23 (broadcastInDim S5x6 ![0, 1] bcast_S5x1_S5x6_0_1 : (⟨S5x1, .f32⟩ : BufTy).Contents (Elt F) → (⟨S5x6, .f32⟩ : BufTy).Contents (Elt F)),
    StableHlo.binary main_v19 main_v23 main_v24 (Host.divf : (⟨S5x6, .f32⟩ : BufTy).Contents (Elt F) → (⟨S5x6, .f32⟩ : BufTy).Contents (Elt F) → (⟨S5x6, .f32⟩ : BufTy).Contents (Elt F)),
    StableHlo.reshape main_arg0 main_v25 rfl shapeCasts_S1024x6x30x9x9_S1024x6x2430,
    StableHlo.unary main_v25 main_v26 ((transpose S1024x2430x6 [0, 2, 1] · transposes_S1024x6x2430_S1024x2430x6_0_2_1) : (⟨S1024x6x2430, .f32⟩ : BufTy).Contents (Elt F) → (⟨S1024x2430x6, .f32⟩ : BufTy).Contents (Elt F)),
    StableHlo.reshape main_v26 main_v27 rfl shapeCasts_S1024x2430x6_S2488320x6,
    StableHlo.unary main_v24 main_v28 ((transpose S6x5 [1, 0] · transposes_S5x6_S6x5_1_0) : (⟨S5x6, .f32⟩ : BufTy).Contents (Elt F) → (⟨S6x5, .f32⟩ : BufTy).Contents (Elt F)),
    StableHlo.binary main_v27 main_v28 main_v29 ((fun l r => Host.dotGeneral dot_S2488320x6_S6x5_S2488320x5_1_0_0_1_n_n none l r) : (⟨S2488320x6, .f32⟩ : BufTy).Contents (Elt F) → (⟨S6x5, .f32⟩ : BufTy).Contents (Elt F) → (⟨S2488320x5, .f32⟩ : BufTy).Contents (Elt F)),
    StableHlo.TRef.binary (.of main_v29 : StableHlo.TRef sig ⟨S2488320x5, .f32⟩) (.of main_v29 : StableHlo.TRef sig ⟨S2488320x5, .f32⟩) main_call1.v0 mulf,
    StableHlo.TRef.nullary main_call1.cst (constant S_ .f32 0x00000000#32),
    StableHlo.TRef.binary main_call1.v0 main_call1.cst main_call1.v1 (fun x v => Host.reduceAdd x v reducesTo_S2488320x5_S5_d0 h_S_),
    StableHlo.TRef.unary main_call1.v1 main_call1.v2 (broadcastInDim S1x5 ![1] bcast_S5_S1x5_1),
    StableHlo.TRef.unary main_call1.v2 main_call1.v3 Host.sqrt,
    StableHlo.nullary main_cst_8 (constant S_ .f32 0x358637BD#32),
    StableHlo.unary main_cst_8 main_v31 (broadcastInDim S1x5 ![] bcast_S_S1x5 : (⟨S_, .f32⟩ : BufTy).Contents (Elt F) → (⟨S1x5, .f32⟩ : BufTy).Contents (Elt F)),
    StableHlo.binary main_v30 main_v31 main_v32 (maximumf : (⟨S1x5, .f32⟩ : BufTy).Contents (Elt F) → (⟨S1x5, .f32⟩ : BufTy).Contents (Elt F) → (⟨S1x5, .f32⟩ : BufTy).Contents (Elt F)),
    StableHlo.unary main_v32 main_v33 (broadcastInDim S2488320x5 ![0, 1] bcast_S1x5_S2488320x5_0_1 : (⟨S1x5, .f32⟩ : BufTy).Contents (Elt F) → (⟨S2488320x5, .f32⟩ : BufTy).Contents (Elt F)),
    StableHlo.binary main_v29 main_v33 main_v34 (Host.divf : (⟨S2488320x5, .f32⟩ : BufTy).Contents (Elt F) → (⟨S2488320x5, .f32⟩ : BufTy).Contents (Elt F) → (⟨S2488320x5, .f32⟩ : BufTy).Contents (Elt F)),
    StableHlo.reshape main_v34 main_v35 rfl shapeCasts_S2488320x5_S1024x2430x5,
    StableHlo.unary main_v35 main_v36 ((transpose S1024x5x2430 [0, 2, 1] · transposes_S1024x2430x5_S1024x5x2430_0_2_1) : (⟨S1024x2430x5, .f32⟩ : BufTy).Contents (Elt F) → (⟨S1024x5x2430, .f32⟩ : BufTy).Contents (Elt F)) ]

/-- Operations 57 … 101 of 261, in order. -/
abbrev opsB : List (HloOp τ sig (Elt F)) :=
  [ StableHlo.binary main_v36 main_v36 main_v37 ((fun l r => Host.dotGeneral dot_S1024x5x2430_S1024x5x2430_S1024x5x5_2_2_1_1_0_0 none l r) : (⟨S1024x5x2430, .f32⟩ : BufTy).Contents (Elt F) → (⟨S1024x5x2430, .f32⟩ : BufTy).Contents (Elt F) → (⟨S1024x5x5, .f32⟩ : BufTy).Contents (Elt F)),
    StableHlo.nullary main_cst_9 (constant S_ .f32 0x4517D000#32),
    StableHlo.unary main_cst_9 main_v38 (broadcastInDim S1024x5x5 ![] bcast_S_S1024x5x5 : (⟨S_, .f32⟩ : BufTy).Contents (Elt F) → (⟨S1024x5x5, .f32⟩ : BufTy).Contents (Elt F)),
    StableHlo.binary main_v37 main_v38 main_v39 (Host.divf : (⟨S1024x5x5, .f32⟩ : BufTy).Contents (Elt F) → (⟨S1024x5x5, .f32⟩ : BufTy).Contents (Elt F) → (⟨S1024x5x5, .f32⟩ : BufTy).Contents (Elt F)),
    StableHlo.nullary main_v40 (iotaInDim S5x5 32 0),
    StableHlo.nullary main_v41 (iotaInDim S5x5 32 1),
    StableHlo.nullary main_c_10 (constantI S_ 32 0#32),
    StableHlo.unary main_c_10 main_v42 (broadcastInDim S5x5 ![] bcast_S_S5x5 : (⟨S_, .i32⟩ : BufTy).Contents (Elt F) → (⟨S5x5, .i32⟩ : BufTy).Contents (Elt F)),
    StableHlo.binary main_v40 main_v42 main_v43 (addi : (⟨S5x5, .i32⟩ : BufTy).Contents (Elt F) → (⟨S5x5, .i32⟩ : BufTy).Contents (Elt F) → (⟨S5x5, .i32⟩ : BufTy).Contents (Elt F)),
    StableHlo.binary main_v43 main_v41 main_v44 (cmpi .eq : (⟨S5x5, .i32⟩ : BufTy).Contents (Elt F) → (⟨S5x5, .i32⟩ : BufTy).Contents (Elt F) → (⟨S5x5, .i1⟩ : BufTy).Contents (Elt F)),
    StableHlo.unary main_v44 main_v45 (uitofp .f32 : (⟨S5x5, .i1⟩ : BufTy).Contents (Elt F) → (⟨S5x5, .f32⟩ : BufTy).Contents (Elt F)),
    StableHlo.nullary main_cst_11 (constant S_ .f32 0x3727C5AC#32),
    StableHlo.unary main_cst_11 main_v46 (broadcastInDim S5x5 ![] bcast_S_S5x5 : (⟨S_, .f32⟩ : BufTy).Contents (Elt F) → (⟨S5x5, .f32⟩ : BufTy).Contents (Elt F)),
    StableHlo.binary main_v46 main_v45 main_v47 (mulf : (⟨S5x5, .f32⟩ : BufTy).Contents (Elt F) → (⟨S5x5, .f32⟩ : BufTy).Contents (Elt F) → (⟨S5x5, .f32⟩ : BufTy).Contents (Elt F)),
    StableHlo.unary main_v47 main_v48 (broadcastInDim S1x5x5 ![1, 2] bcast_S5x5_S1x5x5_1_2 : (⟨S5x5, .f32⟩ : BufTy).Contents (Elt F) → (⟨S1x5x5, .f32⟩ : BufTy).Contents (Elt F)),
    StableHlo.unary main_v48 main_v49 (broadcastInDim S1024x5x5 ![0, 1, 2] bcast_S1x5x5_S1024x5x5_0_1_2 : (⟨S1x5x5, .f32⟩ : BufTy).Contents (Elt F) → (⟨S1024x5x5, .f32⟩ : BufTy).Contents (Elt F)),
    StableHlo.binary main_v39 main_v49 main_v50 (addf : (⟨S1024x5x5, .f32⟩ : BufTy).Contents (Elt F) → (⟨S1024x5x5, .f32⟩ : BufTy).Contents (Elt F) → (⟨S1024x5x5, .f32⟩ : BufTy).Contents (Elt F)),
    StableHlo.nullary main_cst_12 (constant S_ .f32 0x3F800000#32),
    StableHlo.unary main_cst_12 main_v51 (broadcastInDim S5x5 ![] bcast_S_S5x5 : (⟨S_, .f32⟩ : BufTy).Contents (Elt F) → (⟨S5x5, .f32⟩ : BufTy).Contents (Elt F)),
    StableHlo.TRef.nullary main_call2.v0 (iotaInDim S5x5 32 0),
    StableHlo.TRef.nullary main_call2.c (constantI S_ 32 0#32),
    StableHlo.TRef.unary main_call2.c main_call2.v1 (broadcastInDim S5x5 ![] bcast_S_S5x5),
    StableHlo.TRef.binary main_call2.v0 main_call2.v1 main_call2.v2 addi,
    StableHlo.TRef.nullary main_call2.v3 (iotaInDim S5x5 32 1),
    StableHlo.TRef.binary main_call2.v2 main_call2.v3 main_call2.v4 (cmpi .sge),
    StableHlo.TRef.nullary main_call2.cst (constant S_ .f32 0x00000000#32),
    StableHlo.TRef.unary main_call2.cst main_call2.v5 (broadcastInDim S5x5 ![] bcast_S_S5x5),
    StableHlo.TRef.ternary main_call2.v4 main_call2.v5 (.of main_v51 : StableHlo.TRef sig ⟨S5x5, .f32⟩) main_call2.v6 select,
    StableHlo.nullary main_cst_13 (constant S_ .f32 0x00000000#32),
    StableHlo.binary main_v52 main_cst_13 main_v53 ((fun x v => Host.reduceAdd x v reducesTo_S5x5_S_d0_1 h_S_) : (⟨S5x5, .f32⟩ : BufTy).Contents (Elt F) → (⟨S_, .f32⟩ : BufTy).Contents (Elt F) → (⟨S_, .f32⟩ : BufTy).Contents (Elt F)),
    StableHlo.unary main_v52 main_v54 (broadcastInDim S1x5x5 ![1, 2] bcast_S5x5_S1x5x5_1_2 : (⟨S5x5, .f32⟩ : BufTy).Contents (Elt F) → (⟨S1x5x5, .f32⟩ : BufTy).Contents (Elt F)),
    StableHlo.unary main_v54 main_v55 (broadcastInDim S1024x5x5 ![0, 1, 2] bcast_S1x5x5_S1024x5x5_0_1_2 : (⟨S1x5x5, .f32⟩ : BufTy).Contents (Elt F) → (⟨S1024x5x5, .f32⟩ : BufTy).Contents (Elt F)),
    StableHlo.binary main_v50 main_v55 main_v56 (mulf : (⟨S1024x5x5, .f32⟩ : BufTy).Contents (Elt F) → (⟨S1024x5x5, .f32⟩ : BufTy).Contents (Elt F) → (⟨S1024x5x5, .f32⟩ : BufTy).Contents (Elt F)),
    StableHlo.unary main_v56 main_v57 (Host.absf : (⟨S1024x5x5, .f32⟩ : BufTy).Contents (Elt F) → (⟨S1024x5x5, .f32⟩ : BufTy).Contents (Elt F)),
    StableHlo.nullary main_cst_14 (constant S_ .f32 0x00000000#32),
    StableHlo.binary main_v57 main_cst_14 main_v58 ((fun x v => Host.reduceAdd x v reducesTo_S1024x5x5_S1024_d1_2 h_S_) : (⟨S1024x5x5, .f32⟩ : BufTy).Contents (Elt F) → (⟨S_, .f32⟩ : BufTy).Contents (Elt F) → (⟨S1024, .f32⟩ : BufTy).Contents (Elt F)),
    StableHlo.unary main_v53 main_v59 (broadcastInDim S1024 ![] bcast_S_S1024 : (⟨S_, .f32⟩ : BufTy).Contents (Elt F) → (⟨S1024, .f32⟩ : BufTy).Contents (Elt F)),
    StableHlo.binary main_v58 main_v59 main_v60 (Host.divf : (⟨S1024, .f32⟩ : BufTy).Contents (Elt F) → (⟨S1024, .f32⟩ : BufTy).Contents (Elt F) → (⟨S1024, .f32⟩ : BufTy).Contents (Elt F)),
    StableHlo.nullary main_cst_15 (constant S_ .f32 0x00000000#32),
    StableHlo.unary main_cst_15 main_v61 (broadcastInDim S1024 ![] bcast_S_S1024 : (⟨S_, .f32⟩ : BufTy).Contents (Elt F) → (⟨S1024, .f32⟩ : BufTy).Contents (Elt F)),
    StableHlo.binary main_v60 main_v61 main_v62 (maximumf : (⟨S1024, .f32⟩ : BufTy).Contents (Elt F) → (⟨S1024, .f32⟩ : BufTy).Contents (Elt F) → (⟨S1024, .f32⟩ : BufTy).Contents (Elt F)),
    StableHlo.nullary main_cst_16 (constant S_ .f32 0x00000000#32),
    StableHlo.binary main_v62 main_cst_16 main_v63 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.nullary main_cst_17 (constant S_ .f32 0x44800000#32),
    StableHlo.binary main_v63 main_cst_17 main_v64 (Host.divf : (⟨S_, .f32⟩ : BufTy).Contents (Elt F) → (⟨S_, .f32⟩ : BufTy).Contents (Elt F) → (⟨S_, .f32⟩ : BufTy).Contents (Elt F)) ]

/-- Operations 102 … 180 of 261, in order. -/
abbrev opsC : List (HloOp τ sig (Elt F)) :=
  [ StableHlo.nullary main_c_18 (constantI S_ 32 5#32),
    StableHlo.unary main_c_18 main_v65 (broadcastInDim S10 ![] bcast_S_S10 : (⟨S_, .i32⟩ : BufTy).Contents (Elt F) → (⟨S10, .i32⟩ : BufTy).Contents (Elt F)),
    StableHlo.binary main_c main_v65 main_v66 (addi : (⟨S10, .i32⟩ : BufTy).Contents (Elt F) → (⟨S10, .i32⟩ : BufTy).Contents (Elt F) → (⟨S10, .i32⟩ : BufTy).Contents (Elt F)),
    StableHlo.ternary main_c_0 main_v66 main_c main_v67 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v67 main_v68 (broadcastInDim S10x1 ![0] bcast_S10_S10x1_0 : (⟨S10, .i32⟩ : BufTy).Contents (Elt F) → (⟨S10x1, .i32⟩ : BufTy).Contents (Elt F)),
    StableHlo.binary main_v36 main_v68 main_v69 ((fun x i => Host.gather gather_S1024x5x2430_S10x1_S1024x10x2430_02_1_n_n_1_1_102412430 x i) : (⟨S1024x5x2430, .f32⟩ : BufTy).Contents (Elt F) → (⟨S10x1, .i32⟩ : BufTy).Contents (Elt F) → (⟨S1024x10x2430, .f32⟩ : BufTy).Contents (Elt F)),
    StableHlo.nullary main_c_19 (constantI S_ 32 5#32),
    StableHlo.unary main_c_19 main_v70 (broadcastInDim S10 ![] bcast_S_S10 : (⟨S_, .i32⟩ : BufTy).Contents (Elt F) → (⟨S10, .i32⟩ : BufTy).Contents (Elt F)),
    StableHlo.binary main_c_1 main_v70 main_v71 (addi : (⟨S10, .i32⟩ : BufTy).Contents (Elt F) → (⟨S10, .i32⟩ : BufTy).Contents (Elt F) → (⟨S10, .i32⟩ : BufTy).Contents (Elt F)),
    StableHlo.ternary main_c_2 main_v71 main_c_1 main_v72 (select : (⟨S10, .i1⟩ : BufTy).Contents (Elt F) → (⟨S10, .i32⟩ : BufTy).Contents (Elt F) → (⟨S10, .i32⟩ : BufTy).Contents (Elt F) → (⟨S10, .i32⟩ : BufTy).Contents (Elt F)),
    StableHlo.unary main_v72 main_v73 (broadcastInDim S10x1 ![0] bcast_S10_S10x1_0 : (⟨S10, .i32⟩ : BufTy).Contents (Elt F) → (⟨S10x1, .i32⟩ : BufTy).Contents (Elt F)),
    StableHlo.binary main_v36 main_v73 main_v74 ((fun x i => Host.gather gather_S1024x5x2430_S10x1_S1024x10x2430_02_1_n_n_1_1_102412430 x i) : (⟨S1024x5x2430, .f32⟩ : BufTy).Contents (Elt F) → (⟨S10x1, .i32⟩ : BufTy).Contents (Elt F) → (⟨S1024x10x2430, .f32⟩ : BufTy).Contents (Elt F)),
    StableHlo.nullary main_cst_20 (constant S_ .f32 0x358637BD#32),
    StableHlo.unary main_cst_20 main_v75 (broadcastInDim S1024x10x2430 ![] bcast_S_S1024x10x2430 : (⟨S_, .f32⟩ : BufTy).Contents (Elt F) → (⟨S1024x10x2430, .f32⟩ : BufTy).Contents (Elt F)),
    StableHlo.binary main_v74 main_v75 main_v76 (addf : (⟨S1024x10x2430, .f32⟩ : BufTy).Contents (Elt F) → (⟨S1024x10x2430, .f32⟩ : BufTy).Contents (Elt F) → (⟨S1024x10x2430, .f32⟩ : BufTy).Contents (Elt F)),
    StableHlo.nullary main_cst_21 (constant S_ .f32 0x3F800000#32),
    StableHlo.unary main_cst_21 main_v77 (broadcastInDim S1024x10x2430 ![] bcast_S_S1024x10x2430 : (⟨S_, .f32⟩ : BufTy).Contents (Elt F) → (⟨S1024x10x2430, .f32⟩ : BufTy).Contents (Elt F)),
    StableHlo.binary main_v77 main_v76 main_v78 (Host.divf : (⟨S1024x10x2430, .f32⟩ : BufTy).Contents (Elt F) → (⟨S1024x10x2430, .f32⟩ : BufTy).Contents (Elt F) → (⟨S1024x10x2430, .f32⟩ : BufTy).Contents (Elt F)),
    StableHlo.binary main_v69 main_v78 main_v79 (mulf : (⟨S1024x10x2430, .f32⟩ : BufTy).Contents (Elt F) → (⟨S1024x10x2430, .f32⟩ : BufTy).Contents (Elt F) → (⟨S1024x10x2430, .f32⟩ : BufTy).Contents (Elt F)),
    StableHlo.unary main_v79 main_v80 ((transpose S1024x2430x10 [0, 2, 1] · transposes_S1024x10x2430_S1024x2430x10_0_2_1) : (⟨S1024x10x2430, .f32⟩ : BufTy).Contents (Elt F) → (⟨S1024x2430x10, .f32⟩ : BufTy).Contents (Elt F)),
    StableHlo.reshape main_v80 main_v81 rfl shapeCasts_S1024x2430x10_S2488320x10,
    StableHlo.TRef.binary (.of main_v81 : StableHlo.TRef sig ⟨S2488320x10, .f32⟩) (.of main_v81 : StableHlo.TRef sig ⟨S2488320x10, .f32⟩) main_call3.v0 mulf,
    StableHlo.TRef.nullary main_call3.cst (constant S_ .f32 0x00000000#32),
    StableHlo.TRef.binary main_call3.v0 main_call3.cst main_call3.v1 (fun x v => Host.reduceAdd x v reducesTo_S2488320x10_S10_d0 h_S_),
    StableHlo.TRef.unary main_call3.v1 main_call3.v2 (broadcastInDim S1x10 ![1] bcast_S10_S1x10_1),
    StableHlo.TRef.unary main_call3.v2 main_call3.v3 Host.sqrt,
    StableHlo.nullary main_cst_22 (constant S_ .f32 0x358637BD#32),
    StableHlo.unary main_cst_22 main_v83 (broadcastInDim S1x10 ![] bcast_S_S1x10 : (⟨S_, .f32⟩ : BufTy).Contents (Elt F) → (⟨S1x10, .f32⟩ : BufTy).Contents (Elt F)),
    StableHlo.binary main_v82 main_v83 main_v84 (maximumf : (⟨S1x10, .f32⟩ : BufTy).Contents (Elt F) → (⟨S1x10, .f32⟩ : BufTy).Contents (Elt F) → (⟨S1x10, .f32⟩ : BufTy).Contents (Elt F)),
    StableHlo.unary main_v84 main_v85 (broadcastInDim S2488320x10 ![0, 1] bcast_S1x10_S2488320x10_0_1 : (⟨S1x10, .f32⟩ : BufTy).Contents (Elt F) → (⟨S2488320x10, .f32⟩ : BufTy).Contents (Elt F)),
    StableHlo.binary main_v81 main_v85 main_v86 (Host.divf : (⟨S2488320x10, .f32⟩ : BufTy).Contents (Elt F) → (⟨S2488320x10, .f32⟩ : BufTy).Contents (Elt F) → (⟨S2488320x10, .f32⟩ : BufTy).Contents (Elt F)),
    StableHlo.reshape main_v86 main_v87 rfl shapeCasts_S2488320x10_S1024x2430x10,
    StableHlo.unary main_v87 main_v88 ((transpose S1024x10x2430 [0, 2, 1] · transposes_S1024x2430x10_S1024x10x2430_0_2_1) : (⟨S1024x2430x10, .f32⟩ : BufTy).Contents (Elt F) → (⟨S1024x10x2430, .f32⟩ : BufTy).Contents (Elt F)),
    StableHlo.binary main_v88 main_v88 main_v89 ((fun l r => Host.dotGeneral dot_S1024x10x2430_S1024x10x2430_S1024x10x10_2_2_1_1_0_0 none l r) : (⟨S1024x10x2430, .f32⟩ : BufTy).Contents (Elt F) → (⟨S1024x10x2430, .f32⟩ : BufTy).Contents (Elt F) → (⟨S1024x10x10, .f32⟩ : BufTy).Contents (Elt F)),
    StableHlo.nullary main_cst_23 (constant S_ .f32 0x4517D000#32),
    StableHlo.unary main_cst_23 main_v90 (broadcastInDim S1024x10x10 ![] bcast_S_S1024x10x10 : (⟨S_, .f32⟩ : BufTy).Contents (Elt F) → (⟨S1024x10x10, .f32⟩ : BufTy).Contents (Elt F)),
    StableHlo.binary main_v89 main_v90 main_v91 (Host.divf : (⟨S1024x10x10, .f32⟩ : BufTy).Contents (Elt F) → (⟨S1024x10x10, .f32⟩ : BufTy).Contents (Elt F) → (⟨S1024x10x10, .f32⟩ : BufTy).Contents (Elt F)),
    StableHlo.nullary main_v92 (iotaInDim S10x10 32 0),
    StableHlo.nullary main_v93 (iotaInDim S10x10 32 1),
    StableHlo.nullary main_c_24 (constantI S_ 32 0#32),
    StableHlo.unary main_c_24 main_v94 (broadcastInDim S10x10 ![] bcast_S_S10x10 : (⟨S_, .i32⟩ : BufTy).Contents (Elt F) → (⟨S10x10, .i32⟩ : BufTy).Contents (Elt F)),
    StableHlo.binary main_v92 main_v94 main_v95 (addi : (⟨S10x10, .i32⟩ : BufTy).Contents (Elt F) → (⟨S10x10, .i32⟩ : BufTy).Contents (Elt F) → (⟨S10x10, .i32⟩ : BufTy).Contents (Elt F)),
    StableHlo.binary main_v95 main_v93 main_v96 (cmpi .eq : (⟨S10x10, .i32⟩ : BufTy).Contents (Elt F) → (⟨S10x10, .i32⟩ : BufTy).Contents (Elt F) → (⟨S10x10, .i1⟩ : BufTy).Contents (Elt F)),
    StableHlo.unary main_v96 main_v97 (uitofp .f32 : (⟨S10x10, .i1⟩ : BufTy).Contents (Elt F) → (⟨S10x10, .f32⟩ : BufTy).Contents (Elt F)),
    StableHlo.nullary main_cst_25 (constant S_ .f32 0x3727C5AC#32),
    StableHlo.unary main_cst_25 main_v98 (broadcastInDim S10x10 ![] bcast_S_S10x10 : (⟨S_, .f32⟩ : BufTy).Contents (Elt F) → (⟨S10x10, .f32⟩ : BufTy).Contents (Elt F)),
    StableHlo.binary main_v98 main_v97 main_v99 (mulf : (⟨S10x10, .f32⟩ : BufTy).Contents (Elt F) → (⟨S10x10, .f32⟩ : BufTy).Contents (Elt F) → (⟨S10x10, .f32⟩ : BufTy).Contents (Elt F)),
    StableHlo.unary main_v99 main_v100 (broadcastInDim S1x10x10 ![1, 2] bcast_S10x10_S1x10x10_1_2 : (⟨S10x10, .f32⟩ : BufTy).Contents (Elt F) → (⟨S1x10x10, .f32⟩ : BufTy).Contents (Elt F)),
    StableHlo.unary main_v100 main_v101 (broadcastInDim S1024x10x10 ![0, 1, 2] bcast_S1x10x10_S1024x10x10_0_1_2 : (⟨S1x10x10, .f32⟩ : BufTy).Contents (Elt F) → (⟨S1024x10x10, .f32⟩ : BufTy).Contents (Elt F)),
    StableHlo.binary main_v91 main_v101 main_v102 (addf : (⟨S1024x10x10, .f32⟩ : BufTy).Contents (Elt F) → (⟨S1024x10x10, .f32⟩ : BufTy).Contents (Elt F) → (⟨S1024x10x10, .f32⟩ : BufTy).Contents (Elt F)),
    StableHlo.nullary main_cst_26 (constant S_ .f32 0x3F800000#32),
    StableHlo.unary main_cst_26 main_v103 (broadcastInDim S10x10 ![] bcast_S_S10x10 : (⟨S_, .f32⟩ : BufTy).Contents (Elt F) → (⟨S10x10, .f32⟩ : BufTy).Contents (Elt F)),
    StableHlo.TRef.nullary main_call4.v0 (iotaInDim S10x10 32 0),
    StableHlo.TRef.nullary main_call4.c (constantI S_ 32 0#32),
    StableHlo.TRef.unary main_call4.c main_call4.v1 (broadcastInDim S10x10 ![] bcast_S_S10x10),
    StableHlo.TRef.binary main_call4.v0 main_call4.v1 main_call4.v2 addi,
    StableHlo.TRef.nullary main_call4.v3 (iotaInDim S10x10 32 1),
    StableHlo.TRef.binary main_call4.v2 main_call4.v3 main_call4.v4 (cmpi .sge),
    StableHlo.TRef.nullary main_call4.cst (constant S_ .f32 0x00000000#32),
    StableHlo.TRef.unary main_call4.cst main_call4.v5 (broadcastInDim S10x10 ![] bcast_S_S10x10),
    StableHlo.TRef.ternary main_call4.v4 main_call4.v5 (.of main_v103 : StableHlo.TRef sig ⟨S10x10, .f32⟩) main_call4.v6 select,
    StableHlo.nullary main_cst_27 (constant S_ .f32 0x00000000#32),
    StableHlo.binary main_v104 main_cst_27 main_v105 ((fun x v => Host.reduceAdd x v reducesTo_S10x10_S_d0_1 h_S_) : (⟨S10x10, .f32⟩ : BufTy).Contents (Elt F) → (⟨S_, .f32⟩ : BufTy).Contents (Elt F) → (⟨S_, .f32⟩ : BufTy).Contents (Elt F)),
    StableHlo.unary main_v104 main_v106 (broadcastInDim S1x10x10 ![1, 2] bcast_S10x10_S1x10x10_1_2 : (⟨S10x10, .f32⟩ : BufTy).Contents (Elt F) → (⟨S1x10x10, .f32⟩ : BufTy).Contents (Elt F)),
    StableHlo.unary main_v106 main_v107 (broadcastInDim S1024x10x10 ![0, 1, 2] bcast_S1x10x10_S1024x10x10_0_1_2 : (⟨S1x10x10, .f32⟩ : BufTy).Contents (Elt F) → (⟨S1024x10x10, .f32⟩ : BufTy).Contents (Elt F)),
    StableHlo.binary main_v102 main_v107 main_v108 (mulf : (⟨S1024x10x10, .f32⟩ : BufTy).Contents (Elt F) → (⟨S1024x10x10, .f32⟩ : BufTy).Contents (Elt F) → (⟨S1024x10x10, .f32⟩ : BufTy).Contents (Elt F)),
    StableHlo.unary main_v108 main_v109 (Host.absf : (⟨S1024x10x10, .f32⟩ : BufTy).Contents (Elt F) → (⟨S1024x10x10, .f32⟩ : BufTy).Contents (Elt F)),
    StableHlo.nullary main_cst_28 (constant S_ .f32 0x00000000#32),
    StableHlo.binary main_v109 main_cst_28 main_v110 ((fun x v => Host.reduceAdd x v reducesTo_S1024x10x10_S1024_d1_2 h_S_) : (⟨S1024x10x10, .f32⟩ : BufTy).Contents (Elt F) → (⟨S_, .f32⟩ : BufTy).Contents (Elt F) → (⟨S1024, .f32⟩ : BufTy).Contents (Elt F)),
    StableHlo.unary main_v105 main_v111 (broadcastInDim S1024 ![] bcast_S_S1024 : (⟨S_, .f32⟩ : BufTy).Contents (Elt F) → (⟨S1024, .f32⟩ : BufTy).Contents (Elt F)),
    StableHlo.binary main_v110 main_v111 main_v112 (Host.divf : (⟨S1024, .f32⟩ : BufTy).Contents (Elt F) → (⟨S1024, .f32⟩ : BufTy).Contents (Elt F) → (⟨S1024, .f32⟩ : BufTy).Contents (Elt F)),
    StableHlo.nullary main_cst_29 (constant S_ .f32 0x00000000#32),
    StableHlo.unary main_cst_29 main_v113 (broadcastInDim S1024 ![] bcast_S_S1024 : (⟨S_, .f32⟩ : BufTy).Contents (Elt F) → (⟨S1024, .f32⟩ : BufTy).Contents (Elt F)),
    StableHlo.binary main_v112 main_v113 main_v114 (maximumf : (⟨S1024, .f32⟩ : BufTy).Contents (Elt F) → (⟨S1024, .f32⟩ : BufTy).Contents (Elt F) → (⟨S1024, .f32⟩ : BufTy).Contents (Elt F)),
    StableHlo.nullary main_cst_30 (constant S_ .f32 0x00000000#32),
    StableHlo.binary main_v114 main_cst_30 main_v115 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    StableHlo.nullary main_cst_31 (constant S_ .f32 0x44800000#32),
    StableHlo.binary main_v115 main_cst_31 main_v116 (Host.divf : (⟨S_, .f32⟩ : BufTy).Contents (Elt F) → (⟨S_, .f32⟩ : BufTy).Contents (Elt F) → (⟨S_, .f32⟩ : BufTy).Contents (Elt F)),
    StableHlo.reshape main_v88 main_v117 rfl shapeCasts_S1024x10x2430_S1024x10x30x9x9 ]

/-- Operations 181 … 261 of 261, in order. -/
abbrev opsD : List (HloOp τ sig (Elt F)) :=
  [ StableHlo.TRef.binary (.of main_arg5 : StableHlo.TRef sig ⟨S8x128, .f32⟩) (.of main_arg5 : StableHlo.TRef sig ⟨S8x128, .f32⟩) main_call5.v0 mulf,
    StableHlo.TRef.nullary main_call5.cst (constant S_ .f32 0x00000000#32),
    StableHlo.TRef.binary main_call5.v0 main_call5.cst main_call5.v1 (fun x v => Host.reduceAdd x v reducesTo_S8x128_S8_d1 h_S_),
    StableHlo.TRef.unary main_call5.v1 main_call5.v2 (broadcastInDim S8x1 ![0] bcast_S8_S8x1_0),
    StableHlo.TRef.unary main_call5.v2 main_call5.v3 Host.sqrt,
    StableHlo.nullary main_cst_32 (constant S_ .f32 0x2B8CBCCC#32),
    StableHlo.unary main_cst_32 main_v119 (broadcastInDim S8x1 ![] bcast_S_S8x1 : (⟨S_, .f32⟩ : BufTy).Contents (Elt F) → (⟨S8x1, .f32⟩ : BufTy).Contents (Elt F)),
    StableHlo.binary main_v118 main_v119 main_v120 (maximumf : (⟨S8x1, .f32⟩ : BufTy).Contents (Elt F) → (⟨S8x1, .f32⟩ : BufTy).Contents (Elt F) → (⟨S8x1, .f32⟩ : BufTy).Contents (Elt F)),
    StableHlo.unary main_v120 main_v121 (broadcastInDim S8x128 ![0, 1] bcast_S8x1_S8x128_0_1 : (⟨S8x1, .f32⟩ : BufTy).Contents (Elt F) → (⟨S8x128, .f32⟩ : BufTy).Contents (Elt F)),
    StableHlo.binary main_arg5 main_v121 main_v122 (Host.divf : (⟨S8x128, .f32⟩ : BufTy).Contents (Elt F) → (⟨S8x128, .f32⟩ : BufTy).Contents (Elt F) → (⟨S8x128, .f32⟩ : BufTy).Contents (Elt F)),
    StableHlo.TRef.binary (.of main_arg1 : StableHlo.TRef sig ⟨S100000x128, .f32⟩) (.of main_arg1 : StableHlo.TRef sig ⟨S100000x128, .f32⟩) main_call6.v0 mulf,
    StableHlo.TRef.nullary main_call6.cst (constant S_ .f32 0x00000000#32),
    StableHlo.TRef.binary main_call6.v0 main_call6.cst main_call6.v1 (fun x v => Host.reduceAdd x v reducesTo_S100000x128_S100000_d1 h_S_),
    StableHlo.TRef.unary main_call6.v1 main_call6.v2 (broadcastInDim S100000x1 ![0] bcast_S100000_S100000x1_0),
    StableHlo.TRef.unary main_call6.v2 main_call6.v3 Host.sqrt,
    StableHlo.nullary main_cst_33 (constant S_ .f32 0x2B8CBCCC#32),
    StableHlo.unary main_cst_33 main_v124 (broadcastInDim S100000x1 ![] bcast_S_S100000x1 : (⟨S_, .f32⟩ : BufTy).Contents (Elt F) → (⟨S100000x1, .f32⟩ : BufTy).Contents (Elt F)),
    StableHlo.binary main_v123 main_v124 main_v125 (maximumf : (⟨S100000x1, .f32⟩ : BufTy).Contents (Elt F) → (⟨S100000x1, .f32⟩ : BufTy).Contents (Elt F) → (⟨S100000x1, .f32⟩ : BufTy).Contents (Elt F)),
    StableHlo.unary main_v125 main_v126 (broadcastInDim S100000x128 ![0, 1] bcast_S100000x1_S100000x128_0_1 : (⟨S100000x1, .f32⟩ : BufTy).Contents (Elt F) → (⟨S100000x128, .f32⟩ : BufTy).Contents (Elt F)),
    StableHlo.binary main_arg1 main_v126 main_v127 (Host.divf : (⟨S100000x128, .f32⟩ : BufTy).Contents (Elt F) → (⟨S100000x128, .f32⟩ : BufTy).Contents (Elt F) → (⟨S100000x128, .f32⟩ : BufTy).Contents (Elt F)),
    StableHlo.nullary main_c_34 (constantI S_ 32 0#32),
    StableHlo.unary main_c_34 main_v128 (broadcastInDim S100000 ![] bcast_S_S100000 : (⟨S_, .i32⟩ : BufTy).Contents (Elt F) → (⟨S100000, .i32⟩ : BufTy).Contents (Elt F)),
    StableHlo.binary main_arg6 main_v128 main_v129 (cmpi .slt : (⟨S100000, .i32⟩ : BufTy).Contents (Elt F) → (⟨S100000, .i32⟩ : BufTy).Contents (Elt F) → (⟨S100000, .i1⟩ : BufTy).Contents (Elt F)),
    StableHlo.nullary main_c_35 (constantI S_ 32 8#32),
    StableHlo.unary main_c_35 main_v130 (broadcastInDim S100000 ![] bcast_S_S100000 : (⟨S_, .i32⟩ : BufTy).Contents (Elt F) → (⟨S100000, .i32⟩ : BufTy).Contents (Elt F)),
    StableHlo.binary main_arg6 main_v130 main_v131 (addi : (⟨S100000, .i32⟩ : BufTy).Contents (Elt F) → (⟨S100000, .i32⟩ : BufTy).Contents (Elt F) → (⟨S100000, .i32⟩ : BufTy).Contents (Elt F)),
    StableHlo.ternary main_v129 main_v131 main_arg6 main_v132 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v132 main_v133 (broadcastInDim S100000x1 ![0] bcast_S100000_S100000x1_0 : (⟨S100000, .i32⟩ : BufTy).Contents (Elt F) → (⟨S100000x1, .i32⟩ : BufTy).Contents (Elt F)),
    StableHlo.binary main_v122 main_v133 main_v134 ((fun x i => Host.gather gather_S8x128_S100000x1_S100000x128_1_0_n_n_0_1_1128 x i) : (⟨S8x128, .f32⟩ : BufTy).Contents (Elt F) → (⟨S100000x1, .i32⟩ : BufTy).Contents (Elt F) → (⟨S100000x128, .f32⟩ : BufTy).Contents (Elt F)),
    StableHlo.binary main_v127 main_v134 main_v135 (mulf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x00000000#32),
    StableHlo.binary main_v135 main_cst_36 main_v136 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.nullary main_c_37 (constantI S_ 32 1#32),
    StableHlo.unary main_c_37 main_v137 (broadcastInDim S100000 ![] bcast_S_S100000 : (⟨S_, .i32⟩ : BufTy).Contents (Elt F) → (⟨S100000, .i32⟩ : BufTy).Contents (Elt F)),
    StableHlo.binary main_arg6 main_v137 main_v138 (cmpi .sge : (⟨S100000, .i32⟩ : BufTy).Contents (Elt F) → (⟨S100000, .i32⟩ : BufTy).Contents (Elt F) → (⟨S100000, .i1⟩ : BufTy).Contents (Elt F)),
    StableHlo.nullary main_cst_38 (constant S_ .f32 0x3F800000#32),
    StableHlo.unary main_cst_38 main_v139 (broadcastInDim S100000 ![] bcast_S_S100000 : (⟨S_, .f32⟩ : BufTy).Contents (Elt F) → (⟨S100000, .f32⟩ : BufTy).Contents (Elt F)),
    StableHlo.binary main_v139 main_v136 main_v140 (subf : (⟨S100000, .f32⟩ : BufTy).Contents (Elt F) → (⟨S100000, .f32⟩ : BufTy).Contents (Elt F) → (⟨S100000, .f32⟩ : BufTy).Contents (Elt F)),
    StableHlo.nullary main_cst_39 (constant S_ .f32 0x00000000#32),
    StableHlo.TRef.unary (.of main_cst_39 : StableHlo.TRef sig ⟨S_, .f32⟩) main_call7.v0 id,
    StableHlo.TRef.unary main_call7.v0 main_call7.v1 (broadcastInDim S100000 ![] bcast_S_S100000),
    StableHlo.TRef.ternary (.of main_v138 : StableHlo.TRef sig ⟨S100000, .i1⟩) (.of main_v140 : StableHlo.TRef sig ⟨S100000, .f32⟩) main_call7.v1 main_call7.v2 select,
    StableHlo.nullary main_cst_40 (constant S_ .f32 0x00000000#32),
    StableHlo.binary main_v141 main_cst_40 main_v142 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.TRef.binary (.of main_arg2 : StableHlo.TRef sig ⟨S100000x128, .f32⟩) (.of main_arg2 : StableHlo.TRef sig ⟨S100000x128, .f32⟩) main_call8.v0 mulf,
    StableHlo.TRef.nullary main_call8.cst (constant S_ .f32 0x00000000#32),
    StableHlo.TRef.binary main_call8.v0 main_call8.cst main_call8.v1 (fun x v => Host.reduceAdd x v reducesTo_S100000x128_S100000_d1 h_S_),
    StableHlo.TRef.unary main_call8.v1 main_call8.v2 (broadcastInDim S100000x1 ![0] bcast_S100000_S100000x1_0),
    StableHlo.TRef.unary main_call8.v2 main_call8.v3 Host.sqrt,
    StableHlo.nullary main_cst_41 (constant S_ .f32 0x2B8CBCCC#32),
    StableHlo.unary main_cst_41 main_v144 (broadcastInDim S100000x1 ![] bcast_S_S100000x1 : (⟨S_, .f32⟩ : BufTy).Contents (Elt F) → (⟨S100000x1, .f32⟩ : BufTy).Contents (Elt F)),
    StableHlo.binary main_v143 main_v144 main_v145 (maximumf : (⟨S100000x1, .f32⟩ : BufTy).Contents (Elt F) → (⟨S100000x1, .f32⟩ : BufTy).Contents (Elt F) → (⟨S100000x1, .f32⟩ : BufTy).Contents (Elt F)),
    StableHlo.unary main_v145 main_v146 (broadcastInDim S100000x128 ![0, 1] bcast_S100000x1_S100000x128_0_1 : (⟨S100000x1, .f32⟩ : BufTy).Contents (Elt F) → (⟨S100000x128, .f32⟩ : BufTy).Contents (Elt F)),
    StableHlo.binary main_arg2 main_v146 main_v147 (Host.divf : (⟨S100000x128, .f32⟩ : BufTy).Contents (Elt F) → (⟨S100000x128, .f32⟩ : BufTy).Contents (Elt F) → (⟨S100000x128, .f32⟩ : BufTy).Contents (Elt F)),
    StableHlo.nullary main_c_42 (constantI S_ 32 0#32),
    StableHlo.unary main_c_42 main_v148 (broadcastInDim S100000 ![] bcast_S_S100000 : (⟨S_, .i32⟩ : BufTy).Contents (Elt F) → (⟨S100000, .i32⟩ : BufTy).Contents (Elt F)),
    StableHlo.binary main_arg7 main_v148 main_v149 (cmpi .slt : (⟨S100000, .i32⟩ : BufTy).Contents (Elt F) → (⟨S100000, .i32⟩ : BufTy).Contents (Elt F) → (⟨S100000, .i1⟩ : BufTy).Contents (Elt F)),
    StableHlo.nullary main_c_43 (constantI S_ 32 8#32),
    StableHlo.unary main_c_43 main_v150 (broadcastInDim S100000 ![] bcast_S_S100000 : (⟨S_, .i32⟩ : BufTy).Contents (Elt F) → (⟨S100000, .i32⟩ : BufTy).Contents (Elt F)),
    StableHlo.binary main_arg7 main_v150 main_v151 (addi : (⟨S100000, .i32⟩ : BufTy).Contents (Elt F) → (⟨S100000, .i32⟩ : BufTy).Contents (Elt F) → (⟨S100000, .i32⟩ : BufTy).Contents (Elt F)),
    StableHlo.ternary main_v149 main_v151 main_arg7 main_v152 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v152 main_v153 (broadcastInDim S100000x1 ![0] bcast_S100000_S100000x1_0 : (⟨S100000, .i32⟩ : BufTy).Contents (Elt F) → (⟨S100000x1, .i32⟩ : BufTy).Contents (Elt F)),
    StableHlo.binary main_v122 main_v153 main_v154 ((fun x i => Host.gather gather_S8x128_S100000x1_S100000x128_1_0_n_n_0_1_1128 x i) : (⟨S8x128, .f32⟩ : BufTy).Contents (Elt F) → (⟨S100000x1, .i32⟩ : BufTy).Contents (Elt F) → (⟨S100000x128, .f32⟩ : BufTy).Contents (Elt F)),
    StableHlo.binary main_v147 main_v154 main_v155 (mulf : (⟨S100000x128, .f32⟩ : BufTy).Contents (Elt F) → (⟨S100000x128, .f32⟩ : BufTy).Contents (Elt F) → (⟨S100000x128, .f32⟩ : BufTy).Contents (Elt F)),
    StableHlo.nullary main_cst_44 (constant S_ .f32 0x00000000#32),
    StableHlo.binary main_v155 main_cst_44 main_v156 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.nullary main_c_45 (constantI S_ 32 1#32),
    StableHlo.unary main_c_45 main_v157 (broadcastInDim S100000 ![] bcast_S_S100000 : (⟨S_, .i32⟩ : BufTy).Contents (Elt F) → (⟨S100000, .i32⟩ : BufTy).Contents (Elt F)),
    StableHlo.binary main_arg7 main_v157 main_v158 (cmpi .sge : (⟨S100000, .i32⟩ : BufTy).Contents (Elt F) → (⟨S100000, .i32⟩ : BufTy).Contents (Elt F) → (⟨S100000, .i1⟩ : BufTy).Contents (Elt F)),
    StableHlo.nullary main_cst_46 (constant S_ .f32 0x3F800000#32),
    StableHlo.unary main_cst_46 main_v159 (broadcastInDim S100000 ![] bcast_S_S100000 : (⟨S_, .f32⟩ : BufTy).Contents (Elt F) → (⟨S100000, .f32⟩ : BufTy).Contents (Elt F)),
    StableHlo.binary main_v159 main_v156 main_v160 (subf : (⟨S100000, .f32⟩ : BufTy).Contents (Elt F) → (⟨S100000, .f32⟩ : BufTy).Contents (Elt F) → (⟨S100000, .f32⟩ : BufTy).Contents (Elt F)),
    StableHlo.nullary main_cst_47 (constant S_ .f32 0x00000000#32),
    StableHlo.TRef.unary (.of main_cst_47 : StableHlo.TRef sig ⟨S_, .f32⟩) main_call9.v0 id,
    StableHlo.TRef.unary main_call9.v0 main_call9.v1 (broadcastInDim S100000 ![] bcast_S_S100000),
    StableHlo.TRef.ternary (.of main_v158 : StableHlo.TRef sig ⟨S100000, .i1⟩) (.of main_v160 : StableHlo.TRef sig ⟨S100000, .f32⟩) main_call9.v1 main_call9.v2 select,
    StableHlo.nullary main_cst_48 (constant S_ .f32 0x00000000#32),
    StableHlo.binary main_v161 main_cst_48 main_v162 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.binary main_v142 main_v162 main_v163 (addf : (⟨S_, .f32⟩ : BufTy).Contents (Elt F) → (⟨S_, .f32⟩ : BufTy).Contents (Elt F) → (⟨S_, .f32⟩ : BufTy).Contents (Elt F)),
    StableHlo.binary main_v64 main_v116 main_v164 (addf : (⟨S_, .f32⟩ : BufTy).Contents (Elt F) → (⟨S_, .f32⟩ : BufTy).Contents (Elt F) → (⟨S_, .f32⟩ : BufTy).Contents (Elt F)),
    StableHlo.binary main_v164 main_v163 main_v165 (addf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := opsA ++ opsB ++ opsC ++ opsD

/-- The stretch of the line that is window `main_part0`: 68 operations. -/
def main_part0_ops : List (HloOp τ sig (Elt F)) := opsA ++ (opsB.take 12)

/-- The stretch of the line that is window `main_part1`: 72 operations. -/
def main_part1_ops : List (HloOp τ sig (Elt F)) := (opsB.drop 12) ++ (opsC.take 39)

/-- The stretch of the line that is window `main_part2`: 76 operations. -/
def main_part2_ops : List (HloOp τ sig (Elt F)) := (opsC.drop 39) ++ (opsD.take 36)

/-- The stretch of the line that is window `main_part3`: 45 operations. -/
def main_part3_ops : List (HloOp τ sig (Elt F)) := (opsD.drop 36)

set_option maxRecDepth 8192 in
set_option maxHeartbeats 4000000 in
/-- Window `main_part0` is its stretch run in order: a called function's body is its statements, and sequencing associates. -/
theorem main_part0_eq (c : Dev nD) : main_part0 (F := F) c = seq main_part0_ops := rfl

set_option maxRecDepth 8192 in
set_option maxHeartbeats 4000000 in
/-- Window `main_part1` is its stretch run in order: a called function's body is its statements, and sequencing associates. -/
theorem main_part1_eq (c : Dev nD) : main_part1 (F := F) c = seq main_part1_ops := rfl

set_option maxRecDepth 8192 in
set_option maxHeartbeats 4000000 in
/-- Window `main_part2` is its stretch run in order: a called function's body is its statements, and sequencing associates. -/
theorem main_part2_eq (c : Dev nD) : main_part2 (F := F) c = seq main_part2_ops := rfl

set_option maxRecDepth 8192 in
set_option maxHeartbeats 4000000 in
/-- Window `main_part3` is its stretch run in order: a called function's body is its statements, and sequencing associates. -/
theorem main_part3_eq (c : Dev nD) : main_part3 (F := F) c = seq main_part3_ops := rfl

set_option maxRecDepth 8192 in
/-- The four lists end to end are the windows' stretches end to end. -/
theorem ops_eq_windows : (ops : List (HloOp τ sig (Elt F))) = main_part0_ops ++ (main_part1_ops ++ (main_part2_ops ++ (main_part3_ops))) := rfl

/-- @main is the line. -/
theorem main_eq (c : Dev nD) : main (F := F) c = seq ops := by
  rw [ops_eq_windows, seq_append, seq_append, seq_append, ← main_part0_eq c, ← main_part1_eq c, ← main_part2_eq c, ← main_part3_eq c]
  rfl

/-- No buffer and no semaphore of the signature is scoped. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of `opsA` touches TensorCore buffers only. -/
theorem opsA_sub : (opsA : List (HloOp τ sig (Elt F))).Forall fun op => op.bufs ⊆ tcRefs τ sig :=
  ⟨nullary_bufs_sub .., nullary_bufs_sub .., nullary_bufs_sub .., nullary_bufs_sub .., unary_bufs_sub .., nullary_bufs_sub .., unary_bufs_sub .., binary_bufs_sub .., nullary_bufs_sub .., unary_bufs_sub .., binary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., reshape_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub ..⟩

set_option maxRecDepth 8192 in
/-- Every operation of `opsA` determines all it writes. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsB` touches TensorCore buffers only. -/
theorem opsB_sub : (opsB : List (HloOp τ sig (Elt F))).Forall fun op => op.bufs ⊆ tcRefs τ sig :=
  ⟨binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., binary_bufs_sub .., nullary_bufs_sub .., unary_bufs_sub .., binary_bufs_sub .., nullary_bufs_sub .., binary_bufs_sub .., nullary_bufs_sub .., binary_bufs_sub ..⟩

set_option maxRecDepth 8192 in
/-- Every operation of `opsB` determines all it writes. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsC` touches TensorCore buffers only. -/
theorem opsC_sub : (opsC : List (HloOp τ sig (Elt F))).Forall fun op => op.bufs ⊆ tcRefs τ sig :=
  ⟨nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., binary_bufs_sub .., nullary_bufs_sub .., unary_bufs_sub .., binary_bufs_sub .., nullary_bufs_sub .., binary_bufs_sub .., nullary_bufs_sub .., binary_bufs_sub .., reshape_bufs_sub ..⟩

set_option maxRecDepth 8192 in
/-- Every operation of `opsC` determines all it writes. -/
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Every operation of `opsD` touches TensorCore buffers only. -/
theorem opsD_sub : (opsD : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., binary_bufs_sub .., binary_bufs_sub ..⟩

set_option maxRecDepth 8192 in
/-- Every operation of `opsD` determines all it writes. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line touches TensorCore buffers only. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · exact List.forall_iff_forall_mem.mp opsA_sub op h
        · exact List.forall_iff_forall_mem.mp opsB_sub op h
      · exact List.forall_iff_forall_mem.mp opsC_sub op h
    · exact List.forall_iff_forall_mem.mp opsD_sub op h

/-- Every operation of the line determines all it writes. -/
theorem ops_fresh : ∀ op ∈ (ops : List (HloOp τ sig (Elt F))), op.fresh = ∅ := fun op h => by
    rcases List.mem_append.mp h with h | h
    · rcases List.mem_append.mp h with h | h
      · rcases List.mem_append.mp h with h | h
        · exact List.forall_iff_forall_mem.mp opsA_fresh op h
        · exact List.forall_iff_forall_mem.mp opsB_fresh op h
      · exact List.forall_iff_forall_mem.mp opsC_fresh op h
    · exact List.forall_iff_forall_mem.mp opsD_fresh op h

/-- On the device, for any float values, from any memory with zero counters: every weakly fair execution of @main
    terminates, and every final state has each buffer at the fold of the line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKeep.lean ====
/- What the reference's four lists of operations leave alone. A list of operations changes only the buffers its
   operations write; every operation writes one buffer, and a buffer different from each of those holds after the
   list what it held before. So each of the program's eight arguments passes unchanged through each list, and a
   result of an earlier list that a later one reads passes unchanged through the lists in between. -/
import proofs.«414715_j46866683134133_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffer is none of the buffers the literal list's operations write: each operation's written set is the
    singleton of its result, and the buffer differs from each result as a reference. -/
local macro "not_written" l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ### The eight arguments through `opsA` -/

theorem opsA_main_arg0 (V : Valuation τ sig (Elt F)) :
    after opsA V (Proc.devRef .tc main_arg0) = V (Proc.devRef .tc main_arg0) := by not_written opsA
theorem opsA_main_arg1 (V : Valuation τ sig (Elt F)) :
    after opsA V (Proc.devRef .tc main_arg1) = V (Proc.devRef .tc main_arg1) := by not_written opsA
theorem opsA_main_arg2 (V : Valuation τ sig (Elt F)) :
    after opsA V (Proc.devRef .tc main_arg2) = V (Proc.devRef .tc main_arg2) := by not_written opsA
theorem opsA_main_arg3 (V : Valuation τ sig (Elt F)) :
    after opsA V (Proc.devRef .tc main_arg3) = V (Proc.devRef .tc main_arg3) := by not_written opsA
theorem opsA_main_arg4 (V : Valuation τ sig (Elt F)) :
    after opsA V (Proc.devRef .tc main_arg4) = V (Proc.devRef .tc main_arg4) := by not_written opsA
theorem opsA_main_arg5 (V : Valuation τ sig (Elt F)) :
    after opsA V (Proc.devRef .tc main_arg5) = V (Proc.devRef .tc main_arg5) := by not_written opsA
theorem opsA_main_arg6 (V : Valuation τ sig (Elt F)) :
    after opsA V (Proc.devRef .tc main_arg6) = V (Proc.devRef .tc main_arg6) := by not_written opsA
theorem opsA_main_arg7 (V : Valuation τ sig (Elt F)) :
    after opsA V (Proc.devRef .tc main_arg7) = V (Proc.devRef .tc main_arg7) := by not_written opsA

/-! ### The eight arguments through `opsB` -/

theorem opsB_main_arg0 (V : Valuation τ sig (Elt F)) :
    after opsB V (Proc.devRef .tc main_arg0) = V (Proc.devRef .tc main_arg0) := by not_written opsB
theorem opsB_main_arg1 (V : Valuation τ sig (Elt F)) :
    after opsB V (Proc.devRef .tc main_arg1) = V (Proc.devRef .tc main_arg1) := by not_written opsB
theorem opsB_main_arg2 (V : Valuation τ sig (Elt F)) :
    after opsB V (Proc.devRef .tc main_arg2) = V (Proc.devRef .tc main_arg2) := by not_written opsB
theorem opsB_main_arg3 (V : Valuation τ sig (Elt F)) :
    after opsB V (Proc.devRef .tc main_arg3) = V (Proc.devRef .tc main_arg3) := by not_written opsB
theorem opsB_main_arg4 (V : Valuation τ sig (Elt F)) :
    after opsB V (Proc.devRef .tc main_arg4) = V (Proc.devRef .tc main_arg4) := by not_written opsB
theorem opsB_main_arg5 (V : Valuation τ sig (Elt F)) :
    after opsB V (Proc.devRef .tc main_arg5) = V (Proc.devRef .tc main_arg5) := by not_written opsB
theorem opsB_main_arg6 (V : Valuation τ sig (Elt F)) :
    after opsB V (Proc.devRef .tc main_arg6) = V (Proc.devRef .tc main_arg6) := by not_written opsB
theorem opsB_main_arg7 (V : Valuation τ sig (Elt F)) :
    after opsB V (Proc.devRef .tc main_arg7) = V (Proc.devRef .tc main_arg7) := by not_written opsB

/-! ### The eight arguments through `opsC` -/

theorem opsC_main_arg0 (V : Valuation τ sig (Elt F)) :
    after opsC V (Proc.devRef .tc main_arg0) = V (Proc.devRef .tc main_arg0) := by not_written opsC
theorem opsC_main_arg1 (V : Valuation τ sig (Elt F)) :
    after opsC V (Proc.devRef .tc main_arg1) = V (Proc.devRef .tc main_arg1) := by not_written opsC
theorem opsC_main_arg2 (V : Valuation τ sig (Elt F)) :
    after opsC V (Proc.devRef .tc main_arg2) = V (Proc.devRef .tc main_arg2) := by not_written opsC
theorem opsC_main_arg3 (V : Valuation τ sig (Elt F)) :
    after opsC V (Proc.devRef .tc main_arg3) = V (Proc.devRef .tc main_arg3) := by not_written opsC
theorem opsC_main_arg4 (V : Valuation τ sig (Elt F)) :
    after opsC V (Proc.devRef .tc main_arg4) = V (Proc.devRef .tc main_arg4) := by not_written opsC
theorem opsC_main_arg5 (V : Valuation τ sig (Elt F)) :
    after opsC V (Proc.devRef .tc main_arg5) = V (Proc.devRef .tc main_arg5) := by not_written opsC
theorem opsC_main_arg6 (V : Valuation τ sig (Elt F)) :
    after opsC V (Proc.devRef .tc main_arg6) = V (Proc.devRef .tc main_arg6) := by not_written opsC
theorem opsC_main_arg7 (V : Valuation τ sig (Elt F)) :
    after opsC V (Proc.devRef .tc main_arg7) = V (Proc.devRef .tc main_arg7) := by not_written opsC

/-! ### The eight arguments through `opsD` -/

theorem opsD_main_arg0 (V : Valuation τ sig (Elt F)) :
    after opsD V (Proc.devRef .tc main_arg0) = V (Proc.devRef .tc main_arg0) := by not_written opsD
theorem opsD_main_arg1 (V : Valuation τ sig (Elt F)) :
    after opsD V (Proc.devRef .tc main_arg1) = V (Proc.devRef .tc main_arg1) := by not_written opsD
theorem opsD_main_arg2 (V : Valuation τ sig (Elt F)) :
    after opsD V (Proc.devRef .tc main_arg2) = V (Proc.devRef .tc main_arg2) := by not_written opsD
theorem opsD_main_arg3 (V : Valuation τ sig (Elt F)) :
    after opsD V (Proc.devRef .tc main_arg3) = V (Proc.devRef .tc main_arg3) := by not_written opsD
theorem opsD_main_arg4 (V : Valuation τ sig (Elt F)) :
    after opsD V (Proc.devRef .tc main_arg4) = V (Proc.devRef .tc main_arg4) := by not_written opsD
theorem opsD_main_arg5 (V : Valuation τ sig (Elt F)) :
    after opsD V (Proc.devRef .tc main_arg5) = V (Proc.devRef .tc main_arg5) := by not_written opsD
theorem opsD_main_arg6 (V : Valuation τ sig (Elt F)) :
    after opsD V (Proc.devRef .tc main_arg6) = V (Proc.devRef .tc main_arg6) := by not_written opsD
theorem opsD_main_arg7 (V : Valuation τ sig (Elt F)) :
    after opsD V (Proc.devRef .tc main_arg7) = V (Proc.devRef .tc main_arg7) := by not_written opsD

/-! ### Results of an earlier list that a later list reads, through the lists between -/

theorem opsB_main_v36 (V : Valuation τ sig (Elt F)) :
    after opsB V (Proc.devRef .tc main_v36) = V (Proc.devRef .tc main_v36) := by not_written opsB
theorem opsB_main_v24 (V : Valuation τ sig (Elt F)) :
    after opsB V (Proc.devRef .tc main_v24) = V (Proc.devRef .tc main_v24) := by not_written opsB
theorem opsC_main_v64 (V : Valuation τ sig (Elt F)) :
    after opsC V (Proc.devRef .tc main_v64) = V (Proc.devRef .tc main_v64) := by not_written opsC
theorem opsD_main_v117 (V : Valuation τ sig (Elt F)) :
    after opsD V (Proc.devRef .tc main_v117) = V (Proc.devRef .tc main_v117) := by not_written opsD

end Cert.ReferenceIdeal.RefRun

end
-- ==== Proof.RAsm.lean ====
/-
  The reference program's two results, assembled from its four consecutive parts. Each part is read on its own:
  the first computes the gated, row-normalised weight and the channel mix divided by each channel's norm; the second
  the whitening loss of that tensor; the third the whitening loss of the ten bilinear channels, normalised, and
  those channels in the first result's final layout; the fourth the two label terms and the sum of the four
  scalars. Here the four readings are taken as hypotheses, together with which buffers each part leaves as they
  were, and chained: the buffers after two lists of operations run one after the other are those after the second,
  started from those after the first.
  The conclusion states the two results as the specification's `outR` and `lossR` of the inputs, and that the
  eight inputs still hold what they held.
-/
import proofs.«414715_j46866683134133_3_alg».proof.ReferenceIdeal
import proofs.«414715_j46866683134133_3_alg».proof.Proof.Gen.ReferenceIdeal
import proofs.«414715_j46866683134133_3_alg».proof.Proof.Spec
import Idealize.ShloMosaic.Lib.StableHlo.Run
import Idealize.ShloMosaic.Lib.ValueIdx
import Idealize.ShloMosaic.PureOps.Ideal

noncomputable section

namespace Cert.ReferenceIdeal.RAsm

open Cert Cert.ReferenceIdeal Idealize.ShloMosaic Idealize.ShloMosaic.StableHlo

/-- The buffers after two lists of operations run in order are those after the second list, started from those
    after the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The one entry of a scalar buffer. -/
abbrev at0 (a : S_.Idx → EReal) : EReal := a ValueIdx.ix0

/-- The reference's results from its four parts' readings. `opsA … opsD` are the four consecutive lists of the
    program's operations; `r0a … r3` say what each part computes from the buffers it starts from, the `k…` which
    buffers a part leaves alone, `cA…` that the first part writes the four constant tables. Under the labels'
    bound the results are the specification's, and the inputs are untouched. -/
theorem reference_results
    (opsA opsB opsC opsD : List (HloOp τ sig (Elt Ideal)))
    (hx : S1024x6x30x9x9.ShapeCasts S1024x6x2430) (ho : S1024x10x2430.ShapeCasts S1024x10x30x9x9)
    -- the first part: the gated, normalised weight; the mixed and normalised tensor
    (r0a : ∀ V : Valuation τ sig (Elt Ideal), Spec.of2 (after opsA V (Proc.devRef .tc main_v24) : S5x6.Idx → EReal)
        = Spec.wn (Spec.of2 (V (Proc.devRef .tc main_arg3) : S5x6.Idx → EReal)) (Spec.gste (Spec.of2 (V (Proc.devRef .tc main_arg4) : S5x6.Idx → EReal))))
    (r0b : ∀ V : Valuation τ sig (Elt Ideal), Spec.of3 (after opsA V (Proc.devRef .tc main_v36) : S1024x5x2430.Idx → EReal)
        = Spec.nrmR (Spec.zmix (Spec.x3of (V (Proc.devRef .tc main_arg0) : S1024x6x30x9x9.Idx → EReal) hx) (Spec.of2 (after opsA V (Proc.devRef .tc main_v24) : S5x6.Idx → EReal))))
    -- the second part: the whitening loss of the normalised tensor
    (r1 : ∀ U : Valuation τ sig (Elt Ideal), (after opsB U (Proc.devRef .tc main_v64) : S_.Idx → EReal)
        = fun _ => Spec.lossTail (fun b k l => Ideal.div (Spec.covRaw (Spec.of3 (U (Proc.devRef .tc main_v36) : S1024x5x2430.Idx → EReal)) b k l) Spec.n2429 + Spec.e5 * Spec.eyeE k l))
    -- the third part: the normalised bilinear channels' loss, and the first result
    (r2b : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after opsC U (Proc.devRef .tc main_v116) : S_.Idx → EReal)
          = fun _ => Spec.lossTail (fun b k l => Ideal.div (Spec.covRaw (Spec.nrmR (Spec.pairs (Spec.of3 (U (Proc.devRef .tc main_v36) : S1024x5x2430.Idx → EReal)))) b k l) Spec.n2429 + Spec.e5 * Spec.eyeE k l))
    (r2c : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after opsC U (Proc.devRef .tc main_v117) : S1024x10x30x9x9.Idx → EReal) = Spec.out5of (Spec.nrmR (Spec.pairs (Spec.of3 (U (Proc.devRef .tc main_v36) : S1024x5x2430.Idx → EReal)))) ho)
    -- the fourth part: the label terms and the total
    (r3 : ∀ U : Valuation τ sig (Elt Ideal), (∀ i, ((U (Proc.devRef .tc main_arg6) : S100000.Idx → BitVec 32) i).toInt < 8) → (∀ i, ((U (Proc.devRef .tc main_arg7) : S100000.Idx → BitVec 32) i).toInt < 8) →
        (after opsD U (Proc.devRef .tc main_v165) : S_.Idx → EReal)
          = fun _ => (at0 (U (Proc.devRef .tc main_v64)) + at0 (U (Proc.devRef .tc main_v116)))
              + (Spec.simSum (Spec.rowUnit (Spec.of2 (U (Proc.devRef .tc main_arg5) : S8x128.Idx → EReal))) (Spec.of2 (U (Proc.devRef .tc main_arg1) : S100000x128.Idx → EReal)) (Spec.ofLab (U (Proc.devRef .tc main_arg6) : S100000.Idx → BitVec 32)) + Spec.simSum (Spec.rowUnit (Spec.of2 (U (Proc.devRef .tc main_arg5) : S8x128.Idx → EReal))) (Spec.of2 (U (Proc.devRef .tc main_arg2) : S100000x128.Idx → EReal)) (Spec.ofLab (U (Proc.devRef .tc main_arg7) : S100000.Idx → BitVec 32))))
    -- the inputs are written by no part
    (kA0 : ∀ V : Valuation τ sig (Elt Ideal), after opsA V (Proc.devRef .tc main_arg0) = V (Proc.devRef .tc main_arg0))
    (kA1 : ∀ V : Valuation τ sig (Elt Ideal), after opsA V (Proc.devRef .tc main_arg1) = V (Proc.devRef .tc main_arg1))
    (kA2 : ∀ V : Valuation τ sig (Elt Ideal), after opsA V (Proc.devRef .tc main_arg2) = V (Proc.devRef .tc main_arg2))
    (kA3 : ∀ V : Valuation τ sig (Elt Ideal), after opsA V (Proc.devRef .tc main_arg3) = V (Proc.devRef .tc main_arg3))
    (kA4 : ∀ V : Valuation τ sig (Elt Ideal), after opsA V (Proc.devRef .tc main_arg4) = V (Proc.devRef .tc main_arg4))
    (kA5 : ∀ V : Valuation τ sig (Elt Ideal), after opsA V (Proc.devRef .tc main_arg5) = V (Proc.devRef .tc main_arg5))
    (kA6 : ∀ V : Valuation τ sig (Elt Ideal), after opsA V (Proc.devRef .tc main_arg6) = V (Proc.devRef .tc main_arg6))
    (kA7 : ∀ V : Valuation τ sig (Elt Ideal), after opsA V (Proc.devRef .tc main_arg7) = V (Proc.devRef .tc main_arg7))
    (kB0 : ∀ V : Valuation τ sig (Elt Ideal), after opsB V (Proc.devRef .tc main_arg0) = V (Proc.devRef .tc main_arg0))
    (kB1 : ∀ V : Valuation τ sig (Elt Ideal), after opsB V (Proc.devRef .tc main_arg1) = V (Proc.devRef .tc main_arg1))
    (kB2 : ∀ V : Valuation τ sig (Elt Ideal), after opsB V (Proc.devRef .tc main_arg2) = V (Proc.devRef .tc main_arg2))
    (kB3 : ∀ V : Valuation τ sig (Elt Ideal), after opsB V (Proc.devRef .tc main_arg3) = V (Proc.devRef .tc main_arg3))
    (kB4 : ∀ V : Valuation τ sig (Elt Ideal), after opsB V (Proc.devRef .tc main_arg4) = V (Proc.devRef .tc main_arg4))
    (kB5 : ∀ V : Valuation τ sig (Elt Ideal), after opsB V (Proc.devRef .tc main_arg5) = V (Proc.devRef .tc main_arg5))
    (kB6 : ∀ V : Valuation τ sig (Elt Ideal), after opsB V (Proc.devRef .tc main_arg6) = V (Proc.devRef .tc main_arg6))
    (kB7 : ∀ V : Valuation τ sig (Elt Ideal), after opsB V (Proc.devRef .tc main_arg7) = V (Proc.devRef .tc main_arg7))
    (kC0 : ∀ V : Valuation τ sig (Elt Ideal), after opsC V (Proc.devRef .tc main_arg0) = V (Proc.devRef .tc main_arg0))
    (kC1 : ∀ V : Valuation τ sig (Elt Ideal), after opsC V (Proc.devRef .tc main_arg1) = V (Proc.devRef .tc main_arg1))
    (kC2 : ∀ V : Valuation τ sig (Elt Ideal), after opsC V (Proc.devRef .tc main_arg2) = V (Proc.devRef .tc main_arg2))
    (kC3 : ∀ V : Valuation τ sig (Elt Ideal), after opsC V (Proc.devRef .tc main_arg3) = V (Proc.devRef .tc main_arg3))
    (kC4 : ∀ V : Valuation τ sig (Elt Ideal), after opsC V (Proc.devRef .tc main_arg4) = V (Proc.devRef .tc main_arg4))
    (kC5 : ∀ V : Valuation τ sig (Elt Ideal), after opsC V (Proc.devRef .tc main_arg5) = V (Proc.devRef .tc main_arg5))
    (kC6 : ∀ V : Valuation τ sig (Elt Ideal), after opsC V (Proc.devRef .tc main_arg6) = V (Proc.devRef .tc main_arg6))
    (kC7 : ∀ V : Valuation τ sig (Elt Ideal), after opsC V (Proc.devRef .tc main_arg7) = V (Proc.devRef .tc main_arg7))
    (kD0 : ∀ V : Valuation τ sig (Elt Ideal), after opsD V (Proc.devRef .tc main_arg0) = V (Proc.devRef .tc main_arg0))
    (kD1 : ∀ V : Valuation τ sig (Elt Ideal), after opsD V (Proc.devRef .tc main_arg1) = V (Proc.devRef .tc main_arg1))
    (kD2 : ∀ V : Valuation τ sig (Elt Ideal), after opsD V (Proc.devRef .tc main_arg2) = V (Proc.devRef .tc main_arg2))
    (kD3 : ∀ V : Valuation τ sig (Elt Ideal), after opsD V (Proc.devRef .tc main_arg3) = V (Proc.devRef .tc main_arg3))
    (kD4 : ∀ V : Valuation τ sig (Elt Ideal), after opsD V (Proc.devRef .tc main_arg4) = V (Proc.devRef .tc main_arg4))
    (kD5 : ∀ V : Valuation τ sig (Elt Ideal), after opsD V (Proc.devRef .tc main_arg5) = V (Proc.devRef .tc main_arg5))
    (kD6 : ∀ V : Valuation τ sig (Elt Ideal), after opsD V (Proc.devRef .tc main_arg6) = V (Proc.devRef .tc main_arg6))
    (kD7 : ∀ V : Valuation τ sig (Elt Ideal), after opsD V (Proc.devRef .tc main_arg7) = V (Proc.devRef .tc main_arg7))
    -- results a later part reads or the program returns, left alone by the parts between
    (kB36 : ∀ V : Valuation τ sig (Elt Ideal), after opsB V (Proc.devRef .tc main_v36) = V (Proc.devRef .tc main_v36))
    (kC64 : ∀ V : Valuation τ sig (Elt Ideal), after opsC V (Proc.devRef .tc main_v64) = V (Proc.devRef .tc main_v64))
    (kD117 : ∀ V : Valuation τ sig (Elt Ideal), after opsD V (Proc.devRef .tc main_v117) = V (Proc.devRef .tc main_v117))
    -- the four constant tables: written by the first part, left alone by the second
    (cA : ∀ V : Valuation τ sig (Elt Ideal), after opsA V (Proc.devRef .tc main_c) = (fun i => lit0 (S10.rowMajor i)))
    (cA1 : ∀ V : Valuation τ sig (Elt Ideal), after opsA V (Proc.devRef .tc main_c_1) = (fun i => lit1 (S10.rowMajor i)))
    (cA0 : ∀ V : Valuation τ sig (Elt Ideal), after opsA V (Proc.devRef .tc main_c_0) = constantI S10 1 0#1)
    (cA2 : ∀ V : Valuation τ sig (Elt Ideal), after opsA V (Proc.devRef .tc main_c_2) = constantI S10 1 0#1)
    (kBc : ∀ V : Valuation τ sig (Elt Ideal), after opsB V (Proc.devRef .tc main_c) = V (Proc.devRef .tc main_c))
    (kBc1 : ∀ V : Valuation τ sig (Elt Ideal), after opsB V (Proc.devRef .tc main_c_1) = V (Proc.devRef .tc main_c_1))
    (kBc0 : ∀ V : Valuation τ sig (Elt Ideal), after opsB V (Proc.devRef .tc main_c_0) = V (Proc.devRef .tc main_c_0))
    (kBc2 : ∀ V : Valuation τ sig (Elt Ideal), after opsB V (Proc.devRef .tc main_c_2) = V (Proc.devRef .tc main_c_2))
    (V : Valuation τ sig (Elt Ideal)) (hA : (∀ i, ((V (Proc.devRef .tc main_arg6) : S100000.Idx → BitVec 32) i).toInt < 8)) (hB : (∀ i, ((V (Proc.devRef .tc main_arg7) : S100000.Idx → BitVec 32) i).toInt < 8)) :
    (after (opsA ++ opsB ++ opsC ++ opsD) V (Proc.devRef .tc main_v117) : S1024x10x30x9x9.Idx → EReal) = Spec.out5of (Spec.outR (Spec.x3of (V (Proc.devRef .tc main_arg0) : S1024x6x30x9x9.Idx → EReal) hx) (Spec.of2 (V (Proc.devRef .tc main_arg3) : S5x6.Idx → EReal)) (Spec.of2 (V (Proc.devRef .tc main_arg4) : S5x6.Idx → EReal))) ho
    ∧ (after (opsA ++ opsB ++ opsC ++ opsD) V (Proc.devRef .tc main_v165) : S_.Idx → EReal)
        = (fun _ => Spec.lossR (Spec.x3of (V (Proc.devRef .tc main_arg0) : S1024x6x30x9x9.Idx → EReal) hx) (Spec.of2 (V (Proc.devRef .tc main_arg3) : S5x6.Idx → EReal)) (Spec.of2 (V (Proc.devRef .tc main_arg4) : S5x6.Idx → EReal)) (Spec.of2 (V (Proc.devRef .tc main_arg5) : S8x128.Idx → EReal)) (Spec.of2 (V (Proc.devRef .tc main_arg1) : S100000x128.Idx → EReal)) (Spec.of2 (V (Proc.devRef .tc main_arg2) : S100000x128.Idx → EReal)) (Spec.ofLab (V (Proc.devRef .tc main_arg6) : S100000.Idx → BitVec 32)) (Spec.ofLab (V (Proc.devRef .tc main_arg7) : S100000.Idx → BitVec 32)))
    ∧ after (opsA ++ opsB ++ opsC ++ opsD) V (Proc.devRef .tc main_arg0) = V (Proc.devRef .tc main_arg0)
    ∧ after (opsA ++ opsB ++ opsC ++ opsD) V (Proc.devRef .tc main_arg1) = V (Proc.devRef .tc main_arg1)
    ∧ after (opsA ++ opsB ++ opsC ++ opsD) V (Proc.devRef .tc main_arg2) = V (Proc.devRef .tc main_arg2)
    ∧ after (opsA ++ opsB ++ opsC ++ opsD) V (Proc.devRef .tc main_arg3) = V (Proc.devRef .tc main_arg3)
    ∧ after (opsA ++ opsB ++ opsC ++ opsD) V (Proc.devRef .tc main_arg4) = V (Proc.devRef .tc main_arg4)
    ∧ after (opsA ++ opsB ++ opsC ++ opsD) V (Proc.devRef .tc main_arg5) = V (Proc.devRef .tc main_arg5)
    ∧ after (opsA ++ opsB ++ opsC ++ opsD) V (Proc.devRef .tc main_arg6) = V (Proc.devRef .tc main_arg6)
    ∧ after (opsA ++ opsB ++ opsC ++ opsD) V (Proc.devRef .tc main_arg7) = V (Proc.devRef .tc main_arg7) := by
  -- the first part's results: the gated weight, the normalised mix
  have e24 := r0a V
  have e36 : Spec.of3 (after opsA V (Proc.devRef .tc main_v36) : S1024x5x2430.Idx → EReal) = Spec.nrmR (Spec.zmix (Spec.x3of (V (Proc.devRef .tc main_arg0) : S1024x6x30x9x9.Idx → EReal) hx) (Spec.wn (Spec.of2 (V (Proc.devRef .tc main_arg3) : S5x6.Idx → EReal)) (Spec.gste (Spec.of2 (V (Proc.devRef .tc main_arg4) : S5x6.Idx → EReal))))) := by
    rw [r0b V, e24]
  -- the second part reads the normalised mix and leaves it
  have e36B : Spec.of3 (after opsB (after opsA V) (Proc.devRef .tc main_v36) : S1024x5x2430.Idx → EReal) = Spec.nrmR (Spec.zmix (Spec.x3of (V (Proc.devRef .tc main_arg0) : S1024x6x30x9x9.Idx → EReal) hx) (Spec.wn (Spec.of2 (V (Proc.devRef .tc main_arg3) : S5x6.Idx → EReal)) (Spec.gste (Spec.of2 (V (Proc.devRef .tc main_arg4) : S5x6.Idx → EReal))))) := by
    rw [kB36 (after opsA V)]; exact e36
  have e64 : (after opsB (after opsA V) (Proc.devRef .tc main_v64) : S_.Idx → EReal) = fun _ => Spec.lossTail (Spec.covR (Spec.zmix (Spec.x3of (V (Proc.devRef .tc main_arg0) : S1024x6x30x9x9.Idx → EReal) hx) (Spec.wn (Spec.of2 (V (Proc.devRef .tc main_arg3) : S5x6.Idx → EReal)) (Spec.gste (Spec.of2 (V (Proc.devRef .tc main_arg4) : S5x6.Idx → EReal)))))) := by
    rw [r1 (after opsA V), e36]; rfl
  -- the constant tables reach the third part
  have c : after opsB (after opsA V) (Proc.devRef .tc main_c) = (fun i => lit0 (S10.rowMajor i)) := by rw [kBc (after opsA V)]; exact cA V
  have c1 : after opsB (after opsA V) (Proc.devRef .tc main_c_1) = (fun i => lit1 (S10.rowMajor i)) := by rw [kBc1 (after opsA V)]; exact cA1 V
  have c0 : after opsB (after opsA V) (Proc.devRef .tc main_c_0) = constantI S10 1 0#1 := by rw [kBc0 (after opsA V)]; exact cA0 V
  have c2 : after opsB (after opsA V) (Proc.devRef .tc main_c_2) = constantI S10 1 0#1 := by rw [kBc2 (after opsA V)]; exact cA2 V
  have e116 := r2b (after opsB (after opsA V)) c c1 c0 c2
  have e117 := r2c (after opsB (after opsA V)) c c1 c0 c2
  rw [e36B] at e116 e117
  -- the fourth part: the inputs as they were, the first loss kept by the third part
  have a1 : after opsC (after opsB (after opsA V)) (Proc.devRef .tc main_arg1) = V (Proc.devRef .tc main_arg1) := by rw [kC1 (after opsB (after opsA V)), kB1 (after opsA V), kA1 V]
  have a2 : after opsC (after opsB (after opsA V)) (Proc.devRef .tc main_arg2) = V (Proc.devRef .tc main_arg2) := by rw [kC2 (after opsB (after opsA V)), kB2 (after opsA V), kA2 V]
  have a5 : after opsC (after opsB (after opsA V)) (Proc.devRef .tc main_arg5) = V (Proc.devRef .tc main_arg5) := by rw [kC5 (after opsB (after opsA V)), kB5 (after opsA V), kA5 V]
  have a6 : after opsC (after opsB (after opsA V)) (Proc.devRef .tc main_arg6) = V (Proc.devRef .tc main_arg6) := by rw [kC6 (after opsB (after opsA V)), kB6 (after opsA V), kA6 V]
  have a7 : after opsC (after opsB (after opsA V)) (Proc.devRef .tc main_arg7) = V (Proc.devRef .tc main_arg7) := by rw [kC7 (after opsB (after opsA V)), kB7 (after opsA V), kA7 V]
  have e64C : (after opsC (after opsB (after opsA V)) (Proc.devRef .tc main_v64) : S_.Idx → EReal) = fun _ => Spec.lossTail (Spec.covR (Spec.zmix (Spec.x3of (V (Proc.devRef .tc main_arg0) : S1024x6x30x9x9.Idx → EReal) hx) (Spec.wn (Spec.of2 (V (Proc.devRef .tc main_arg3) : S5x6.Idx → EReal)) (Spec.gste (Spec.of2 (V (Proc.devRef .tc main_arg4) : S5x6.Idx → EReal)))))) := by
    rw [kC64 (after opsB (after opsA V))]; exact e64
  have e165 := r3 (after opsC (after opsB (after opsA V))) (by rw [a6]; exact hA) (by rw [a7]; exact hB)
  rw [e64C, e116, a1, a2, a5, a6, a7] at e165
  simp only [after_append]
  refine ⟨?_, ?_, ?_, ?_, ?_, ?_, ?_, ?_, ?_, ?_⟩
  · rw [kD117 (after opsC (after opsB (after opsA V))), e117]; rfl
  · rw [e165]; rfl
  · rw [kD0 (after opsC (after opsB (after opsA V))), kC0 (after opsB (after opsA V)), kB0 (after opsA V), kA0 V]
  · rw [kD1 (after opsC (after opsB (after opsA V))), kC1 (after opsB (after opsA V)), kB1 (after opsA V), kA1 V]
  · rw [kD2 (after opsC (after opsB (after opsA V))), kC2 (after opsB (after opsA V)), kB2 (after opsA V), kA2 V]
  · rw [kD3 (after opsC (after opsB (after opsA V))), kC3 (after opsB (after opsA V)), kB3 (after opsA V), kA3 V]
  · rw [kD4 (after opsC (after opsB (after opsA V))), kC4 (after opsB (after opsA V)), kB4 (after opsA V), kA4 V]
  · rw [kD5 (after opsC (after opsB (after opsA V))), kC5 (after opsB (after opsA V)), kB5 (after opsA V), kA5 V]
  · rw [kD6 (after opsC (after opsB (after opsA V))), kC6 (after opsB (after opsA V)), kB6 (after opsA V), kA6 V]
  · rw [kD7 (after opsC (after opsB (after opsA V))), kC7 (after opsB (after opsA V)), kB7 (after opsA V), kA7 V]

end Cert.ReferenceIdeal.RAsm

end
-- ==== Proof.RefConsts.lean ====
/- The four constant tables among the reference's first operations: two index tables of ten entries, given entry by
   entry, and two all-false masks of ten entries. The first list of operations writes each of them once, by an
   operation with no operand, and no later operation of that list writes it again: after the list each holds its
   constant, whatever the buffers held before. The second list writes none of them: each passes through it unchanged. -/
import proofs.«414715_j46866683134133_3_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### After `opsA`: each table at its constant -/

set_option maxRecDepth 8192 in
/-- The first index table: entry `i` is the `i`-th literal of the row-major list. -/
theorem opsA_main_c (V : Valuation τ sig (Elt F)) :
    after opsA V (Proc.devRef .tc main_c) = fun i => lit0 (S10.rowMajor i) := by
  after_results_simp
  rfl

set_option maxRecDepth 8192 in
/-- The second index table. -/
theorem opsA_main_c_1 (V : Valuation τ sig (Elt F)) :
    after opsA V (Proc.devRef .tc main_c_1) = fun i => lit1 (S10.rowMajor i) := by
  after_results_simp
  rfl

set_option maxRecDepth 8192 in
/-- The first mask: false at every entry. -/
theorem opsA_main_c_0 (V : Valuation τ sig (Elt F)) :
    after opsA V (Proc.devRef .tc main_c_0) = constantI S10 1 0#1 := by
  after_results_simp

set_option maxRecDepth 8192 in
/-- The second mask: false at every entry. -/
theorem opsA_main_c_2 (V : Valuation τ sig (Elt F)) :
    after opsA V (Proc.devRef .tc main_c_2) = constantI S10 1 0#1 := by
  after_results_simp

/-! ### Through `opsB`: unchanged -/

/-- The buffer is none of the buffers the literal list's operations write: each operation's written set is the
    singleton of its result, and the buffer differs from each result as a reference. -/
local macro "not_written" l:ident : tactic => `(tactic| (
  refine StableHlo.after_of_forall_not_mem _ _ (List.forall_iff_forall_mem.mp ?_)
  simp only [$l:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem opsB_main_c (V : Valuation τ sig (Elt F)) :
    after opsB V (Proc.devRef .tc main_c) = V (Proc.devRef .tc main_c) := by not_written opsB
theorem opsB_main_c_0 (V : Valuation τ sig (Elt F)) :
    after opsB V (Proc.devRef .tc main_c_0) = V (Proc.devRef .tc main_c_0) := by not_written opsB
theorem opsB_main_c_1 (V : Valuation τ sig (Elt F)) :
    after opsB V (Proc.devRef .tc main_c_1) = V (Proc.devRef .tc main_c_1) := by not_written opsB
theorem opsB_main_c_2 (V : Valuation τ sig (Elt F)) :
    after opsB V (Proc.devRef .tc main_c_2) = V (Proc.devRef .tc main_c_2) := by not_written opsB

end Cert.ReferenceIdeal.RefRun

end
-- ==== Proof.RPart1.lean ====
/-
  The first whitening loss of the reference, read index by index. From the normalised tensor u[b, k, n]
  (1024 samples, 5 channels, 2430 positions) the reference forms, per sample, the Gram matrix Σ_n u_k u_l, divides it
  by 2429 and adds 1e-5 on the diagonal; it multiplies by the indicator of the strict upper triangle, takes absolute
  values, sums over the matrix, divides by the triangle's own total, clips below at zero, and averages over the samples.
  This module shows that the scalar so computed is `Spec.lossTail` of that covariance: the batched product is a sum over
  the contracted coordinate, each broadcast reads its operand at the trailing coordinates, the two iota comparisons are
  the diagonal's and the triangle's indicators, and each reduction is a finite sum over the coordinates it removes, its
  initial value zero.
-/
import proofs.«414715_j46866683134133_3_alg».proof.ReferenceIdeal
import proofs.«414715_j46866683134133_3_alg».proof.Proof.Gen.ReferenceIdeal
import proofs.«414715_j46866683134133_3_alg».proof.Proof.Spec
import proofs.«414715_j46866683134133_3_alg».proof.Proof.RefOps
import Idealize.ShloMosaic.Lib.StableHlo.Run
import Idealize.ShloMosaic.Lib.IdealHost
import Idealize.ShloMosaic.Lib.Pipeline.Value
import Idealize.ShloMosaic.Lib.ValueIdx
import Idealize.ShloMosaic.Lib.ValueIdxRank1
import Idealize.ShloMosaic.Lib.Affine
import Idealize.ShloMosaic.PureOps.Ideal.Laws

noncomputable section

namespace Cert.ReferenceIdeal.RPart1

open Idealize.ShloMosaic Idealize.ShloMosaic.ValueIdx Idealize.ShloMosaic.TcCoe Cert.ReferenceIdeal
open Cert.ReferenceIdeal.Facts₀
open scoped BigOperators

/-! ## Sums over index sets as sums over coordinates -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Two rank-1 indices are equal exactly when their coordinates are. -/
theorem ix1_eq_iff {n : ℕ} (a b : Fin n) : (ix1 a = ix1 b) ↔ a = b :=
  ⟨fun h => congrFun h 0, fun h => h ▸ rfl⟩

/-! ## The three reductions, their initial value the zero word -/

/-- The sum of a matrix over both axes is the double sum of its entries. -/
theorem sumAll2 {n0 n1 : ℕ} (h : (⟨2, ![n0, n1]⟩ : Shape).ReducesTo [0, 1] ⟨0, ![]⟩) (hu : 0 < (⟨0, ![]⟩ : Shape).numel)
    (v : FVec Ideal ⟨2, ![n0, n1]⟩ .f32) (j : (⟨0, ![]⟩ : Shape).Idx) :
    Host.reduceAdd (F := Ideal) v (constant (F := Ideal) ⟨0, ![]⟩ .f32 0x00000000#32) h hu j
      = ∑ k : Fin n0, ∑ l : Fin n1, v (ix2 k l) := by
  rw [hostReduceAdd_apply, Ideal.hostReduceAdd_total h (fun b => b.elim0), constant_apply, Ideal.ofBits_zero_f32, zero_add,
    sum_idx2]

/-- The sum of a vector over its one axis is the sum of its entries. -/
theorem sumAll1 {n : ℕ} (h : (⟨1, ![n]⟩ : Shape).ReducesTo [0] ⟨0, ![]⟩) (hu : 0 < (⟨0, ![]⟩ : Shape).numel)
    (v : FVec Ideal ⟨1, ![n]⟩ .f32) (j : (⟨0, ![]⟩ : Shape).Idx) :
    Host.reduceAdd (F := Ideal) v (constant (F := Ideal) ⟨0, ![]⟩ .f32 0x00000000#32) h hu j = ∑ b : Fin n, v (ix1 b) := by
  rw [hostReduceAdd_apply, Ideal.hostReduceAdd_total h (fun b => b.elim0), constant_apply, Ideal.ofBits_zero_f32, zero_add,
    ← Equiv.sum_comp (idxEquiv1 (n := n)).symm]
  rfl

/-- Dropping the two matrix axes of a sample's index leaves the sample's number. -/
theorem drop_matrix (h : S1024x5x5.ReducesTo [1, 2] S1024) (i : Fin 1024) (k l : Fin 5) :
    h.drop (ix3 i k l) = ix1 i := by
  funext d
  match d with
  | ⟨0, _⟩ => exact Fin.ext (Shape.ReducesTo.drop_apply_val_of_eq h (ix3 i k l) 0 0)

/-- The sum of each sample's matrix over its two axes is the double sum of that matrix's entries. -/
theorem sumRows (h : S1024x5x5.ReducesTo [1, 2] S1024) (hu : 0 < S_.numel) (v : FVec Ideal S1024x5x5 .f32) (b : Fin 1024) :
    Host.reduceAdd (F := Ideal) v (constant (F := Ideal) S_ .f32 0x00000000#32) h hu (ix1 b)
      = ∑ k : Fin 5, ∑ l : Fin 5, v (ix3 b k l) := by
  rw [hostReduceAdd_apply, constant_apply, Ideal.ofBits_zero_f32]
  show 0 + ∑ i ∈ Finset.univ.filter (fun i => h.drop i = ix1 b), v i = _
  rw [zero_add, Finset.sum_filter, sum_idx3, Finset.sum_eq_single b]
  · exact Finset.sum_congr rfl fun k _ => Finset.sum_congr rfl fun l _ => if_pos (drop_matrix h b k l)
  · intro a _ hab
    exact Finset.sum_eq_zero fun k _ => Finset.sum_eq_zero fun l _ =>
      if_neg fun e => hab ((ix1_eq_iff a b).mp ((drop_matrix h a k l).symm.trans e))
  · intro hb; exact absurd (Finset.mem_univ b) hb

/-! ## The batched product: the sum over the contracted coordinate -/

/-- Sample b's Gram entry (k, l): the sum over the positions of the products of channels k and l. -/
theorem gram_apply (x : FVec Ideal S1024x5x2430 .f32) (b : Fin 1024) (k l : Fin 5) :
    Host.dotGeneral (F := Ideal) dot_S1024x5x2430_S1024x5x2430_S1024x5x5_2_2_1_1_0_0 none x x (ix3 b k l)
      = ∑ n : Fin 2430, x (ix3 b k n) * x (ix3 b l n) := by
  simp only [Host.dotGeneral]
  rw [Ideal.dotGeneral_apply,
    ← Equiv.sum_comp (contrEquiv1 dot_S1024x5x2430_S1024x5x2430_S1024x5x5_2_2_1_1_0_0 2430 rfl rfl).symm]
  refine Finset.sum_congr rfl fun n _ => ?_
  have hl : dot_S1024x5x2430_S1024x5x2430_S1024x5x5_2_2_1_1_0_0.lhsIdx (ix3 b k l)
      ((contrEquiv1 dot_S1024x5x2430_S1024x5x2430_S1024x5x5_2_2_1_1_0_0 2430 rfl rfl).symm n) = ix3 b k n := by
    funext a
    match a with
    | ⟨0, _⟩ => rfl
    | ⟨1, _⟩ => rfl
    | ⟨2, _⟩ => rfl
  have hr : dot_S1024x5x2430_S1024x5x2430_S1024x5x5_2_2_1_1_0_0.rhsIdx (ix3 b k l)
      ((contrEquiv1 dot_S1024x5x2430_S1024x5x2430_S1024x5x5_2_2_1_1_0_0 2430 rfl rfl).symm n) = ix3 b l n := by
    funext a
    match a with
    | ⟨0, _⟩ => rfl
    | ⟨1, _⟩ => rfl
    | ⟨2, _⟩ => rfl
  rw [hl, hr]

/-! ## Row and column numbers as 32-bit words -/

/-- Below 2³¹ a natural's 32-bit word read signed is the natural. -/
theorem toInt_ofNat32 {a : ℕ} (ha : a < 2147483648) : (BitVec.ofNat 32 a).toInt = (a : ℤ) := by
  rw [BitVec.toInt_eq_toNat_cond, BitVec.toNat_ofNat]
  have : a % 2 ^ 32 = a := Nat.mod_eq_of_lt (by omega)
  rw [this]
  split <;> omega

/-- Below 2³² two naturals with one 32-bit word are equal. -/
theorem ofNat32_inj {a b : ℕ} (ha : a < 4294967296) (hb : b < 4294967296) :
    BitVec.ofNat 32 a = BitVec.ofNat 32 b ↔ a = b := by
  constructor
  · intro h
    have h' := congrArg BitVec.toNat h
    simp only [BitVec.toNat_ofNat] at h'
    omega
  · rintro rfl; rfl

/-- The row number plus the zero word, compared for equality with the column number and converted to a float: the
    diagonal's indicator. -/
theorem eye_word {n0 n1 : ℕ} (h0 : n0 < 2147483648) (h1 : n1 < 2147483648) (k : Fin n0) (l : Fin n1) :
    (FloatOps.uitofp (F := Ideal) .f32 (IntOp.cmpi .eq (IntOp.addi (BitVec.ofNat 32 k.val) 0#32) (BitVec.ofNat 32 l.val)) : EReal)
      = Spec.eyeE k l := by
  have hk := k.isLt
  have hl := l.isLt
  unfold Spec.eyeE
  by_cases h : k.val = l.val
  · rw [if_pos h]
    have : IntOp.cmpi .eq (IntOp.addi (BitVec.ofNat 32 k.val) 0#32) (BitVec.ofNat 32 l.val) = 1#1 := by
      rw [IntOp.cmpi_eq]; unfold IntOp.addi; rw [BitVec.add_zero, h]
    rw [this]
    show (((1#1 : BitVec 1).toNat : ℝ) : EReal) = 1
    norm_num
  · rw [if_neg h]
    have : IntOp.cmpi .eq (IntOp.addi (BitVec.ofNat 32 k.val) 0#32) (BitVec.ofNat 32 l.val) = 0#1 := by
      refine eq_zero_of_ne_one fun hc => h ?_
      rw [IntOp.cmpi_eq] at hc; unfold IntOp.addi at hc; rw [BitVec.add_zero] at hc
      exact (ofNat32_inj (by omega) (by omega)).mp hc
    rw [this]
    show (((0#1 : BitVec 1).toNat : ℝ) : EReal) = 0
    norm_num

/-- A select on "the row number plus the zero word is at least the column number, signed" is the choice on l ≤ k. -/
theorem triu_word {n0 n1 : ℕ} (h0 : n0 < 2147483648) (h1 : n1 < 2147483648) (k : Fin n0) (l : Fin n1) (z o : EReal) :
    Scalar.select (IntOp.cmpi .sge (IntOp.addi (BitVec.ofNat 32 k.val) 0#32) (BitVec.ofNat 32 l.val)) z o
      = if l.val ≤ k.val then z else o := by
  have hk := k.isLt
  have hl := l.isLt
  have e : (IntOp.cmpi .sge (IntOp.addi (BitVec.ofNat 32 k.val) 0#32) (BitVec.ofNat 32 l.val) = 1) ↔ l.val ≤ k.val := by
    refine IntOp.cmpi_sge.trans ?_
    unfold IntOp.addi
    rw [BitVec.add_zero, toInt_ofNat32 (by omega), toInt_ofNat32 (by omega)]
    exact Nat.cast_le
  exact if_congr e rfl rfl

/-! ## The broadcast of a matrix to every sample -/

/-- A matrix given a leading unit axis and repeated along it reads, at sample i and entry (k, l), its entry (k, l). -/
theorem bcast3_apply {n a b : ℕ} {α : Type} (h1 : (⟨2, ![a, b]⟩ : Shape).BroadcastsInDim ⟨3, ![1, a, b]⟩ ![1, 2])
    (h2 : (⟨3, ![1, a, b]⟩ : Shape).BroadcastsInDim ⟨3, ![n, a, b]⟩ ![0, 1, 2]) (v : (⟨2, ![a, b]⟩ : Shape).Idx → α)
    (i : Fin n) (k : Fin a) (l : Fin b) :
    broadcastInDim ⟨3, ![n, a, b]⟩ ![0, 1, 2] h2 (broadcastInDim ⟨3, ![1, a, b]⟩ ![1, 2] h1 v) (ix3 i k l) = v (ix2 k l) := by
  have hk := k.isLt
  have hl := l.isLt
  refine (broadcastInDim_apply _ h2 _ (ix3 i k l) (ix3 (0 : Fin 1) k l) fun d => ?_).trans
    (broadcastInDim_apply _ h1 v (ix3 (0 : Fin 1) k l) (ix2 k l) fun d => ?_)
  · match d with
    | ⟨0, _⟩ => show (0 : ℕ) = if (1 : ℕ) = 1 then 0 else i.val; rw [if_pos rfl]
    | ⟨1, _⟩ => show k.val = if a = 1 then 0 else k.val; split <;> omega
    | ⟨2, _⟩ => show l.val = if b = 1 then 0 else l.val; split <;> omega
  · match d with
    | ⟨0, _⟩ => show k.val = if a = 1 then 0 else k.val; split <;> omega
    | ⟨1, _⟩ => show l.val = if b = 1 then 0 else l.val; split <;> omega

/-! ## The stages of the computation, as the program composes them -/

/-- The covariance: the Gram matrix over 2429, plus 1e-5 times the diagonal's indicator repeated for every sample. -/
def covV (x : FVec Ideal S1024x5x2430 .f32) : FVec Ideal S1024x5x5 .f32 :=
  addf
    (Host.divf (F := Ideal) (Host.dotGeneral (F := Ideal) dot_S1024x5x2430_S1024x5x2430_S1024x5x5_2_2_1_1_0_0 none x x)
      (broadcastInDim S1024x5x5 ![] bcast_S_S1024x5x5 (constant (F := Ideal) S_ .f32 0x4517D000#32)))
    (broadcastInDim S1024x5x5 ![0, 1, 2] bcast_S1x5x5_S1024x5x5_0_1_2
      (broadcastInDim S1x5x5 ![1, 2] bcast_S5x5_S1x5x5_1_2
        (mulf (broadcastInDim S5x5 ![] bcast_S_S5x5 (constant (F := Ideal) S_ .f32 0x3727C5AC#32))
          (uitofp (F := Ideal) .f32
            (cmpi .eq (addi (iotaInDim S5x5 32 0) (broadcastInDim S5x5 ![] bcast_S_S5x5 (constantI S_ 32 0#32)))
              (iotaInDim S5x5 32 1))))))

/-- The strict upper triangle's mask: zero where the row number is at least the column number, else one. -/
def triuV : FVec Ideal S5x5 .f32 :=
  select
    (cmpi .sge (addi (iotaInDim S5x5 32 0) (broadcastInDim S5x5 ![] bcast_S_S5x5 (constantI S_ 32 0#32))) (iotaInDim S5x5 32 1))
    (broadcastInDim S5x5 ![] bcast_S_S5x5 (constant (F := Ideal) S_ .f32 0x00000000#32))
    (broadcastInDim S5x5 ![] bcast_S_S5x5 (constant (F := Ideal) S_ .f32 0x3F800000#32))

/-- The loss: per sample the sum of |covariance · mask| over the mask's total, clipped below at zero; then the mean over
    the 1024 samples. -/
def tail (x : FVec Ideal S1024x5x2430 .f32) : FVec Ideal S_ .f32 :=
  Host.divf (F := Ideal)
    (Host.reduceAdd (F := Ideal)
      (maximumf
        (Host.divf (F := Ideal)
          (Host.reduceAdd (F := Ideal)
            (Host.absf (F := Ideal)
              (mulf (covV x)
                (broadcastInDim S1024x5x5 ![0, 1, 2] bcast_S1x5x5_S1024x5x5_0_1_2
                  (broadcastInDim S1x5x5 ![1, 2] bcast_S5x5_S1x5x5_1_2 triuV))))
            (constant (F := Ideal) S_ .f32 0x00000000#32) reducesTo_S1024x5x5_S1024_d1_2 h_S_)
          (broadcastInDim S1024 ![] bcast_S_S1024
            (Host.reduceAdd (F := Ideal) triuV (constant (F := Ideal) S_ .f32 0x00000000#32) reducesTo_S5x5_S_d0_1 h_S_)))
        (broadcastInDim S1024 ![] bcast_S_S1024 (constant (F := Ideal) S_ .f32 0x00000000#32)))
      (constant (F := Ideal) S_ .f32 0x00000000#32) reducesTo_S1024_S_d0 h_S_)
    (constant (F := Ideal) S_ .f32 0x44800000#32)

/-! ## Each stage at an index -/

/-- The covariance at sample b, entry (k, l). -/
theorem covV_apply (x : FVec Ideal S1024x5x2430 .f32) (b : Fin 1024) (k l : Fin 5) :
    covV x (ix3 b k l)
      = Ideal.div (∑ n : Fin 2430, x (ix3 b k n) * x (ix3 b l n)) Spec.n2429 + Spec.e5 * Spec.eyeE k l := by
  unfold covV
  rw [addf_apply, hostDivf_apply, gram_apply, broadcastInDim_scalar_apply, constant_apply, bcast3_apply, mulf_apply,
    broadcastInDim_scalar_apply, constant_apply]
  refine congrArg (fun t => Ideal.div (∑ n : Fin 2430, x (ix3 b k n) * x (ix3 b l n)) Spec.n2429 + Spec.e5 * t) ?_
  show FloatOps.uitofp (F := Ideal) .f32 (IntOp.cmpi .eq (IntOp.addi (BitVec.ofNat 32 k.val)
    (broadcastInDim S5x5 ![] bcast_S_S5x5 (constantI S_ 32 0#32) (ix2 k l))) (BitVec.ofNat 32 l.val)) = _
  rw [broadcastInDim_scalar_apply]
  exact eye_word (by decide) (by decide) k l

/-- The mask at entry (k, l). -/
theorem triuV_apply (k l : Fin 5) : triuV (ix2 k l) = Spec.triu1 k l := by
  unfold triuV
  rw [select_apply, broadcastInDim_scalar_apply, broadcastInDim_scalar_apply, constant_apply, constant_apply]
  show Scalar.select (IntOp.cmpi .sge (IntOp.addi (BitVec.ofNat 32 k.val)
    (broadcastInDim S5x5 ![] bcast_S_S5x5 (constantI S_ 32 0#32) (ix2 k l))) (BitVec.ofNat 32 l.val)) _ _ = _
  rw [broadcastInDim_scalar_apply]
  exact triu_word (by decide) (by decide) k l _ _

/-- The host's absolute value at an index is the larger of the entry and its negation. -/
theorem hostAbsf_apply {s : Shape} (v : FVec Ideal s .f32) (i : s.Idx) : Host.absf (F := Ideal) v i = Spec.absE (v i) := rfl

/-! ## The scalar -/

/-- The composed stages are the mean clipped triangle sum of the covariance built from the raw Gram sums. -/
theorem tail_eq (x : FVec Ideal S1024x5x2430 .f32) :
    tail x = fun _ => Spec.lossTail (fun b k l =>
      Ideal.div (Spec.covRaw (Spec.of3 x) b k l) Spec.n2429 + Spec.e5 * Spec.eyeE k l) := by
  funext j
  unfold tail
  rw [hostDivf_apply, constant_apply, sumAll1]
  unfold Spec.lossTail
  refine congrArg (fun t => Ideal.div t Spec.n1024) (Finset.sum_congr rfl fun b _ => ?_)
  rw [maximumf_apply, hostDivf_apply, broadcastInDim_scalar_apply, broadcastInDim_scalar_apply, constant_apply, sumRows, sumAll2]
  simp only [hostAbsf_apply, mulf_apply, covV_apply, bcast3_apply, triuV_apply]
  rfl

/-! ## The program's buffer -/

/-- After the reference's operations from the batched product to the mean, whatever the buffers held before, the
    buffer of the first whitening loss holds `Spec.lossTail` of the covariance of the tensor the product was taken of. -/
theorem main_v64_eq (U : Valuation τ sig (Elt Ideal)) :
    StableHlo.after (RefRun.opsB (F := Ideal)) U (main_v64 : DevRef τ sig)
      = fun _ => Spec.lossTail (fun b k l =>
          Ideal.div (Spec.covRaw (Spec.of3 (U (main_v36 : DevRef τ sig))) b k l) Spec.n2429 + Spec.e5 * Spec.eyeE k l) := by
  refine Eq.trans ?_ (tail_eq (U (main_v36 : DevRef τ sig)))
  simp only [StableHlo.after_cons, StableHlo.after_nil]
  rfl

end Cert.ReferenceIdeal.RPart1

end
-- ==== Proof.Final.lean ====
/-
  The certificate's claim, assembled. Both programs run and leave their inputs as they were; at the ideal instance,
  from memories that agree on the inputs and under the precondition (every input entry a real number, every label
  below 8), the kernel program's two results are the specification's `outK` and `lossK` of the inputs and the
  reference program's are `outR` and `lossR` of the same inputs; with the gate's entries real the two pairs are
  equal. The kernel side's reading, and the readings of the reference's first, third and fourth parts, are taken as hypotheses.
-/
import proofs.«414715_j46866683134133_3_alg».proof.Defs
import proofs.«414715_j46866683134133_3_alg».proof.Proof.Gen.Kernel.Frame
import proofs.«414715_j46866683134133_3_alg».proof.Proof.Gen.KernelIdeal.Frame
import proofs.«414715_j46866683134133_3_alg».proof.Proof.Gen.ReferenceIdeal
import proofs.«414715_j46866683134133_3_alg».proof.Proof.Gen.Pre_finite_inputs
import proofs.«414715_j46866683134133_3_alg».proof.Proof.Spec
import proofs.«414715_j46866683134133_3_alg».proof.Proof.Algebra
import proofs.«414715_j46866683134133_3_alg».proof.Proof.PreFacts
import proofs.«414715_j46866683134133_3_alg».proof.Proof.KRun
import proofs.«414715_j46866683134133_3_alg».proof.Proof.RefOps
import proofs.«414715_j46866683134133_3_alg».proof.Proof.RefKeep
import proofs.«414715_j46866683134133_3_alg».proof.Proof.RAsm
import proofs.«414715_j46866683134133_3_alg».proof.Proof.RefConsts
import proofs.«414715_j46866683134133_3_alg».proof.Proof.RPart1
import Idealize.ShloMosaic.Adequacy
import Idealize.ShloMosaic.Init

noncomputable section

namespace Cert.Final

open Cert Cert.ReferenceIdeal Idealize.ShloMosaic Idealize.ShloMosaic.StableHlo Idealize.SL.Sem

/-- The reference's whole line of operations writes no input: none of its four parts does. -/
theorem ref_arg_kept (b : Ref sig .tc) (V : Valuation τ sig (Elt Ideal))
    (hA : after (RefRun.opsA (F := Ideal)) V (Proc.devRef .tc b) = V (Proc.devRef .tc b))
    (hB : after (RefRun.opsB (F := Ideal)) (after (RefRun.opsA (F := Ideal)) V) (Proc.devRef .tc b) = after (RefRun.opsA (F := Ideal)) V (Proc.devRef .tc b))
    (hC : after (RefRun.opsC (F := Ideal)) (after (RefRun.opsB (F := Ideal)) (after (RefRun.opsA (F := Ideal)) V)) (Proc.devRef .tc b)
        = after (RefRun.opsB (F := Ideal)) (after (RefRun.opsA (F := Ideal)) V) (Proc.devRef .tc b))
    (hD : after (RefRun.opsD (F := Ideal)) (after (RefRun.opsC (F := Ideal)) (after (RefRun.opsB (F := Ideal)) (after (RefRun.opsA (F := Ideal)) V))) (Proc.devRef .tc b)
        = after (RefRun.opsC (F := Ideal)) (after (RefRun.opsB (F := Ideal)) (after (RefRun.opsA (F := Ideal)) V)) (Proc.devRef .tc b)) :
    after (RefRun.ops (F := Ideal)) V (Proc.devRef .tc b) = V (Proc.devRef .tc b) := by
  show after ((RefRun.opsA (F := Ideal)) ++ (RefRun.opsB (F := Ideal)) ++ (RefRun.opsC (F := Ideal)) ++ (RefRun.opsD (F := Ideal))) V (Proc.devRef .tc b) = _
  rw [RAsm.after_append, RAsm.after_append, RAsm.after_append, hD, hC, hB, hA]

/-- The two kernel programs run and keep their inputs. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ

/-- The reference program runs and keeps its inputs: each ends at the line's fold over the launch contents, which
    at an input is the launch contents. -/
theorem frame_ri : @Cert.frame_ReferenceIdeal Cert.ReferenceIdeal.Gen.facts Cert.Pre_finite_inputs.Gen.facts :=
  fun m ρ _ => (θ_run Cert.ReferenceIdeal.defs _ _).mono (fun r h c =>
    ⟨(h c main_arg0).trans (ref_arg_kept main_arg0 (launchContents m c) (RefRun.opsA_main_arg0 _) (RefRun.opsB_main_arg0 _) (RefRun.opsC_main_arg0 _) (RefRun.opsD_main_arg0 _)),
     (h c main_arg1).trans (ref_arg_kept main_arg1 (launchContents m c) (RefRun.opsA_main_arg1 _) (RefRun.opsB_main_arg1 _) (RefRun.opsC_main_arg1 _) (RefRun.opsD_main_arg1 _)),
     (h c main_arg2).trans (ref_arg_kept main_arg2 (launchContents m c) (RefRun.opsA_main_arg2 _) (RefRun.opsB_main_arg2 _) (RefRun.opsC_main_arg2 _) (RefRun.opsD_main_arg2 _)),
     (h c main_arg3).trans (ref_arg_kept main_arg3 (launchContents m c) (RefRun.opsA_main_arg3 _) (RefRun.opsB_main_arg3 _) (RefRun.opsC_main_arg3 _) (RefRun.opsD_main_arg3 _)),
     (h c main_arg4).trans (ref_arg_kept main_arg4 (launchContents m c) (RefRun.opsA_main_arg4 _) (RefRun.opsB_main_arg4 _) (RefRun.opsC_main_arg4 _) (RefRun.opsD_main_arg4 _)),
     (h c main_arg5).trans (ref_arg_kept main_arg5 (launchContents m c) (RefRun.opsA_main_arg5 _) (RefRun.opsB_main_arg5 _) (RefRun.opsC_main_arg5 _) (RefRun.opsD_main_arg5 _)),
     (h c main_arg6).trans (ref_arg_kept main_arg6 (launchContents m c) (RefRun.opsA_main_arg6 _) (RefRun.opsB_main_arg6 _) (RefRun.opsC_main_arg6 _) (RefRun.opsD_main_arg6 _)),
     (h c main_arg7).trans (ref_arg_kept main_arg7 (launchContents m c) (RefRun.opsA_main_arg7 _) (RefRun.opsB_main_arg7 _) (RefRun.opsC_main_arg7 _) (RefRun.opsD_main_arg7 _))⟩)
    (RefRun.run_main (F := Ideal) m ρ)

/-- At the ideal instance, from memories agreeing on the inputs and under the precondition, both programs run, keep
    their inputs and end with equal results. -/
theorem algebraic
    (hx : (⟨5, ![1024, 6, 30, 9, 9]⟩ : Shape).ShapeCasts ⟨3, ![1024, 6, 2430]⟩)
    (ho : (⟨3, ![1024, 10, 2430]⟩ : Shape).ShapeCasts ⟨5, ![1024, 10, 30, 9, 9]⟩)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        (∀ i, ((m ((c.tc : Thread Cert.KernelIdeal.nD Cert.KernelIdeal.τ).loc Cert.KernelIdeal.main_arg6) : (⟨1, ![100000]⟩ : Shape).Idx → BitVec 32) i).toInt < 8) → (∀ i, ((m ((c.tc : Thread Cert.KernelIdeal.nD Cert.KernelIdeal.τ).loc Cert.KernelIdeal.main_arg7) : (⟨1, ![100000]⟩ : Shape).Idx → BitVec 32) i).toInt < 8) →
        (Cert.KernelIdeal.Gen.W24 m ρ c (Proc.devRef .tc Cert.KernelIdeal.main_v126) : (⟨5, ![1024, 10, 30, 9, 9]⟩ : Shape).Idx → EReal)
            = Spec.out5of (Spec.outK (Spec.x3of (m ((c.tc : Thread Cert.KernelIdeal.nD Cert.KernelIdeal.τ).loc Cert.KernelIdeal.main_arg0) : (⟨5, ![1024, 6, 30, 9, 9]⟩ : Shape).Idx → EReal) hx) (Spec.of2 (m ((c.tc : Thread Cert.KernelIdeal.nD Cert.KernelIdeal.τ).loc Cert.KernelIdeal.main_arg3) : (⟨2, ![5, 6]⟩ : Shape).Idx → EReal)) (Spec.of2 (m ((c.tc : Thread Cert.KernelIdeal.nD Cert.KernelIdeal.τ).loc Cert.KernelIdeal.main_arg4) : (⟨2, ![5, 6]⟩ : Shape).Idx → EReal))) ho
        ∧ (Cert.KernelIdeal.Gen.W24 m ρ c (Proc.devRef .tc Cert.KernelIdeal.main_v134) : (⟨0, ![]⟩ : Shape).Idx → EReal)
            = fun _ => Spec.lossK (Spec.x3of (m ((c.tc : Thread Cert.KernelIdeal.nD Cert.KernelIdeal.τ).loc Cert.KernelIdeal.main_arg0) : (⟨5, ![1024, 6, 30, 9, 9]⟩ : Shape).Idx → EReal) hx) (Spec.of2 (m ((c.tc : Thread Cert.KernelIdeal.nD Cert.KernelIdeal.τ).loc Cert.KernelIdeal.main_arg3) : (⟨2, ![5, 6]⟩ : Shape).Idx → EReal)) (Spec.of2 (m ((c.tc : Thread Cert.KernelIdeal.nD Cert.KernelIdeal.τ).loc Cert.KernelIdeal.main_arg4) : (⟨2, ![5, 6]⟩ : Shape).Idx → EReal)) (Spec.of2 (m ((c.tc : Thread Cert.KernelIdeal.nD Cert.KernelIdeal.τ).loc Cert.KernelIdeal.main_arg5) : (⟨2, ![8, 128]⟩ : Shape).Idx → EReal)) (Spec.of2 (m ((c.tc : Thread Cert.KernelIdeal.nD Cert.KernelIdeal.τ).loc Cert.KernelIdeal.main_arg1) : (⟨2, ![100000, 128]⟩ : Shape).Idx → EReal)) (Spec.of2 (m ((c.tc : Thread Cert.KernelIdeal.nD Cert.KernelIdeal.τ).loc Cert.KernelIdeal.main_arg2) : (⟨2, ![100000, 128]⟩ : Shape).Idx → EReal)) (Spec.ofLab (m ((c.tc : Thread Cert.KernelIdeal.nD Cert.KernelIdeal.τ).loc Cert.KernelIdeal.main_arg6) : (⟨1, ![100000]⟩ : Shape).Idx → BitVec 32)) (Spec.ofLab (m ((c.tc : Thread Cert.KernelIdeal.nD Cert.KernelIdeal.τ).loc Cert.KernelIdeal.main_arg7) : (⟨1, ![100000]⟩ : Shape).Idx → BitVec 32)))
    (r0a : ∀ V : Valuation τ sig (Elt Ideal), Spec.of2 (after (RefRun.opsA (F := Ideal)) V (Proc.devRef .tc main_v24) : S5x6.Idx → EReal)
        = Spec.wn (Spec.of2 (V (Proc.devRef .tc main_arg3) : S5x6.Idx → EReal)) (Spec.gste (Spec.of2 (V (Proc.devRef .tc main_arg4) : S5x6.Idx → EReal))))
    (r0b : ∀ V : Valuation τ sig (Elt Ideal), Spec.of3 (after (RefRun.opsA (F := Ideal)) V (Proc.devRef .tc main_v36) : S1024x5x2430.Idx → EReal)
        = Spec.nrmR (Spec.zmix (Spec.x3of (V (Proc.devRef .tc main_arg0) : S1024x6x30x9x9.Idx → EReal) hx) (Spec.of2 (after (RefRun.opsA (F := Ideal)) V (Proc.devRef .tc main_v24) : S5x6.Idx → EReal))))
    (r2b : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after (RefRun.opsC (F := Ideal)) U (Proc.devRef .tc main_v116) : S_.Idx → EReal)
          = fun _ => Spec.lossTail (fun b k l => Ideal.div (Spec.covRaw (Spec.nrmR (Spec.pairs (Spec.of3 (U (Proc.devRef .tc main_v36) : S1024x5x2430.Idx → EReal)))) b k l) Spec.n2429 + Spec.e5 * Spec.eyeE k l))
    (r2c : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after (RefRun.opsC (F := Ideal)) U (Proc.devRef .tc main_v117) : S1024x10x30x9x9.Idx → EReal) = Spec.out5of (Spec.nrmR (Spec.pairs (Spec.of3 (U (Proc.devRef .tc main_v36) : S1024x5x2430.Idx → EReal)))) ho)
    (r3 : ∀ U : Valuation τ sig (Elt Ideal), (∀ i, ((U (Proc.devRef .tc main_arg6) : S100000.Idx → BitVec 32) i).toInt < 8) → (∀ i, ((U (Proc.devRef .tc main_arg7) : S100000.Idx → BitVec 32) i).toInt < 8) →
        (after (RefRun.opsD (F := Ideal)) U (Proc.devRef .tc main_v165) : S_.Idx → EReal)
          = fun _ => (RAsm.at0 (U (Proc.devRef .tc main_v64)) + RAsm.at0 (U (Proc.devRef .tc main_v116)))
              + (Spec.simSum (Spec.rowUnit (Spec.of2 (U (Proc.devRef .tc main_arg5) : S8x128.Idx → EReal))) (Spec.of2 (U (Proc.devRef .tc main_arg1) : S100000x128.Idx → EReal)) (Spec.ofLab (U (Proc.devRef .tc main_arg6) : S100000.Idx → BitVec 32)) + Spec.simSum (Spec.rowUnit (Spec.of2 (U (Proc.devRef .tc main_arg5) : S8x128.Idx → EReal))) (Spec.of2 (U (Proc.devRef .tc main_arg2) : S100000x128.Idx → EReal)) (Spec.ofLab (U (Proc.devRef .tc main_arg7) : S100000.Idx → BitVec 32)))) :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W24 m ρ c (Proc.devRef .tc Cert.KernelIdeal.main_v126),
    fun c => Cert.KernelIdeal.Gen.W24 m ρ c (Proc.devRef .tc Cert.KernelIdeal.main_v134), Cert.KernelIdeal.KRun.run m ρ, ?_⟩
  refine (θ_run Cert.ReferenceIdeal.defs _ _).mono (fun r h c => ?_) (RefRun.run_main (F := Ideal) m' ρ')
  obtain ⟨g0, g1, g2, g3, g4, g5, g6, g7⟩ := hagree c
  -- the precondition, read back: the gate's entries real, the labels below 8
  obtain ⟨hg, hlA, hlB⟩ := Cert.PreFacts.of_pre _ _ _ _ _ _ _ _ (hpre c)
  -- the launch contents of the reference's inputs are the kernel's
  have e0 : launchContents m' c (Proc.devRef .tc main_arg0) = m ((c.tc : Thread Cert.KernelIdeal.nD Cert.KernelIdeal.τ).loc Cert.KernelIdeal.main_arg0) := g0
  have e1 : launchContents m' c (Proc.devRef .tc main_arg1) = m ((c.tc : Thread Cert.KernelIdeal.nD Cert.KernelIdeal.τ).loc Cert.KernelIdeal.main_arg1) := g1
  have e2 : launchContents m' c (Proc.devRef .tc main_arg2) = m ((c.tc : Thread Cert.KernelIdeal.nD Cert.KernelIdeal.τ).loc Cert.KernelIdeal.main_arg2) := g2
  have e3 : launchContents m' c (Proc.devRef .tc main_arg3) = m ((c.tc : Thread Cert.KernelIdeal.nD Cert.KernelIdeal.τ).loc Cert.KernelIdeal.main_arg3) := g3
  have e4 : launchContents m' c (Proc.devRef .tc main_arg4) = m ((c.tc : Thread Cert.KernelIdeal.nD Cert.KernelIdeal.τ).loc Cert.KernelIdeal.main_arg4) := g4
  have e5 : launchContents m' c (Proc.devRef .tc main_arg5) = m ((c.tc : Thread Cert.KernelIdeal.nD Cert.KernelIdeal.τ).loc Cert.KernelIdeal.main_arg5) := g5
  have e6 : launchContents m' c (Proc.devRef .tc main_arg6) = m ((c.tc : Thread Cert.KernelIdeal.nD Cert.KernelIdeal.τ).loc Cert.KernelIdeal.main_arg6) := g6
  have e7 : launchContents m' c (Proc.devRef .tc main_arg7) = m ((c.tc : Thread Cert.KernelIdeal.nD Cert.KernelIdeal.τ).loc Cert.KernelIdeal.main_arg7) := g7
  -- the reference's results, as the specification's
  obtain ⟨Rout, Rloss, a0, a1, a2, a3, a4, a5, a6, a7⟩ :=
    RAsm.reference_results (RefRun.opsA (F := Ideal)) (RefRun.opsB (F := Ideal)) (RefRun.opsC (F := Ideal)) (RefRun.opsD (F := Ideal)) hx ho r0a r0b RPart1.main_v64_eq r2b r2c r3
      RefRun.opsA_main_arg0 RefRun.opsA_main_arg1 RefRun.opsA_main_arg2 RefRun.opsA_main_arg3 RefRun.opsA_main_arg4 RefRun.opsA_main_arg5 RefRun.opsA_main_arg6 RefRun.opsA_main_arg7
      RefRun.opsB_main_arg0 RefRun.opsB_main_arg1 RefRun.opsB_main_arg2 RefRun.opsB_main_arg3 RefRun.opsB_main_arg4 RefRun.opsB_main_arg5 RefRun.opsB_main_arg6 RefRun.opsB_main_arg7
      RefRun.opsC_main_arg0 RefRun.opsC_main_arg1 RefRun.opsC_main_arg2 RefRun.opsC_main_arg3 RefRun.opsC_main_arg4 RefRun.opsC_main_arg5 RefRun.opsC_main_arg6 RefRun.opsC_main_arg7
      RefRun.opsD_main_arg0 RefRun.opsD_main_arg1 RefRun.opsD_main_arg2 RefRun.opsD_main_arg3 RefRun.opsD_main_arg4 RefRun.opsD_main_arg5 RefRun.opsD_main_arg6 RefRun.opsD_main_arg7
      RefRun.opsB_main_v36 RefRun.opsC_main_v64 RefRun.opsD_main_v117
      RefRun.opsA_main_c RefRun.opsA_main_c_1 RefRun.opsA_main_c_0 RefRun.opsA_main_c_2
      RefRun.opsB_main_c RefRun.opsB_main_c_1 RefRun.opsB_main_c_0 RefRun.opsB_main_c_2 (launchContents m' c)
      (by rw [e6]; exact hlA) (by rw [e7]; exact hlB)
  rw [e0, e1, e2, e3, e4, e5, e6, e7] at Rloss
  rw [e0, e3, e4] at Rout
  -- the kernel's results, as the specification's
  obtain ⟨Kout, Kloss⟩ := hK m ρ c hlA hlB
  -- with the gate's entries real, the two arrangements agree
  have hg' : ∀ k c', Spec.of2 (m ((c.tc : Thread Cert.KernelIdeal.nD Cert.KernelIdeal.τ).loc Cert.KernelIdeal.main_arg4) : (⟨2, ![5, 6]⟩ : Shape).Idx → EReal) k c' ≠ ⊤ ∧ Spec.of2 (m ((c.tc : Thread Cert.KernelIdeal.nD Cert.KernelIdeal.τ).loc Cert.KernelIdeal.main_arg4) : (⟨2, ![5, 6]⟩ : Shape).Idx → EReal) k c' ≠ ⊥ := fun k c' => hg (ValueIdx.ix2 k c')
  rw [← Spec.outK_eq_outR _ _ _ hg'] at Rout
  rw [← Spec.lossK_eq_lossR _ _ _ _ _ _ _ _ hg'] at Rloss
  exact ⟨(h c main_v117).trans (Rout.trans Kout.symm), (h c main_v165).trans (Rloss.trans Kloss.symm),
    (h c main_arg0).trans a0, (h c main_arg1).trans a1, (h c main_arg2).trans a2, (h c main_arg3).trans a3,
    (h c main_arg4).trans a4, (h c main_arg5).trans a5, (h c main_arg6).trans a6, (h c main_arg7).trans a7⟩

/-- The certificate's claim, from the kernel side's reading and the readings of the reference's first, third and fourth parts. -/
theorem claim_of
    (hx : (⟨5, ![1024, 6, 30, 9, 9]⟩ : Shape).ShapeCasts ⟨3, ![1024, 6, 2430]⟩)
    (ho : (⟨3, ![1024, 10, 2430]⟩ : Shape).ShapeCasts ⟨5, ![1024, 10, 30, 9, 9]⟩)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
        (∀ i, ((m ((c.tc : Thread Cert.KernelIdeal.nD Cert.KernelIdeal.τ).loc Cert.KernelIdeal.main_arg6) : (⟨1, ![100000]⟩ : Shape).Idx → BitVec 32) i).toInt < 8) → (∀ i, ((m ((c.tc : Thread Cert.KernelIdeal.nD Cert.KernelIdeal.τ).loc Cert.KernelIdeal.main_arg7) : (⟨1, ![100000]⟩ : Shape).Idx → BitVec 32) i).toInt < 8) →
        (Cert.KernelIdeal.Gen.W24 m ρ c (Proc.devRef .tc Cert.KernelIdeal.main_v126) : (⟨5, ![1024, 10, 30, 9, 9]⟩ : Shape).Idx → EReal)
            = Spec.out5of (Spec.outK (Spec.x3of (m ((c.tc : Thread Cert.KernelIdeal.nD Cert.KernelIdeal.τ).loc Cert.KernelIdeal.main_arg0) : (⟨5, ![1024, 6, 30, 9, 9]⟩ : Shape).Idx → EReal) hx) (Spec.of2 (m ((c.tc : Thread Cert.KernelIdeal.nD Cert.KernelIdeal.τ).loc Cert.KernelIdeal.main_arg3) : (⟨2, ![5, 6]⟩ : Shape).Idx → EReal)) (Spec.of2 (m ((c.tc : Thread Cert.KernelIdeal.nD Cert.KernelIdeal.τ).loc Cert.KernelIdeal.main_arg4) : (⟨2, ![5, 6]⟩ : Shape).Idx → EReal))) ho
        ∧ (Cert.KernelIdeal.Gen.W24 m ρ c (Proc.devRef .tc Cert.KernelIdeal.main_v134) : (⟨0, ![]⟩ : Shape).Idx → EReal)
            = fun _ => Spec.lossK (Spec.x3of (m ((c.tc : Thread Cert.KernelIdeal.nD Cert.KernelIdeal.τ).loc Cert.KernelIdeal.main_arg0) : (⟨5, ![1024, 6, 30, 9, 9]⟩ : Shape).Idx → EReal) hx) (Spec.of2 (m ((c.tc : Thread Cert.KernelIdeal.nD Cert.KernelIdeal.τ).loc Cert.KernelIdeal.main_arg3) : (⟨2, ![5, 6]⟩ : Shape).Idx → EReal)) (Spec.of2 (m ((c.tc : Thread Cert.KernelIdeal.nD Cert.KernelIdeal.τ).loc Cert.KernelIdeal.main_arg4) : (⟨2, ![5, 6]⟩ : Shape).Idx → EReal)) (Spec.of2 (m ((c.tc : Thread Cert.KernelIdeal.nD Cert.KernelIdeal.τ).loc Cert.KernelIdeal.main_arg5) : (⟨2, ![8, 128]⟩ : Shape).Idx → EReal)) (Spec.of2 (m ((c.tc : Thread Cert.KernelIdeal.nD Cert.KernelIdeal.τ).loc Cert.KernelIdeal.main_arg1) : (⟨2, ![100000, 128]⟩ : Shape).Idx → EReal)) (Spec.of2 (m ((c.tc : Thread Cert.KernelIdeal.nD Cert.KernelIdeal.τ).loc Cert.KernelIdeal.main_arg2) : (⟨2, ![100000, 128]⟩ : Shape).Idx → EReal)) (Spec.ofLab (m ((c.tc : Thread Cert.KernelIdeal.nD Cert.KernelIdeal.τ).loc Cert.KernelIdeal.main_arg6) : (⟨1, ![100000]⟩ : Shape).Idx → BitVec 32)) (Spec.ofLab (m ((c.tc : Thread Cert.KernelIdeal.nD Cert.KernelIdeal.τ).loc Cert.KernelIdeal.main_arg7) : (⟨1, ![100000]⟩ : Shape).Idx → BitVec 32)))
    (r0a : ∀ V : Valuation τ sig (Elt Ideal), Spec.of2 (after (RefRun.opsA (F := Ideal)) V (Proc.devRef .tc main_v24) : S5x6.Idx → EReal)
        = Spec.wn (Spec.of2 (V (Proc.devRef .tc main_arg3) : S5x6.Idx → EReal)) (Spec.gste (Spec.of2 (V (Proc.devRef .tc main_arg4) : S5x6.Idx → EReal))))
    (r0b : ∀ V : Valuation τ sig (Elt Ideal), Spec.of3 (after (RefRun.opsA (F := Ideal)) V (Proc.devRef .tc main_v36) : S1024x5x2430.Idx → EReal)
        = Spec.nrmR (Spec.zmix (Spec.x3of (V (Proc.devRef .tc main_arg0) : S1024x6x30x9x9.Idx → EReal) hx) (Spec.of2 (after (RefRun.opsA (F := Ideal)) V (Proc.devRef .tc main_v24) : S5x6.Idx → EReal))))
    (r2b : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after (RefRun.opsC (F := Ideal)) U (Proc.devRef .tc main_v116) : S_.Idx → EReal)
          = fun _ => Spec.lossTail (fun b k l => Ideal.div (Spec.covRaw (Spec.nrmR (Spec.pairs (Spec.of3 (U (Proc.devRef .tc main_v36) : S1024x5x2430.Idx → EReal)))) b k l) Spec.n2429 + Spec.e5 * Spec.eyeE k l))
    (r2c : ∀ U : Valuation τ sig (Elt Ideal),
        (U (Proc.devRef .tc main_c) = (fun i => lit0 (S10.rowMajor i))) →
        (U (Proc.devRef .tc main_c_1) = (fun i => lit1 (S10.rowMajor i))) →
        (U (Proc.devRef .tc main_c_0) = constantI S10 1 0#1) →
        (U (Proc.devRef .tc main_c_2) = constantI S10 1 0#1) →
        (after (RefRun.opsC (F := Ideal)) U (Proc.devRef .tc main_v117) : S1024x10x30x9x9.Idx → EReal) = Spec.out5of (Spec.nrmR (Spec.pairs (Spec.of3 (U (Proc.devRef .tc main_v36) : S1024x5x2430.Idx → EReal)))) ho)
    (r3 : ∀ U : Valuation τ sig (Elt Ideal), (∀ i, ((U (Proc.devRef .tc main_arg6) : S100000.Idx → BitVec 32) i).toInt < 8) → (∀ i, ((U (Proc.devRef .tc main_arg7) : S100000.Idx → BitVec 32) i).toInt < 8) →
        (after (RefRun.opsD (F := Ideal)) U (Proc.devRef .tc main_v165) : S_.Idx → EReal)
          = fun _ => (RAsm.at0 (U (Proc.devRef .tc main_v64)) + RAsm.at0 (U (Proc.devRef .tc main_v116)))
              + (Spec.simSum (Spec.rowUnit (Spec.of2 (U (Proc.devRef .tc main_arg5) : S8x128.Idx → EReal))) (Spec.of2 (U (Proc.devRef .tc main_arg1) : S100000x128.Idx → EReal)) (Spec.ofLab (U (Proc.devRef .tc main_arg6) : S100000.Idx → BitVec 32)) + Spec.simSum (Spec.rowUnit (Spec.of2 (U (Proc.devRef .tc main_arg5) : S8x128.Idx → EReal))) (Spec.of2 (U (Proc.devRef .tc main_arg2) : S100000x128.Idx → EReal)) (Spec.ofLab (U (Proc.devRef .tc main_arg7) : S100000.Idx → BitVec 32)))) :
    Cert.Claim :=
  ⟨Cert.Kernel.Gen.facts, Cert.KernelIdeal.Gen.facts, Cert.ReferenceIdeal.Gen.facts, Cert.Pre_finite_inputs.Gen.facts,
    frame_k, frame_ki, frame_ri, trivial,
    algebraic hx ho hK r0a r0b r2b r2c r3⟩

end Cert.Final

end
-- ==== Proof.KKeep.lean ====
/- Buffers that keep their contents across segment boundaries of @main's run: a stretch of host operations leaves
   every buffer it does not write as it was; a kernel region leaves every buffer that is not one of its arrays as it
   was, leaves each input array as it was, and leaves each output array at its write-backs folded over the grid. From
   these, step by step along the boundary fold: the operands of the later regions and of the closing host operations
   read at an earlier boundary, the arguments read at the launch memory, and each region's output array read at the
   pipeline's exit contents. -/
import proofs.«414715_j46866683134133_3_alg».proof.Proof.Gen.KernelIdeal.Frame
import Idealize.ShloMosaic.Lib.Pipeline.Cells
import Idealize.ShloMosaic.Lib.Pipeline.FrameSuffix
import Idealize.ShloMosaic.Lib.StableHlo.Run

set_option maxRecDepth 16384

noncomputable section

namespace Cert.KernelIdeal.KKeep

open Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg) (c : Dev nD)

/-- One stretch of host operations keeps the buffer `b`: none of its operations writes `b` (each operation's written
    buffer is a reference other than `b`). -/
local macro "keep_host " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## A region keeps its input arrays -/

/-- Region 0 leaves an input window's array as it found it: nothing is written back to it. -/
theorem W6_in (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin cfg0.N).trans (A_eq0 (V5 m ρ) c w))
/-- Region 1 leaves an input window's array as it found it. -/
theorem W10_in (w : Fin cfg1.W) (hin : (cfg1.win w).isOut = false) :
    W10 m ρ c (Proc.devRef .tc (Pipeline.arrRef spec1 w)) = W9 m ρ c (Proc.devRef .tc (Pipeline.arrRef spec1 w)) :=
  (W10_arr m ρ c w).trans (((dat1 (V9 m ρ) c).arrAt_in w hin cfg1.N).trans (A_eq1 (V9 m ρ) c w))
/-- Region 2 leaves an input window's array as it found it. -/
theorem W14_in (w : Fin cfg2.W) (hin : (cfg2.win w).isOut = false) :
    W14 m ρ c (Proc.devRef .tc (Pipeline.arrRef spec2 w)) = W13 m ρ c (Proc.devRef .tc (Pipeline.arrRef spec2 w)) :=
  (W14_arr m ρ c w).trans (((dat2 (V13 m ρ) c).arrAt_in w hin cfg2.N).trans (A_eq2 (V13 m ρ) c w))
/-- Region 3 leaves an input window's array as it found it. -/
theorem W23_in (w : Fin cfg3.W) (hin : (cfg3.win w).isOut = false) :
    W23 m ρ c (Proc.devRef .tc (Pipeline.arrRef spec3 w)) = W22 m ρ c (Proc.devRef .tc (Pipeline.arrRef spec3 w)) :=
  (W23_arr m ρ c w).trans (((dat3 (V22 m ρ) c).arrAt_in w hin cfg3.N).trans (A_eq3 (V22 m ρ) c w))

/-! ## The regions' output arrays -/

theorem arrRef_spec0_2 : Pipeline.arrRef spec0 2 = main_v29 := rfl
theorem arrRef_spec1_3 : Pipeline.arrRef spec1 3 = main_v77 := rfl
theorem arrRef_spec2_4 : Pipeline.arrRef spec2 4 = main_v125 := rfl
theorem arrRef_spec3_5 : Pipeline.arrRef spec3 5 = main_v131 := rfl

/-- At region 0's exit its output array holds the write-backs folded over the whole grid. -/
theorem W6_main_v29 : W6 m ρ c (Proc.devRef .tc main_v29) = (dat0 (V5 m ρ) c).arrAt 2 cfg0.N := W6_arr m ρ c 2
/-- At region 1's exit its output array holds the write-backs folded over the whole grid. -/
theorem W10_main_v77 : W10 m ρ c (Proc.devRef .tc main_v77) = (dat1 (V9 m ρ) c).arrAt 3 cfg1.N := W10_arr m ρ c 3
/-- At region 2's exit its output array holds the write-backs folded over the whole grid. -/
theorem W14_main_v125 : W14 m ρ c (Proc.devRef .tc main_v125) = (dat2 (V13 m ρ) c).arrAt 4 cfg2.N := W14_arr m ρ c 4
/-- At region 3's exit its output array holds the write-backs folded over the whole grid. -/
theorem W23_main_v131 : W23 m ρ c (Proc.devRef .tc main_v131) = (dat3 (V22 m ρ) c).arrAt 5 cfg3.N := W23_arr m ρ c 5

/-! ## The arguments no stretch before the first region writes are the launch memory's -/

theorem W0_main_arg0 : W0 m ρ c (Proc.devRef .tc main_arg0) = m ((c : Thread nD τ).loc main_arg0) := rfl
theorem W0_main_arg3 : W0 m ρ c (Proc.devRef .tc main_arg3) = m ((c : Thread nD τ).loc main_arg3) := rfl
theorem W0_main_arg4 : W0 m ρ c (Proc.devRef .tc main_arg4) = m ((c : Thread nD τ).loc main_arg4) := rfl
theorem W0_main_arg5 : W0 m ρ c (Proc.devRef .tc main_arg5) = m ((c : Thread nD τ).loc main_arg5) := rfl

/-! ## Operands of the regions, read at an earlier boundary -/

/-- The input with its trailing axes flattened, at region 1's entry, is as at region 0's entry: region 0 only reads
    it and no operation between writes it. -/
theorem W9_main_v28 : W9 m ρ c (Proc.devRef .tc main_v28) = W5 m ρ c (Proc.devRef .tc main_v28) :=
  calc W9 m ρ c (Proc.devRef .tc main_v28)
    _ = W8 m ρ c (Proc.devRef .tc main_v28) := keep_host hostOps1_2 main_v28
    _ = W7 m ρ c (Proc.devRef .tc main_v28) := keep_host hostOps1_1 main_v28
    _ = W6 m ρ c (Proc.devRef .tc main_v28) := keep_host hostOps1 main_v28
    _ = W5 m ρ c (Proc.devRef .tc main_v28) := W6_in m ρ c 0 rfl

/-- The gated, row-normalised weight at region 1's entry is as at region 0's entry. -/
theorem W9_main_v22 : W9 m ρ c (Proc.devRef .tc main_v22) = W5 m ρ c (Proc.devRef .tc main_v22) :=
  calc W9 m ρ c (Proc.devRef .tc main_v22)
    _ = W8 m ρ c (Proc.devRef .tc main_v22) := keep_host hostOps1_2 main_v22
    _ = W7 m ρ c (Proc.devRef .tc main_v22) := keep_host hostOps1_1 main_v22
    _ = W6 m ρ c (Proc.devRef .tc main_v22) := keep_host hostOps1 main_v22
    _ = W5 m ρ c (Proc.devRef .tc main_v22) := W6_in m ρ c 1 rfl

/-- The flattened input at region 2's entry is as at region 0's entry. -/
theorem W13_main_v28 : W13 m ρ c (Proc.devRef .tc main_v28) = W5 m ρ c (Proc.devRef .tc main_v28) :=
  calc W13 m ρ c (Proc.devRef .tc main_v28)
    _ = W12 m ρ c (Proc.devRef .tc main_v28) := keep_host hostOps2_2 main_v28
    _ = W11 m ρ c (Proc.devRef .tc main_v28) := keep_host hostOps2_1 main_v28
    _ = W10 m ρ c (Proc.devRef .tc main_v28) := keep_host hostOps2 main_v28
    _ = W9 m ρ c (Proc.devRef .tc main_v28) := W10_in m ρ c 0 rfl
    _ = W5 m ρ c (Proc.devRef .tc main_v28) := W9_main_v28 m ρ c

/-- The gated, row-normalised weight at region 2's entry is as at region 0's entry. -/
theorem W13_main_v22 : W13 m ρ c (Proc.devRef .tc main_v22) = W5 m ρ c (Proc.devRef .tc main_v22) :=
  calc W13 m ρ c (Proc.devRef .tc main_v22)
    _ = W12 m ρ c (Proc.devRef .tc main_v22) := keep_host hostOps2_2 main_v22
    _ = W11 m ρ c (Proc.devRef .tc main_v22) := keep_host hostOps2_1 main_v22
    _ = W10 m ρ c (Proc.devRef .tc main_v22) := keep_host hostOps2 main_v22
    _ = W9 m ρ c (Proc.devRef .tc main_v22) := W10_in m ρ c 1 rfl
    _ = W5 m ρ c (Proc.devRef .tc main_v22) := W9_main_v22 m ρ c

/-- The five channels' scales at region 2's entry are as at region 1's entry. -/
theorem W13_main_v41 : W13 m ρ c (Proc.devRef .tc main_v41) = W9 m ρ c (Proc.devRef .tc main_v41) :=
  calc W13 m ρ c (Proc.devRef .tc main_v41)
    _ = W12 m ρ c (Proc.devRef .tc main_v41) := keep_host hostOps2_2 main_v41
    _ = W11 m ρ c (Proc.devRef .tc main_v41) := keep_host hostOps2_1 main_v41
    _ = W10 m ρ c (Proc.devRef .tc main_v41) := keep_host hostOps2 main_v41
    _ = W9 m ρ c (Proc.devRef .tc main_v41) := W10_in m ρ c 2 rfl

/-! ## Operands of the last region and of the closing host operations -/

/-- The unit-normalised class centres at region 3's entry are as at region 0's entry: no region before has them
    among its arrays and no operation between writes them. -/
theorem W22_main_v27 : W22 m ρ c (Proc.devRef .tc main_v27) = W5 m ρ c (Proc.devRef .tc main_v27) :=
  calc W22 m ρ c (Proc.devRef .tc main_v27)
    _ = W21 m ρ c (Proc.devRef .tc main_v27) := keep_host hostOps3_7 main_v27
    _ = W20 m ρ c (Proc.devRef .tc main_v27) := keep_host hostOps3_6 main_v27
    _ = W19 m ρ c (Proc.devRef .tc main_v27) := keep_host hostOps3_5 main_v27
    _ = W18 m ρ c (Proc.devRef .tc main_v27) := keep_host hostOps3_4 main_v27
    _ = W17 m ρ c (Proc.devRef .tc main_v27) := keep_host hostOps3_3 main_v27
    _ = W16 m ρ c (Proc.devRef .tc main_v27) := keep_host hostOps3_2 main_v27
    _ = W15 m ρ c (Proc.devRef .tc main_v27) := keep_host hostOps3_1 main_v27
    _ = W14 m ρ c (Proc.devRef .tc main_v27) := keep_host hostOps3 main_v27
    _ = W13 m ρ c (Proc.devRef .tc main_v27) := W14_of_ne m ρ c main_v27 (by decide)
    _ = W12 m ρ c (Proc.devRef .tc main_v27) := keep_host hostOps2_2 main_v27
    _ = W11 m ρ c (Proc.devRef .tc main_v27) := keep_host hostOps2_1 main_v27
    _ = W10 m ρ c (Proc.devRef .tc main_v27) := keep_host hostOps2 main_v27
    _ = W9 m ρ c (Proc.devRef .tc main_v27) := W10_of_ne m ρ c main_v27 (by decide)
    _ = W8 m ρ c (Proc.devRef .tc main_v27) := keep_host hostOps1_2 main_v27
    _ = W7 m ρ c (Proc.devRef .tc main_v27) := keep_host hostOps1_1 main_v27
    _ = W6 m ρ c (Proc.devRef .tc main_v27) := keep_host hostOps1 main_v27
    _ = W5 m ρ c (Proc.devRef .tc main_v27) := W6_of_ne m ρ c main_v27 (by decide)

/-- The first whitening loss at region 3's exit is as at region 1's entry. -/
theorem W23_main_v76 : W23 m ρ c (Proc.devRef .tc main_v76) = W9 m ρ c (Proc.devRef .tc main_v76) :=
  calc W23 m ρ c (Proc.devRef .tc main_v76)
    _ = W22 m ρ c (Proc.devRef .tc main_v76) := W23_of_ne m ρ c main_v76 (by decide)
    _ = W21 m ρ c (Proc.devRef .tc main_v76) := keep_host hostOps3_7 main_v76
    _ = W20 m ρ c (Proc.devRef .tc main_v76) := keep_host hostOps3_6 main_v76
    _ = W19 m ρ c (Proc.devRef .tc main_v76) := keep_host hostOps3_5 main_v76
    _ = W18 m ρ c (Proc.devRef .tc main_v76) := keep_host hostOps3_4 main_v76
    _ = W17 m ρ c (Proc.devRef .tc main_v76) := keep_host hostOps3_3 main_v76
    _ = W16 m ρ c (Proc.devRef .tc main_v76) := keep_host hostOps3_2 main_v76
    _ = W15 m ρ c (Proc.devRef .tc main_v76) := keep_host hostOps3_1 main_v76
    _ = W14 m ρ c (Proc.devRef .tc main_v76) := keep_host hostOps3 main_v76
    _ = W13 m ρ c (Proc.devRef .tc main_v76) := W14_of_ne m ρ c main_v76 (by decide)
    _ = W12 m ρ c (Proc.devRef .tc main_v76) := keep_host hostOps2_2 main_v76
    _ = W11 m ρ c (Proc.devRef .tc main_v76) := keep_host hostOps2_1 main_v76
    _ = W10 m ρ c (Proc.devRef .tc main_v76) := keep_host hostOps2 main_v76
    _ = W9 m ρ c (Proc.devRef .tc main_v76) := W10_of_ne m ρ c main_v76 (by decide)

/-- The second whitening loss at region 3's exit is as at region 2's entry. -/
theorem W23_main_v124 : W23 m ρ c (Proc.devRef .tc main_v124) = W13 m ρ c (Proc.devRef .tc main_v124) :=
  calc W23 m ρ c (Proc.devRef .tc main_v124)
    _ = W22 m ρ c (Proc.devRef .tc main_v124) := W23_of_ne m ρ c main_v124 (by decide)
    _ = W21 m ρ c (Proc.devRef .tc main_v124) := keep_host hostOps3_7 main_v124
    _ = W20 m ρ c (Proc.devRef .tc main_v124) := keep_host hostOps3_6 main_v124
    _ = W19 m ρ c (Proc.devRef .tc main_v124) := keep_host hostOps3_5 main_v124
    _ = W18 m ρ c (Proc.devRef .tc main_v124) := keep_host hostOps3_4 main_v124
    _ = W17 m ρ c (Proc.devRef .tc main_v124) := keep_host hostOps3_3 main_v124
    _ = W16 m ρ c (Proc.devRef .tc main_v124) := keep_host hostOps3_2 main_v124
    _ = W15 m ρ c (Proc.devRef .tc main_v124) := keep_host hostOps3_1 main_v124
    _ = W14 m ρ c (Proc.devRef .tc main_v124) := keep_host hostOps3 main_v124
    _ = W13 m ρ c (Proc.devRef .tc main_v124) := W14_of_ne m ρ c main_v124 (by decide)

/-! ## The first result, and the arguments the stretches before the last region read -/

/-- The first result at the last boundary is as it was right after it was written (the boundary after region 2's
    output is unflattened). -/
theorem W24_main_v126 : W24 m ρ c (Proc.devRef .tc main_v126) = W15 m ρ c (Proc.devRef .tc main_v126) :=
  calc W24 m ρ c (Proc.devRef .tc main_v126)
    _ = W23 m ρ c (Proc.devRef .tc main_v126) := keep_host hostOps4 main_v126
    _ = W22 m ρ c (Proc.devRef .tc main_v126) := W23_of_ne m ρ c main_v126 (by decide)
    _ = W21 m ρ c (Proc.devRef .tc main_v126) := keep_host hostOps3_7 main_v126
    _ = W20 m ρ c (Proc.devRef .tc main_v126) := keep_host hostOps3_6 main_v126
    _ = W19 m ρ c (Proc.devRef .tc main_v126) := keep_host hostOps3_5 main_v126
    _ = W18 m ρ c (Proc.devRef .tc main_v126) := keep_host hostOps3_4 main_v126
    _ = W17 m ρ c (Proc.devRef .tc main_v126) := keep_host hostOps3_3 main_v126
    _ = W16 m ρ c (Proc.devRef .tc main_v126) := keep_host hostOps3_2 main_v126
    _ = W15 m ρ c (Proc.devRef .tc main_v126) := keep_host hostOps3_1 main_v126

/-- Argument 1 at the boundary after region 2's output is unflattened is the launch memory's: the later segments keep
    it, and at the last boundary it is as launched. -/
theorem W15_main_arg1 : W15 m ρ c (Proc.devRef .tc main_arg1) = m ((c : Thread nD τ).loc main_arg1) :=
  (calc W24 m ρ c (Proc.devRef .tc main_arg1)
      _ = W23 m ρ c (Proc.devRef .tc main_arg1) := keep_host hostOps4 main_arg1
      _ = W22 m ρ c (Proc.devRef .tc main_arg1) := W23_of_ne m ρ c main_arg1 (by decide)
      _ = W21 m ρ c (Proc.devRef .tc main_arg1) := keep_host hostOps3_7 main_arg1
      _ = W20 m ρ c (Proc.devRef .tc main_arg1) := keep_host hostOps3_6 main_arg1
      _ = W19 m ρ c (Proc.devRef .tc main_arg1) := keep_host hostOps3_5 main_arg1
      _ = W18 m ρ c (Proc.devRef .tc main_arg1) := keep_host hostOps3_4 main_arg1
      _ = W17 m ρ c (Proc.devRef .tc main_arg1) := keep_host hostOps3_3 main_arg1
      _ = W16 m ρ c (Proc.devRef .tc main_arg1) := keep_host hostOps3_2 main_arg1
      _ = W15 m ρ c (Proc.devRef .tc main_arg1) := keep_host hostOps3_1 main_arg1).symm.trans (W24_main_arg1 m ρ c)

/-- Argument 2 at the boundary after region 2's output is unflattened is the launch memory's: the later segments keep
    it, and at the last boundary it is as launched. -/
theorem W15_main_arg2 : W15 m ρ c (Proc.devRef .tc main_arg2) = m ((c : Thread nD τ).loc main_arg2) :=
  (calc W24 m ρ c (Proc.devRef .tc main_arg2)
      _ = W23 m ρ c (Proc.devRef .tc main_arg2) := keep_host hostOps4 main_arg2
      _ = W22 m ρ c (Proc.devRef .tc main_arg2) := W23_of_ne m ρ c main_arg2 (by decide)
      _ = W21 m ρ c (Proc.devRef .tc main_arg2) := keep_host hostOps3_7 main_arg2
      _ = W20 m ρ c (Proc.devRef .tc main_arg2) := keep_host hostOps3_6 main_arg2
      _ = W19 m ρ c (Proc.devRef .tc main_arg2) := keep_host hostOps3_5 main_arg2
      _ = W18 m ρ c (Proc.devRef .tc main_arg2) := keep_host hostOps3_4 main_arg2
      _ = W17 m ρ c (Proc.devRef .tc main_arg2) := keep_host hostOps3_3 main_arg2
      _ = W16 m ρ c (Proc.devRef .tc main_arg2) := keep_host hostOps3_2 main_arg2
      _ = W15 m ρ c (Proc.devRef .tc main_arg2) := keep_host hostOps3_1 main_arg2).symm.trans (W24_main_arg2 m ρ c)

/-- Argument 6 at the boundary after region 2's output is unflattened is the launch memory's: the later segments keep
    it, and at the last boundary it is as launched. -/
theorem W15_main_arg6 : W15 m ρ c (Proc.devRef .tc main_arg6) = m ((c : Thread nD τ).loc main_arg6) :=
  (calc W24 m ρ c (Proc.devRef .tc main_arg6)
      _ = W23 m ρ c (Proc.devRef .tc main_arg6) := keep_host hostOps4 main_arg6
      _ = W22 m ρ c (Proc.devRef .tc main_arg6) := W23_of_ne m ρ c main_arg6 (by decide)
      _ = W21 m ρ c (Proc.devRef .tc main_arg6) := keep_host hostOps3_7 main_arg6
      _ = W20 m ρ c (Proc.devRef .tc main_arg6) := keep_host hostOps3_6 main_arg6
      _ = W19 m ρ c (Proc.devRef .tc main_arg6) := keep_host hostOps3_5 main_arg6
      _ = W18 m ρ c (Proc.devRef .tc main_arg6) := keep_host hostOps3_4 main_arg6
      _ = W17 m ρ c (Proc.devRef .tc main_arg6) := keep_host hostOps3_3 main_arg6
      _ = W16 m ρ c (Proc.devRef .tc main_arg6) := keep_host hostOps3_2 main_arg6
      _ = W15 m ρ c (Proc.devRef .tc main_arg6) := keep_host hostOps3_1 main_arg6).symm.trans (W24_main_arg6 m ρ c)

/-- Argument 7 at the boundary after region 2's output is unflattened is the launch memory's: the later segments keep
    it, and at the last boundary it is as launched. -/
theorem W15_main_arg7 : W15 m ρ c (Proc.devRef .tc main_arg7) = m ((c : Thread nD τ).loc main_arg7) :=
  (calc W24 m ρ c (Proc.devRef .tc main_arg7)
      _ = W23 m ρ c (Proc.devRef .tc main_arg7) := keep_host hostOps4 main_arg7
      _ = W22 m ρ c (Proc.devRef .tc main_arg7) := W23_of_ne m ρ c main_arg7 (by decide)
      _ = W21 m ρ c (Proc.devRef .tc main_arg7) := keep_host hostOps3_7 main_arg7
      _ = W20 m ρ c (Proc.devRef .tc main_arg7) := keep_host hostOps3_6 main_arg7
      _ = W19 m ρ c (Proc.devRef .tc main_arg7) := keep_host hostOps3_5 main_arg7
      _ = W18 m ρ c (Proc.devRef .tc main_arg7) := keep_host hostOps3_4 main_arg7
      _ = W17 m ρ c (Proc.devRef .tc main_arg7) := keep_host hostOps3_3 main_arg7
      _ = W16 m ρ c (Proc.devRef .tc main_arg7) := keep_host hostOps3_2 main_arg7
      _ = W15 m ρ c (Proc.devRef .tc main_arg7) := keep_host hostOps3_1 main_arg7).symm.trans (W24_main_arg7 m ρ c)

/-! The same at the boundary where each later one is read (the stretch that pads it). -/

/-- Argument 2 where it is padded. -/
theorem W17_main_arg2 : W17 m ρ c (Proc.devRef .tc main_arg2) = m ((c : Thread nD τ).loc main_arg2) :=
  (calc W24 m ρ c (Proc.devRef .tc main_arg2)
      _ = W23 m ρ c (Proc.devRef .tc main_arg2) := keep_host hostOps4 main_arg2
      _ = W22 m ρ c (Proc.devRef .tc main_arg2) := W23_of_ne m ρ c main_arg2 (by decide)
      _ = W21 m ρ c (Proc.devRef .tc main_arg2) := keep_host hostOps3_7 main_arg2
      _ = W20 m ρ c (Proc.devRef .tc main_arg2) := keep_host hostOps3_6 main_arg2
      _ = W19 m ρ c (Proc.devRef .tc main_arg2) := keep_host hostOps3_5 main_arg2
      _ = W18 m ρ c (Proc.devRef .tc main_arg2) := keep_host hostOps3_4 main_arg2
      _ = W17 m ρ c (Proc.devRef .tc main_arg2) := keep_host hostOps3_3 main_arg2).symm.trans (W24_main_arg2 m ρ c)

/-- Argument 6 where it is padded. -/
theorem W19_main_arg6 : W19 m ρ c (Proc.devRef .tc main_arg6) = m ((c : Thread nD τ).loc main_arg6) :=
  (calc W24 m ρ c (Proc.devRef .tc main_arg6)
      _ = W23 m ρ c (Proc.devRef .tc main_arg6) := keep_host hostOps4 main_arg6
      _ = W22 m ρ c (Proc.devRef .tc main_arg6) := W23_of_ne m ρ c main_arg6 (by decide)
      _ = W21 m ρ c (Proc.devRef .tc main_arg6) := keep_host hostOps3_7 main_arg6
      _ = W20 m ρ c (Proc.devRef .tc main_arg6) := keep_host hostOps3_6 main_arg6
      _ = W19 m ρ c (Proc.devRef .tc main_arg6) := keep_host hostOps3_5 main_arg6).symm.trans (W24_main_arg6 m ρ c)

/-- Argument 7 where it is padded. -/
theorem W21_main_arg7 : W21 m ρ c (Proc.devRef .tc main_arg7) = m ((c : Thread nD τ).loc main_arg7) :=
  (calc W24 m ρ c (Proc.devRef .tc main_arg7)
      _ = W23 m ρ c (Proc.devRef .tc main_arg7) := keep_host hostOps4 main_arg7
      _ = W22 m ρ c (Proc.devRef .tc main_arg7) := W23_of_ne m ρ c main_arg7 (by decide)
      _ = W21 m ρ c (Proc.devRef .tc main_arg7) := keep_host hostOps3_7 main_arg7).symm.trans (W24_main_arg7 m ρ c)

end Cert.KernelIdeal.KKeep

end
-- ==== Proof.KHost0.lean ====
/-
  The host's work before the first region, read index by index over the extended reals.

  From arbitrary contents at the program's entry, the five stretches of host operations that precede the first region
  leave:
  * the 5×6 weight under the gate's mask, every row divided by max(its Euclidean norm, 1e-12). The gate is
    binarised as (sign g + 1) / 2; the diagonal's indicator is "row number = column number" read as a float; the mask
    is (1 − g)·eye + g·1; a row's norm is the square root of the sum of its squares, the sum started from 0.0;
  * the 8×128 table of centres, every row divided by max(its norm, 1e-12), computed the same way;
  * the input with its three trailing axes 30×9×9 flattened into one of 2430.
  Each is the specification's function of the entry contents of the arrays it is computed from.
-/
import proofs.«414715_j46866683134133_3_alg».proof.Proof.Gen.KernelIdeal.Frame
import proofs.«414715_j46866683134133_3_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.KernelIdeal.KHost0

open Idealize.ShloMosaic Idealize.ShloMosaic.ValueIdx
open Cert.KernelIdeal Cert.KernelIdeal.Gen
open scoped BigOperators

/-! ## The arrays the host computes, as functions of their operands -/

/-- A scalar word spread over the 5×6 array. -/
abbrev splat56 (b : BitVec 32) : FVec Ideal S5x6 .f32 :=
  broadcastInDim S5x6 ![] bcast_S_S5x6 (constant (F := Ideal) S_ .f32 b)

/-- (sign g + 1) / 2, entry by entry. -/
abbrev gateV (g : FVec Ideal S5x6 .f32) : FVec Ideal S5x6 .f32 :=
  Host.divf (addf (Host.sign g) (splat56 0x3F800000#32)) (splat56 0x40000000#32)

/-- The diagonal's indicator: row number (plus zero) compared with column number, the bit read as a float. -/
abbrev eyeV : FVec Ideal S5x6 .f32 :=
  uitofp .f32 (cmpi .eq (addi (iotaInDim S5x6 32 0) (broadcastInDim S5x6 ![] bcast_S_S5x6 (constantI S_ 32 0#32)))
    (iotaInDim S5x6 32 1))

/-- The weight times the mask (1 − g)·eye + g·1. -/
abbrev wpreV (w g : FVec Ideal S5x6 .f32) : FVec Ideal S5x6 .f32 :=
  mulf w (addf (mulf (subf (splat56 0x3F800000#32) (gateV g)) eyeV) (mulf (gateV g) (splat56 0x3F800000#32)))

theorem gateV_apply (g : FVec Ideal S5x6 .f32) (k : Fin 5) (c : Fin 6) :
    gateV g (ix2 k c) = Spec.gbin (Spec.of2 g) k c := rfl

/-- The comparison's bit is set exactly on the diagonal. -/
theorem eye_bit : ∀ (k : Fin 5) (c : Fin 6),
    IntOp.cmpi .eq (IntOp.addi (BitVec.ofNat 32 k.val) 0#32) (BitVec.ofNat 32 c.val) = if k.val = c.val then 1#1 else 0#1 := by
  decide

theorem eyeV_apply (k : Fin 5) (c : Fin 6) : eyeV (ix2 k c) = Spec.eyeE k c := by
  show (((IntOp.cmpi .eq (IntOp.addi (BitVec.ofNat 32 k.val) 0#32) (BitVec.ofNat 32 c.val)).toNat : ℝ) : EReal) = _
  rw [eye_bit, Spec.eyeE]
  by_cases h : k.val = c.val
  · rw [if_pos h, if_pos h]; norm_num
  · rw [if_neg h, if_neg h]; norm_num

theorem wpreV_apply (w g : FVec Ideal S5x6 .f32) (k : Fin 5) (c : Fin 6) :
    wpreV w g (ix2 k c) = Spec.wpre (Spec.of2 w) (Spec.gbin (Spec.of2 g)) k c := by
  show w (ix2 k c) * ((Spec.c1 - Spec.gbin (Spec.of2 g) k c) * eyeV (ix2 k c) + Spec.gbin (Spec.of2 g) k c * Spec.c1) = _
  rw [eyeV_apply]
  rfl

/-! ## A row's Euclidean norm, and the division by max(norm, 1e-12): the 5×6 weight -/

/-- The row norms as a 5×1 column: squares, summed along the row from 0.0, the square root. -/
abbrev normV56 (v : FVec Ideal S5x6 .f32) : FVec Ideal S5x1 .f32 :=
  Host.sqrt (broadcastInDim S5x1 ![0] bcast_S5_S5x1_0
    (Host.reduceAdd (F := Ideal) (mulf v v) (constant (F := Ideal) S_ .f32 0x00000000#32) reducesTo_S5x6_S5_d1 h_S_))

/-- Every entry over max(its row's norm, 1e-12). -/
abbrev unitV56 (v : FVec Ideal S5x6 .f32) (n : FVec Ideal S5x1 .f32) : FVec Ideal S5x6 .f32 :=
  Host.divf v (broadcastInDim S5x6 ![0, 1] bcast_S5x1_S5x6_0_1
    (maximumf n (broadcastInDim S5x1 ![] bcast_S_S5x1 (constant (F := Ideal) S_ .f32 0x2B8CBCCC#32))))

theorem reduces56 : S5x6.Reduces [1] S5 := by decide

/-- The sum along a row, started from 0.0, is the sum over the row's six entries. -/
theorem rowsum56_apply (x : FVec Ideal S5x6 .f32) (k : Fin 5) :
    Host.reduceAdd (F := Ideal) x (constant (F := Ideal) S_ .f32 0x00000000#32) reducesTo_S5x6_S5_d1 h_S_ (ix1 k)
      = ∑ c : Fin 6, x (ix2 k c) := by
  show Ideal.hostReduceAdd reducesTo_S5x6_S5_d1 x (Ideal.ofBits .f32 0x00000000#32) (ix1 k) = _
  rw [Ideal.hostReduceAdd_single reducesTo_S5x6_S5_d1 reduces56, Ideal.ofBits_zero_f32, zero_add]
  show ∑ c : Fin 6, x (reduces56.lift (ix1 k) c) = _
  refine Finset.sum_congr rfl fun c _ => congrArg x ?_
  funext a
  match a with
  | ⟨0, _⟩ => rfl
  | ⟨1, _⟩ => rfl

theorem normV56_apply (v : FVec Ideal S5x6 .f32) (k : Fin 5) (z : Fin 1) :
    normV56 v (ix2 k z) = Ideal.sqrt (∑ c : Fin 6, Spec.of2 v k c * Spec.of2 v k c) := by
  show Ideal.sqrt (broadcastInDim S5x1 ![0] bcast_S5_S5x1_0
    (Host.reduceAdd (F := Ideal) (mulf v v) (constant (F := Ideal) S_ .f32 0x00000000#32) reducesTo_S5x6_S5_d1 h_S_) (ix2 k z)) = _
  rw [broadcastInDim_apply ![0] bcast_S5_S5x1_0 _ (ix2 k z) (ix1 k) (fun a => by match a with | ⟨0, _⟩ => rfl),
    rowsum56_apply]
  rfl

theorem unitV56_apply (v : FVec Ideal S5x6 .f32) (n : FVec Ideal S5x1 .f32) (k : Fin 5) (c : Fin 6) :
    unitV56 v n (ix2 k c) = Ideal.div (v (ix2 k c)) (max (n (ix2 k 0)) Spec.e12) := by
  show Ideal.div (v (ix2 k c)) (broadcastInDim S5x6 ![0, 1] bcast_S5x1_S5x6_0_1
    (maximumf n (broadcastInDim S5x1 ![] bcast_S_S5x1 (constant (F := Ideal) S_ .f32 0x2B8CBCCC#32))) (ix2 k c)) = _
  rw [broadcastInDim_apply ![0, 1] bcast_S5x1_S5x6_0_1 _ (ix2 k c) (ix2 k 0)
    (fun a => by match a with | ⟨0, _⟩ => rfl | ⟨1, _⟩ => rfl)]
  rfl

/-- Together: the row-normalised array. -/
theorem rowUnit56 (v : FVec Ideal S5x6 .f32) (k : Fin 5) (c : Fin 6) :
    unitV56 v (normV56 v) (ix2 k c) = Spec.rowUnit (Spec.of2 v) k c := by
  rw [unitV56_apply, normV56_apply]
  rfl

/-! ## The same for the 8×128 table of centres -/

/-- The row norms as an 8×1 column. -/
abbrev normV8 (v : FVec Ideal S8x128 .f32) : FVec Ideal S8x1 .f32 :=
  Host.sqrt (broadcastInDim S8x1 ![0] bcast_S8_S8x1_0
    (Host.reduceAdd (F := Ideal) (mulf v v) (constant (F := Ideal) S_ .f32 0x00000000#32) reducesTo_S8x128_S8_d1 h_S_))

/-- Every entry over max(its row's norm, 1e-12). -/
abbrev unitV8 (v : FVec Ideal S8x128 .f32) (n : FVec Ideal S8x1 .f32) : FVec Ideal S8x128 .f32 :=
  Host.divf v (broadcastInDim S8x128 ![0, 1] bcast_S8x1_S8x128_0_1
    (maximumf n (broadcastInDim S8x1 ![] bcast_S_S8x1 (constant (F := Ideal) S_ .f32 0x2B8CBCCC#32))))

theorem reduces8 : S8x128.Reduces [1] S8 := by decide

/-- The sum along a row, started from 0.0, is the sum over the row's 128 entries. -/
theorem rowsum8_apply (x : FVec Ideal S8x128 .f32) (k : Fin 8) :
    Host.reduceAdd (F := Ideal) x (constant (F := Ideal) S_ .f32 0x00000000#32) reducesTo_S8x128_S8_d1 h_S_ (ix1 k)
      = ∑ c : Fin 128, x (ix2 k c) := by
  show Ideal.hostReduceAdd reducesTo_S8x128_S8_d1 x (Ideal.ofBits .f32 0x00000000#32) (ix1 k) = _
  rw [Ideal.hostReduceAdd_single reducesTo_S8x128_S8_d1 reduces8, Ideal.ofBits_zero_f32, zero_add]
  show ∑ c : Fin 128, x (reduces8.lift (ix1 k) c) = _
  refine Finset.sum_congr rfl fun c _ => congrArg x ?_
  funext a
  match a with
  | ⟨0, _⟩ => rfl
  | ⟨1, _⟩ => rfl

theorem normV8_apply (v : FVec Ideal S8x128 .f32) (k : Fin 8) (z : Fin 1) :
    normV8 v (ix2 k z) = Ideal.sqrt (∑ c : Fin 128, Spec.of2 v k c * Spec.of2 v k c) := by
  show Ideal.sqrt (broadcastInDim S8x1 ![0] bcast_S8_S8x1_0
    (Host.reduceAdd (F := Ideal) (mulf v v) (constant (F := Ideal) S_ .f32 0x00000000#32) reducesTo_S8x128_S8_d1 h_S_) (ix2 k z)) = _
  rw [broadcastInDim_apply ![0] bcast_S8_S8x1_0 _ (ix2 k z) (ix1 k) (fun a => by match a with | ⟨0, _⟩ => rfl),
    rowsum8_apply]
  rfl

theorem unitV8_apply (v : FVec Ideal S8x128 .f32) (n : FVec Ideal S8x1 .f32) (k : Fin 8) (c : Fin 128) :
    unitV8 v n (ix2 k c) = Ideal.div (v (ix2 k c)) (max (n (ix2 k 0)) Spec.e12) := by
  show Ideal.div (v (ix2 k c)) (broadcastInDim S8x128 ![0, 1] bcast_S8x1_S8x128_0_1
    (maximumf n (broadcastInDim S8x1 ![] bcast_S_S8x1 (constant (F := Ideal) S_ .f32 0x2B8CBCCC#32))) (ix2 k c)) = _
  rw [broadcastInDim_apply ![0, 1] bcast_S8x1_S8x128_0_1 _ (ix2 k c) (ix2 k 0)
    (fun a => by match a with | ⟨0, _⟩ => rfl | ⟨1, _⟩ => rfl)]
  rfl

/-- Together: the row-normalised table. -/
theorem rowUnit8 (v : FVec Ideal S8x128 .f32) (k : Fin 8) (c : Fin 128) :
    unitV8 v (normV8 v) (ix2 k c) = Spec.rowUnit (Spec.of2 v) k c := by
  rw [unitV8_apply, normV8_apply]
  rfl

/-! ## The five stretches, each from arbitrary contents `U` at its entry

What each stretch leaves in the arrays read later, as the functions above of the entry contents; and the arrays a
stretch does not write, unchanged. -/

section Stretches
variable (U : Valuation τ sig (Elt Ideal))

set_option maxHeartbeats 2000000 in
/-- The first stretch leaves the masked weight. -/
theorem s0_v17 :
    (StableHlo.after (hostOps0 (F := Ideal)) U (Proc.devRef .tc main_v17) : S5x6.Idx → EReal)
      = wpreV (U (Proc.devRef .tc main_arg3)) (U (Proc.devRef .tc main_arg4)) := by
  after_results_simp <;> rfl
set_option maxHeartbeats 2000000 in
theorem s0_arg0 :
    StableHlo.after (hostOps0 (F := Ideal)) U (Proc.devRef .tc main_arg0) = U (Proc.devRef .tc main_arg0) := by
  after_results_simp
set_option maxHeartbeats 2000000 in
theorem s0_arg5 :
    StableHlo.after (hostOps0 (F := Ideal)) U (Proc.devRef .tc main_arg5) = U (Proc.devRef .tc main_arg5) := by
  after_results_simp

/-- The second leaves the column of the masked weight's row norms. -/
theorem s1_v18 :
    (StableHlo.after (hostOps0_1 (F := Ideal)) U (Proc.devRef .tc main_v18) : S5x1.Idx → EReal)
      = normV56 (U (Proc.devRef .tc main_v17)) := by
  after_results_simp <;> (try simp only [StableHlo.TRef.ofBuf, StableHlo.TRef.toBuf, cast_eq]) <;> rfl
theorem s1_v17 :
    StableHlo.after (hostOps0_1 (F := Ideal)) U (Proc.devRef .tc main_v17) = U (Proc.devRef .tc main_v17) := by
  after_results_simp
theorem s1_arg0 :
    StableHlo.after (hostOps0_1 (F := Ideal)) U (Proc.devRef .tc main_arg0) = U (Proc.devRef .tc main_arg0) := by
  after_results_simp
theorem s1_arg5 :
    StableHlo.after (hostOps0_1 (F := Ideal)) U (Proc.devRef .tc main_arg5) = U (Proc.devRef .tc main_arg5) := by
  after_results_simp

/-- The third divides the masked weight by max(norm, 1e-12). -/
theorem s2_v22 :
    (StableHlo.after (hostOps0_2 (F := Ideal)) U (Proc.devRef .tc main_v22) : S5x6.Idx → EReal)
      = unitV56 (U (Proc.devRef .tc main_v17)) (U (Proc.devRef .tc main_v18)) := by
  after_results_simp <;> rfl
theorem s2_arg0 :
    StableHlo.after (hostOps0_2 (F := Ideal)) U (Proc.devRef .tc main_arg0) = U (Proc.devRef .tc main_arg0) := by
  after_results_simp
theorem s2_arg5 :
    StableHlo.after (hostOps0_2 (F := Ideal)) U (Proc.devRef .tc main_arg5) = U (Proc.devRef .tc main_arg5) := by
  after_results_simp

/-- The fourth leaves the column of the centres' row norms. -/
theorem s3_v23 :
    (StableHlo.after (hostOps0_3 (F := Ideal)) U (Proc.devRef .tc main_v23) : S8x1.Idx → EReal)
      = normV8 (U (Proc.devRef .tc main_arg5)) := by
  after_results_simp <;> (try simp only [StableHlo.TRef.ofBuf, StableHlo.TRef.toBuf, cast_eq]) <;> rfl
theorem s3_v22 :
    StableHlo.after (hostOps0_3 (F := Ideal)) U (Proc.devRef .tc main_v22) = U (Proc.devRef .tc main_v22) := by
  after_results_simp
theorem s3_arg0 :
    StableHlo.after (hostOps0_3 (F := Ideal)) U (Proc.devRef .tc main_arg0) = U (Proc.devRef .tc main_arg0) := by
  after_results_simp
theorem s3_arg5 :
    StableHlo.after (hostOps0_3 (F := Ideal)) U (Proc.devRef .tc main_arg5) = U (Proc.devRef .tc main_arg5) := by
  after_results_simp

/-- The fifth divides the centres by max(norm, 1e-12), and flattens the input's three trailing axes. -/
theorem s4_v27 :
    (StableHlo.after (hostOps0_4 (F := Ideal)) U (Proc.devRef .tc main_v27) : S8x128.Idx → EReal)
      = unitV8 (U (Proc.devRef .tc main_arg5)) (U (Proc.devRef .tc main_v23)) := by
  after_results_simp <;> rfl
theorem s4_v28 :
    (StableHlo.after (hostOps0_4 (F := Ideal)) U (Proc.devRef .tc main_v28) : S1024x6x2430.Idx → EReal)
      = shapeCast S1024x6x2430 (U (Proc.devRef .tc main_arg0) : S1024x6x30x9x9.Idx → EReal)
          shapeCasts_S1024x6x30x9x9_S1024x6x2430 := by
  after_results_simp <;> rfl
theorem s4_v22 :
    StableHlo.after (hostOps0_4 (F := Ideal)) U (Proc.devRef .tc main_v22) = U (Proc.devRef .tc main_v22) := by
  after_results_simp

end Stretches

/-! ## The contents at the first region's entry -/

/-- The five stretches in order, from contents `U0`. -/
abbrev atRegion0 (U0 : Valuation τ sig (Elt Ideal)) : Valuation τ sig (Elt Ideal) :=
  StableHlo.after hostOps0_4 (StableHlo.after hostOps0_3 (StableHlo.after hostOps0_2
    (StableHlo.after hostOps0_1 (StableHlo.after hostOps0 U0))))

variable (U0 : Valuation τ sig (Elt Ideal))

/-- The masked weight read at coordinates is the specification's. -/
theorem of2_wpreV (w g : FVec Ideal S5x6 .f32) :
    Spec.of2 (wpreV w g) = Spec.wpre (Spec.of2 w) (Spec.gbin (Spec.of2 g)) :=
  funext fun k => funext fun c => wpreV_apply w g k c

/-- (a) The weight the first region reads: masked by the binarised gate, every row divided by max(its norm, 1e-12). -/
theorem wn_eq :
    Spec.of2 (atRegion0 U0 (Proc.devRef .tc main_v22) : S5x6.Idx → EReal)
      = Spec.wn (Spec.of2 (U0 (Proc.devRef .tc main_arg3) : S5x6.Idx → EReal))
          (Spec.gbin (Spec.of2 (U0 (Proc.devRef .tc main_arg4) : S5x6.Idx → EReal))) := by
  have e : (atRegion0 U0 (Proc.devRef .tc main_v22) : S5x6.Idx → EReal)
      = unitV56 (wpreV (U0 (Proc.devRef .tc main_arg3)) (U0 (Proc.devRef .tc main_arg4)))
          (normV56 (wpreV (U0 (Proc.devRef .tc main_arg3)) (U0 (Proc.devRef .tc main_arg4)))) := by
    unfold atRegion0
    rw [s4_v22, s3_v22, s2_v22, s1_v17, s1_v18, s0_v17]
  funext k c
  show (atRegion0 U0 (Proc.devRef .tc main_v22) : S5x6.Idx → EReal) (ix2 k c) = _
  rw [e, rowUnit56, of2_wpreV]
  rfl

/-- (b) The centres, every row divided by max(its norm, 1e-12). -/
theorem cnv_eq :
    Spec.of2 (atRegion0 U0 (Proc.devRef .tc main_v27) : S8x128.Idx → EReal)
      = Spec.rowUnit (Spec.of2 (U0 (Proc.devRef .tc main_arg5) : S8x128.Idx → EReal)) := by
  have e : (atRegion0 U0 (Proc.devRef .tc main_v27) : S8x128.Idx → EReal)
      = unitV8 (U0 (Proc.devRef .tc main_arg5)) (normV8 (U0 (Proc.devRef .tc main_arg5))) := by
    unfold atRegion0
    rw [s4_v27, s3_arg5, s3_v23, s2_arg5, s1_arg5, s0_arg5]
  funext k c
  show (atRegion0 U0 (Proc.devRef .tc main_v27) : S8x128.Idx → EReal) (ix2 k c) = _
  rw [e, rowUnit8]

/-- (c) The input with its three trailing axes flattened. -/
theorem x3_eq :
    Spec.of3 (atRegion0 U0 (Proc.devRef .tc main_v28) : S1024x6x2430.Idx → EReal)
      = Spec.x3of (U0 (Proc.devRef .tc main_arg0)) shapeCasts_S1024x6x30x9x9_S1024x6x2430 := by
  have e : (atRegion0 U0 (Proc.devRef .tc main_v28) : S1024x6x2430.Idx → EReal)
      = shapeCast S1024x6x2430 (U0 (Proc.devRef .tc main_arg0) : S1024x6x30x9x9.Idx → EReal)
          shapeCasts_S1024x6x30x9x9_S1024x6x2430 := by
    unfold atRegion0
    rw [s4_v28, s3_arg0, s2_arg0, s1_arg0, s0_arg0]
  rw [e]
  rfl

end Cert.KernelIdeal.KHost0

end
-- ==== Proof.KHost1.lean ====
/-
  The host arithmetic after the first covariance pass, at the ideal instance, for the five mixed channels.

  The pass leaves the raw covariance R[b, k, l] = Σ_n z[b, k, n]·z[b, l, n] of the mixed tensor z in one array. Three
  stretches of host operations follow. The first sums R over the samples, keeps the diagonal of the 5×5 result by a
  select against "row number = column number" and sums down the columns: per channel k the sum of squares
  Σ_b Σ_n z[b, k, n]², since the select leaves one term of each column's sum. From it the scale
  s_k = 1.0 / max(sqrt(·), 1e-6), then the covariance (s_k·s_l·R[b, k, l]) / 2429.0 + 1e-5·[k = l], and an array of
  ones. The second writes the strict upper triangle's mask: 0.0 where row ≥ column, one elsewhere. The third takes,
  per sample, the sum over both channel axes of |covariance · mask| divided by the mask's total, clips it below at
  0.0, sums over the samples and divides by 1024.0.

  This module reads the buffers these stretches write, from arbitrary contents at their entry whose raw-covariance
  array is that of z: the scales' buffer holds the kernel's scales 1/m_k of z, and the loss's buffer the whitening
  loss of the kernel's covariance of z.
-/
import proofs.«414715_j46866683134133_3_alg».proof.Proof.Gen.KernelIdeal.Frame
import proofs.«414715_j46866683134133_3_alg».proof.Proof.Spec
import Idealize.ShloMosaic.Lib.ValueIdx
import Idealize.ShloMosaic.Lib.ValueIdxRank1
import Idealize.ShloMosaic.Lib.Affine
import Idealize.ShloMosaic.Lib.IdealHost
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.KHost1

open Idealize.ShloMosaic Idealize.ShloMosaic.TcCoe Idealize.ShloMosaic.ValueIdx
open Cert.KernelIdeal Cert.KernelIdeal.Gen
open scoped BigOperators

/-! ## The operations' composed values, as functions of the arrays they read -/

/-- The raw covariance summed over the samples, its diagonal kept (every other entry replaced by 0.0), summed down
    each column: per channel, the sum of squares over all samples and positions. -/
def ssqT (a : FVec Ideal S1024x5x5 .f32) : FVec Ideal S5 .f32 :=
  Host.reduceAdd
    (select (cmpi .eq (iotaInDim S5x5 32 0) (iotaInDim S5x5 32 1))
      (Host.reduceAdd a (constant (F := Ideal) S_ .f32 0x00000000#32) reducesTo_S1024x5x5_S5x5_d0 h_S_)
      (broadcastInDim S5x5 ![] bcast_S_S5x5 (constant (F := Ideal) S_ .f32 0x00000000#32)))
    (constant (F := Ideal) S_ .f32 0x00000000#32) reducesTo_S5x5_S5_d0 h_S_

/-- The scales 1.0 / max(sqrt(sum of squares), 1e-6). -/
def scaleT (a : FVec Ideal S1024x5x5 .f32) : FVec Ideal S5 .f32 :=
  Host.divf (broadcastInDim S5 ![] bcast_S_S5 (constant (F := Ideal) S_ .f32 0x3F800000#32))
    (maximumf (Host.sqrt (ssqT a)) (broadcastInDim S5 ![] bcast_S_S5 (constant (F := Ideal) S_ .f32 0x358637BD#32)))

/-- The scaled covariance: the outer product of the scales times the raw covariance, / 2429.0, + 1e-5 on the diagonal. -/
def covT (s : FVec Ideal S5 .f32) (a : FVec Ideal S1024x5x5 .f32) : FVec Ideal S1024x5x5 .f32 :=
  addf
    (Host.divf
      (mulf
        (broadcastInDim S1024x5x5 ![0, 1, 2] bcast_S1x5x5_S1024x5x5_0_1_2
          (broadcastInDim S1x5x5 ![1, 2] bcast_S5x5_S1x5x5_1_2
            (mulf
              (broadcastInDim S5x5 ![0, 1] bcast_S5x1_S5x5_0_1 (broadcastInDim S5x1 ![0] bcast_S5_S5x1_0 s))
              (broadcastInDim S5x5 ![0, 1] bcast_S1x5_S5x5_0_1 (broadcastInDim S1x5 ![1] bcast_S5_S1x5_1 s)))))
        a)
      (broadcastInDim S1024x5x5 ![] bcast_S_S1024x5x5 (constant (F := Ideal) S_ .f32 0x4517D000#32)))
    (broadcastInDim S1024x5x5 ![0, 1, 2] bcast_S1x5x5_S1024x5x5_0_1_2
      (mulf
        (broadcastInDim S1x5x5 ![] bcast_S_S1x5x5 (constant (F := Ideal) S_ .f32 0x3727C5AC#32))
        (broadcastInDim S1x5x5 ![1, 2] bcast_S5x5_S1x5x5_1_2
          (uitofp (F := Ideal) .f32
            (cmpi .eq
              (addi (iotaInDim S5x5 32 0) (broadcastInDim S5x5 ![] bcast_S_S5x5 (constantI S_ 32 0#32)))
              (iotaInDim S5x5 32 1))))))

/-- The array of ones. -/
def onesT : FVec Ideal S5x5 .f32 :=
  broadcastInDim S5x5 ![] bcast_S_S5x5 (constant (F := Ideal) S_ .f32 0x3F800000#32)

/-- The strict upper triangle's mask: 0.0 where row ≥ column, the given array elsewhere. -/
def maskT (o : FVec Ideal S5x5 .f32) : FVec Ideal S5x5 .f32 :=
  select
    (cmpi .sge
      (addi (iotaInDim S5x5 32 0) (broadcastInDim S5x5 ![] bcast_S_S5x5 (constantI S_ 32 0#32)))
      (iotaInDim S5x5 32 1))
    (broadcastInDim S5x5 ![] bcast_S_S5x5 (constant (F := Ideal) S_ .f32 0x00000000#32))
    o

/-- The loss: per sample the sum of |covariance · mask| over both channel axes, divided by the mask's total, clipped
    below at 0.0; summed over the samples and divided by 1024.0. -/
def lossT (cv : FVec Ideal S1024x5x5 .f32) (mk : FVec Ideal S5x5 .f32) : FVec Ideal S_ .f32 :=
  Host.divf
    (Host.reduceAdd
      (maximumf
        (Host.divf
          (Host.reduceAdd
            (Host.absf
              (mulf cv
                (broadcastInDim S1024x5x5 ![0, 1, 2] bcast_S1x5x5_S1024x5x5_0_1_2
                  (broadcastInDim S1x5x5 ![1, 2] bcast_S5x5_S1x5x5_1_2 mk))))
            (constant (F := Ideal) S_ .f32 0x00000000#32) reducesTo_S1024x5x5_S1024_d1_2 h_S_)
          (broadcastInDim S1024 ![] bcast_S_S1024
            (Host.reduceAdd mk (constant (F := Ideal) S_ .f32 0x00000000#32) reducesTo_S5x5_S_d0_1 h_S_)))
        (broadcastInDim S1024 ![] bcast_S_S1024 (constant (F := Ideal) S_ .f32 0x00000000#32)))
      (constant (F := Ideal) S_ .f32 0x00000000#32) reducesTo_S1024_S_d0 h_S_)
    (constant (F := Ideal) S_ .f32 0x44800000#32)

/-! ## Words: the iota comparisons, decided over the channel pairs -/

/-- The row number equals the column number, as 32-bit words, exactly on the diagonal. -/
theorem word_eq : ∀ k l : Fin 5,
    IntOp.cmpi .eq (BitVec.ofNat 32 k.val) (BitVec.ofNat 32 l.val) = if k.val = l.val then 1#1 else 0#1 := by decide

/-- The same with the row number offset by the word 0. -/
theorem word_eq0 : ∀ k l : Fin 5,
    IntOp.cmpi .eq (IntOp.addi (BitVec.ofNat 32 k.val) 0#32) (BitVec.ofNat 32 l.val) = if k.val = l.val then 1#1 else 0#1 := by
  decide

/-- The row number, offset by the word 0, is at least the column number (signed) exactly on and below the diagonal. -/
theorem word_ge0 : ∀ k l : Fin 5,
    IntOp.cmpi .sge (IntOp.addi (BitVec.ofNat 32 k.val) 0#32) (BitVec.ofNat 32 l.val) = if l.val ≤ k.val then 1#1 else 0#1 := by
  decide

/-! ## The reductions read at an index -/

/-- A scalar array has one index. -/
theorem scalar_idx (v : FVec Ideal S_ .f32) (i : S_.Idx) : v i = v ix0 := congrArg v (eq_ix0 i)

/-- The sum over the samples: the initial value plus Σ_b. -/
theorem sumSamples_apply (a : FVec Ideal S1024x5x5 .f32) (init : FVec Ideal S_ .f32) (k l : Fin 5) :
    Host.reduceAdd a init reducesTo_S1024x5x5_S5x5_d0 h_S_ (ix2 k l) = init ix0 + ∑ b : Fin 1024, a (ix3 b k l) := by
  have h : S1024x5x5.Reduces [0] S5x5 := by decide
  rw [hostReduceAdd_apply, Ideal.hostReduceAdd_single reducesTo_S1024x5x5_S5x5_d0 h, scalar_idx init]
  refine congrArg _ (Finset.sum_congr rfl fun b _ => congrArg a ?_)
  funext c; match c with | ⟨0, _⟩ => rfl | ⟨1, _⟩ => rfl | ⟨2, _⟩ => rfl

/-- The sum down each column: the initial value plus Σ over the rows. -/
theorem sumRows_apply (y : FVec Ideal S5x5 .f32) (init : FVec Ideal S_ .f32) (k : Fin 5) :
    Host.reduceAdd y init reducesTo_S5x5_S5_d0 h_S_ (ix1 k) = init ix0 + ∑ p : Fin 5, y (ix2 p k) := by
  have h : S5x5.Reduces [0] S5 := by decide
  rw [hostReduceAdd_apply, Ideal.hostReduceAdd_single reducesTo_S5x5_S5_d0 h, scalar_idx init]
  refine congrArg _ (Finset.sum_congr rfl fun p _ => congrArg y ?_)
  funext c; match c with | ⟨0, _⟩ => rfl | ⟨1, _⟩ => rfl

/-- The sum over both channel axes of one sample: the initial value plus Σ_k Σ_l. -/
theorem sumChannels_apply (x : FVec Ideal S1024x5x5 .f32) (init : FVec Ideal S_ .f32) (b : Fin 1024) :
    Host.reduceAdd x init reducesTo_S1024x5x5_S1024_d1_2 h_S_ (ix1 b)
      = init ix0 + ∑ k : Fin 5, ∑ l : Fin 5, x (ix3 b k l) := by
  rw [hostReduceAdd_apply, scalar_idx init]
  unfold Ideal.hostReduceAdd
  refine congrArg _ (Eq.trans ?_ (Finset.sum_product' Finset.univ Finset.univ fun k l => x (ix3 b k l)))
  have hb : ∀ i : S1024x5x5.Idx, reducesTo_S1024x5x5_S1024_d1_2.drop i = ix1 b → (i 0 : Fin 1024) = b := fun i hi =>
    Fin.ext ((Shape.ReducesTo.drop_apply_val_of_eq reducesTo_S1024x5x5_S1024_d1_2 i 0 0).symm.trans
      (congrArg Fin.val (congrFun hi 0)))
  have hback : ∀ i : S1024x5x5.Idx, reducesTo_S1024x5x5_S1024_d1_2.drop i = ix1 b → ix3 b (i 1 : Fin 5) (i 2 : Fin 5) = i :=
    fun i hi => by
      funext c
      match c with
      | ⟨0, _⟩ => exact (hb i hi).symm
      | ⟨1, _⟩ => rfl
      | ⟨2, _⟩ => rfl
  refine Finset.sum_nbij' (fun i : S1024x5x5.Idx => ((i 1 : Fin 5), (i 2 : Fin 5))) (fun p => ix3 b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext c
    match c with
    | ⟨0, _⟩ => exact Fin.ext (Shape.ReducesTo.drop_apply_val_of_eq reducesTo_S1024x5x5_S1024_d1_2 (ix3 b p.1 p.2) 0 0)
  · intro i hi; exact hback i (Finset.mem_filter.1 hi).2
  · intro p _; rfl
  · intro i hi; exact congrArg x (hback i (Finset.mem_filter.1 hi).2).symm

/-- The total of a channel-by-channel array: the initial value plus Σ_k Σ_l. -/
theorem sumAll_apply (y : FVec Ideal S5x5 .f32) (init : FVec Ideal S_ .f32) (j : S_.Idx) :
    Host.reduceAdd y init reducesTo_S5x5_S_d0_1 h_S_ j = init ix0 + ∑ k : Fin 5, ∑ l : Fin 5, y (ix2 k l) := by
  rw [hostReduceAdd_apply, Ideal.hostReduceAdd_total _ (fun b => b.elim0), scalar_idx init, sum_idx2]

/-- The total over the samples: the initial value plus Σ_b. -/
theorem sumBatch_apply (v : FVec Ideal S1024 .f32) (init : FVec Ideal S_ .f32) (j : S_.Idx) :
    Host.reduceAdd v init reducesTo_S1024_S_d0 h_S_ j = init ix0 + ∑ b : Fin 1024, v (ix1 b) := by
  rw [hostReduceAdd_apply, Ideal.hostReduceAdd_total _ (fun b => b.elim0), scalar_idx init]
  exact congrArg _ (Equiv.sum_comp (idxEquiv1 (n := 1024)).symm v).symm

/-! ## The broadcasts read at an index -/

section Broadcasts
variable {α : Type}

/-- A scalar array broadcast to any shape reads the scalar everywhere. -/
theorem bcast_scalar {T : Shape} (h : S_.BroadcastsInDim T ![]) (x : S_.Idx → α) (j : T.Idx) :
    broadcastInDim T (no_index ![]) h x j = x ix0 := broadcastInDim_scalar_apply h x j

/-- A vector laid down the rows: entry (k, l) is the vector's entry k. -/
theorem bcast_col (s : S5.Idx → α) (k l : Fin 5) :
    broadcastInDim S5x5 (no_index ![0, 1]) bcast_S5x1_S5x5_0_1 (broadcastInDim S5x1 (no_index ![0]) bcast_S5_S5x1_0 s) (ix2 k l)
      = s (ix1 k) := by
  rw [broadcastInDim_apply _ _ _ (ix2 k l) (ix2 k (0 : Fin 1)) (fun a => match a with | ⟨0, _⟩ => rfl | ⟨1, _⟩ => rfl),
    broadcastInDim_apply _ _ _ (ix2 k (0 : Fin 1)) (ix1 k) (fun a => match a with | ⟨0, _⟩ => rfl)]

/-- A vector laid along the columns: entry (k, l) is the vector's entry l. -/
theorem bcast_row (s : S5.Idx → α) (k l : Fin 5) :
    broadcastInDim S5x5 (no_index ![0, 1]) bcast_S1x5_S5x5_0_1 (broadcastInDim S1x5 (no_index ![1]) bcast_S5_S1x5_1 s) (ix2 k l)
      = s (ix1 l) := by
  rw [broadcastInDim_apply _ _ _ (ix2 k l) (ix2 (0 : Fin 1) l) (fun a => match a with | ⟨0, _⟩ => rfl | ⟨1, _⟩ => rfl),
    broadcastInDim_apply _ _ _ (ix2 (0 : Fin 1) l) (ix1 l) (fun a => match a with | ⟨0, _⟩ => rfl)]

/-- A channel-by-channel array under a leading unit axis. -/
theorem bcast_unit (m : S5x5.Idx → α) (k l : Fin 5) :
    broadcastInDim S1x5x5 (no_index ![1, 2]) bcast_S5x5_S1x5x5_1_2 m (ix3 (0 : Fin 1) k l) = m (ix2 k l) :=
  broadcastInDim_apply _ _ _ (ix3 (0 : Fin 1) k l) (ix2 k l) (fun a => match a with | ⟨0, _⟩ => rfl | ⟨1, _⟩ => rfl)

/-- The unit axis repeated over the samples. -/
theorem bcast_batch (w : S1x5x5.Idx → α) (b : Fin 1024) (k l : Fin 5) :
    broadcastInDim S1024x5x5 (no_index ![0, 1, 2]) bcast_S1x5x5_S1024x5x5_0_1_2 w (ix3 b k l) = w (ix3 (0 : Fin 1) k l) :=
  broadcastInDim_apply _ _ _ (ix3 b k l) (ix3 (0 : Fin 1) k l)
    (fun a => match a with | ⟨0, _⟩ => rfl | ⟨1, _⟩ => rfl | ⟨2, _⟩ => rfl)

end Broadcasts

/-- The host's absolute value at an index. -/
theorem hostAbsf_apply {s : Shape} {φ : FTy} (x : FVec Ideal s φ) (i : s.Idx) : Host.absf x i = Spec.absE (x i) := rfl

/-- The host's square root at an index. -/
theorem hostSqrt_apply {s : Shape} {φ : FTy} (x : FVec Ideal s φ) (i : s.Idx) : Host.sqrt x i = Ideal.sqrt (x i) := rfl

/-! ## The composed values read at an index -/

/-- The select against the diagonal: the entry on it, 0 off it. -/
theorem diag_apply (y : FVec Ideal S5x5 .f32) (p k : Fin 5) :
    select (cmpi .eq (iotaInDim S5x5 32 0) (iotaInDim S5x5 32 1)) y
        (broadcastInDim S5x5 (no_index ![]) bcast_S_S5x5 (constant (F := Ideal) S_ .f32 0x00000000#32)) (ix2 p k)
      = if p = k then y (ix2 p k) else 0 := by
  rw [select_apply, bcast_scalar, constant_apply, Ideal.ofBits_zero_f32]
  show Scalar.select (IntOp.cmpi .eq (BitVec.ofNat 32 p.val) (BitVec.ofNat 32 k.val)) _ _ = _
  rw [word_eq p k]
  by_cases h : p = k
  · rw [if_pos h, if_pos (congrArg Fin.val h), select_one]
  · rw [if_neg h, if_neg (fun e => h (Fin.ext e)), select_zero]

/-- Channel k's sum of squares: the select keeps one term of the sum down column k, the diagonal's. -/
theorem ssq_apply (a : FVec Ideal S1024x5x5 .f32) (k : Fin 5) : ssqT a (ix1 k) = ∑ b : Fin 1024, a (ix3 b k k) := by
  unfold ssqT
  rw [sumRows_apply, constant_apply, Ideal.ofBits_zero_f32, zero_add]
  simp only [diag_apply, sumSamples_apply, constant_apply, Ideal.ofBits_zero_f32, zero_add]
  rw [Finset.sum_ite_eq', if_pos (Finset.mem_univ k)]

/-- The scale of channel k. -/
theorem scale_apply (a : FVec Ideal S1024x5x5 .f32) (k : Fin 5) :
    scaleT a (ix1 k) = Ideal.div Spec.c1 (max (Ideal.sqrt (∑ b : Fin 1024, a (ix3 b k k))) Spec.e6) := by
  unfold scaleT Spec.c1 Spec.e6
  rw [hostDivf_apply, maximumf_apply, hostSqrt_apply, ssq_apply, bcast_scalar, constant_apply,
    bcast_scalar, constant_apply]

/-- The indicator of the diagonal, as the conversion of the iota comparison's bit. -/
theorem eye_apply (k l : Fin 5) :
    uitofp (F := Ideal) .f32
        (cmpi .eq (addi (iotaInDim S5x5 32 0) (broadcastInDim S5x5 ![] bcast_S_S5x5 (constantI S_ 32 0#32)))
          (iotaInDim S5x5 32 1)) (ix2 k l)
      = Spec.eyeE k l := by
  show (((IntOp.cmpi .eq (IntOp.addi (BitVec.ofNat 32 k.val) 0#32) (BitVec.ofNat 32 l.val)).toNat : ℝ) : EReal) = _
  rw [word_eq0 k l]
  unfold Spec.eyeE
  by_cases h : k.val = l.val
  · rw [if_pos h, if_pos h]; simp
  · rw [if_neg h, if_neg h]; simp

/-- The scaled covariance at (b, k, l). -/
theorem cov_apply (s : FVec Ideal S5 .f32) (a : FVec Ideal S1024x5x5 .f32) (b : Fin 1024) (k l : Fin 5) :
    covT s a (ix3 b k l)
      = Ideal.div ((s (ix1 k) * s (ix1 l)) * a (ix3 b k l)) Spec.n2429 + Spec.e5 * Spec.eyeE k l := by
  unfold covT Spec.n2429 Spec.e5
  rw [addf_apply, hostDivf_apply, mulf_apply, bcast_batch, bcast_unit, mulf_apply, bcast_col, bcast_row,
    bcast_scalar, constant_apply, bcast_batch, mulf_apply, bcast_scalar, constant_apply,
    bcast_unit, eye_apply]

/-- The ones. -/
theorem ones_apply (k l : Fin 5) : onesT (ix2 k l) = Spec.c1 := by
  unfold onesT Spec.c1
  rw [bcast_scalar, constant_apply]

/-- The mask: 0.0 on and below the diagonal, the given array above it. -/
theorem mask_apply (o : FVec Ideal S5x5 .f32) (k l : Fin 5) :
    maskT o (ix2 k l) = if l.val ≤ k.val then Spec.c0 else o (ix2 k l) := by
  unfold maskT Spec.c0
  rw [select_apply, bcast_scalar, constant_apply]
  show Scalar.select (IntOp.cmpi .sge (IntOp.addi (BitVec.ofNat 32 k.val) 0#32) (BitVec.ofNat 32 l.val)) _ _ = _
  rw [word_ge0 k l]
  by_cases h : l.val ≤ k.val
  · rw [if_pos h, if_pos h, select_one]
  · rw [if_neg h, if_neg h, select_zero]

/-- The mask of the ones is the strict upper triangle's indicator. -/
theorem triu_apply (k l : Fin 5) : maskT onesT (ix2 k l) = Spec.triu1 k l := by
  rw [mask_apply, ones_apply]; rfl

/-- The loss of a covariance under a mask. -/
theorem loss_apply (cv : FVec Ideal S1024x5x5 .f32) (mk : FVec Ideal S5x5 .f32) (j : S_.Idx) :
    lossT cv mk j
      = Ideal.div
          (∑ b : Fin 1024,
            max (Ideal.div (∑ k : Fin 5, ∑ l : Fin 5, Spec.absE (cv (ix3 b k l) * mk (ix2 k l)))
                  (∑ k : Fin 5, ∑ l : Fin 5, mk (ix2 k l))) Spec.c0)
          Spec.n1024 := by
  unfold lossT Spec.n1024 Spec.c0
  simp only [hostDivf_apply, sumBatch_apply, maximumf_apply, sumChannels_apply, sumAll_apply, bcast_scalar,
    constant_apply, hostAbsf_apply, mulf_apply, bcast_batch, bcast_unit, Ideal.ofBits_zero_f32, zero_add]

/-! ## What the three stretches leave in the buffers, from arbitrary contents at entry -/

section Stretches
variable (U : Valuation τ sig (Elt Ideal))

/-- After the first stretch the scales' buffer holds the scales of the raw covariance's buffer. -/
theorem first_scales :
    StableHlo.after (hostOps1 (F := Ideal)) U (Proc.devRef .tc main_v41) = scaleT (U (Proc.devRef .tc main_v29)) := by
  unfold scaleT ssqT; after_results

/-- … the covariance's buffer the scaled covariance … -/
theorem first_cov :
    StableHlo.after (hostOps1 (F := Ideal)) U (Proc.devRef .tc main_v62)
      = covT (scaleT (U (Proc.devRef .tc main_v29))) (U (Proc.devRef .tc main_v29)) := by
  unfold covT scaleT ssqT; after_results_simp

/-- … and the ones' buffer the ones. -/
theorem first_ones :
    StableHlo.after (hostOps1 (F := Ideal)) U (Proc.devRef .tc main_v63) = onesT := by
  unfold onesT; after_results

/-- The second stretch writes the mask of the ones' buffer … -/
theorem second_mask :
    StableHlo.after (hostOps1_1 (F := Ideal)) U (Proc.devRef .tc main_v64) = maskT (U (Proc.devRef .tc main_v63)) := by
  unfold maskT; after_results; simp only [StableHlo.TRef.ofBuf, StableHlo.TRef.toBuf, cast_eq]

/-- … and leaves the scales and the covariance as they were. -/
theorem second_scales :
    StableHlo.after (hostOps1_1 (F := Ideal)) U (Proc.devRef .tc main_v41) = U (Proc.devRef .tc main_v41) := by
  after_results

theorem second_cov :
    StableHlo.after (hostOps1_1 (F := Ideal)) U (Proc.devRef .tc main_v62) = U (Proc.devRef .tc main_v62) := by
  after_results

/-- The third stretch writes the loss of the covariance's and the mask's buffers … -/
theorem third_loss :
    StableHlo.after (hostOps1_2 (F := Ideal)) U (Proc.devRef .tc main_v76)
      = lossT (U (Proc.devRef .tc main_v62)) (U (Proc.devRef .tc main_v64)) := by
  unfold lossT; after_results

/-- … and leaves the scales as they were. -/
theorem third_scales :
    StableHlo.after (hostOps1_2 (F := Ideal)) U (Proc.devRef .tc main_v41) = U (Proc.devRef .tc main_v41) := by
  after_results

end Stretches

/-! ## The two results of the three stretches -/

section Results
variable (U : Valuation τ sig (Elt Ideal)) (z : Spec.A3 1024 5 2430)

/-- With the raw covariance of z in its array, channel k's scale is 1/m_k. -/
theorem scale_eq (a : FVec Ideal S1024x5x5 .f32) (ha : ∀ b k l, a (ix3 b k l) = Spec.covRaw z b k l) (k : Fin 5) :
    scaleT a (ix1 k) = Spec.sK z k := by
  rw [scale_apply]
  simp only [ha]
  rfl

/-- … and the scaled covariance is the kernel's covariance of z. -/
theorem cov_eq (a : FVec Ideal S1024x5x5 .f32) (ha : ∀ b k l, a (ix3 b k l) = Spec.covRaw z b k l)
    (b : Fin 1024) (k l : Fin 5) : covT (scaleT a) a (ix3 b k l) = Spec.covK z b k l := by
  rw [cov_apply, scale_eq z a ha, scale_eq z a ha, ha]
  rfl

/-- (a) After the three stretches the scales' buffer holds the kernel's scales 1/m_k of z. -/
theorem scales_eq
    (hr : Spec.of3 (U (Proc.devRef .tc main_v29) : S1024x5x5.Idx → EReal) = Spec.covRaw z) :
    (fun k : Fin 5 =>
        (StableHlo.after (hostOps1_2 (F := Ideal)) (StableHlo.after (hostOps1_1 (F := Ideal))
          (StableHlo.after (hostOps1 (F := Ideal)) U)) (Proc.devRef .tc main_v41) : S5.Idx → EReal) (ix1 k))
      = Spec.sK z := by
  funext k
  rw [third_scales, second_scales, first_scales]
  exact scale_eq z _ (fun b k l => congrFun (congrFun (congrFun hr b) k) l) k

/-- (b) … and the loss's buffer the whitening loss of the kernel's covariance of z. -/
theorem loss_eq
    (hr : Spec.of3 (U (Proc.devRef .tc main_v29) : S1024x5x5.Idx → EReal) = Spec.covRaw z) :
    (StableHlo.after (hostOps1_2 (F := Ideal)) (StableHlo.after (hostOps1_1 (F := Ideal))
        (StableHlo.after (hostOps1 (F := Ideal)) U)) (Proc.devRef .tc main_v76) : S_.Idx → EReal)
      = fun _ => Spec.lossTail (Spec.covK z) := by
  funext j
  have ha : ∀ b k l, (U (Proc.devRef .tc main_v29) : S1024x5x5.Idx → EReal) (ix3 b k l) = Spec.covRaw z b k l :=
    fun b k l => congrFun (congrFun (congrFun hr b) k) l
  rw [third_loss, second_cov, second_mask, first_cov, first_ones, loss_apply]
  unfold Spec.lossTail
  simp only [cov_eq z (U (Proc.devRef .tc main_v29)) ha, triu_apply]

end Results

end Cert.KernelIdeal.KHost1

end
-- ==== Proof.KHost2.lean ====
/-
  The host arithmetic after the second covariance pass, at the ideal instance, for the ten bilinear channels.

  The pass leaves the raw covariance R[b, k, l] = Σ_n z[b, k, n]·z[b, l, n] of the bilinear tensor z in one array. Three
  stretches of host operations follow. The first sums R over the samples, keeps the diagonal of the 10×10 result by a
  select against "row number = column number" and sums down the columns: per channel k the sum of squares
  Σ_b Σ_n z[b, k, n]², since the select leaves one term of each column's sum. From it the scale
  s_k = 1.0 / max(sqrt(·), 1e-6), then the covariance (s_k·s_l·R[b, k, l]) / 2429.0 + 1e-5·[k = l], and an array of
  ones. The second writes the strict upper triangle's mask: 0.0 where row ≥ column, one elsewhere. The third takes,
  per sample, the sum over both channel axes of |covariance · mask| divided by the mask's total, clips it below at
  0.0, sums over the samples and divides by 1024.0.

  This module reads the buffers these stretches write, from arbitrary contents at their entry whose raw-covariance
  array is that of z: the scales' buffer holds the kernel's scales 1/m_k of z, and the loss's buffer the whitening
  loss of the kernel's covariance of z.
-/
import proofs.«414715_j46866683134133_3_alg».proof.Proof.Gen.KernelIdeal.Frame
import proofs.«414715_j46866683134133_3_alg».proof.Proof.Spec
import Idealize.ShloMosaic.Lib.ValueIdx
import Idealize.ShloMosaic.Lib.ValueIdxRank1
import Idealize.ShloMosaic.Lib.Affine
import Idealize.ShloMosaic.Lib.IdealHost
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.KHost2

open Idealize.ShloMosaic Idealize.ShloMosaic.TcCoe Idealize.ShloMosaic.ValueIdx
open Cert.KernelIdeal Cert.KernelIdeal.Gen
open scoped BigOperators

/-! ## The operations' composed values, as functions of the arrays they read -/

/-- The raw covariance summed over the samples, its diagonal kept (every other entry replaced by 0.0), summed down
    each column: per channel, the sum of squares over all samples and positions. -/
def ssqT (a : FVec Ideal S1024x10x10 .f32) : FVec Ideal S10 .f32 :=
  Host.reduceAdd
    (select (cmpi .eq (iotaInDim S10x10 32 0) (iotaInDim S10x10 32 1))
      (Host.reduceAdd a (constant (F := Ideal) S_ .f32 0x00000000#32) reducesTo_S1024x10x10_S10x10_d0 h_S_)
      (broadcastInDim S10x10 ![] bcast_S_S10x10 (constant (F := Ideal) S_ .f32 0x00000000#32)))
    (constant (F := Ideal) S_ .f32 0x00000000#32) reducesTo_S10x10_S10_d0 h_S_

/-- The scales 1.0 / max(sqrt(sum of squares), 1e-6). -/
def scaleT (a : FVec Ideal S1024x10x10 .f32) : FVec Ideal S10 .f32 :=
  Host.divf (broadcastInDim S10 ![] bcast_S_S10 (constant (F := Ideal) S_ .f32 0x3F800000#32))
    (maximumf (Host.sqrt (ssqT a)) (broadcastInDim S10 ![] bcast_S_S10 (constant (F := Ideal) S_ .f32 0x358637BD#32)))

/-- The scaled covariance: the outer product of the scales times the raw covariance, / 2429.0, + 1e-5 on the diagonal. -/
def covT (s : FVec Ideal S10 .f32) (a : FVec Ideal S1024x10x10 .f32) : FVec Ideal S1024x10x10 .f32 :=
  addf
    (Host.divf
      (mulf
        (broadcastInDim S1024x10x10 ![0, 1, 2] bcast_S1x10x10_S1024x10x10_0_1_2
          (broadcastInDim S1x10x10 ![1, 2] bcast_S10x10_S1x10x10_1_2
            (mulf
              (broadcastInDim S10x10 ![0, 1] bcast_S10x1_S10x10_0_1 (broadcastInDim S10x1 ![0] bcast_S10_S10x1_0 s))
              (broadcastInDim S10x10 ![0, 1] bcast_S1x10_S10x10_0_1 (broadcastInDim S1x10 ![1] bcast_S10_S1x10_1 s)))))
        a)
      (broadcastInDim S1024x10x10 ![] bcast_S_S1024x10x10 (constant (F := Ideal) S_ .f32 0x4517D000#32)))
    (broadcastInDim S1024x10x10 ![0, 1, 2] bcast_S1x10x10_S1024x10x10_0_1_2
      (mulf
        (broadcastInDim S1x10x10 ![] bcast_S_S1x10x10 (constant (F := Ideal) S_ .f32 0x3727C5AC#32))
        (broadcastInDim S1x10x10 ![1, 2] bcast_S10x10_S1x10x10_1_2
          (uitofp (F := Ideal) .f32
            (cmpi .eq
              (addi (iotaInDim S10x10 32 0) (broadcastInDim S10x10 ![] bcast_S_S10x10 (constantI S_ 32 0#32)))
              (iotaInDim S10x10 32 1))))))

/-- The array of ones. -/
def onesT : FVec Ideal S10x10 .f32 :=
  broadcastInDim S10x10 ![] bcast_S_S10x10 (constant (F := Ideal) S_ .f32 0x3F800000#32)

/-- The strict upper triangle's mask: 0.0 where row ≥ column, the given array elsewhere. -/
def maskT (o : FVec Ideal S10x10 .f32) : FVec Ideal S10x10 .f32 :=
  select
    (cmpi .sge
      (addi (iotaInDim S10x10 32 0) (broadcastInDim S10x10 ![] bcast_S_S10x10 (constantI S_ 32 0#32)))
      (iotaInDim S10x10 32 1))
    (broadcastInDim S10x10 ![] bcast_S_S10x10 (constant (F := Ideal) S_ .f32 0x00000000#32))
    o

/-- The loss: per sample the sum of |covariance · mask| over both channel axes, divided by the mask's total, clipped
    below at 0.0; summed over the samples and divided by 1024.0. -/
def lossT (cv : FVec Ideal S1024x10x10 .f32) (mk : FVec Ideal S10x10 .f32) : FVec Ideal S_ .f32 :=
  Host.divf
    (Host.reduceAdd
      (maximumf
        (Host.divf
          (Host.reduceAdd
            (Host.absf
              (mulf cv
                (broadcastInDim S1024x10x10 ![0, 1, 2] bcast_S1x10x10_S1024x10x10_0_1_2
                  (broadcastInDim S1x10x10 ![1, 2] bcast_S10x10_S1x10x10_1_2 mk))))
            (constant (F := Ideal) S_ .f32 0x00000000#32) reducesTo_S1024x10x10_S1024_d1_2 h_S_)
          (broadcastInDim S1024 ![] bcast_S_S1024
            (Host.reduceAdd mk (constant (F := Ideal) S_ .f32 0x00000000#32) reducesTo_S10x10_S_d0_1 h_S_)))
        (broadcastInDim S1024 ![] bcast_S_S1024 (constant (F := Ideal) S_ .f32 0x00000000#32)))
      (constant (F := Ideal) S_ .f32 0x00000000#32) reducesTo_S1024_S_d0 h_S_)
    (constant (F := Ideal) S_ .f32 0x44800000#32)

/-! ## Words: the iota comparisons, decided over the channel pairs -/

/-- The row number equals the column number, as 32-bit words, exactly on the diagonal. -/
theorem word_eq : ∀ k l : Fin 10,
    IntOp.cmpi .eq (BitVec.ofNat 32 k.val) (BitVec.ofNat 32 l.val) = if k.val = l.val then 1#1 else 0#1 := by decide

/-- The same with the row number offset by the word 0. -/
theorem word_eq0 : ∀ k l : Fin 10,
    IntOp.cmpi .eq (IntOp.addi (BitVec.ofNat 32 k.val) 0#32) (BitVec.ofNat 32 l.val) = if k.val = l.val then 1#1 else 0#1 := by
  decide

/-- The row number, offset by the word 0, is at least the column number (signed) exactly on and below the diagonal. -/
theorem word_ge0 : ∀ k l : Fin 10,
    IntOp.cmpi .sge (IntOp.addi (BitVec.ofNat 32 k.val) 0#32) (BitVec.ofNat 32 l.val) = if l.val ≤ k.val then 1#1 else 0#1 := by
  decide

/-! ## The reductions read at an index -/

/-- A scalar array has one index. -/
theorem scalar_idx (v : FVec Ideal S_ .f32) (i : S_.Idx) : v i = v ix0 := congrArg v (eq_ix0 i)

/-- The sum over the samples: the initial value plus Σ_b. -/
theorem sumSamples_apply (a : FVec Ideal S1024x10x10 .f32) (init : FVec Ideal S_ .f32) (k l : Fin 10) :
    Host.reduceAdd a init reducesTo_S1024x10x10_S10x10_d0 h_S_ (ix2 k l) = init ix0 + ∑ b : Fin 1024, a (ix3 b k l) := by
  have h : S1024x10x10.Reduces [0] S10x10 := by decide
  rw [hostReduceAdd_apply, Ideal.hostReduceAdd_single reducesTo_S1024x10x10_S10x10_d0 h, scalar_idx init]
  refine congrArg _ (Finset.sum_congr rfl fun b _ => congrArg a ?_)
  funext c; match c with | ⟨0, _⟩ => rfl | ⟨1, _⟩ => rfl | ⟨2, _⟩ => rfl

/-- The sum down each column: the initial value plus Σ over the rows. -/
theorem sumRows_apply (y : FVec Ideal S10x10 .f32) (init : FVec Ideal S_ .f32) (k : Fin 10) :
    Host.reduceAdd y init reducesTo_S10x10_S10_d0 h_S_ (ix1 k) = init ix0 + ∑ p : Fin 10, y (ix2 p k) := by
  have h : S10x10.Reduces [0] S10 := by decide
  rw [hostReduceAdd_apply, Ideal.hostReduceAdd_single reducesTo_S10x10_S10_d0 h, scalar_idx init]
  refine congrArg _ (Finset.sum_congr rfl fun p _ => congrArg y ?_)
  funext c; match c with | ⟨0, _⟩ => rfl | ⟨1, _⟩ => rfl

/-- The sum over both channel axes of one sample: the initial value plus Σ_k Σ_l. -/
theorem sumChannels_apply (x : FVec Ideal S1024x10x10 .f32) (init : FVec Ideal S_ .f32) (b : Fin 1024) :
    Host.reduceAdd x init reducesTo_S1024x10x10_S1024_d1_2 h_S_ (ix1 b)
      = init ix0 + ∑ k : Fin 10, ∑ l : Fin 10, x (ix3 b k l) := by
  rw [hostReduceAdd_apply, scalar_idx init]
  unfold Ideal.hostReduceAdd
  refine congrArg _ (Eq.trans ?_ (Finset.sum_product' Finset.univ Finset.univ fun k l => x (ix3 b k l)))
  have hb : ∀ i : S1024x10x10.Idx, reducesTo_S1024x10x10_S1024_d1_2.drop i = ix1 b → (i 0 : Fin 1024) = b := fun i hi =>
    Fin.ext ((Shape.ReducesTo.drop_apply_val_of_eq reducesTo_S1024x10x10_S1024_d1_2 i 0 0).symm.trans
      (congrArg Fin.val (congrFun hi 0)))
  have hback : ∀ i : S1024x10x10.Idx, reducesTo_S1024x10x10_S1024_d1_2.drop i = ix1 b → ix3 b (i 1 : Fin 10) (i 2 : Fin 10) = i :=
    fun i hi => by
      funext c
      match c with
      | ⟨0, _⟩ => exact (hb i hi).symm
      | ⟨1, _⟩ => rfl
      | ⟨2, _⟩ => rfl
  refine Finset.sum_nbij' (fun i : S1024x10x10.Idx => ((i 1 : Fin 10), (i 2 : Fin 10))) (fun p => ix3 b p.1 p.2) ?_ ?_ ?_ ?_ ?_
  · intro i _; exact Finset.mem_product.2 ⟨Finset.mem_univ _, Finset.mem_univ _⟩
  · intro p _
    refine Finset.mem_filter.2 ⟨Finset.mem_univ _, ?_⟩
    funext c
    match c with
    | ⟨0, _⟩ => exact Fin.ext (Shape.ReducesTo.drop_apply_val_of_eq reducesTo_S1024x10x10_S1024_d1_2 (ix3 b p.1 p.2) 0 0)
  · intro i hi; exact hback i (Finset.mem_filter.1 hi).2
  · intro p _; rfl
  · intro i hi; exact congrArg x (hback i (Finset.mem_filter.1 hi).2).symm

/-- The total of a channel-by-channel array: the initial value plus Σ_k Σ_l. -/
theorem sumAll_apply (y : FVec Ideal S10x10 .f32) (init : FVec Ideal S_ .f32) (j : S_.Idx) :
    Host.reduceAdd y init reducesTo_S10x10_S_d0_1 h_S_ j = init ix0 + ∑ k : Fin 10, ∑ l : Fin 10, y (ix2 k l) := by
  rw [hostReduceAdd_apply, Ideal.hostReduceAdd_total _ (fun b => b.elim0), scalar_idx init, sum_idx2]

/-- The total over the samples: the initial value plus Σ_b. -/
theorem sumBatch_apply (v : FVec Ideal S1024 .f32) (init : FVec Ideal S_ .f32) (j : S_.Idx) :
    Host.reduceAdd v init reducesTo_S1024_S_d0 h_S_ j = init ix0 + ∑ b : Fin 1024, v (ix1 b) := by
  rw [hostReduceAdd_apply, Ideal.hostReduceAdd_total _ (fun b => b.elim0), scalar_idx init]
  exact congrArg _ (Equiv.sum_comp (idxEquiv1 (n := 1024)).symm v).symm

/-! ## The broadcasts read at an index -/

section Broadcasts
variable {α : Type}

/-- A scalar array broadcast to any shape reads the scalar everywhere. -/
theorem bcast_scalar {T : Shape} (h : S_.BroadcastsInDim T ![]) (x : S_.Idx → α) (j : T.Idx) :
    broadcastInDim T (no_index ![]) h x j = x ix0 := broadcastInDim_scalar_apply h x j

/-- A vector laid down the rows: entry (k, l) is the vector's entry k. -/
theorem bcast_col (s : S10.Idx → α) (k l : Fin 10) :
    broadcastInDim S10x10 (no_index ![0, 1]) bcast_S10x1_S10x10_0_1 (broadcastInDim S10x1 (no_index ![0]) bcast_S10_S10x1_0 s) (ix2 k l)
      = s (ix1 k) := by
  rw [broadcastInDim_apply _ _ _ (ix2 k l) (ix2 k (0 : Fin 1)) (fun a => match a with | ⟨0, _⟩ => rfl | ⟨1, _⟩ => rfl),
    broadcastInDim_apply _ _ _ (ix2 k (0 : Fin 1)) (ix1 k) (fun a => match a with | ⟨0, _⟩ => rfl)]

/-- A vector laid along the columns: entry (k, l) is the vector's entry l. -/
theorem bcast_row (s : S10.Idx → α) (k l : Fin 10) :
    broadcastInDim S10x10 (no_index ![0, 1]) bcast_S1x10_S10x10_0_1 (broadcastInDim S1x10 (no_index ![1]) bcast_S10_S1x10_1 s) (ix2 k l)
      = s (ix1 l) := by
  rw [broadcastInDim_apply _ _ _ (ix2 k l) (ix2 (0 : Fin 1) l) (fun a => match a with | ⟨0, _⟩ => rfl | ⟨1, _⟩ => rfl),
    broadcastInDim_apply _ _ _ (ix2 (0 : Fin 1) l) (ix1 l) (fun a => match a with | ⟨0, _⟩ => rfl)]

/-- A channel-by-channel array under a leading unit axis. -/
theorem bcast_unit (m : S10x10.Idx → α) (k l : Fin 10) :
    broadcastInDim S1x10x10 (no_index ![1, 2]) bcast_S10x10_S1x10x10_1_2 m (ix3 (0 : Fin 1) k l) = m (ix2 k l) :=
  broadcastInDim_apply _ _ _ (ix3 (0 : Fin 1) k l) (ix2 k l) (fun a => match a with | ⟨0, _⟩ => rfl | ⟨1, _⟩ => rfl)

/-- The unit axis repeated over the samples. -/
theorem bcast_batch (w : S1x10x10.Idx → α) (b : Fin 1024) (k l : Fin 10) :
    broadcastInDim S1024x10x10 (no_index ![0, 1, 2]) bcast_S1x10x10_S1024x10x10_0_1_2 w (ix3 b k l) = w (ix3 (0 : Fin 1) k l) :=
  broadcastInDim_apply _ _ _ (ix3 b k l) (ix3 (0 : Fin 1) k l)
    (fun a => match a with | ⟨0, _⟩ => rfl | ⟨1, _⟩ => rfl | ⟨2, _⟩ => rfl)

end Broadcasts

/-- The host's absolute value at an index. -/
theorem hostAbsf_apply {s : Shape} {φ : FTy} (x : FVec Ideal s φ) (i : s.Idx) : Host.absf x i = Spec.absE (x i) := rfl

/-- The host's square root at an index. -/
theorem hostSqrt_apply {s : Shape} {φ : FTy} (x : FVec Ideal s φ) (i : s.Idx) : Host.sqrt x i = Ideal.sqrt (x i) := rfl

/-! ## The composed values read at an index -/

/-- The select against the diagonal: the entry on it, 0 off it. -/
theorem diag_apply (y : FVec Ideal S10x10 .f32) (p k : Fin 10) :
    select (cmpi .eq (iotaInDim S10x10 32 0) (iotaInDim S10x10 32 1)) y
        (broadcastInDim S10x10 (no_index ![]) bcast_S_S10x10 (constant (F := Ideal) S_ .f32 0x00000000#32)) (ix2 p k)
      = if p = k then y (ix2 p k) else 0 := by
  rw [select_apply, bcast_scalar, constant_apply, Ideal.ofBits_zero_f32]
  show Scalar.select (IntOp.cmpi .eq (BitVec.ofNat 32 p.val) (BitVec.ofNat 32 k.val)) _ _ = _
  rw [word_eq p k]
  by_cases h : p = k
  · rw [if_pos h, if_pos (congrArg Fin.val h), select_one]
  · rw [if_neg h, if_neg (fun e => h (Fin.ext e)), select_zero]

/-- Channel k's sum of squares: the select keeps one term of the sum down column k, the diagonal's. -/
theorem ssq_apply (a : FVec Ideal S1024x10x10 .f32) (k : Fin 10) : ssqT a (ix1 k) = ∑ b : Fin 1024, a (ix3 b k k) := by
  unfold ssqT
  rw [sumRows_apply, constant_apply, Ideal.ofBits_zero_f32, zero_add]
  simp only [diag_apply, sumSamples_apply, constant_apply, Ideal.ofBits_zero_f32, zero_add]
  rw [Finset.sum_ite_eq', if_pos (Finset.mem_univ k)]

/-- The scale of channel k. -/
theorem scale_apply (a : FVec Ideal S1024x10x10 .f32) (k : Fin 10) :
    scaleT a (ix1 k) = Ideal.div Spec.c1 (max (Ideal.sqrt (∑ b : Fin 1024, a (ix3 b k k))) Spec.e6) := by
  unfold scaleT Spec.c1 Spec.e6
  rw [hostDivf_apply, maximumf_apply, hostSqrt_apply, ssq_apply, bcast_scalar, constant_apply,
    bcast_scalar, constant_apply]

/-- The indicator of the diagonal, as the conversion of the iota comparison's bit. -/
theorem eye_apply (k l : Fin 10) :
    uitofp (F := Ideal) .f32
        (cmpi .eq (addi (iotaInDim S10x10 32 0) (broadcastInDim S10x10 ![] bcast_S_S10x10 (constantI S_ 32 0#32)))
          (iotaInDim S10x10 32 1)) (ix2 k l)
      = Spec.eyeE k l := by
  show (((IntOp.cmpi .eq (IntOp.addi (BitVec.ofNat 32 k.val) 0#32) (BitVec.ofNat 32 l.val)).toNat : ℝ) : EReal) = _
  rw [word_eq0 k l]
  unfold Spec.eyeE
  by_cases h : k.val = l.val
  · rw [if_pos h, if_pos h]; simp
  · rw [if_neg h, if_neg h]; simp

/-- The scaled covariance at (b, k, l). -/
theorem cov_apply (s : FVec Ideal S10 .f32) (a : FVec Ideal S1024x10x10 .f32) (b : Fin 1024) (k l : Fin 10) :
    covT s a (ix3 b k l)
      = Ideal.div ((s (ix1 k) * s (ix1 l)) * a (ix3 b k l)) Spec.n2429 + Spec.e5 * Spec.eyeE k l := by
  unfold covT Spec.n2429 Spec.e5
  rw [addf_apply, hostDivf_apply, mulf_apply, bcast_batch, bcast_unit, mulf_apply, bcast_col, bcast_row,
    bcast_scalar, constant_apply, bcast_batch, mulf_apply, bcast_scalar, constant_apply,
    bcast_unit, eye_apply]

/-- The ones. -/
theorem ones_apply (k l : Fin 10) : onesT (ix2 k l) = Spec.c1 := by
  unfold onesT Spec.c1
  rw [bcast_scalar, constant_apply]

/-- The mask: 0.0 on and below the diagonal, the given array above it. -/
theorem mask_apply (o : FVec Ideal S10x10 .f32) (k l : Fin 10) :
    maskT o (ix2 k l) = if l.val ≤ k.val then Spec.c0 else o (ix2 k l) := by
  unfold maskT Spec.c0
  rw [select_apply, bcast_scalar, constant_apply]
  show Scalar.select (IntOp.cmpi .sge (IntOp.addi (BitVec.ofNat 32 k.val) 0#32) (BitVec.ofNat 32 l.val)) _ _ = _
  rw [word_ge0 k l]
  by_cases h : l.val ≤ k.val
  · rw [if_pos h, if_pos h, select_one]
  · rw [if_neg h, if_neg h, select_zero]

/-- The mask of the ones is the strict upper triangle's indicator. -/
theorem triu_apply (k l : Fin 10) : maskT onesT (ix2 k l) = Spec.triu1 k l := by
  rw [mask_apply, ones_apply]; rfl

/-- The loss of a covariance under a mask. -/
theorem loss_apply (cv : FVec Ideal S1024x10x10 .f32) (mk : FVec Ideal S10x10 .f32) (j : S_.Idx) :
    lossT cv mk j
      = Ideal.div
          (∑ b : Fin 1024,
            max (Ideal.div (∑ k : Fin 10, ∑ l : Fin 10, Spec.absE (cv (ix3 b k l) * mk (ix2 k l)))
                  (∑ k : Fin 10, ∑ l : Fin 10, mk (ix2 k l))) Spec.c0)
          Spec.n1024 := by
  unfold lossT Spec.n1024 Spec.c0
  simp only [hostDivf_apply, sumBatch_apply, maximumf_apply, sumChannels_apply, sumAll_apply, bcast_scalar,
    constant_apply, hostAbsf_apply, mulf_apply, bcast_batch, bcast_unit, Ideal.ofBits_zero_f32, zero_add]

/-! ## What the three stretches leave in the buffers, from arbitrary contents at entry -/

section Stretches
variable (U : Valuation τ sig (Elt Ideal))

/-- After the first stretch the scales' buffer holds the scales of the raw covariance's buffer. -/
theorem first_scales :
    StableHlo.after (hostOps2 (F := Ideal)) U (Proc.devRef .tc main_v89) = scaleT (U (Proc.devRef .tc main_v77)) := by
  unfold scaleT ssqT; after_results

/-- … the covariance's buffer the scaled covariance … -/
theorem first_cov :
    StableHlo.after (hostOps2 (F := Ideal)) U (Proc.devRef .tc main_v110)
      = covT (scaleT (U (Proc.devRef .tc main_v77))) (U (Proc.devRef .tc main_v77)) := by
  unfold covT scaleT ssqT; after_results_simp

/-- … and the ones' buffer the ones. -/
theorem first_ones :
    StableHlo.after (hostOps2 (F := Ideal)) U (Proc.devRef .tc main_v111) = onesT := by
  unfold onesT; after_results

/-- The second stretch writes the mask of the ones' buffer … -/
theorem second_mask :
    StableHlo.after (hostOps2_1 (F := Ideal)) U (Proc.devRef .tc main_v112) = maskT (U (Proc.devRef .tc main_v111)) := by
  unfold maskT; after_results; simp only [StableHlo.TRef.ofBuf, StableHlo.TRef.toBuf, cast_eq]

/-- … and leaves the scales and the covariance as they were. -/
theorem second_scales :
    StableHlo.after (hostOps2_1 (F := Ideal)) U (Proc.devRef .tc main_v89) = U (Proc.devRef .tc main_v89) := by
  after_results

theorem second_cov :
    StableHlo.after (hostOps2_1 (F := Ideal)) U (Proc.devRef .tc main_v110) = U (Proc.devRef .tc main_v110) := by
  after_results

/-- The third stretch writes the loss of the covariance's and the mask's buffers … -/
theorem third_loss :
    StableHlo.after (hostOps2_2 (F := Ideal)) U (Proc.devRef .tc main_v124)
      = lossT (U (Proc.devRef .tc main_v110)) (U (Proc.devRef .tc main_v112)) := by
  unfold lossT; after_results

/-- … and leaves the scales as they were. -/
theorem third_scales :
    StableHlo.after (hostOps2_2 (F := Ideal)) U (Proc.devRef .tc main_v89) = U (Proc.devRef .tc main_v89) := by
  after_results

end Stretches

/-! ## The two results of the three stretches -/

section Results
variable (U : Valuation τ sig (Elt Ideal)) (z : Spec.A3 1024 10 2430)

/-- With the raw covariance of z in its array, channel k's scale is 1/m_k. -/
theorem scale_eq (a : FVec Ideal S1024x10x10 .f32) (ha : ∀ b k l, a (ix3 b k l) = Spec.covRaw z b k l) (k : Fin 10) :
    scaleT a (ix1 k) = Spec.sK z k := by
  rw [scale_apply]
  simp only [ha]
  rfl

/-- … and the scaled covariance is the kernel's covariance of z. -/
theorem cov_eq (a : FVec Ideal S1024x10x10 .f32) (ha : ∀ b k l, a (ix3 b k l) = Spec.covRaw z b k l)
    (b : Fin 1024) (k l : Fin 10) : covT (scaleT a) a (ix3 b k l) = Spec.covK z b k l := by
  rw [cov_apply, scale_eq z a ha, scale_eq z a ha, ha]
  rfl

/-- (a) After the three stretches the scales' buffer holds the kernel's scales 1/m_k of z. -/
theorem scales_eq
    (hr : Spec.of3 (U (Proc.devRef .tc main_v77) : S1024x10x10.Idx → EReal) = Spec.covRaw z) :
    (fun k : Fin 10 =>
        (StableHlo.after (hostOps2_2 (F := Ideal)) (StableHlo.after (hostOps2_1 (F := Ideal))
          (StableHlo.after (hostOps2 (F := Ideal)) U)) (Proc.devRef .tc main_v89) : S10.Idx → EReal) (ix1 k))
      = Spec.sK z := by
  funext k
  rw [third_scales, second_scales, first_scales]
  exact scale_eq z _ (fun b k l => congrFun (congrFun (congrFun hr b) k) l) k

/-- (b) … and the loss's buffer the whitening loss of the kernel's covariance of z. -/
theorem loss_eq
    (hr : Spec.of3 (U (Proc.devRef .tc main_v77) : S1024x10x10.Idx → EReal) = Spec.covRaw z) :
    (StableHlo.after (hostOps2_2 (F := Ideal)) (StableHlo.after (hostOps2_1 (F := Ideal))
        (StableHlo.after (hostOps2 (F := Ideal)) U)) (Proc.devRef .tc main_v124) : S_.Idx → EReal)
      = fun _ => Spec.lossTail (Spec.covK z) := by
  funext j
  have ha : ∀ b k l, (U (Proc.devRef .tc main_v77) : S1024x10x10.Idx → EReal) (ix3 b k l) = Spec.covRaw z b k l :=
    fun b k l => congrFun (congrFun (congrFun hr b) k) l
  rw [third_loss, second_cov, second_mask, first_cov, first_ones, loss_apply]
  unfold Spec.lossTail
  simp only [cov_eq z (U (Proc.devRef .tc main_v77)) ha, triu_apply]

end Results

end Cert.KernelIdeal.KHost2

end
-- ==== Proof.KHost3.lean ====
/-
  The host arithmetic between the third and the fourth kernel and after the fourth, read as mathematics.

  * The third kernel's result, a tensor [1024, 10, 2430], is relaid as [1024, 10, 30, 9, 9]: entry by entry it is the
    specification's relayout of the same numbers.
  * The two feature tables (100000 rows of 128) and the two label vectors (100000 labels) are padded at the end to
    100352 = 98 · 1024 rows with the integer zero (converted to the float zero for the tables): a padded table is the
    table below row 100000 and zero from there on, a padded label vector is the labels and then the label 0.
  * A padded row carries the label 0, so it adds the constant 0 to the label term; a real row's unit-normalised entries
    are the unpadded table's. Hence the label sum over the 100352 padded rows is the sum over the 100000 real rows.
  * The scalar result is the sum of the two whitening losses plus the one entry of the fourth kernel's 1×1 result.
-/
import proofs.«414715_j46866683134133_3_alg».proof.Proof.Gen.KernelIdeal.Frame
import proofs.«414715_j46866683134133_3_alg».proof.Proof.Spec
import Idealize.ShloMosaic.Lib.ValueIdx
import Idealize.ShloMosaic.Lib.Pipeline.Value
import Idealize.ShloMosaic.Lib.StableHlo.Run
import Idealize.ShloMosaic.Lib.KernelVsHost

noncomputable section

namespace Cert.KernelIdeal.KHost3

open Idealize.ShloMosaic Idealize.ShloMosaic.TcCoe
open Cert.KernelIdeal Cert.KernelIdeal.Gen
open scoped BigOperators

/-! ## Padding, as functions of coordinates -/

/-- A table of 100000 rows continued by zero rows to 100352. -/
def padRows (f : Spec.A2 100000 128) : Spec.A2 100352 128 :=
  fun i d => if h : i.val < 100000 then f ⟨i.val, h⟩ d else 0

/-- 100000 labels continued by the label 0 to 100352. -/
def padLab (l : Fin 100000 → BitVec 32) : Fin 100352 → BitVec 32 :=
  fun i => if h : i.val < 100000 then l ⟨i.val, h⟩ else 0#32

/-- Below row 100000 the padded table is the table. -/
theorem padRows_real (f : Spec.A2 100000 128) (i : Fin 100000) (h : 100000 ≤ 100352) :
    padRows f (Fin.castLE h i) = f i := by
  funext d
  unfold padRows
  exact dif_pos i.isLt

/-- Below entry 100000 the padded labels are the labels. -/
theorem padLab_real (l : Fin 100000 → BitVec 32) (i : Fin 100000) (h : 100000 ≤ 100352) :
    padLab l (Fin.castLE h i) = l i := by
  unfold padLab
  exact dif_pos i.isLt

/-- From entry 100000 on the padded label is 0. -/
theorem padLab_pad (l : Fin 100000 → BitVec 32) (i : Fin 100352) (hi : 100000 ≤ i.val) : padLab l i = 0#32 := by
  unfold padLab
  exact dif_neg (Nat.not_lt.2 hi)

/-- Padding keeps every label below 8. -/
theorem padLab_lt (l : Fin 100000 → BitVec 32) (h : ∀ i, (l i).toInt < 8) : ∀ i, (padLab l i).toInt < 8 := by
  intro i
  unfold padLab
  split
  · exact h _
  · decide

/-! ## The label sum does not see the padding -/

/-- A sum over `N` indices of a function that vanishes from index `n` on is the sum over the first `n`. -/
theorem sum_castLE {n N : ℕ} (h : n ≤ N) (g : Fin N → EReal) (hz : ∀ i : Fin N, n ≤ i.val → g i = 0) :
    ∑ i, g i = ∑ i : Fin n, g (Fin.castLE h i) := by
  have e : ∑ i : Fin n, g (Fin.castLE h i) = ∑ i ∈ Finset.univ.map (Fin.castLEEmb h), g i :=
    (Finset.sum_map Finset.univ (Fin.castLEEmb h) g).symm
  rw [e]
  refine (Finset.sum_subset (Finset.subset_univ _) fun x _ hx => hz x ?_).symm
  by_contra hlt
  exact hx (Finset.mem_map.mpr ⟨⟨x.val, Nat.lt_of_not_le hlt⟩, Finset.mem_univ _, Fin.ext rfl⟩)

/-- A real row's label term is the unpadded one: its label and its row are the unpadded ones. -/
theorem simTerm_real (cnv : Spec.A2 8 128) (f : Spec.A2 100000 128) (l : Fin 100000 → BitVec 32) (i : Fin 100000)
    (h : 100000 ≤ 100352) :
    Spec.simTerm cnv (padRows f) (padLab l) (Fin.castLE h i) = Spec.simTerm cnv f l i := by
  have hf : padRows f (Fin.castLE h i) = f i := padRows_real f i h
  have hl : padLab l (Fin.castLE h i) = l i := padLab_real l i h
  unfold Spec.simTerm Spec.rowUnit
  rw [hl, hf]

/-- A padded row's label is 0, which is below 1: its label term is the constant `c0`. -/
theorem simTerm_pad (cnv : Spec.A2 8 128) (f : Spec.A2 100000 128) (l : Fin 100000 → BitVec 32) (i : Fin 100352)
    (hi : 100000 ≤ i.val) : Spec.simTerm cnv (padRows f) (padLab l) i = Spec.c0 := by
  unfold Spec.simTerm
  rw [padLab_pad l i hi]
  exact if_neg (by decide)

/-- The label sum over the padded rows is the label sum over the real rows. -/
theorem simSumP_pad (h0 : Spec.c0 = 0) (cnv : Spec.A2 8 128) (f : Spec.A2 100000 128) (l : Fin 100000 → BitVec 32) :
    Spec.simSumP cnv (padRows f) (padLab l) = Spec.simSum cnv f l := by
  unfold Spec.simSumP Spec.simSum
  have h : 100000 ≤ 100352 := by decide
  refine (sum_castLE h _ fun i hi => (simTerm_pad cnv f l i hi).trans h0).trans ?_
  exact Finset.sum_congr rfl fun i _ => simTerm_real cnv f l i h

/-! ## A host `pad` at the end of the leading axis, read at an index -/

section PadAtIndex
variable {α : Type}

/-- Rows: below row 100000 the operand's entry, from there on the padding value. -/
theorem pad_rows_apply (x : (⟨2, ![100000, 128]⟩ : Shape).Idx → α) (v : (⟨0, ![]⟩ : Shape).Idx → α)
    (h : (⟨2, ![100000, 128]⟩ : Shape).Pads (![0, 0] : Fin 2 → Nat) ![352, 0] ![0, 0] ⟨2, ![100352, 128]⟩)
    (hu : 0 < (⟨0, ![]⟩ : Shape).numel) (i : Fin 100352) (d : Fin 128) :
    pad ⟨2, ![100352, 128]⟩ ![0, 0] ![352, 0] ![0, 0] x v h hu (ValueIdx.ix2 i d)
      = if hi : i.val < 100000 then x (ValueIdx.ix2 ⟨i.val, hi⟩ d) else v ValueIdx.ix0 := by
  by_cases hi : i.val < 100000
  · rw [dif_pos hi]
    refine pad_apply_of_inside _ _ _ x v h hu _ (ValueIdx.ix2 ⟨i.val, hi⟩ d) fun a => ?_
    match a with
    | ⟨0, _⟩ => show i.val = 0 + i.val * (0 + 1); omega
    | ⟨1, _⟩ => show d.val = 0 + d.val * (0 + 1); omega
  · rw [dif_neg hi]
    refine (pad_apply_of_not_inside _ _ _ x v h hu _ (0 : Fin 2) fun hin => hi ?_).trans
      (congrArg v (ValueIdx.eq_ix0 _))
    have h3 : (i.val - 0) / (0 + 1) < 100000 := hin.2.2
    rw [Nat.sub_zero, Nat.zero_add, Nat.div_one] at h3
    exact h3

/-- A vector: below entry 100000 the operand's entry, from there on the padding value. -/
theorem pad_vec_apply (x : (⟨1, ![100000]⟩ : Shape).Idx → α) (v : (⟨0, ![]⟩ : Shape).Idx → α)
    (h : (⟨1, ![100000]⟩ : Shape).Pads (![0] : Fin 1 → Nat) ![352] ![0] ⟨1, ![100352]⟩)
    (hu : 0 < (⟨0, ![]⟩ : Shape).numel) (i : Fin 100352) :
    pad ⟨1, ![100352]⟩ ![0] ![352] ![0] x v h hu (ValueIdx.ix1 i)
      = if hi : i.val < 100000 then x (ValueIdx.ix1 ⟨i.val, hi⟩) else v ValueIdx.ix0 := by
  by_cases hi : i.val < 100000
  · rw [dif_pos hi]
    refine pad_apply_of_inside _ _ _ x v h hu _ (ValueIdx.ix1 ⟨i.val, hi⟩) fun a => ?_
    match a with
    | ⟨0, _⟩ => show i.val = 0 + i.val * (0 + 1); omega
  · rw [dif_neg hi]
    refine (pad_apply_of_not_inside _ _ _ x v h hu _ (0 : Fin 1) fun hin => hi ?_).trans
      (congrArg v (ValueIdx.eq_ix0 _))
    have h3 : (i.val - 0) / (0 + 1) < 100000 := hin.2.2
    rw [Nat.sub_zero, Nat.zero_add, Nat.div_one] at h3
    exact h3

end PadAtIndex

/-- A table padded with a value that is zero is the specification's padded table. -/
theorem of2_pad (x : (⟨2, ![100000, 128]⟩ : Shape).Idx → EReal) (v : (⟨0, ![]⟩ : Shape).Idx → EReal)
    (hv : v ValueIdx.ix0 = 0)
    (h : (⟨2, ![100000, 128]⟩ : Shape).Pads (![0, 0] : Fin 2 → Nat) ![352, 0] ![0, 0] ⟨2, ![100352, 128]⟩)
    (hu : 0 < (⟨0, ![]⟩ : Shape).numel) :
    Spec.of2 (pad ⟨2, ![100352, 128]⟩ ![0, 0] ![352, 0] ![0, 0] x v h hu) = padRows (Spec.of2 x) := by
  funext i d
  show pad ⟨2, ![100352, 128]⟩ ![0, 0] ![352, 0] ![0, 0] x v h hu (ValueIdx.ix2 i d) = padRows (Spec.of2 x) i d
  rw [pad_rows_apply]
  unfold padRows
  by_cases hi : i.val < 100000
  · rw [dif_pos hi, dif_pos hi]; rfl
  · rw [dif_neg hi, dif_neg hi]; exact hv

/-- A label vector padded with the label 0 is the specification's padded labels. -/
theorem ofLab_pad (x : (⟨1, ![100000]⟩ : Shape).Idx → BitVec 32) (v : (⟨0, ![]⟩ : Shape).Idx → BitVec 32)
    (hv : v ValueIdx.ix0 = 0#32)
    (h : (⟨1, ![100000]⟩ : Shape).Pads (![0] : Fin 1 → Nat) ![352] ![0] ⟨1, ![100352]⟩)
    (hu : 0 < (⟨0, ![]⟩ : Shape).numel) :
    Spec.ofLab (pad ⟨1, ![100352]⟩ ![0] ![352] ![0] x v h hu) = padLab (Spec.ofLab x) := by
  funext i
  show pad ⟨1, ![100352]⟩ ![0] ![352] ![0] x v h hu (ValueIdx.ix1 i) = padLab (Spec.ofLab x) i
  rw [pad_vec_apply]
  unfold padLab
  by_cases hi : i.val < 100000
  · rw [dif_pos hi, dif_pos hi]; rfl
  · rw [dif_neg hi, dif_neg hi]; exact hv

/-- The integer zero converted to a float is the float zero. -/
theorem padValue_zero : (sitofp (F := Ideal) .f32 (constantI S_ 32 0#32) : S_.Idx → EReal) ValueIdx.ix0 = 0 := by
  show ((((0#32 : BitVec 32).toInt : ℤ) : ℝ) : EReal) = 0
  simp

/-! ## The relayout of the third kernel's result -/

/-- Reading a coordinate function back as an array undoes reading the array at coordinates. -/
theorem to3_of3 {n0 n1 n2 : ℕ} (a : (⟨3, ![n0, n1, n2]⟩ : Shape).Idx → EReal) : Spec.to3 (Spec.of3 a) = a :=
  funext fun i => congrArg a (ValueIdx.eq_ix3 i).symm

/-- After the stretch that follows the third kernel, the first result is the specification's relayout of that kernel's
    output. -/
theorem out5 (U : Valuation τ sig (Elt Ideal)) :
    StableHlo.after (hostOps3 (F := Ideal)) U main_v126
      = Spec.out5of (Spec.of3 (U main_v125)) shapeCasts_S1024x10x2430_S1024x10x30x9x9 := by
  show StableHlo.after (hostOps3 (F := Ideal)) U (Proc.devRef .tc main_v126) = _
  after_results
  unfold Spec.out5of
  rw [to3_of3]
  rfl

/-! ## The four pads -/

/-- The buffer contents after the eight stretches between the third and the fourth kernel. -/
abbrev afterPads (U : Valuation τ sig (Elt Ideal)) : Valuation τ sig (Elt Ideal) :=
  StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 U)))))))

theorem v127_eq (U : Valuation τ sig (Elt Ideal)) :
    (afterPads U main_v127 : S100352x128.Idx → EReal)
      = pad S100352x128 ![0, 0] ![352, 0] ![0, 0] (U main_arg1 : S100000x128.Idx → EReal)
          (sitofp (F := Ideal) .f32 (constantI S_ 32 0#32)) pads_S100000x128_S100352x128_03520_000 h_S_ := by
  show StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 U)))))))
    (Proc.devRef .tc main_v127) = _
  after_results
  rfl

theorem v128_eq (U : Valuation τ sig (Elt Ideal)) :
    (afterPads U main_v128 : S100352x128.Idx → EReal)
      = pad S100352x128 ![0, 0] ![352, 0] ![0, 0] (U main_arg2 : S100000x128.Idx → EReal)
          (sitofp (F := Ideal) .f32 (constantI S_ 32 0#32)) pads_S100000x128_S100352x128_03520_000 h_S_ := by
  show StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 U)))))))
    (Proc.devRef .tc main_v128) = _
  after_results
  rfl

theorem v129_eq (U : Valuation τ sig (Elt Ideal)) :
    (afterPads U main_v129 : S100352.Idx → BitVec 32)
      = pad S100352 ![0] ![352] ![0] (U main_arg6 : S100000.Idx → BitVec 32) (constantI S_ 32 0#32)
          pads_S100000_S100352_03520 h_S_ := by
  show StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 U)))))))
    (Proc.devRef .tc main_v129) = _
  after_results
  rfl

theorem v130_eq (U : Valuation τ sig (Elt Ideal)) :
    (afterPads U main_v130 : S100352.Idx → BitVec 32)
      = pad S100352 ![0] ![352] ![0] (U main_arg7 : S100000.Idx → BitVec 32) (constantI S_ 32 0#32)
          pads_S100000_S100352_03520 h_S_ := by
  show StableHlo.after hostOps3_7 (StableHlo.after hostOps3_6 (StableHlo.after hostOps3_5 (StableHlo.after hostOps3_4
    (StableHlo.after hostOps3_3 (StableHlo.after hostOps3_2 (StableHlo.after hostOps3_1 (StableHlo.after hostOps3 U)))))))
    (Proc.devRef .tc main_v130) = _
  after_results
  rfl

/-- The fourth kernel's first table is the first feature table, padded. -/
theorem rowsA (U : Valuation τ sig (Elt Ideal)) :
    Spec.of2 (afterPads U main_v127) = padRows (Spec.of2 (U main_arg1)) :=
  (congrArg Spec.of2 (v127_eq U)).trans (of2_pad _ _ padValue_zero _ _)

/-- Its second table is the second feature table, padded. -/
theorem rowsB (U : Valuation τ sig (Elt Ideal)) :
    Spec.of2 (afterPads U main_v128) = padRows (Spec.of2 (U main_arg2)) :=
  (congrArg Spec.of2 (v128_eq U)).trans (of2_pad _ _ padValue_zero _ _)

/-- Its first label vector is the first labels, padded. -/
theorem labA (U : Valuation τ sig (Elt Ideal)) :
    Spec.ofLab (afterPads U main_v129) = padLab (Spec.ofLab (U main_arg6)) :=
  (congrArg Spec.ofLab (v129_eq U)).trans (ofLab_pad _ _ rfl _ _)

/-- Its second label vector is the second labels, padded. -/
theorem labB (U : Valuation τ sig (Elt Ideal)) :
    Spec.ofLab (afterPads U main_v130) = padLab (Spec.ofLab (U main_arg7)) :=
  (congrArg Spec.ofLab (v130_eq U)).trans (ofLab_pad _ _ rfl _ _)

/-! ## The same four, from the entry of the first pad's stretch

The first pad's value is the integer constant the stretch before writes: read from that stretch's entry on, it is a
hypothesis on the contents there. -/

/-- The buffer contents after the seven stretches from the first pad to the fourth kernel. -/
abbrev afterPads1 (U : Valuation τ sig (Elt Ideal)) : Valuation τ sig (Elt Ideal) :=
  StableHlo.after hostOps3_7 (StableHlo.after hostOps3_6 (StableHlo.after hostOps3_5 (StableHlo.after hostOps3_4
    (StableHlo.after hostOps3_3 (StableHlo.after hostOps3_2 (StableHlo.after hostOps3_1 U))))))

/-- The eight stretches are the first and then the seven. -/
theorem afterPads_eq (U : Valuation τ sig (Elt Ideal)) :
    afterPads U = afterPads1 (StableHlo.after (hostOps3 (F := Ideal)) U) := rfl

/-- The stretch after the third kernel leaves the integer constant 0 for the first pad. -/
theorem c33 (U : Valuation τ sig (Elt Ideal)) :
    (StableHlo.after (hostOps3 (F := Ideal)) U main_c_33 : S_.Idx → BitVec 32) = constantI S_ 32 0#32 := by
  show StableHlo.after (hostOps3 (F := Ideal)) U (Proc.devRef .tc main_c_33) = _
  after_results

theorem v127_eq1 (U : Valuation τ sig (Elt Ideal)) :
    (afterPads1 U main_v127 : S100352x128.Idx → EReal)
      = pad S100352x128 ![0, 0] ![352, 0] ![0, 0] (U main_arg1 : S100000x128.Idx → EReal)
          (sitofp (F := Ideal) .f32 (U main_c_33 : S_.Idx → BitVec 32)) pads_S100000x128_S100352x128_03520_000 h_S_ := by
  show StableHlo.after hostOps3_7 (StableHlo.after hostOps3_6 (StableHlo.after hostOps3_5 (StableHlo.after hostOps3_4
    (StableHlo.after hostOps3_3 (StableHlo.after hostOps3_2 (StableHlo.after hostOps3_1 U))))))
    (Proc.devRef .tc main_v127) = _
  after_results
  rfl

theorem v128_eq1 (U : Valuation τ sig (Elt Ideal)) :
    (afterPads1 U main_v128 : S100352x128.Idx → EReal)
      = pad S100352x128 ![0, 0] ![352, 0] ![0, 0] (U main_arg2 : S100000x128.Idx → EReal)
          (sitofp (F := Ideal) .f32 (constantI S_ 32 0#32)) pads_S100000x128_S100352x128_03520_000 h_S_ := by
  show StableHlo.after hostOps3_7 (StableHlo.after hostOps3_6 (StableHlo.after hostOps3_5 (StableHlo.after hostOps3_4
    (StableHlo.after hostOps3_3 (StableHlo.after hostOps3_2 (StableHlo.after hostOps3_1 U))))))
    (Proc.devRef .tc main_v128) = _
  after_results
  rfl

theorem v129_eq1 (U : Valuation τ sig (Elt Ideal)) :
    (afterPads1 U main_v129 : S100352.Idx → BitVec 32)
      = pad S100352 ![0] ![352] ![0] (U main_arg6 : S100000.Idx → BitVec 32) (constantI S_ 32 0#32)
          pads_S100000_S100352_03520 h_S_ := by
  show StableHlo.after hostOps3_7 (StableHlo.after hostOps3_6 (StableHlo.after hostOps3_5 (StableHlo.after hostOps3_4
    (StableHlo.after hostOps3_3 (StableHlo.after hostOps3_2 (StableHlo.after hostOps3_1 U))))))
    (Proc.devRef .tc main_v129) = _
  after_results
  rfl

theorem v130_eq1 (U : Valuation τ sig (Elt Ideal)) :
    (afterPads1 U main_v130 : S100352.Idx → BitVec 32)
      = pad S100352 ![0] ![352] ![0] (U main_arg7 : S100000.Idx → BitVec 32) (constantI S_ 32 0#32)
          pads_S100000_S100352_03520 h_S_ := by
  show StableHlo.after hostOps3_7 (StableHlo.after hostOps3_6 (StableHlo.after hostOps3_5 (StableHlo.after hostOps3_4
    (StableHlo.after hostOps3_3 (StableHlo.after hostOps3_2 (StableHlo.after hostOps3_1 U))))))
    (Proc.devRef .tc main_v130) = _
  after_results
  rfl

theorem rowsA1 (U : Valuation τ sig (Elt Ideal))
    (hc : (U main_c_33 : S_.Idx → BitVec 32) = constantI S_ 32 0#32) :
    Spec.of2 (afterPads1 U main_v127) = padRows (Spec.of2 (U main_arg1)) :=
  (congrArg Spec.of2 (v127_eq1 U)).trans (of2_pad _ _ (by rw [hc]; exact padValue_zero) _ _)

theorem rowsB1 (U : Valuation τ sig (Elt Ideal)) :
    Spec.of2 (afterPads1 U main_v128) = padRows (Spec.of2 (U main_arg2)) :=
  (congrArg Spec.of2 (v128_eq1 U)).trans (of2_pad _ _ padValue_zero _ _)

theorem labA1 (U : Valuation τ sig (Elt Ideal)) :
    Spec.ofLab (afterPads1 U main_v129) = padLab (Spec.ofLab (U main_arg6)) :=
  (congrArg Spec.ofLab (v129_eq1 U)).trans (ofLab_pad _ _ rfl _ _)

theorem labB1 (U : Valuation τ sig (Elt Ideal)) :
    Spec.ofLab (afterPads1 U main_v130) = padLab (Spec.ofLab (U main_arg7)) :=
  (congrArg Spec.ofLab (v130_eq1 U)).trans (ofLab_pad _ _ rfl _ _)

/-! ## The scalar result -/

/-- A scalar buffer's entry, a 1×1 buffer's entry. -/
abbrev rd0 (a : S_.Idx → EReal) : EReal := a ValueIdx.ix0
abbrev rd11 (a : S1x1.Idx → EReal) : EReal := a (ValueIdx.ix2 0 0)

/-- After the last stretch the scalar result is the two whitening losses' sum plus the fourth kernel's one entry. -/
theorem lossSum_of (U : Valuation τ sig (Elt Ideal)) (a b : S_.Idx → EReal) (c : S1x1.Idx → EReal)
    (ha : U main_v76 = a) (hb : U main_v124 = b) (hc : U main_v131 = c) :
    StableHlo.after (hostOps4 (F := Ideal)) U main_v134
      = fun _ => (a ValueIdx.ix0 + b ValueIdx.ix0) + c (ValueIdx.ix2 0 0) := by
  show StableHlo.after (hostOps4 (F := Ideal)) U (Proc.devRef .tc main_v134) = _
  after_results
  rw [ha, hb, hc]
  funext j
  obtain rfl := ValueIdx.eq_ix0 j
  show (a ValueIdx.ix0 + b ValueIdx.ix0) + shapeCast S_ c shapeCasts_S1x1_S_ ValueIdx.ix0 = _
  rw [shapeCast_apply c shapeCasts_S1x1_S_ ValueIdx.ix0 (ValueIdx.ix2 0 0) (by
    rw [Shape.rowMajor_val_two]
    have h1 : (S_.rowMajor ValueIdx.ix0).val < 1 := (S_.rowMajor ValueIdx.ix0).isLt
    show 0 * 1 + 0 = _
    omega)]

theorem lossSum (U : Valuation τ sig (Elt Ideal)) :
    StableHlo.after (hostOps4 (F := Ideal)) U main_v134
      = fun _ => (rd0 (U main_v76) + rd0 (U main_v124)) + rd11 (U main_v131) :=
  lossSum_of U _ _ _ rfl rfl rfl

end Cert.KernelIdeal.KHost3

end
-- ==== Proof.KBodyA.lean ====
/-
  The first pass of the kernel at the ideal instance. Its grid has sixteen points; point t holds samples
  64t … 64t + 63 of the input x[b, c, n] (1024 × 6 × 2430) and the whole 5 × 6 weight w, forms the channel mix
  z[b, k, n] = Σ_c x[b, c, n]·w[k, c] (six products added left to right onto 0), and stores the 64 × 5 × 5 block of
  lane sums Σ_n z[b, k, n]·z[b, l, n], five rows of five sums stacked.

  Proved here, in this order: each layout step of the block read at explicit coordinates; the mixed block and the 25
  sums entry by entry; the stored block as a function of the two input blocks' entries; each input block as a rectangle
  of its array; what a point writes back as block t of ONE whole-array function; the sixteen blocks cover the array
  (sample b lies in block b / 64); hence the result array is `Spec.covRaw (Spec.zmix x w)` of whatever the two arrays
  hold when the pass is entered.
-/
import proofs.«414715_j46866683134133_3_alg».proof.Proof.Gen.KernelIdeal.Frame
import proofs.«414715_j46866683134133_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBodyA

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! ## The layout steps of the block, one at a time, at explicit coordinates -/

theorem hz3 : (![0, 0, 0] : Fin 3 → Nat) = fun _ => 0 := funext fun a => by fin_cases a <;> rfl
theorem hz2 : (![0, 0] : Fin 2 → Nat) = fun _ => 0 := funext fun a => by fin_cases a <;> rfl

/-- Channel `cc` of the sample block, laid over the five mixed channels: entry (b, k, n) is x[b, cc, n]. -/
theorem xpart (X : FVec Ideal S64x6x2430 .f32) (off : Fin 3 → Nat) (hs : S64x6x2430.Slices off S64x1x2430)
    (cc : Fin 6) (h0 : off 0 = 0) (h1 : off 1 = cc.val) (h2 : off 2 = 0) (b : Fin 64) (k : Fin 5) (n : Fin 2430) :
    broadcastTo S64x5x2430 (shapeCast S64x1x2430 (shapeCast S64x2430 (extractStridedSlice S64x1x2430 off X hs)
      shapeCasts_S64x1x2430_S64x2430) shapeCasts_S64x2430_S64x1x2430) broadcasts_S64x1x2430_S64x5x2430 (ix3 b k n)
      = X (ix3 b cc n) := by
  rw [shapeCast_shapeCast]
  refine (broadcastTo_apply _ _ (ix3 b k n) (ix3 b (0 : Fin 1) n) fun a => ?_).trans ?_
  · match a with
    | ⟨0, _⟩ => rfl
    | ⟨1, _⟩ => rfl
    | ⟨2, _⟩ => rfl
  · refine extractStridedSlice_apply off X hs _ (ix3 b cc n) fun a => ?_
    match a with
    | ⟨0, _⟩ => show b.val = off 0 + b.val; omega
    | ⟨1, _⟩ => show cc.val = off 1 + 0; omega
    | ⟨2, _⟩ => show n.val = off 2 + n.val; omega

/-- Column `cc` of the weight, laid over samples and positions: entry (b, k, n) is w[k, cc]. -/
theorem wpart (W : FVec Ideal S5x6 .f32) (off : Fin 2 → Nat) (hs : S5x6.Slices off S5x1)
    (cc : Fin 6) (h0 : off 0 = 0) (h1 : off 1 = cc.val) (b : Fin 64) (k : Fin 5) (n : Fin 2430) :
    broadcastTo S64x5x2430 (shapeCast S1x5x1 (shapeCast S5 (extractStridedSlice S5x1 off W hs)
      shapeCasts_S5x1_S5) shapeCasts_S5_S1x5x1) broadcasts_S1x5x1_S64x5x2430 (ix3 b k n)
      = W (ix2 k cc) := by
  refine (broadcastTo_apply _ _ (ix3 b k n) (ix3 (0 : Fin 1) k (0 : Fin 1)) fun a => ?_).trans ?_
  · match a with
    | ⟨0, _⟩ => rfl
    | ⟨1, _⟩ => rfl
    | ⟨2, _⟩ => rfl
  refine (shapeCast_apply _ _ _ (ix1 k) ?_).trans ?_
  · rw [Shape.rowMajor_val_three, Shape.rowMajor_val_one]
    show k.val = (0 * 5 + k.val) * 1 + 0
    omega
  refine (shapeCast_apply _ _ _ (ix2 k (0 : Fin 1)) ?_).trans ?_
  · rw [Shape.rowMajor_val_two, Shape.rowMajor_val_one]
    show k.val * 1 + 0 = k.val
    omega
  refine extractStridedSlice_apply off W hs _ (ix2 k cc) fun a => ?_
  match a with
  | ⟨0, _⟩ => show k.val = off 0 + k.val; omega
  | ⟨1, _⟩ => show cc.val = off 1 + 0; omega

/-- Channel `kk` of the mixed block as a [64, 2430] matrix: entry (b, n) is z[b, kk, n]. -/
theorem zslice (Z : FVec Ideal S64x5x2430 .f32) (off : Fin 3 → Nat) (hs : S64x5x2430.Slices off S64x1x2430)
    (kk : Fin 5) (h0 : off 0 = 0) (h1 : off 1 = kk.val) (h2 : off 2 = 0) (b : Fin 64) (n : Fin 2430) :
    shapeCast S64x2430 (extractStridedSlice S64x1x2430 off Z hs) shapeCasts_S64x1x2430_S64x2430 (ix2 b n)
      = Z (ix3 b kk n) := by
  refine (shapeCast_apply _ _ _ (ix3 b (0 : Fin 1) n) ?_).trans ?_
  · rw [Shape.rowMajor_val_three, Shape.rowMajor_val_two]
    show (b.val * 1 + 0) * 2430 + n.val = b.val * 2430 + n.val
    omega
  refine extractStridedSlice_apply off Z hs _ (ix3 b kk n) fun a => ?_
  match a with
  | ⟨0, _⟩ => show b.val = off 0 + b.val; omega
  | ⟨1, _⟩ => show kk.val = off 1 + 0; omega
  | ⟨2, _⟩ => show n.val = off 2 + n.val; omega

/-- A lane sum into a zero accumulator is the sum over the positions. -/
theorem laneSum (u : FVec Ideal S64x2430 .f32) (h : S64x2430.Reduces [1] S64) (hφ : FKind.Formats .f32)
    (hacc : (0x00000000#32 : BitVec 32) = 0x00000000#32) (b : Fin 64) :
    multiReduction .add [1] S64 u 0x00000000#32 h hφ hacc (ix1 b) = ∑ n : Fin 2430, u (ix2 b n) := by
  refine (Ideal.multiReduction_add_single u 0x00000000#32 h hφ hacc (ix1 b)).trans ?_
  refine Finset.sum_congr rfl fun n _ => congrArg u (funext fun a => Fin.ext ?_)
  match a with
  | ⟨0, _⟩ => rfl
  | ⟨1, _⟩ => rfl

/-- A vector of 64 sums as a one-column matrix. -/
theorem colcast (v : FVec Ideal S64 .f32) (b : Fin 64) :
    shapeCast S64x1 v shapeCasts_S64_S64x1 (ix2 b (0 : Fin 1)) = v (ix1 b) := by
  refine shapeCast_apply _ _ _ (ix1 b) ?_
  rw [Shape.rowMajor_val_two, Shape.rowMajor_val_one]
  show b.val = b.val * 1 + 0
  omega

/-- A [64, 5] matrix as a one-row slab [64, 1, 5]. -/
theorem rowcast (v : FVec Ideal S64x5 .f32) (b : Fin 64) (l : Fin 5) :
    shapeCast S64x1x5 v shapeCasts_S64x5_S64x1x5 (ix3 b (0 : Fin 1) l) = v (ix2 b l) := by
  refine shapeCast_apply _ _ _ (ix2 b l) ?_
  rw [Shape.rowMajor_val_three, Shape.rowMajor_val_two]
  show b.val * 5 + l.val = (b.val * 1 + 0) * 5 + l.val
  omega

/-- Five one-column matrices side by side: column `l` of the result is the `l`-th of them. -/
theorem concat_cols (v0 v1 v2 v3 v4 : FVec Ideal S64x1 .f32)
    (h : Shape.Concatenates [S64x1, S64x1, S64x1, S64x1, S64x1] S64x5 1) (b : Fin 64) (l : Fin 5) (r : EReal)
    (e0 : l.val = 0 → v0 (ix2 b (0 : Fin 1)) = r) (e1 : l.val = 1 → v1 (ix2 b (0 : Fin 1)) = r)
    (e2 : l.val = 2 → v2 (ix2 b (0 : Fin 1)) = r) (e3 : l.val = 3 → v3 (ix2 b (0 : Fin 1)) = r)
    (e4 : l.val = 4 → v4 (ix2 b (0 : Fin 1)) = r) :
    concatenate S64x5 1 [⟨S64x1, v0⟩, ⟨S64x1, v1⟩, ⟨S64x1, v2⟩, ⟨S64x1, v3⟩, ⟨S64x1, v4⟩] h (ix2 b l) = r := by
  have hl := l.isLt
  have hi : ∀ a : Fin S64x1.rank, a.cast (rfl : S64x1.rank = S64x5.rank) ≠ (1 : Fin S64x5.rank) →
      ((ix2 b (0 : Fin 1) : S64x1.Idx) a).val = ((ix2 b l : S64x5.Idx) (a.cast rfl)).val := fun a ha => by
    match a with
    | ⟨0, _⟩ => rfl
    | ⟨1, _⟩ => exact absurd rfl ha
  rcases (by omega : l.val = 0 ∨ l.val = 1 ∨ l.val = 2 ∨ l.val = 3 ∨ l.val = 4) with hl | hl | hl | hl | hl
  · exact (concatenate_apply_piece (t := S64x5) 1 [⟨S64x1, v0⟩, ⟨S64x1, v1⟩, ⟨S64x1, v2⟩, ⟨S64x1, v3⟩, ⟨S64x1, v4⟩] h (ix2 b l) 0 (by show 0 < 5; omega) S64x1 v0 rfl rfl 0 rfl (ix2 b (0 : Fin 1)) hi
      (by show 0 + 0 = l.val; omega)).trans (e0 hl)
  · exact (concatenate_apply_piece (t := S64x5) 1 [⟨S64x1, v0⟩, ⟨S64x1, v1⟩, ⟨S64x1, v2⟩, ⟨S64x1, v3⟩, ⟨S64x1, v4⟩] h (ix2 b l) 1 (by show 1 < 5; omega) S64x1 v1 rfl rfl 1 rfl (ix2 b (0 : Fin 1)) hi
      (by show 1 + 0 = l.val; omega)).trans (e1 hl)
  · exact (concatenate_apply_piece (t := S64x5) 1 [⟨S64x1, v0⟩, ⟨S64x1, v1⟩, ⟨S64x1, v2⟩, ⟨S64x1, v3⟩, ⟨S64x1, v4⟩] h (ix2 b l) 2 (by show 2 < 5; omega) S64x1 v2 rfl rfl 2 rfl (ix2 b (0 : Fin 1)) hi
      (by show 2 + 0 = l.val; omega)).trans (e2 hl)
  · exact (concatenate_apply_piece (t := S64x5) 1 [⟨S64x1, v0⟩, ⟨S64x1, v1⟩, ⟨S64x1, v2⟩, ⟨S64x1, v3⟩, ⟨S64x1, v4⟩] h (ix2 b l) 3 (by show 3 < 5; omega) S64x1 v3 rfl rfl 3 rfl (ix2 b (0 : Fin 1)) hi
      (by show 3 + 0 = l.val; omega)).trans (e3 hl)
  · exact (concatenate_apply_piece (t := S64x5) 1 [⟨S64x1, v0⟩, ⟨S64x1, v1⟩, ⟨S64x1, v2⟩, ⟨S64x1, v3⟩, ⟨S64x1, v4⟩] h (ix2 b l) 4 (by show 4 < 5; omega) S64x1 v4 rfl rfl 4 rfl (ix2 b (0 : Fin 1)) hi
      (by show 4 + 0 = l.val; omega)).trans (e4 hl)

/-- Five one-row slabs stacked: row `k` of the result is the `k`-th of them. -/
theorem concat_rows (w0 w1 w2 w3 w4 : FVec Ideal S64x1x5 .f32)
    (h : Shape.Concatenates [S64x1x5, S64x1x5, S64x1x5, S64x1x5, S64x1x5] S64x5x5 1) (b : Fin 64) (k l : Fin 5) (r : EReal)
    (e0 : k.val = 0 → w0 (ix3 b (0 : Fin 1) l) = r) (e1 : k.val = 1 → w1 (ix3 b (0 : Fin 1) l) = r)
    (e2 : k.val = 2 → w2 (ix3 b (0 : Fin 1) l) = r) (e3 : k.val = 3 → w3 (ix3 b (0 : Fin 1) l) = r)
    (e4 : k.val = 4 → w4 (ix3 b (0 : Fin 1) l) = r) :
    concatenate S64x5x5 1 [⟨S64x1x5, w0⟩, ⟨S64x1x5, w1⟩, ⟨S64x1x5, w2⟩, ⟨S64x1x5, w3⟩, ⟨S64x1x5, w4⟩] h (ix3 b k l) = r := by
  have hk := k.isLt
  have hi : ∀ a : Fin S64x1x5.rank, a.cast (rfl : S64x1x5.rank = S64x5x5.rank) ≠ (1 : Fin S64x5x5.rank) →
      ((ix3 b (0 : Fin 1) l : S64x1x5.Idx) a).val = ((ix3 b k l : S64x5x5.Idx) (a.cast rfl)).val := fun a ha => by
    match a with
    | ⟨0, _⟩ => rfl
    | ⟨1, _⟩ => exact absurd rfl ha
    | ⟨2, _⟩ => rfl
  rcases (by omega : k.val = 0 ∨ k.val = 1 ∨ k.val = 2 ∨ k.val = 3 ∨ k.val = 4) with hk | hk | hk | hk | hk
  · exact (concatenate_apply_piece (t := S64x5x5) 1 [⟨S64x1x5, w0⟩, ⟨S64x1x5, w1⟩, ⟨S64x1x5, w2⟩, ⟨S64x1x5, w3⟩, ⟨S64x1x5, w4⟩] h (ix3 b k l) 0 (by show 0 < 5; omega) S64x1x5 w0 rfl rfl 0 rfl (ix3 b (0 : Fin 1) l) hi
      (by show 0 + 0 = k.val; omega)).trans (e0 hk)
  · exact (concatenate_apply_piece (t := S64x5x5) 1 [⟨S64x1x5, w0⟩, ⟨S64x1x5, w1⟩, ⟨S64x1x5, w2⟩, ⟨S64x1x5, w3⟩, ⟨S64x1x5, w4⟩] h (ix3 b k l) 1 (by show 1 < 5; omega) S64x1x5 w1 rfl rfl 1 rfl (ix3 b (0 : Fin 1) l) hi
      (by show 1 + 0 = k.val; omega)).trans (e1 hk)
  · exact (concatenate_apply_piece (t := S64x5x5) 1 [⟨S64x1x5, w0⟩, ⟨S64x1x5, w1⟩, ⟨S64x1x5, w2⟩, ⟨S64x1x5, w3⟩, ⟨S64x1x5, w4⟩] h (ix3 b k l) 2 (by show 2 < 5; omega) S64x1x5 w2 rfl rfl 2 rfl (ix3 b (0 : Fin 1) l) hi
      (by show 2 + 0 = k.val; omega)).trans (e2 hk)
  · exact (concatenate_apply_piece (t := S64x5x5) 1 [⟨S64x1x5, w0⟩, ⟨S64x1x5, w1⟩, ⟨S64x1x5, w2⟩, ⟨S64x1x5, w3⟩, ⟨S64x1x5, w4⟩] h (ix3 b k l) 3 (by show 3 < 5; omega) S64x1x5 w3 rfl rfl 3 rfl (ix3 b (0 : Fin 1) l) hi
      (by show 3 + 0 = k.val; omega)).trans (e3 hk)
  · exact (concatenate_apply_piece (t := S64x5x5) 1 [⟨S64x1x5, w0⟩, ⟨S64x1x5, w1⟩, ⟨S64x1x5, w2⟩, ⟨S64x1x5, w3⟩, ⟨S64x1x5, w4⟩] h (ix3 b k l) 4 (by show 4 < 5; omega) S64x1x5 w4 rfl rfl 4 rfl (ix3 b (0 : Fin 1) l) hi
      (by show 4 + 0 = k.val; omega)).trans (e4 hk)

/-! ## The channel mix of a block -/

/-- The mixed block at (b, k, n): the six channels' products with row k of the weight, added left to right onto 0. -/
theorem zb_apply (x0 : Vec Ideal S64x6x2430 .f32) (x1 : Vec Ideal S5x6 .f32) (b : Fin 64) (k : Fin 5) (n : Fin 2430) :
    k0_pay7 (F := Ideal) (k0_pay2 x0) (k0_pay3 x1) (k0_pay4 x0 x1) (k0_pay5 x0) (k0_pay6 x1) (ix3 b k n)
      = ∑ c : Fin 6, x0 (ix3 b c n) * x1 (ix2 k c) := by
  unfold k0_pay7 k0_pay4 k0_pay5 k0_pay6 k0_pay2 k0_pay3
  simp only [shapeCast_self, addf_apply, mulf_apply, broadcast_apply]
  rw [xpart x0 _ _ 0 rfl rfl rfl b k n, wpart x1 _ _ 0 rfl rfl b k n,
    xpart x0 _ _ 1 rfl rfl rfl b k n, wpart x1 _ _ 1 rfl rfl b k n,
    xpart x0 _ _ 2 rfl rfl rfl b k n, wpart x1 _ _ 2 rfl rfl b k n,
    xpart x0 _ _ 3 rfl rfl rfl b k n, wpart x1 _ _ 3 rfl rfl b k n,
    xpart x0 _ _ 4 rfl rfl rfl b k n, wpart x1 _ _ 4 rfl rfl b k n,
    xpart x0 _ _ 5 rfl rfl rfl b k n, wpart x1 _ _ 5 rfl rfl b k n,
    Fin.sum_univ_six]
  rw [show (FloatOps.ofBits FTy.f32 0#32 : Ideal .f32) = 0 from Ideal.ofBits_zero_f32, zero_add]

/-! ## The 25 lane sums of a block, row by row -/

/-- One entry's column: the lane sum of the product of two [64, 2430] matrices, as a one-column matrix. -/
theorem cov_col (u v : FVec Ideal S64x2430 .f32) (h : S64x2430.Reduces [1] S64) (hφ : FKind.Formats .f32)
    (hacc : (0x00000000#32 : BitVec 32) = 0x00000000#32) (b : Fin 64) :
    shapeCast S64x1 (multiReduction .add [1] S64 (mulf u v) 0x00000000#32 h hφ hacc) shapeCasts_S64_S64x1 (ix2 b (0 : Fin 1))
      = ∑ n : Fin 2430, u (ix2 b n) * v (ix2 b n) :=
  (colcast _ b).trans (laneSum _ h hφ hacc b)

section Rows
variable (v1 : FVec Ideal S64x6x2430 .f32) (v3 : FVec Ideal S5x6 .f32) (v44 v51 v52 : FVec Ideal S64x5x2430 .f32)
variable (Z : FVec Ideal S64x5x2430 .f32) (b : Fin 64) (l : Fin 5)

/-- Row 0: Σ_n z₀ z_l. -/
theorem row0_apply : k0_pay8 (F := Ideal) v1 v3 v44 v51 v52 (ix2 b l)
    = ∑ n : Fin 2430, k0_pay7 (F := Ideal) v1 v3 v44 v51 v52 (ix3 b 0 n) * k0_pay7 (F := Ideal) v1 v3 v44 v51 v52 (ix3 b l n) := by
  unfold k0_pay8
  refine concat_cols _ _ _ _ _ _ b l _ (fun hl => ?_) (fun hl => ?_) (fun hl => ?_) (fun hl => ?_) (fun hl => ?_)
  · obtain rfl : l = 0 := Fin.ext hl
    refine (cov_col _ _ _ _ _ b).trans (Finset.sum_congr rfl fun n _ => ?_)
    rw [zslice _ _ _ 0 rfl rfl rfl b n]
  · obtain rfl : l = 1 := Fin.ext hl
    refine (cov_col _ _ _ _ _ b).trans (Finset.sum_congr rfl fun n _ => ?_)
    rw [zslice _ _ _ 0 rfl rfl rfl b n, zslice _ _ _ 1 rfl rfl rfl b n]
  · obtain rfl : l = 2 := Fin.ext hl
    refine (cov_col _ _ _ _ _ b).trans (Finset.sum_congr rfl fun n _ => ?_)
    rw [zslice _ _ _ 0 rfl rfl rfl b n, zslice _ _ _ 2 rfl rfl rfl b n]
  · obtain rfl : l = 3 := Fin.ext hl
    refine (cov_col _ _ _ _ _ b).trans (Finset.sum_congr rfl fun n _ => ?_)
    rw [zslice _ _ _ 0 rfl rfl rfl b n, zslice _ _ _ 3 rfl rfl rfl b n]
  · obtain rfl : l = 4 := Fin.ext hl
    refine (cov_col _ _ _ _ _ b).trans (Finset.sum_congr rfl fun n _ => ?_)
    rw [zslice _ _ _ 0 rfl rfl rfl b n, zslice _ _ _ 4 rfl rfl rfl b n]

/-- Row 1: Σ_n z₁ z_l. -/
theorem row1_apply : k0_pay13 (F := Ideal) (k0_pay7 v1 v3 v44 v51 v52) (k0_pay9 v1 v3 v44 v51 v52) (k0_pay10 v1 v3 v44 v51 v52)
      (k0_pay11 v1 v3 v44 v51 v52) (k0_pay12 v1 v3 v44 v51 v52) (ix2 b l)
    = ∑ n : Fin 2430, k0_pay7 (F := Ideal) v1 v3 v44 v51 v52 (ix3 b 1 n) * k0_pay7 (F := Ideal) v1 v3 v44 v51 v52 (ix3 b l n) := by
  unfold k0_pay13 k0_pay12 k0_pay11 k0_pay10 k0_pay9
  refine concat_cols _ _ _ _ _ _ b l _ (fun hl => ?_) (fun hl => ?_) (fun hl => ?_) (fun hl => ?_) (fun hl => ?_)
  · obtain rfl : l = 0 := Fin.ext hl
    refine (cov_col _ _ _ _ _ b).trans (Finset.sum_congr rfl fun n _ => ?_)
    rw [zslice _ _ _ 1 rfl rfl rfl b n, zslice _ _ _ 0 rfl rfl rfl b n]
  · obtain rfl : l = 1 := Fin.ext hl
    refine (cov_col _ _ _ _ _ b).trans (Finset.sum_congr rfl fun n _ => ?_)
    rw [zslice _ _ _ 1 rfl rfl rfl b n]
  · obtain rfl : l = 2 := Fin.ext hl
    refine (cov_col _ _ _ _ _ b).trans (Finset.sum_congr rfl fun n _ => ?_)
    rw [zslice _ _ _ 1 rfl rfl rfl b n, zslice _ _ _ 2 rfl rfl rfl b n]
  · obtain rfl : l = 3 := Fin.ext hl
    refine (cov_col _ _ _ _ _ b).trans (Finset.sum_congr rfl fun n _ => ?_)
    rw [zslice _ _ _ 1 rfl rfl rfl b n, zslice _ _ _ 3 rfl rfl rfl b n]
  · obtain rfl : l = 4 := Fin.ext hl
    refine (cov_col _ _ _ _ _ b).trans (Finset.sum_congr rfl fun n _ => ?_)
    rw [zslice _ _ _ 1 rfl rfl rfl b n, zslice _ _ _ 4 rfl rfl rfl b n]

/-- Row 2: Σ_n z₂ z_l. -/
theorem row2_apply : k0_pay14 (F := Ideal) Z (ix2 b l) = ∑ n : Fin 2430, Z (ix3 b 2 n) * Z (ix3 b l n) := by
  unfold k0_pay14
  refine concat_cols _ _ _ _ _ _ b l _ (fun hl => ?_) (fun hl => ?_) (fun hl => ?_) (fun hl => ?_) (fun hl => ?_)
  · obtain rfl : l = 0 := Fin.ext hl
    refine (cov_col _ _ _ _ _ b).trans (Finset.sum_congr rfl fun n _ => ?_)
    rw [zslice _ _ _ 2 rfl rfl rfl b n, zslice _ _ _ 0 rfl rfl rfl b n]
  · obtain rfl : l = 1 := Fin.ext hl
    refine (cov_col _ _ _ _ _ b).trans (Finset.sum_congr rfl fun n _ => ?_)
    rw [zslice _ _ _ 2 rfl rfl rfl b n, zslice _ _ _ 1 rfl rfl rfl b n]
  · obtain rfl : l = 2 := Fin.ext hl
    refine (cov_col _ _ _ _ _ b).trans (Finset.sum_congr rfl fun n _ => ?_)
    rw [zslice _ _ _ 2 rfl rfl rfl b n]
  · obtain rfl : l = 3 := Fin.ext hl
    refine (cov_col _ _ _ _ _ b).trans (Finset.sum_congr rfl fun n _ => ?_)
    rw [zslice _ _ _ 2 rfl rfl rfl b n, zslice _ _ _ 3 rfl rfl rfl b n]
  · obtain rfl : l = 4 := Fin.ext hl
    refine (cov_col _ _ _ _ _ b).trans (Finset.sum_congr rfl fun n _ => ?_)
    rw [zslice _ _ _ 2 rfl rfl rfl b n, zslice _ _ _ 4 rfl rfl rfl b n]

/-- Row 3: Σ_n z₃ z_l. -/
theorem row3_apply : k0_pay18 (F := Ideal) Z (k0_pay15 Z) (k0_pay16 Z) (k0_pay17 Z) (ix2 b l)
    = ∑ n : Fin 2430, Z (ix3 b 3 n) * Z (ix3 b l n) := by
  unfold k0_pay18 k0_pay17 k0_pay16 k0_pay15
  refine concat_cols _ _ _ _ _ _ b l _ (fun hl => ?_) (fun hl => ?_) (fun hl => ?_) (fun hl => ?_) (fun hl => ?_)
  · obtain rfl : l = 0 := Fin.ext hl
    refine (cov_col _ _ _ _ _ b).trans (Finset.sum_congr rfl fun n _ => ?_)
    rw [zslice _ _ _ 3 rfl rfl rfl b n, zslice _ _ _ 0 rfl rfl rfl b n]
  · obtain rfl : l = 1 := Fin.ext hl
    refine (cov_col _ _ _ _ _ b).trans (Finset.sum_congr rfl fun n _ => ?_)
    rw [zslice _ _ _ 3 rfl rfl rfl b n, zslice _ _ _ 1 rfl rfl rfl b n]
  · obtain rfl : l = 2 := Fin.ext hl
    refine (cov_col _ _ _ _ _ b).trans (Finset.sum_congr rfl fun n _ => ?_)
    rw [zslice _ _ _ 3 rfl rfl rfl b n, zslice _ _ _ 2 rfl rfl rfl b n]
  · obtain rfl : l = 3 := Fin.ext hl
    refine (cov_col _ _ _ _ _ b).trans (Finset.sum_congr rfl fun n _ => ?_)
    rw [zslice _ _ _ 3 rfl rfl rfl b n]
  · obtain rfl : l = 4 := Fin.ext hl
    refine (cov_col _ _ _ _ _ b).trans (Finset.sum_congr rfl fun n _ => ?_)
    rw [zslice _ _ _ 3 rfl rfl rfl b n, zslice _ _ _ 4 rfl rfl rfl b n]

/-- Row 4: Σ_n z₄ z_l. -/
theorem row4_apply : k0_pay19 (F := Ideal) Z (ix2 b l) = ∑ n : Fin 2430, Z (ix3 b 4 n) * Z (ix3 b l n) := by
  unfold k0_pay19
  refine concat_cols _ _ _ _ _ _ b l _ (fun hl => ?_) (fun hl => ?_) (fun hl => ?_) (fun hl => ?_) (fun hl => ?_)
  · obtain rfl : l = 0 := Fin.ext hl
    refine (cov_col _ _ _ _ _ b).trans (Finset.sum_congr rfl fun n _ => ?_)
    rw [zslice _ _ _ 4 rfl rfl rfl b n, zslice _ _ _ 0 rfl rfl rfl b n]
  · obtain rfl : l = 1 := Fin.ext hl
    refine (cov_col _ _ _ _ _ b).trans (Finset.sum_congr rfl fun n _ => ?_)
    rw [zslice _ _ _ 4 rfl rfl rfl b n, zslice _ _ _ 1 rfl rfl rfl b n]
  · obtain rfl : l = 2 := Fin.ext hl
    refine (cov_col _ _ _ _ _ b).trans (Finset.sum_congr rfl fun n _ => ?_)
    rw [zslice _ _ _ 4 rfl rfl rfl b n, zslice _ _ _ 2 rfl rfl rfl b n]
  · obtain rfl : l = 3 := Fin.ext hl
    refine (cov_col _ _ _ _ _ b).trans (Finset.sum_congr rfl fun n _ => ?_)
    rw [zslice _ _ _ 4 rfl rfl rfl b n, zslice _ _ _ 3 rfl rfl rfl b n]
  · obtain rfl : l = 4 := Fin.ext hl
    refine (cov_col _ _ _ _ _ b).trans (Finset.sum_congr rfl fun n _ => ?_)
    rw [zslice _ _ _ 4 rfl rfl rfl b n]

end Rows

/-! ## The block the body stores -/

/-- The five rows stacked: entry (b, k, l) of the stored block is Σ_n z[b, k, n]·z[b, l, n]. -/
theorem pay1_apply (v1 : FVec Ideal S64x6x2430 .f32) (v3 : FVec Ideal S5x6 .f32) (v44 v51 v52 : FVec Ideal S64x5x2430 .f32)
    (b : Fin 64) (k l : Fin 5) :
    k0_pay1 (F := Ideal)
        (k0_pay18 (k0_pay7 v1 v3 v44 v51 v52) (k0_pay15 (k0_pay7 v1 v3 v44 v51 v52)) (k0_pay16 (k0_pay7 v1 v3 v44 v51 v52))
          (k0_pay17 (k0_pay7 v1 v3 v44 v51 v52)))
        (k0_pay19 (k0_pay7 v1 v3 v44 v51 v52))
        (k0_pay20 (k0_pay8 v1 v3 v44 v51 v52))
        (k0_pay21 (k0_pay13 (k0_pay7 v1 v3 v44 v51 v52) (k0_pay9 v1 v3 v44 v51 v52) (k0_pay10 v1 v3 v44 v51 v52)
          (k0_pay11 v1 v3 v44 v51 v52) (k0_pay12 v1 v3 v44 v51 v52)))
        (k0_pay22 (k0_pay14 (k0_pay7 v1 v3 v44 v51 v52))) (ix3 b k l)
      = ∑ n : Fin 2430, k0_pay7 (F := Ideal) v1 v3 v44 v51 v52 (ix3 b k n) * k0_pay7 (F := Ideal) v1 v3 v44 v51 v52 (ix3 b l n) := by
  unfold k0_pay1 k0_pay20 k0_pay21 k0_pay22
  refine concat_rows _ _ _ _ _ _ b k l _ (fun hk => ?_) (fun hk => ?_) (fun hk => ?_) (fun hk => ?_) (fun hk => ?_)
  · obtain rfl : k = 0 := Fin.ext hk
    exact (rowcast _ b l).trans (row0_apply v1 v3 v44 v51 v52 b l)
  · obtain rfl : k = 1 := Fin.ext hk
    exact (rowcast _ b l).trans (row1_apply v1 v3 v44 v51 v52 b l)
  · obtain rfl : k = 2 := Fin.ext hk
    exact (rowcast _ b l).trans (row2_apply _ b l)
  · obtain rfl : k = 3 := Fin.ext hk
    exact (rowcast _ b l).trans (row3_apply _ b l)
  · obtain rfl : k = 4 := Fin.ext hk
    exact (rowcast _ b l).trans (row4_apply _ b l)

/-- The stored block in the block's own entries: Σ_n (Σ_c x[b,c,n]·w[k,c])·(Σ_c x[b,c,n]·w[l,c]). -/
theorem out_apply (x0 : Vec Ideal S64x6x2430 .f32) (x1 : Vec Ideal S5x6 .f32) (b : Fin 64) (k l : Fin 5) :
    out0_2 (F := Ideal) x0 x1 (ix3 b k l)
      = ∑ n : Fin 2430, (∑ c : Fin 6, x0 (ix3 b c n) * x1 (ix2 k c)) * (∑ c : Fin 6, x0 (ix3 b c n) * x1 (ix2 l c)) := by
  unfold out0_2
  rw [View.canon_unit_zero hz3]
  simp only [View.ld_unit_zero (S := S64x6x2430) hz3, View.ld_unit_zero (S := S5x6) hz2]
  refine (pay1_apply _ _ _ _ _ b k l).trans (Finset.sum_congr rfl fun n _ => ?_)
  rw [zb_apply, zb_apply]

/-! ## From the blocks to the array -/

section Array
variable (V : (c : Dev nD) → (b : Ref sig .tc) → Buf (Elt Ideal) ((c : Thread nD τ).loc b))

/-- The two arrays the pass reads, as it finds them: the samples [1024, 6, 2430] and the weight [5, 6]. -/
abbrev xarr (c : Dev nD) : S1024x6x2430.Idx → EReal := V c main_v28
abbrev warr (c : Dev nD) : S5x6.Idx → EReal := V c main_v22

/-- The whole result array: every sample's raw covariance of the mixed channels. -/
abbrev covArr (c : Dev nD) : S1024x5x5.Idx → EReal :=
  Spec.to3 (Spec.covRaw (Spec.zmix (Spec.of3 (xarr V c)) (Spec.of2 (warr V c))))

/-- The index maps over the grid: point t reads samples 64t … 64t + 63 and the whole weight, and writes the same samples' block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem xblk_apply (c : Dev nD) (t : Fin cfg0.N) (b : Fin 64) (cc : Fin 6) (n : Fin 2430) (B : Fin 1024)
    (hB : B.val = t.val * 64 + b.val) :
    (iblk0 (F := Ideal) V c 0 t : Vec Ideal S64x6x2430 .f32) (ix3 b cc n) = xarr V c (ix3 B cc n) := by
  obtain ⟨e0, e1, e2, -⟩ := idx_facts t
  unfold iblk0
  rw [View.read_apply]
  show xarr V c _ = xarr V c _
  congr 1
  funext a
  apply Fin.ext
  match a with
  | ⟨0, _⟩ => show win0_0.index t (0 : Fin 3) * 64 + 1 * b.val = B.val; omega
  | ⟨1, _⟩ => show win0_0.index t (1 : Fin 3) * 6 + 1 * cc.val = cc.val; omega
  | ⟨2, _⟩ => show win0_0.index t (2 : Fin 3) * 2430 + 1 * n.val = n.val; omega

theorem wblk_apply (c : Dev nD) (t : Fin cfg0.N) (k : Fin 5) (cc : Fin 6) :
    (iblk0 (F := Ideal) V c 1 t : Vec Ideal S5x6 .f32) (ix2 k cc) = warr V c (ix2 k cc) := by
  obtain ⟨-, -, -, e0, e1, -⟩ := idx_facts t
  unfold iblk0
  rw [View.read_apply]
  show warr V c _ = warr V c _
  congr 1
  funext a
  apply Fin.ext
  match a with
  | ⟨0, _⟩ => show win0_1.index t (0 : Fin 2) * 5 + 1 * k.val = k.val; omega
  | ⟨1, _⟩ => show win0_1.index t (1 : Fin 2) * 6 + 1 * cc.val = cc.val; omega

/-- WHAT POINT `t` WRITES BACK is block `t` of the whole result array. -/
theorem flushed_eq (c : Dev nD) (t : Fin cfg0.N) :
    (dat0 (F := Ideal) V c).flushed 2 t = ((cfg0.win 2).blk t).view.read (Elt Ideal) (covArr V c) := by
  show (cfg0.win 2).cut (grid0.coords t) ((dat0 (F := Ideal) V c).after 2 t) = _
  rw [after0_2]
  obtain ⟨-, -, -, -, -, e0, e1, e2⟩ := idx_facts t
  funext y
  obtain ⟨b, k, l, rfl⟩ : ∃ (b : Fin 64) (k : Fin 5) (l : Fin 5), y = ix3 b k l := ⟨y 0, y 1, y 2, eq_ix3 y⟩
  refine (out_apply (iblk0 (F := Ideal) V c 0 t) (iblk0 (F := Ideal) V c 1 t) b k l).trans ?_
  have hB : t.val * 64 + b.val < 1024 := by have := t.isLt; have hN : cfg0.N = 16 := N_0; have := b.isLt; omega
  have hy : ((cfg0.win 2).blk t).view.emb (ix3 b k l) = (ix3 (⟨t.val * 64 + b.val, hB⟩ : Fin 1024) k l : S1024x5x5.Idx) := by
    funext a; apply Fin.ext
    match a with
    | ⟨0, _⟩ => show win0_2.index t (0 : Fin 3) * 64 + 1 * b.val = t.val * 64 + b.val; omega
    | ⟨1, _⟩ => show win0_2.index t (1 : Fin 3) * 5 + 1 * k.val = k.val; omega
    | ⟨2, _⟩ => show win0_2.index t (2 : Fin 3) * 5 + 1 * l.val = l.val; omega
  rw [View.read_apply, hy]
  show _ = ∑ n : Fin 2430, (∑ cc : Fin 6, xarr V c (ix3 ⟨t.val * 64 + b.val, hB⟩ cc n) * warr V c (ix2 k cc))
      * (∑ cc : Fin 6, xarr V c (ix3 ⟨t.val * 64 + b.val, hB⟩ cc n) * warr V c (ix2 l cc))
  refine Finset.sum_congr rfl fun n _ => ?_
  congr 1 <;> refine Finset.sum_congr rfl fun cc _ => ?_
  · rw [xblk_apply V c t b cc n ⟨t.val * 64 + b.val, hB⟩ rfl, wblk_apply V c t k cc]
  · rw [xblk_apply V c t b cc n ⟨t.val * 64 + b.val, hB⟩ rfl, wblk_apply V c t l cc]

/-- An index of the result array is in point `t`'s block iff each coordinate is in the block's range on its axis. -/
theorem mem_blk (t : Fin cfg0.N) (i : S1024x5x5.Idx) :
    i ∈ ((cfg0.win 2).blk t).view.set ↔ ∀ a : Fin 3, win0_2.index t a * S64x5x5.size a ≤ (i a).val ∧ (i a).val < win0_2.index t a * S64x5x5.size a + S64x5x5.size a := by
  show i ∈ ((View.whole main_v29).slice (win0_2.rect t)).set ↔ _
  rw [View.set_slice_whole, Rect.mem_set_unit]
  exact Iff.rfl

/-- Sample `b` is covered by point `b / 64`. -/
theorem covered (i : S1024x5x5.Idx) :
    ∃ t : Fin cfg0.N, (cfg0.win 2).flush t = true ∧ i ∈ ((cfg0.win 2).blk t).view.set := by
  have hi0 : (i 0).val < 1024 := (i 0).isLt
  have hi1 : (i 1).val < 5 := (i 1).isLt
  have hi2 : (i 2).val < 5 := (i 2).isLt
  have hN : grid0.N = 16 := N_0
  let t : Fin cfg0.N := ⟨(i 0).val / 64, by show (i 0).val / 64 < grid0.N; omega⟩
  obtain ⟨-, -, -, -, -, e0, e1, e2⟩ := idx_facts t
  have ht : t.val = (i 0).val / 64 := rfl
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 5 ≤ (i 1).val ∧ (i 1).val < win0_2.index t (1 : Fin 3) * 5 + 5; omega
  | ⟨2, _⟩ => show win0_2.index t (2 : Fin 3) * 5 ≤ (i 2).val ∧ (i 2).val < win0_2.index t (2 : Fin 3) * 5 + 5; omega

/-- THE ARRAY after the sixteen points: every sample's raw covariance. -/
theorem final (c : Dev nD) : (dat0 (F := Ideal) V c).arrAt 2 cfg0.N = covArr V c :=
  (dat0 (F := Ideal) V c).arrAt_eq_of_cover 2 (covArr V c) (fun t _ => flushed_eq V c t) covered

/-- Pass A leaves, in its result array, Σ_n z[b, k, n]·z[b, l, n] of the channel mix z of the two arrays it was entered with. -/
theorem passA (c : Dev nD) :
    Spec.of3 ((Gen.dat0 (F := Ideal) V c).arrAt 2 cfg0.N : S1024x5x5.Idx → EReal)
      = Spec.covRaw (Spec.zmix (Spec.of3 (V c main_v28)) (Spec.of2 (V c main_v22))) := by
  rw [final V c]
  rfl

end Array

end Cert.KernelIdeal.KBodyA

end
-- ==== Proof.KBodyB1.lean ====
/-
  The layout steps of the second pass, each read at an index: slice `k` of the middle axis of a
  [16, K, 2430] tensor with that axis squeezed away is the tensor at (b, k, n); a unit middle axis put back
  changes no entry; the lane sum of a [16, 2430] tensor at b is the sum over n of its entries (b, n); ten
  pieces of extent one laid side by side along an axis are read, at coordinate p of that axis, in piece p.
-/
import proofs.«414715_j46866683134133_3_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.KBodyB

open Idealize.ShloMosaic Idealize.ShloMosaic.ValueIdx
open scoped BigOperators

section Layout
variable {α : Type}

/-- Slice `k` of the middle axis, that axis squeezed away, at (b, n): the tensor at (b, k, n). -/
theorem sliceMid_apply {K : ℕ} (v : (⟨3, ![16, K, 2430]⟩ : Shape).Idx → α) (k : ℕ)
    (h : (⟨3, ![16, K, 2430]⟩ : Shape).Slices ![0, k, 0] ⟨3, ![16, 1, 2430]⟩)
    (hc : (⟨3, ![16, 1, 2430]⟩ : Shape).ShapeCasts ⟨2, ![16, 2430]⟩) (kk : Fin K) (hk : kk.val = k)
    (b : Fin 16) (n : Fin 2430) :
    shapeCast ⟨2, ![16, 2430]⟩ (extractStridedSlice ⟨3, ![16, 1, 2430]⟩ ![0, k, 0] v h) hc (ix2 b n)
      = v (ix3 b kk n) := by
  refine (shapeCast_apply _ hc (ix2 b n) (ix3 b 0 n) ?_).trans ?_
  · rw [Shape.rowMajor_val_three, Shape.rowMajor_val_two]
    show (b.val * 1 + 0) * 2430 + n.val = b.val * 2430 + n.val
    omega
  · refine extractStridedSlice_apply _ v h (ix3 b 0 n) (ix3 b kk n) fun a => ?_
    match a with
    | ⟨0, _⟩ => show b.val = 0 + b.val; omega
    | ⟨1, _⟩ => show kk.val = k + 0; omega
    | ⟨2, _⟩ => show n.val = 0 + n.val; omega

/-- A unit middle axis put back into a [16, 2430] tensor: the entry (b, n). -/
theorem unsqMid_apply (v : (⟨2, ![16, 2430]⟩ : Shape).Idx → α)
    (h : (⟨2, ![16, 2430]⟩ : Shape).ShapeCasts ⟨3, ![16, 1, 2430]⟩) (b : Fin 16) (z : Fin 1) (n : Fin 2430) :
    shapeCast ⟨3, ![16, 1, 2430]⟩ v h (ix3 b z n) = v (ix2 b n) := by
  refine shapeCast_apply _ h (ix3 b z n) (ix2 b n) ?_
  rw [Shape.rowMajor_val_three, Shape.rowMajor_val_two]
  show b.val * 2430 + n.val = (b.val * 1 + z.val) * 2430 + n.val
  have := z.isLt
  omega

/-- A trailing unit axis added to a [16] vector: the entry b. -/
theorem col_apply (v : (⟨1, ![16]⟩ : Shape).Idx → α)
    (h : (⟨1, ![16]⟩ : Shape).ShapeCasts ⟨2, ![16, 1]⟩) (b : Fin 16) (z : Fin 1) :
    shapeCast ⟨2, ![16, 1]⟩ v h (ix2 b z) = v (ix1 b) := by
  refine shapeCast_apply _ h (ix2 b z) (ix1 b) ?_
  rw [Shape.rowMajor_val_one, Shape.rowMajor_val_two]
  show b.val = b.val * 1 + z.val
  have := z.isLt
  omega

/-- A unit middle axis put into a [16, 10] matrix: the entry (b, q). -/
theorem unsqRow_apply (v : (⟨2, ![16, 10]⟩ : Shape).Idx → α)
    (h : (⟨2, ![16, 10]⟩ : Shape).ShapeCasts ⟨3, ![16, 1, 10]⟩) (b : Fin 16) (z : Fin 1) (q : Fin 10) :
    shapeCast ⟨3, ![16, 1, 10]⟩ v h (ix3 b z q) = v (ix2 b q) := by
  refine shapeCast_apply _ h (ix3 b z q) (ix2 b q) ?_
  rw [Shape.rowMajor_val_three, Shape.rowMajor_val_two]
  show b.val * 10 + q.val = (b.val * 1 + z.val) * 10 + q.val
  have := z.isLt
  omega

/-- Ten pieces of one shape, of extent one along the axis, laid side by side along it: at an index whose
    coordinate on that axis is `p`, piece `p` at the index with the same coordinates off the axis. -/
theorem cat10_apply {t s₁ : Shape} (a : Fin t.rank) (x0 x1 x2 x3 x4 x5 x6 x7 x8 x9 : s₁.Idx → α)
    (h : Shape.Concatenates (([⟨s₁, x0⟩, ⟨s₁, x1⟩, ⟨s₁, x2⟩, ⟨s₁, x3⟩, ⟨s₁, x4⟩, ⟨s₁, x5⟩, ⟨s₁, x6⟩, ⟨s₁, x7⟩,
      ⟨s₁, x8⟩, ⟨s₁, x9⟩] : List ((s : Shape) × (s.Idx → α))).map (·.1)) t a)
    (hr : s₁.rank = t.rank) (h1 : s₁.size (a.cast hr.symm) = 1) (j : t.Idx) (p : Fin 10) (hp : (j a).val = p.val)
    (i : s₁.Idx) (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩, ⟨s₁, x6⟩, ⟨s₁, x7⟩, ⟨s₁, x8⟩, ⟨s₁, x9⟩] h j
      = (![x0, x1, x2, x3, x4, x5, x6, x7, x8, x9] : Fin 10 → s₁.Idx → α) p i :=
  concatenate_ofFn_unit_apply a (![x0, x1, x2, x3, x4, x5, x6, x7, x8, x9] : Fin 10 → s₁.Idx → α) h hr h1 j p hp i hi

end Layout

/-- The lane sum of a [16, 2430] tensor, from the zero word: at b, the sum over n of the entries (b, n). -/
theorem laneSum_apply (src : FVec Ideal (⟨2, ![16, 2430]⟩ : Shape) .f32)
    (h : (⟨2, ![16, 2430]⟩ : Shape).Reduces [1] ⟨1, ![16]⟩) (hφ : FKind.Formats .f32)
    (hacc : (0x00000000#32 : BitVec 32) = FKind.add.neutral .f32 hφ) (b : Fin 16) :
    multiReduction .add [1] ⟨1, ![16]⟩ src 0x00000000#32 h hφ hacc (ix1 b) = ∑ n : Fin 2430, src (ix2 b n) := by
  refine (Ideal.multiReduction_add_single src _ h hφ hacc (ix1 b)).trans ?_
  refine Finset.sum_congr rfl fun n _ => congrArg src ?_
  funext c
  apply Fin.ext
  match c with
  | ⟨0, _⟩ => rfl
  | ⟨1, _⟩ => rfl

end Cert.KernelIdeal.KBodyB

end
-- ==== Proof.KBodyB2.lean ====
/-
  The pointwise part of the second pass, at an index of the block. The body builds
  z[b, k, n] = 0 + x[b,0,n]·w[k,0] + … + x[b,5,n]·w[k,5] one input channel at a time, scales channel k by s[k], and
  forms the ten bilinear channels (i, j), i < j, as u_i · (1 / (u_j + 1e-6)), stacked along the middle axis.
  Here: the scaled mix at (b, k, n) is (Σ_c x[b,c,n]·w[k,c])·s[k], and the stack at (b, p, n) is the bilinear
  channel of the pair p = (pI p, pJ p).
-/
import proofs.«414715_j46866683134133_3_alg».proof.Proof.KBodyB1
import proofs.«414715_j46866683134133_3_alg».proof.Proof.Spec

noncomputable section

namespace Cert.KernelIdeal.KBodyB

open Idealize.ShloMosaic Idealize.ShloMosaic.ValueIdx
open Cert.KernelIdeal Cert.KernelIdeal.Gen
open scoped BigOperators

section Layout
variable {α : Type}

/-- Column `c` of the 5 × 6 weight as a vector of its five rows. -/
theorem wcol_apply (w : (⟨2, ![5, 6]⟩ : Shape).Idx → α) (c : ℕ)
    (h : (⟨2, ![5, 6]⟩ : Shape).Slices ![0, c] ⟨2, ![5, 1]⟩)
    (hc : (⟨2, ![5, 1]⟩ : Shape).ShapeCasts ⟨1, ![5]⟩) (cc : Fin 6) (hcc : cc.val = c) (k : Fin 5) :
    shapeCast ⟨1, ![5]⟩ (extractStridedSlice ⟨2, ![5, 1]⟩ ![0, c] w h) hc (ix1 k) = w (ix2 k cc) := by
  refine (shapeCast_apply _ hc (ix1 k) (ix2 k 0) ?_).trans ?_
  · rw [Shape.rowMajor_val_two, Shape.rowMajor_val_one]
    show k.val * 1 + 0 = k.val
    omega
  · refine extractStridedSlice_apply _ w h (ix2 k 0) (ix2 k cc) fun a => ?_
    match a with
    | ⟨0, _⟩ => show k.val = 0 + k.val; omega
    | ⟨1, _⟩ => show cc.val = c + 0; omega

/-- A [16, 1, 2430] tensor spread over five channels: the entry (b, 0, n) at every channel. -/
theorem spreadMid_apply (x : (⟨3, ![16, 1, 2430]⟩ : Shape).Idx → α)
    (h : (⟨3, ![16, 1, 2430]⟩ : Shape).Broadcasts ⟨3, ![16, 5, 2430]⟩) (b : Fin 16) (k : Fin 5) (n : Fin 2430) :
    broadcastTo ⟨3, ![16, 5, 2430]⟩ x h (ix3 b k n) = x (ix3 b 0 n) := by
  refine broadcastTo_apply x h (ix3 b k n) (ix3 b 0 n) fun a => ?_
  match a with
  | ⟨0, _⟩ => rfl
  | ⟨1, _⟩ => rfl
  | ⟨2, _⟩ => rfl

/-- A vector of five channel values as a [1, 5, 1] tensor spread over samples and positions: the value of channel k. -/
theorem spreadChan_apply (w : (⟨1, ![5]⟩ : Shape).Idx → α)
    (hc : (⟨1, ![5]⟩ : Shape).ShapeCasts ⟨3, ![1, 5, 1]⟩)
    (h : (⟨3, ![1, 5, 1]⟩ : Shape).Broadcasts ⟨3, ![16, 5, 2430]⟩) (b : Fin 16) (k : Fin 5) (n : Fin 2430) :
    broadcastTo ⟨3, ![16, 5, 2430]⟩ (shapeCast ⟨3, ![1, 5, 1]⟩ w hc) h (ix3 b k n) = w (ix1 k) := by
  refine (broadcastTo_apply _ h (ix3 b k n) (ix3 0 k 0) fun a => ?_).trans ?_
  · match a with
    | ⟨0, _⟩ => rfl
    | ⟨1, _⟩ => rfl
    | ⟨2, _⟩ => rfl
  · refine shapeCast_apply _ hc (ix3 0 k 0) (ix1 k) ?_
    rw [Shape.rowMajor_val_three, Shape.rowMajor_val_one]
    show k.val = (0 * 5 + k.val) * 1 + 0
    omega

end Layout

/-- The scaled channel mix: (Σ_c x[b, c, n] · w[k, c]) · s[k]. -/
def mixS (X : S16x6x2430.Idx → EReal) (W : S5x6.Idx → EReal) (Y : S5.Idx → EReal) (b : Fin 16) (k : Fin 5) (n : Fin 2430) : EReal :=
  (∑ c : Fin 6, X (ix3 b c n) * W (ix2 k c)) * Y (ix1 k)

/-- One summand of the mix as the body forms it: input channel `c` spread over the five output channels, times
    column `c` of the weight spread over samples and positions. -/
theorem term_apply (X : FVec Ideal S16x6x2430 .f32) (W : FVec Ideal S5x6 .f32) (c : ℕ)
    (hs : S16x6x2430.Slices ![0, c, 0] S16x1x2430) (h1 : S16x1x2430.ShapeCasts S16x2430) (h2 : S16x2430.ShapeCasts S16x1x2430)
    (hb : S16x1x2430.Broadcasts S16x5x2430) (hs' : S5x6.Slices ![0, c] S5x1) (h3 : S5x1.ShapeCasts S5)
    (h4 : S5.ShapeCasts S1x5x1) (hb' : S1x5x1.Broadcasts S16x5x2430) (cc : Fin 6) (hcc : cc.val = c)
    (b : Fin 16) (k : Fin 5) (n : Fin 2430) :
    mulf (broadcastTo S16x5x2430 (shapeCast S16x1x2430 (shapeCast S16x2430 (extractStridedSlice S16x1x2430 ![0, c, 0] X hs) h1) h2) hb)
        (broadcastTo S16x5x2430 (shapeCast S1x5x1 (shapeCast S5 (extractStridedSlice S5x1 ![0, c] W hs') h3) h4) hb') (ix3 b k n)
      = X (ix3 b cc n) * W (ix2 k cc) := by
  rw [mulf_apply, spreadMid_apply, unsqMid_apply, sliceMid_apply X c hs h1 cc hcc, spreadChan_apply, wcol_apply W c hs' h3 cc hcc]

/-- The body's scaled mix at (b, k, n): the six summands added onto zero in order, times the channel's scale. -/
theorem xdg_apply (X : Vec Ideal S16x6x2430 .f32) (W : Vec Ideal S5x6 .f32) (Y : Vec Ideal S5 .f32) (b : Fin 16) (k : Fin 5) (n : Fin 2430) :
    k1_pay7 (F := Ideal) (k1_pay1 X) (k1_pay2 W) (k1_pay3 Y) (k1_pay4 X W) (k1_pay5 W) (k1_pay6 X) (ix3 b k n) = mixS X W Y b k n := by
  unfold k1_pay7 k1_pay4 k1_pay5 k1_pay6 k1_pay1 k1_pay2 k1_pay3
  simp only [shapeCast_self]
  rw [mulf_apply, addf_apply, addf_apply, addf_apply, addf_apply, addf_apply, addf_apply, broadcast_apply,
    term_apply X W 0 _ _ _ _ _ _ _ _ 0 rfl, term_apply X W 1 _ _ _ _ _ _ _ _ 1 rfl, term_apply X W 2 _ _ _ _ _ _ _ _ 2 rfl,
    term_apply X W 3 _ _ _ _ _ _ _ _ 3 rfl, term_apply X W 4 _ _ _ _ _ _ _ _ 4 rfl, term_apply X W 5 _ _ _ _ _ _ _ _ 5 rfl,
    spreadChan_apply]
  unfold mixS
  rw [Fin.sum_univ_six, Ideal.ofBits_def, Ideal.ofBits_zero_f32, zero_add]

section Stack
variable {α : Type}

/-- Ten [16, 1, 2430] pieces stacked along the middle axis, at (b, p, n): piece p at (b, 0, n). -/
theorem stackMid_apply (x0 x1 x2 x3 x4 x5 x6 x7 x8 x9 : S16x1x2430.Idx → α)
    (h : Shape.Concatenates (([⟨S16x1x2430, x0⟩, ⟨S16x1x2430, x1⟩, ⟨S16x1x2430, x2⟩, ⟨S16x1x2430, x3⟩, ⟨S16x1x2430, x4⟩,
      ⟨S16x1x2430, x5⟩, ⟨S16x1x2430, x6⟩, ⟨S16x1x2430, x7⟩, ⟨S16x1x2430, x8⟩, ⟨S16x1x2430, x9⟩] : List ((s : Shape) × (s.Idx → α))).map (·.1)) S16x10x2430 1)
    (b : Fin 16) (p : Fin 10) (n : Fin 2430) :
    concatenate S16x10x2430 1 [⟨S16x1x2430, x0⟩, ⟨S16x1x2430, x1⟩, ⟨S16x1x2430, x2⟩, ⟨S16x1x2430, x3⟩, ⟨S16x1x2430, x4⟩,
      ⟨S16x1x2430, x5⟩, ⟨S16x1x2430, x6⟩, ⟨S16x1x2430, x7⟩, ⟨S16x1x2430, x8⟩, ⟨S16x1x2430, x9⟩] h (ix3 b p n)
      = (![x0, x1, x2, x3, x4, x5, x6, x7, x8, x9] : Fin 10 → S16x1x2430.Idx → α) p (ix3 b 0 n) :=
  cat10_apply (t := S16x10x2430) (s₁ := S16x1x2430) (1 : Fin 3) x0 x1 x2 x3 x4 x5 x6 x7 x8 x9 h rfl rfl (ix3 b p n) p rfl (ix3 b 0 n) fun a ha =>
    match a with
    | ⟨0, _⟩ => rfl
    | ⟨1, _⟩ => absurd rfl ha
    | ⟨2, _⟩ => rfl

end Stack

/-- A bilinear channel of a five-channel tensor u: u_i · (1 / (u_j + 1e-6)). -/
def pairOf (u : S16x5x2430.Idx → EReal) (b : Fin 16) (i j : Fin 5) (n : Fin 2430) : EReal :=
  u (ix3 b i n) * Ideal.div Spec.c1 (u (ix3 b j n) + Spec.e6)

/-- The body's form of one bilinear channel, from channels i and j of u sliced out. -/
theorem pair_apply (u : FVec Ideal S16x5x2430 .f32) (i j : ℕ)
    (hi : S16x5x2430.Slices ![0, i, 0] S16x1x2430) (hj : S16x5x2430.Slices ![0, j, 0] S16x1x2430)
    (h1 h1' : S16x1x2430.ShapeCasts S16x2430) (ii jj : Fin 5) (hii : ii.val = i) (hjj : jj.val = j) (b : Fin 16) (n : Fin 2430) :
    mulf (shapeCast S16x2430 (extractStridedSlice S16x1x2430 ![0, i, 0] u hi) h1)
        (divf (broadcast S16x2430 (FloatOps.ofBits .f32 0x3F800000#32))
          (addf (shapeCast S16x2430 (extractStridedSlice S16x1x2430 ![0, j, 0] u hj) h1')
            (broadcast S16x2430 (FloatOps.ofBits .f32 0x358637BD#32)))) (ix2 b n)
      = pairOf u b ii jj n := by
  rw [mulf_apply, divf_apply, addf_apply, broadcast_apply, broadcast_apply, sliceMid_apply u i hi h1 ii hii,
    sliceMid_apply u j hj h1' jj hjj]
  rfl

/-- The stack of the ten bilinear channels at (b, p, n), over any values of the body's first payloads: channel pair p of
    the scaled mix. -/
theorem stack_apply (v1 : FVec Ideal S16x6x2430 .f32) (v3 : FVec Ideal S5x6 .f32) (v5 : FVec Ideal S5 .f32) (v46 : FVec Ideal S16x5x2430 .f32)
    (v50 : FVec Ideal S5 .f32) (v51 : FVec Ideal S16x1x2430 .f32) (b : Fin 16) (p : Fin 10) (n : Fin 2430) :
    k1_pay22 (F := Ideal) (k1_pay8 v1 v3 v5 v46 v50 v51) (k1_pay9 v1 v3 v5 v46 v50 v51) (k1_pay10 v1 v3 v5 v46 v50 v51)
        (k1_pay14 (k1_pay11 v1 v3 v5 v46 v50 v51) (k1_pay12 v1 v3 v5 v46 v50 v51) (k1_pay13 (F := Ideal)))
        (k1_pay15 (k1_pay7 v1 v3 v5 v46 v50 v51)) (k1_pay16 (k1_pay7 v1 v3 v5 v46 v50 v51)) (k1_pay17 (k1_pay7 v1 v3 v5 v46 v50 v51))
        (k1_pay18 (k1_pay7 v1 v3 v5 v46 v50 v51)) (k1_pay19 (k1_pay7 v1 v3 v5 v46 v50 v51)) (k1_pay20 (k1_pay7 v1 v3 v5 v46 v50 v51))
        (k1_pay21 (k1_pay7 v1 v3 v5 v46 v50 v51)) (ix3 b p n)
      = pairOf (k1_pay7 v1 v3 v5 v46 v50 v51) b (Spec.pI p) (Spec.pJ p) n := by
  unfold k1_pay22
  rw [stackMid_apply]
  fin_cases p
  · show shapeCast S16x1x2430 (k1_pay8 v1 v3 v5 v46 v50 v51) _ (ix3 b 0 n) = _
    rw [unsqMid_apply]; unfold k1_pay8
    exact pair_apply _ 0 1 _ _ _ _ 0 1 rfl rfl b n
  · show shapeCast S16x1x2430 (k1_pay9 v1 v3 v5 v46 v50 v51) _ (ix3 b 0 n) = _
    rw [unsqMid_apply]; unfold k1_pay9
    exact pair_apply _ 0 2 _ _ _ _ 0 2 rfl rfl b n
  · show shapeCast S16x1x2430 (k1_pay10 v1 v3 v5 v46 v50 v51) _ (ix3 b 0 n) = _
    rw [unsqMid_apply]; unfold k1_pay10
    exact pair_apply _ 0 3 _ _ _ _ 0 3 rfl rfl b n
  · show shapeCast S16x1x2430 (k1_pay14 (k1_pay11 v1 v3 v5 v46 v50 v51) (k1_pay12 v1 v3 v5 v46 v50 v51) k1_pay13) _ (ix3 b 0 n) = _
    rw [unsqMid_apply]; unfold k1_pay14 k1_pay11 k1_pay12 k1_pay13
    exact pair_apply _ 0 4 _ _ _ _ 0 4 rfl rfl b n
  · show shapeCast S16x1x2430 (k1_pay15 (k1_pay7 v1 v3 v5 v46 v50 v51)) _ (ix3 b 0 n) = _
    rw [unsqMid_apply]; unfold k1_pay15
    exact pair_apply _ 1 2 _ _ _ _ 1 2 rfl rfl b n
  · show shapeCast S16x1x2430 (k1_pay16 (k1_pay7 v1 v3 v5 v46 v50 v51)) _ (ix3 b 0 n) = _
    rw [unsqMid_apply]; unfold k1_pay16
    exact pair_apply _ 1 3 _ _ _ _ 1 3 rfl rfl b n
  · show shapeCast S16x1x2430 (k1_pay17 (k1_pay7 v1 v3 v5 v46 v50 v51)) _ (ix3 b 0 n) = _
    rw [unsqMid_apply]; unfold k1_pay17
    exact pair_apply _ 1 4 _ _ _ _ 1 4 rfl rfl b n
  · show shapeCast S16x1x2430 (k1_pay18 (k1_pay7 v1 v3 v5 v46 v50 v51)) _ (ix3 b 0 n) = _
    rw [unsqMid_apply]; unfold k1_pay18
    exact pair_apply _ 2 3 _ _ _ _ 2 3 rfl rfl b n
  · show shapeCast S16x1x2430 (k1_pay19 (k1_pay7 v1 v3 v5 v46 v50 v51)) _ (ix3 b 0 n) = _
    rw [unsqMid_apply]; unfold k1_pay19
    exact pair_apply _ 2 4 _ _ _ _ 2 4 rfl rfl b n
  · show shapeCast S16x1x2430 (mulf (k1_pay20 (k1_pay7 v1 v3 v5 v46 v50 v51)) _) _ (ix3 b 0 n) = _
    rw [unsqMid_apply]; unfold k1_pay20 k1_pay21
    exact pair_apply _ 3 4 _ _ _ _ 3 4 rfl rfl b n

end Cert.KernelIdeal.KBodyB

end
-- ==== Proof.KBodyB3.lean ====
/-
  The 10 × 10 table of lane sums of the second pass, at an index of the block. From the stack v of the ten bilinear
  channels the body takes, for every p and q, the lane sum Σ_n v[b, p, n] · v[b, q, n]: the ten sums of a row are
  laid side by side as a [16, 10] matrix, and the ten rows are stacked into [16, 10, 10]. Here: each row at (b, q),
  and the whole table at (b, p, q).
-/
import proofs.«414715_j46866683134133_3_alg».proof.Proof.KBodyB1
import proofs.«414715_j46866683134133_3_alg».proof.Proof.Spec

noncomputable section

namespace Cert.KernelIdeal.KBodyB

open Idealize.ShloMosaic Idealize.ShloMosaic.ValueIdx
open Cert.KernelIdeal Cert.KernelIdeal.Gen
open scoped BigOperators

/-- A statement about a channel pair index holds when it holds at each of the ten. -/
theorem fin10_cases {P : Fin 10 → Prop} (h0 : P 0) (h1 : P 1) (h2 : P 2) (h3 : P 3) (h4 : P 4) (h5 : P 5) (h6 : P 6)
    (h7 : P 7) (h8 : P 8) (h9 : P 9) (q : Fin 10) : P q := by
  fin_cases q <;> assumption

section Stack
variable {α : Type}

/-- Ten [16, 1] columns laid side by side, at (b, q): column q at (b, 0). -/
theorem stackCol_apply (x0 x1 x2 x3 x4 x5 x6 x7 x8 x9 : S16x1.Idx → α)
    (h : Shape.Concatenates (([⟨S16x1, x0⟩, ⟨S16x1, x1⟩, ⟨S16x1, x2⟩, ⟨S16x1, x3⟩, ⟨S16x1, x4⟩,
      ⟨S16x1, x5⟩, ⟨S16x1, x6⟩, ⟨S16x1, x7⟩, ⟨S16x1, x8⟩, ⟨S16x1, x9⟩] : List ((s : Shape) × (s.Idx → α))).map (·.1)) S16x10 1)
    (b : Fin 16) (q : Fin 10) :
    concatenate S16x10 1 [⟨S16x1, x0⟩, ⟨S16x1, x1⟩, ⟨S16x1, x2⟩, ⟨S16x1, x3⟩, ⟨S16x1, x4⟩,
      ⟨S16x1, x5⟩, ⟨S16x1, x6⟩, ⟨S16x1, x7⟩, ⟨S16x1, x8⟩, ⟨S16x1, x9⟩] h (ix2 b q)
      = (![x0, x1, x2, x3, x4, x5, x6, x7, x8, x9] : Fin 10 → S16x1.Idx → α) q (ix2 b 0) :=
  cat10_apply (t := S16x10) (s₁ := S16x1) (1 : Fin 2) x0 x1 x2 x3 x4 x5 x6 x7 x8 x9 h rfl rfl (ix2 b q) q rfl (ix2 b 0) fun a ha =>
    match a with
    | ⟨0, _⟩ => rfl
    | ⟨1, _⟩ => absurd rfl ha

/-- Ten [16, 1, 10] rows stacked along the middle axis, at (b, p, q): row p at (b, 0, q). -/
theorem stackRow_apply (x0 x1 x2 x3 x4 x5 x6 x7 x8 x9 : S16x1x10.Idx → α)
    (h : Shape.Concatenates (([⟨S16x1x10, x0⟩, ⟨S16x1x10, x1⟩, ⟨S16x1x10, x2⟩, ⟨S16x1x10, x3⟩, ⟨S16x1x10, x4⟩,
      ⟨S16x1x10, x5⟩, ⟨S16x1x10, x6⟩, ⟨S16x1x10, x7⟩, ⟨S16x1x10, x8⟩, ⟨S16x1x10, x9⟩] : List ((s : Shape) × (s.Idx → α))).map (·.1)) S16x10x10 1)
    (b : Fin 16) (p q : Fin 10) :
    concatenate S16x10x10 1 [⟨S16x1x10, x0⟩, ⟨S16x1x10, x1⟩, ⟨S16x1x10, x2⟩, ⟨S16x1x10, x3⟩, ⟨S16x1x10, x4⟩,
      ⟨S16x1x10, x5⟩, ⟨S16x1x10, x6⟩, ⟨S16x1x10, x7⟩, ⟨S16x1x10, x8⟩, ⟨S16x1x10, x9⟩] h (ix3 b p q)
      = (![x0, x1, x2, x3, x4, x5, x6, x7, x8, x9] : Fin 10 → S16x1x10.Idx → α) p (ix3 b 0 q) :=
  cat10_apply (t := S16x10x10) (s₁ := S16x1x10) (1 : Fin 3) x0 x1 x2 x3 x4 x5 x6 x7 x8 x9 h rfl rfl (ix3 b p q) p rfl (ix3 b 0 q) fun a ha =>
    match a with
    | ⟨0, _⟩ => rfl
    | ⟨1, _⟩ => absurd rfl ha
    | ⟨2, _⟩ => rfl

end Stack

/-- The sum over positions of the product of channels p and q of a ten-channel tensor, per sample. -/
def gram (v : S16x10x2430.Idx → EReal) (b : Fin 16) (p q : Fin 10) : EReal :=
  ∑ n : Fin 2430, v (ix3 b p n) * v (ix3 b q n)

/-- One entry as the body forms it: channels i and j sliced out, multiplied, summed along the lanes. -/
theorem entry_apply (v : FVec Ideal S16x10x2430 .f32) (i j : ℕ)
    (hi : S16x10x2430.Slices ![0, i, 0] S16x1x2430) (hj : S16x10x2430.Slices ![0, j, 0] S16x1x2430)
    (h1 h1' : S16x1x2430.ShapeCasts S16x2430) (hr : S16x2430.Reduces [1] S16) (hφ : FKind.Formats .f32)
    (hacc : (0x00000000#32 : BitVec 32) = FKind.add.neutral .f32 hφ)
    (ii jj : Fin 10) (hii : ii.val = i) (hjj : jj.val = j) (b : Fin 16) :
    multiReduction .add [1] S16
        (mulf (shapeCast S16x2430 (extractStridedSlice S16x1x2430 ![0, i, 0] v hi) h1)
          (shapeCast S16x2430 (extractStridedSlice S16x1x2430 ![0, j, 0] v hj) h1')) 0x00000000#32 hr hφ hacc (ix1 b)
      = gram v b ii jj := by
  rw [laneSum_apply]
  refine Finset.sum_congr rfl fun n _ => ?_
  rw [mulf_apply, sliceMid_apply v i hi h1 ii hii, sliceMid_apply v j hj h1' jj hjj]

/-- One entry of a row: the column at (b, 0) is the lane sum at b, which is the sum of products. -/
local macro "gram_entry" b:term : tactic =>
  `(tactic| ((show shapeCast S16x1 _ _ (ix2 $b 0) = _); exact (col_apply _ _ $b 0).trans (entry_apply _ _ _ _ _ _ _ _ _ _ _ _ (by rfl) (by rfl) $b)))

/-- Row 0, over the ten channels as the body holds them before stacking: Σ_n v[b, 0, n] · v[b, q, n] at every q. -/
theorem row0_apply (v78 v87 v96 v105 v114 v123 v132 v141 v150 v152 : FVec Ideal S16x2430 .f32) (v153 : FVec Ideal S16x1x2430 .f32)
    (b : Fin 16) (q : Fin 10) :
    k1_pay32 (F := Ideal) (k1_pay22 v78 v87 v96 v105 v114 v123 v132 v141 v150 v152 v153)
        (k1_pay23 v78 v87 v96 v105 v114 v123 v132 v141 v150 v152 v153) (k1_pay24 v78 v87 v96 v105 v114 v123 v132 v141 v150 v152 v153)
        (k1_pay25 v78 v87 v96 v105 v114 v123 v132 v141 v150 v152 v153) (k1_pay26 v78 v87 v96 v105 v114 v123 v132 v141 v150 v152 v153)
        (k1_pay27 v78 v87 v96 v105 v114 v123 v132 v141 v150 v152 v153) (k1_pay28 v78 v87 v96 v105 v114 v123 v132 v141 v150 v152 v153)
        (k1_pay29 v78 v87 v96 v105 v114 v123 v132 v141 v150 v152 v153) (k1_pay30 v78 v87 v96 v105 v114 v123 v132 v141 v150 v152 v153)
        (k1_pay31 v78 v87 v96 v105 v114 v123 v132 v141 v150 v152 v153) (ix2 b q)
      = gram (k1_pay22 v78 v87 v96 v105 v114 v123 v132 v141 v150 v152 v153) b 0 q := by
  unfold k1_pay32 k1_pay24 k1_pay25 k1_pay26 k1_pay27 k1_pay28 k1_pay29 k1_pay30 k1_pay31 k1_pay23
  dsimp only
  rw [stackCol_apply]
  induction q using fin10_cases <;> simp only [Matrix.cons_val] <;> gram_entry b

/-- Row 1: Σ_n v[b, 1, n] · v[b, q, n] at every q. -/
theorem row1_apply (v : FVec Ideal S16x10x2430 .f32) (b : Fin 16) (q : Fin 10) :
    k1_pay42 (F := Ideal) v (k1_pay33 v) (k1_pay34 v) (k1_pay35 v) (k1_pay36 v) (k1_pay37 v) (k1_pay38 v) (k1_pay39 v)
      (k1_pay40 v) (k1_pay41 v) (ix2 b q) = gram v b 1 q := by
  unfold k1_pay42 k1_pay34 k1_pay35 k1_pay36 k1_pay37 k1_pay38 k1_pay39 k1_pay40 k1_pay41 k1_pay33
  dsimp only
  rw [stackCol_apply]
  induction q using fin10_cases <;> simp only [Matrix.cons_val] <;> gram_entry b

/-- Row 2. -/
theorem row2_apply (v : FVec Ideal S16x10x2430 .f32) (b : Fin 16) (q : Fin 10) :
    k1_pay51 (F := Ideal) v (k1_pay43 v) (k1_pay44 v) (k1_pay45 v) (k1_pay46 v) (k1_pay47 v) (k1_pay48 v) (k1_pay49 v)
      (k1_pay50 v) (ix2 b q) = gram v b 2 q := by
  unfold k1_pay51 k1_pay44 k1_pay45 k1_pay46 k1_pay47 k1_pay48 k1_pay49 k1_pay50 k1_pay43
  dsimp only
  rw [stackCol_apply]
  induction q using fin10_cases <;> simp only [Matrix.cons_val] <;> gram_entry b

/-- Row 3. -/
theorem row3_apply (v : FVec Ideal S16x10x2430 .f32) (b : Fin 16) (q : Fin 10) :
    k1_pay59 (F := Ideal) v (k1_pay52 v) (k1_pay53 v) (k1_pay54 v) (k1_pay55 v) (k1_pay56 v) (k1_pay57 v) (k1_pay58 v)
      (ix2 b q) = gram v b 3 q := by
  unfold k1_pay59 k1_pay53 k1_pay54 k1_pay55 k1_pay56 k1_pay57 k1_pay58 k1_pay52
  dsimp only
  rw [stackCol_apply]
  induction q using fin10_cases <;> simp only [Matrix.cons_val] <;> gram_entry b

/-- Row 4. -/
theorem row4_apply (v : FVec Ideal S16x10x2430 .f32) (b : Fin 16) (q : Fin 10) :
    k1_pay67 (F := Ideal) v (k1_pay60 v) (k1_pay61 v) (k1_pay62 v) (k1_pay63 v) (k1_pay64 v) (k1_pay65 v) (k1_pay66 v)
      (ix2 b q) = gram v b 4 q := by
  unfold k1_pay67 k1_pay61 k1_pay62 k1_pay63 k1_pay64 k1_pay65 k1_pay66 k1_pay60
  dsimp only
  rw [stackCol_apply]
  induction q using fin10_cases <;> simp only [Matrix.cons_val] <;> gram_entry b

/-- Row 5. -/
theorem row5_apply (v : FVec Ideal S16x10x2430 .f32) (b : Fin 16) (q : Fin 10) :
    k1_pay74 (F := Ideal) v (k1_pay68 v) (k1_pay69 v) (k1_pay70 v) (k1_pay71 v) (k1_pay72 v) (k1_pay73 v)
      (ix2 b q) = gram v b 5 q := by
  unfold k1_pay74 k1_pay69 k1_pay70 k1_pay71 k1_pay72 k1_pay73 k1_pay68
  dsimp only
  rw [stackCol_apply]
  induction q using fin10_cases <;> simp only [Matrix.cons_val] <;> gram_entry b

/-- Row 6. -/
theorem row6_apply (v : FVec Ideal S16x10x2430 .f32) (b : Fin 16) (q : Fin 10) :
    k1_pay81 (F := Ideal) v (k1_pay75 v) (k1_pay76 v) (k1_pay77 v) (k1_pay78 v) (k1_pay79 v) (k1_pay80 v)
      (ix2 b q) = gram v b 6 q := by
  unfold k1_pay81 k1_pay76 k1_pay77 k1_pay78 k1_pay79 k1_pay80 k1_pay75
  dsimp only
  rw [stackCol_apply]
  induction q using fin10_cases <;> simp only [Matrix.cons_val] <;> gram_entry b

/-- Row 7. -/
theorem row7_apply (v : FVec Ideal S16x10x2430 .f32) (b : Fin 16) (q : Fin 10) :
    k1_pay87 (F := Ideal) v (k1_pay82 v) (k1_pay83 v) (k1_pay84 v) (k1_pay85 v) (k1_pay86 v)
      (ix2 b q) = gram v b 7 q := by
  unfold k1_pay87 k1_pay83 k1_pay84 k1_pay85 k1_pay86 k1_pay82
  dsimp only
  rw [stackCol_apply]
  induction q using fin10_cases <;> simp only [Matrix.cons_val] <;> gram_entry b

/-- Row 8. -/
theorem row8_apply (v : FVec Ideal S16x10x2430 .f32) (b : Fin 16) (q : Fin 10) :
    k1_pay92 (F := Ideal) v (k1_pay88 v) (k1_pay89 v) (k1_pay90 v) (k1_pay91 v)
      (ix2 b q) = gram v b 8 q := by
  unfold k1_pay92 k1_pay89 k1_pay90 k1_pay91 k1_pay88
  dsimp only
  rw [stackCol_apply]
  induction q using fin10_cases <;> simp only [Matrix.cons_val] <;> gram_entry b

/-- The ten rows stacked: the whole 10 × 10 table of lane sums, Σ_n v[b, p, n] · v[b, q, n] at (b, p, q). Row 0 comes in
    as any matrix that has those entries; row 9 is formed in the last step itself. -/
theorem cov_apply (v : FVec Ideal S16x10x2430 .f32) (R0 : FVec Ideal S16x10 .f32) (b : Fin 16)
    (hR0 : ∀ q : Fin 10, R0 (ix2 b q) = gram v b 0 q) (p q : Fin 10) :
    k1_pay97 (F := Ideal) v R0
        (k1_pay42 v (k1_pay33 v) (k1_pay34 v) (k1_pay35 v) (k1_pay36 v) (k1_pay37 v) (k1_pay38 v) (k1_pay39 v) (k1_pay40 v) (k1_pay41 v))
        (k1_pay51 v (k1_pay43 v) (k1_pay44 v) (k1_pay45 v) (k1_pay46 v) (k1_pay47 v) (k1_pay48 v) (k1_pay49 v) (k1_pay50 v))
        (k1_pay59 v (k1_pay52 v) (k1_pay53 v) (k1_pay54 v) (k1_pay55 v) (k1_pay56 v) (k1_pay57 v) (k1_pay58 v))
        (k1_pay67 v (k1_pay60 v) (k1_pay61 v) (k1_pay62 v) (k1_pay63 v) (k1_pay64 v) (k1_pay65 v) (k1_pay66 v))
        (k1_pay74 v (k1_pay68 v) (k1_pay69 v) (k1_pay70 v) (k1_pay71 v) (k1_pay72 v) (k1_pay73 v))
        (k1_pay81 v (k1_pay75 v) (k1_pay76 v) (k1_pay77 v) (k1_pay78 v) (k1_pay79 v) (k1_pay80 v))
        (k1_pay87 v (k1_pay82 v) (k1_pay83 v) (k1_pay84 v) (k1_pay85 v) (k1_pay86 v))
        (k1_pay92 v (k1_pay88 v) (k1_pay89 v) (k1_pay90 v) (k1_pay91 v))
        (k1_pay93 v) (k1_pay94 v) (k1_pay95 v) (k1_pay96 v) (ix3 b p q)
      = gram v b p q := by
  unfold k1_pay97
  rw [stackRow_apply]
  induction p using fin10_cases <;> simp only [Matrix.cons_val] <;> rw [unsqRow_apply]
  · exact hR0 q
  · exact row1_apply v b q
  · exact row2_apply v b q
  · exact row3_apply v b q
  · exact row4_apply v b q
  · exact row5_apply v b q
  · exact row6_apply v b q
  · exact row7_apply v b q
  · exact row8_apply v b q
  · unfold k1_pay94 k1_pay95 k1_pay93 k1_pay96
    dsimp only
    rw [stackCol_apply]
    induction q using fin10_cases <;> simp only [Matrix.cons_val] <;> gram_entry b

end Cert.KernelIdeal.KBodyB

end
-- ==== Proof.KBodyB4.lean ====
/-
  The second pass, from blocks to the array. At a grid point t the body reads block t of x (sixteen samples), the
  whole 5 × 6 weight and the five channel scales, and leaves in the output block the 10 × 10 table
  Σ_n P_p[b, n] · P_q[b, n] of the ten bilinear channels P of the scaled mix u[b, k, n] = (Σ_c x[b,c,n]·w[k,c])·s[k].
  Sample b of block t is sample 16·t + b of the array, the sixty-four blocks cover the 1024 samples, and so the
  output array is the specification's raw covariance of the bilinear channels of the scaled mix of the whole arrays.
-/
import proofs.«414715_j46866683134133_3_alg».proof.Proof.KBodyB2
import proofs.«414715_j46866683134133_3_alg».proof.Proof.KBodyB3
import Idealize.ShloMosaic.Lib.Pipeline.Value

noncomputable section

namespace Cert.KernelIdeal.KBodyB

open Idealize.ShloMosaic Idealize.ShloMosaic.TcCoe Idealize.ShloMosaic.ValueIdx
open Idealize.ShloMosaic.Pipeline (Dat)
open Cert.KernelIdeal Cert.KernelIdeal.Gen
open scoped BigOperators

/-- The zero offsets of the body's whole-block loads and store. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's result from three blocks: Σ_n P_p · P_q of the bilinear channels of the scaled mix. -/
def blockCov (X : S16x6x2430.Idx → EReal) (W : S5x6.Idx → EReal) (Y : S5.Idx → EReal) (b : Fin 16) (p q : Fin 10) : EReal :=
  ∑ n : Fin 2430, (mixS X W Y b (Spec.pI p) n * Ideal.div Spec.c1 (mixS X W Y b (Spec.pJ p) n + Spec.e6))
    * (mixS X W Y b (Spec.pI q) n * Ideal.div Spec.c1 (mixS X W Y b (Spec.pJ q) n + Spec.e6))

/-- The output block the body leaves, at (b, p, q), from the three blocks it loads. -/
theorem out_apply (x0 : Vec Ideal S16x6x2430 .f32) (x1 : Vec Ideal S5x6 .f32) (x2 : Vec Ideal S5 .f32) (b : Fin 16) (p q : Fin 10) :
    out1_3 (F := Ideal) x0 x1 x2 (ix3 b p q) = blockCov x0 x1 x2 b p q := by
  unfold out1_3
  rw [View.canon_unit_zero hz3]
  refine (cov_apply _ _ b (fun q' => row0_apply _ _ _ _ _ _ _ _ _ _ _ b q') p q).trans ?_
  unfold gram blockCov
  refine Finset.sum_congr rfl fun n _ => ?_
  rw [stack_apply, stack_apply]
  unfold pairOf
  simp only [xdg_apply, View.ld_unit_zero (S := S16x6x2430) hz3, View.ld_unit_zero (S := S5x6) hz2, View.ld_unit_zero (S := S5) hz1]

variable (V : (c : Dev nD) → (b : Ref sig .tc) → Buf (Elt Ideal) ((c : Thread nD τ).loc b))

/-- The three arrays the pass reads, as the region finds them. -/
abbrev xA (c : Dev nD) : S1024x6x2430.Idx → EReal := V c main_v28
abbrev wA (c : Dev nD) : S5x6.Idx → EReal := V c main_v22
abbrev sA (c : Dev nD) : S5.Idx → EReal := V c main_v41

/-- The scaled channel mix of the whole arrays. -/
def uA (c : Dev nD) : Spec.A3 1024 5 2430 :=
  fun b k n => Spec.zmix (Spec.of3 (xA V c)) (Spec.of2 (wA V c)) b k n * sA V c (ix1 k)

/-- What the output array ends holding: the lane sums of products of the bilinear channels of the scaled mix. -/
def G (c : Dev nD) : S1024x10x10.Idx → EReal := Spec.to3 (Spec.covRaw (Spec.pairs (uA V c)))

/-- The printed index maps over the grid: point t takes block t of the samples, and the whole of every other axis. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val ∧ win1_3.index t (1 : Fin 3) = 0 ∧ win1_3.index t (2 : Fin 3) = 0 :=
  (by decide +kernel : ∀ t : Fin grid1.N, _)

/-- Sample b of block t is sample 16·t + b of the array. -/
def rowOf (t : Fin cfg1.N) (b : Fin 16) : Fin 1024 :=
  ⟨16 * t.val + b.val, by have h : t.val < 64 := lt_of_lt_of_eq t.isLt N_1; have := b.isLt; omega⟩

/-- Block t of x at (b, c, n) is x at sample 16·t + b. -/
theorem xblk_apply (c : Dev nD) (t : Fin cfg1.N) (b : Fin 16) (cc : Fin 6) (n : Fin 2430) :
    (iblk1 V c 0 t : Vec Ideal S16x6x2430 .f32) (ix3 b cc n) = xA V c (ix3 (rowOf t b) cc n) := by
  obtain ⟨e0, e1, e2, -⟩ := idx_facts t
  unfold iblk1
  rw [View.read_apply]
  show V c main_v28 _ = V c main_v28 _
  congr 1
  funext a
  apply Fin.ext
  match a with
  | ⟨0, _⟩ => show win1_0.index t (0 : Fin 3) * 16 + 1 * b.val = 16 * t.val + b.val; rw [e0]; omega
  | ⟨1, _⟩ => show win1_0.index t (1 : Fin 3) * 6 + 1 * cc.val = cc.val; rw [e1]; omega
  | ⟨2, _⟩ => show win1_0.index t (2 : Fin 3) * 2430 + 1 * n.val = n.val; rw [e2]; omega

/-- The weight's one block is the weight. -/
theorem wblk_apply (c : Dev nD) (t : Fin cfg1.N) (k : Fin 5) (cc : Fin 6) :
    (iblk1 V c 1 t : Vec Ideal S5x6 .f32) (ix2 k cc) = wA V c (ix2 k cc) := by
  obtain ⟨-, -, -, e3, e4, -⟩ := idx_facts t
  unfold iblk1
  rw [View.read_apply]
  show V c main_v22 _ = V c main_v22 _
  congr 1
  funext a
  apply Fin.ext
  match a with
  | ⟨0, _⟩ => show win1_1.index t (0 : Fin 2) * 5 + 1 * k.val = k.val; rw [e3]; omega
  | ⟨1, _⟩ => show win1_1.index t (1 : Fin 2) * 6 + 1 * cc.val = cc.val; rw [e4]; omega

/-- The scales' one block is the scales. -/
theorem sblk_apply (c : Dev nD) (t : Fin cfg1.N) (k : Fin 5) :
    (iblk1 V c 2 t : Vec Ideal S5 .f32) (ix1 k) = sA V c (ix1 k) := by
  obtain ⟨-, -, -, -, -, e5, -⟩ := idx_facts t
  unfold iblk1
  rw [View.read_apply]
  show V c main_v41 _ = V c main_v41 _
  congr 1
  funext a
  apply Fin.ext
  match a with
  | ⟨0, _⟩ => show win1_2.index t (0 : Fin 1) * 5 + 1 * k.val = k.val; rw [e5]; omega

/-- The scaled mix of the blocks at point t is the scaled mix of the arrays at the block's samples. -/
theorem mixS_blk (c : Dev nD) (t : Fin cfg1.N) (b : Fin 16) (k : Fin 5) (n : Fin 2430) :
    mixS (iblk1 V c 0 t) (iblk1 V c 1 t) (iblk1 V c 2 t) b k n = uA V c (rowOf t b) k n := by
  unfold mixS uA Spec.zmix Spec.of3 Spec.of2
  rw [sblk_apply V c t k]
  congr 1
  refine Finset.sum_congr rfl fun cc _ => ?_
  rw [xblk_apply V c t b cc n, wblk_apply V c t k cc]

/-- Two functions of a [16, 10, 10] block's index agree when they agree at every (b, p, q). -/
theorem ext3 {f g : S16x10x10.Idx → EReal} (h : ∀ (b : Fin 16) (p q : Fin 10), f (ix3 b p q) = g (ix3 b p q)) : f = g :=
  funext fun j => by rw [eq_ix3 j]; exact h _ _ _

/-- WHAT POINT t WRITES BACK is block t of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  obtain ⟨-, -, -, -, -, -, e6, e7, e8⟩ := idx_facts t
  refine ext3 fun b p q => ?_
  show out1_3 (iblk1 V c 0 t) (iblk1 V c 1 t) (iblk1 V c 2 t) (ix3 b p q) = G V c (((cfg1.win 3).blk t).view.emb (ix3 b p q))
  refine (out_apply (iblk1 V c 0 t) (iblk1 V c 1 t) (iblk1 V c 2 t) b p q).trans ?_
  have hemb : ((cfg1.win 3).blk t).view.emb (ix3 b p q) = (ix3 (rowOf t b) p q : S1024x10x10.Idx) := by
    funext a
    apply Fin.ext
    match a with
    | ⟨0, _⟩ => show win1_3.index t (0 : Fin 3) * 16 + 1 * b.val = 16 * t.val + b.val; rw [e6]; omega
    | ⟨1, _⟩ => show win1_3.index t (1 : Fin 3) * 10 + 1 * p.val = p.val; rw [e7]; omega
    | ⟨2, _⟩ => show win1_3.index t (2 : Fin 3) * 10 + 1 * q.val = q.val; rw [e8]; omega
  rw [hemb]
  show blockCov _ _ _ b p q = Spec.covRaw (Spec.pairs (uA V c)) (rowOf t b) p q
  unfold blockCov Spec.covRaw Spec.pairs
  refine Finset.sum_congr rfl fun n _ => ?_
  rw [mixS_blk V c t b (Spec.pI p) n, mixS_blk V c t b (Spec.pJ p) n, mixS_blk V c t b (Spec.pI q) n, mixS_blk V c t b (Spec.pJ q) n]

/-- An index of the array is in point t's block iff each coordinate is in the block's range on its axis. -/
theorem mem_blk (t : Fin cfg1.N) (i : S1024x10x10.Idx) :
    i ∈ ((cfg1.win 3).blk t).view.set ↔ ∀ a : Fin 3, win1_3.index t a * S16x10x10.size a ≤ (i a).val
      ∧ (i a).val < win1_3.index t a * S16x10x10.size a + S16x10x10.size a := by
  show i ∈ ((View.whole main_v77).slice (win1_3.rect t)).set ↔ _
  rw [View.set_slice_whole, Rect.mem_set_unit]
  exact Iff.rfl

/-- Every index of the array is in the block of the point that takes its sample: point ⌊b / 16⌋. -/
theorem covered (i : S1024x10x10.Idx) :
    ∃ t : Fin cfg1.N, (cfg1.win 3).flush t = true ∧ i ∈ ((cfg1.win 3).blk t).view.set := by
  have hi0 : (i 0).val < 1024 := (i 0).isLt
  have hi1 : (i 1).val < 10 := (i 1).isLt
  have hi2 : (i 2).val < 10 := (i 2).isLt
  have hN : grid1.N = 64 := N_1
  have hlt : (i 0).val / 16 < cfg1.N := by show _ < grid1.N; rw [hN]; omega
  obtain ⟨-, -, -, -, -, -, e6, e7, e8⟩ := idx_facts ⟨(i 0).val / 16, hlt⟩
  refine ⟨⟨(i 0).val / 16, hlt⟩, flush1_3 _, ?_⟩
  rw [mem_blk]
  intro a
  match a with
  | ⟨0, _⟩ =>
    show win1_3.index ⟨(i 0).val / 16, hlt⟩ (0 : Fin 3) * 16 ≤ (i 0).val ∧ (i 0).val < win1_3.index ⟨(i 0).val / 16, hlt⟩ (0 : Fin 3) * 16 + 16
    rw [e6]; show (i 0).val / 16 * 16 ≤ (i 0).val ∧ (i 0).val < (i 0).val / 16 * 16 + 16; omega
  | ⟨1, _⟩ =>
    show win1_3.index ⟨(i 0).val / 16, hlt⟩ (1 : Fin 3) * 10 ≤ (i 1).val ∧ (i 1).val < win1_3.index ⟨(i 0).val / 16, hlt⟩ (1 : Fin 3) * 10 + 10
    rw [e7]; omega
  | ⟨2, _⟩ =>
    show win1_3.index ⟨(i 0).val / 16, hlt⟩ (2 : Fin 3) * 10 ≤ (i 2).val ∧ (i 2).val < win1_3.index ⟨(i 0).val / 16, hlt⟩ (2 : Fin 3) * 10 + 10
    rw [e8]; omega

/-- THE ARRAY after the pass: G. -/
theorem final (c : Dev nD) : (dat1 V c).arrAt 3 cfg1.N = G V c :=
  (dat1 V c).arrAt_eq_of_cover 3 (G V c) (fun t _ => flushed_eq V c t) covered

/-- The second pass's output array, as the specification's raw covariance of the bilinear channels of the scaled mix. -/
theorem passB_value (c : Dev nD) :
    Spec.of3 ((dat1 (F := Ideal) V c).arrAt 3 cfg1.N : S1024x10x10.Idx → EReal)
      = Spec.covRaw (Spec.pairs (fun b k n => Spec.zmix (Spec.of3 (V c main_v28)) (Spec.of2 (V c main_v22)) b k n
          * (V c main_v41 : S5.Idx → EReal) (ValueIdx.ix1 k))) := by
  rw [final V c]
  rfl

end Cert.KernelIdeal.KBodyB

end
-- ==== Proof.KBodyC.lean ====
/-
  The third pass, index by index over the extended reals.  One grid point holds a block of 32 samples:
  the six input channels are mixed by the 5×6 weight, z[b,k,n] = Σ_c x[b,c,n]·w[k,c]; each mixed channel is
  multiplied by its scale s[k]; the ten bilinear channels p = (i, j), i < j, are u_i · (1 / (u_j + 1e-6)) of the
  scaled channels u, stacked along the middle axis; each is multiplied by its scale r[p].  The 32 blocks tile the
  1024 samples, so the whole output array is that one function of the whole input arrays.
-/
import proofs.«414715_j46866683134133_3_alg».proof.Proof.Gen.KernelIdeal.Frame
import proofs.«414715_j46866683134133_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KBodyC

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The layout operations of the body, read at an index -/

section Layout
variable {α : Type}

/-- Channel `c` of a [32, C, 2430] tensor, viewed [32, 2430]: entry (b, n) is entry (b, c, n). -/
theorem chan_apply {C : ℕ} (v : (⟨3, ![32, C, 2430]⟩ : Shape).Idx → α) (c : ℕ)
    (h1 : (⟨3, ![32, C, 2430]⟩ : Shape).Slices ![0, c, 0] S32x1x2430) (h2 : S32x1x2430.ShapeCasts S32x2430)
    (b : Fin 32) (n : Fin 2430) :
    shapeCast S32x2430 (extractStridedSlice S32x1x2430 ![0, c, 0] v h1) h2 (ix2 b n)
      = v (ix3 b ⟨c, Nat.lt_of_succ_le (h1.2 1)⟩ n) := by
  refine (shapeCast_apply _ h2 (ix2 b n) (ix3 b 0 n) ?_).trans ?_
  · rw [Shape.rowMajor_val_three, Shape.rowMajor_val_two]
    show (b.val * 1 + 0) * 2430 + n.val = b.val * 2430 + n.val
    omega
  · refine extractStridedSlice_apply _ v h1 (ix3 b 0 n) _ fun a => ?_
    match a with
    | ⟨0, _⟩ => show b.val = 0 + b.val; omega
    | ⟨1, _⟩ => show c = c + 0; omega
    | ⟨2, _⟩ => show n.val = 0 + n.val; omega

/-- A [32, 2430] matrix stretched along a new middle axis of C channels: entry (b, k, n) is entry (b, n). -/
theorem row_apply {C : ℕ} (w : S32x2430.Idx → α) (h1 : S32x2430.ShapeCasts S32x1x2430)
    (h2 : S32x1x2430.Broadcasts ⟨3, ![32, C, 2430]⟩) (b : Fin 32) (k : Fin C) (n : Fin 2430) :
    broadcastTo ⟨3, ![32, C, 2430]⟩ (shapeCast S32x1x2430 w h1) h2 (ix3 b k n) = w (ix2 b n) := by
  refine (broadcastTo_apply _ h2 (ix3 b k n) (ix3 b 0 n) fun a => ?_).trans ?_
  · match a with
    | ⟨0, _⟩ => rfl
    | ⟨1, _⟩ => rfl
    | ⟨2, _⟩ => rfl
  · refine shapeCast_apply _ h1 (ix3 b 0 n) (ix2 b n) ?_
    rw [Shape.rowMajor_val_three, Shape.rowMajor_val_two]
    show b.val * 2430 + n.val = (b.val * 1 + 0) * 2430 + n.val
    omega

/-- A vector of C per-channel numbers stretched over samples and positions: entry (b, k, n) is entry k. -/
theorem scale_apply {C : ℕ} (v : (⟨1, ![C]⟩ : Shape).Idx → α) (h1 : (⟨1, ![C]⟩ : Shape).ShapeCasts ⟨3, ![1, C, 1]⟩)
    (h2 : (⟨3, ![1, C, 1]⟩ : Shape).Broadcasts ⟨3, ![32, C, 2430]⟩) (b : Fin 32) (k : Fin C) (n : Fin 2430) :
    broadcastTo ⟨3, ![32, C, 2430]⟩ (shapeCast ⟨3, ![1, C, 1]⟩ v h1) h2 (ix3 b k n) = v (ix1 k) := by
  refine (broadcastTo_apply _ h2 (ix3 b k n) (ix3 0 k 0) fun a => ?_).trans ?_
  · match a with
    | ⟨0, _⟩ => rfl
    | ⟨1, _⟩ =>
      show k.val = if C = 1 then 0 else k.val
      split_ifs with h
      · have := k.isLt; omega
      · rfl
    | ⟨2, _⟩ => rfl
  · refine shapeCast_apply _ h1 (ix3 0 k 0) (ix1 k) ?_
    rw [Shape.rowMajor_val_three, Shape.rowMajor_val_one]
    show k.val = (0 * C + k.val) * 1 + 0
    omega

/-- Column `c` of the 5×6 weight as a vector of five: entry k is entry (k, c). -/
theorem wcol_apply (x1 : S5x6.Idx → α) (c : ℕ) (h1 : S5x6.Slices ![0, c] S5x1) (h2 : S5x1.ShapeCasts S5) (k : Fin 5) :
    shapeCast S5 (extractStridedSlice S5x1 ![0, c] x1 h1) h2 (ix1 k) = x1 (ix2 k ⟨c, Nat.lt_of_succ_le (h1.2 1)⟩) := by
  refine (shapeCast_apply _ h2 (ix1 k) (ix2 k 0) ?_).trans ?_
  · rw [Shape.rowMajor_val_two, Shape.rowMajor_val_one]
    show k.val * 1 + 0 = k.val
    omega
  · refine extractStridedSlice_apply _ x1 h1 (ix2 k 0) _ fun a => ?_
    match a with
    | ⟨0, _⟩ => show k.val = 0 + k.val; omega
    | ⟨1, _⟩ => show c = c + 0; omega

end Layout

/-! ## The body's arithmetic at an index -/

section Stack
variable {α : Type}

/-- Ten [32, 2430] matrices stacked along a new middle axis: entry (b, k, n) is entry (b, n) of the k-th. -/
theorem stack_piece (xs : List ((s : Shape) × (s.Idx → α))) (hc : Shape.Concatenates (xs.map (·.1)) S32x10x2430 1)
    (k : ℕ) (hlen : xs.length = 10) (hk10 : k < 10) (v : S32x2430.Idx → α) (hs : S32x2430.ShapeCasts S32x1x2430)
    (hxk : xs[k]'(lt_of_lt_of_eq hk10 hlen.symm) = ⟨S32x1x2430, shapeCast S32x1x2430 v hs⟩)
    (hpre : (((xs.take k).map (·.1)).map fun s =>
      if h : s.rank = S32x10x2430.rank then s.size ((1 : Fin S32x10x2430.rank).cast h.symm) else 0).sum = k)
    (b : Fin 32) (n : Fin 2430) :
    concatenate S32x10x2430 1 xs hc (ix3 b ⟨k, hk10⟩ n) = v (ix2 b n) := by
  refine (concatenate_apply_piece (1 : Fin S32x10x2430.rank) xs hc (ix3 b ⟨k, hk10⟩ n) k (lt_of_lt_of_eq hk10 hlen.symm) S32x1x2430 _ hxk rfl k hpre
    (ix3 b 0 n) ?_ ?_).trans ?_
  · intro a ha
    match a, ha with
    | ⟨0, _⟩, _ => rfl
    | ⟨1, _⟩, ha => exact absurd rfl ha
    | ⟨2, _⟩, _ => rfl
  · show k + 0 = k
    rfl
  · refine shapeCast_apply _ hs (ix3 b 0 n) (ix2 b n) ?_
    rw [Shape.rowMajor_val_three, Shape.rowMajor_val_two]
    show b.val * 2430 + n.val = (b.val * 1 + 0) * 2430 + n.val
    omega

end Stack

/-- The bilinear channel (i, j) of a block of five channels: u_i · (1 / (u_j + 1e-6)). -/
def bil (u : FVec Ideal S32x5x2430 .f32) (i j : Fin 5) (b : Fin 32) (n : Fin 2430) : EReal :=
  u (ix3 b i n) * Ideal.div Spec.c1 (u (ix3 b j n) + Spec.e6)

section Payload
variable (x0 : FVec Ideal S32x6x2430 .f32) (x1 : FVec Ideal S5x6 .f32) (x2 : FVec Ideal S5 .f32) (x3 : FVec Ideal S10 .f32)

/-- The scaled mixed channels of a block, as the body names them. -/
abbrev xdg : FVec Ideal S32x5x2430 .f32 :=
  k2_pay8 (k2_pay2 x0) (k2_pay3 x1) (k2_pay4 x2) (k2_pay6 x0 x1) (k2_pay7 x0)

/-- They are the mixed channels of the block, each multiplied by its scale. -/
theorem xdg_apply (b : Fin 32) (k : Fin 5) (n : Fin 2430) :
    xdg x0 x1 x2 (ix3 b k n) = (∑ c : Fin 6, x0 (ix3 b c n) * x1 (ix2 k c)) * x2 (ix1 k) := by
  unfold xdg k2_pay8 k2_pay6 k2_pay7 k2_pay2 k2_pay3 k2_pay4
  simp only [shapeCast_self, mulf_apply, addf_apply, broadcast_apply, row_apply, scale_apply, chan_apply, wcol_apply,
    Ideal.ofBits_def, Ideal.ofBits_zero_f32, zero_add]
  rw [Fin.sum_univ_six]
  rfl

variable (v1 : FVec Ideal S32x6x2430 .f32) (v3 : FVec Ideal S5x6 .f32) (v5 : FVec Ideal S5 .f32)
  (v48 : FVec Ideal S32x5x2430 .f32) (v50 : FVec Ideal S32x2430 .f32) (v71 : FVec Ideal S32x5x2430 .f32)

theorem pay9_apply (b : Fin 32) (n : Fin 2430) :
    k2_pay9 v1 v3 v5 v48 v50 (ix2 b n) = bil (k2_pay8 v1 v3 v5 v48 v50) 0 1 b n := by
  unfold k2_pay9
  simp only [mulf_apply, divf_apply, addf_apply, broadcast_apply, chan_apply]
  rfl

theorem pay10_apply (b : Fin 32) (n : Fin 2430) :
    k2_pay10 v1 v3 v5 v48 v50 (ix2 b n) = bil (k2_pay8 v1 v3 v5 v48 v50) 0 2 b n := by
  unfold k2_pay10
  simp only [mulf_apply, divf_apply, addf_apply, broadcast_apply, chan_apply]
  rfl

theorem pay11_apply (b : Fin 32) (n : Fin 2430) :
    k2_pay11 v1 v3 v5 v48 v50 (ix2 b n) = bil (k2_pay8 v1 v3 v5 v48 v50) 0 3 b n := by
  unfold k2_pay11
  simp only [mulf_apply, divf_apply, addf_apply, broadcast_apply, chan_apply]
  rfl

theorem pay15_apply (b : Fin 32) (n : Fin 2430) :
    k2_pay15 (k2_pay12 v1 v3 v5 v48 v50) (k2_pay13 v1 v3 v5 v48 v50) (k2_pay14 (F := Ideal)) (ix2 b n)
      = bil (k2_pay8 v1 v3 v5 v48 v50) 0 4 b n := by
  unfold k2_pay15 k2_pay12 k2_pay13 k2_pay14
  simp only [mulf_apply, divf_apply, addf_apply, broadcast_apply, chan_apply]
  rfl

theorem pay16_apply (b : Fin 32) (n : Fin 2430) : k2_pay16 v71 (ix2 b n) = bil v71 1 2 b n := by
  unfold k2_pay16
  simp only [mulf_apply, divf_apply, addf_apply, broadcast_apply, chan_apply]
  rfl

theorem pay17_apply (b : Fin 32) (n : Fin 2430) : k2_pay17 v71 (ix2 b n) = bil v71 1 3 b n := by
  unfold k2_pay17
  simp only [mulf_apply, divf_apply, addf_apply, broadcast_apply, chan_apply]
  rfl

theorem pay18_apply (b : Fin 32) (n : Fin 2430) : k2_pay18 v71 (ix2 b n) = bil v71 1 4 b n := by
  unfold k2_pay18
  simp only [mulf_apply, divf_apply, addf_apply, broadcast_apply, chan_apply]
  rfl

theorem pay19_apply (b : Fin 32) (n : Fin 2430) : k2_pay19 v71 (ix2 b n) = bil v71 2 3 b n := by
  unfold k2_pay19
  simp only [mulf_apply, divf_apply, addf_apply, broadcast_apply, chan_apply]
  rfl

theorem pay20_apply (b : Fin 32) (n : Fin 2430) : k2_pay20 v71 (ix2 b n) = bil v71 2 4 b n := by
  unfold k2_pay20
  simp only [mulf_apply, divf_apply, addf_apply, broadcast_apply, chan_apply]
  rfl

end Payload

section Block
variable (x0 : FVec Ideal S32x6x2430 .f32) (x1 : FVec Ideal S5x6 .f32) (x2 : FVec Ideal S5 .f32) (x3 : FVec Ideal S10 .f32)

/-- A bilinear channel (i, j) written out over a block u of five channels is u_i · (1 / (u_j + 1e-6)). -/
theorem pair_apply (u : FVec Ideal S32x5x2430 .f32) (i j : ℕ)
    (hi : S32x5x2430.Slices ![0, i, 0] S32x1x2430) (hj : S32x5x2430.Slices ![0, j, 0] S32x1x2430)
    (h2 h2' : S32x1x2430.ShapeCasts S32x2430) (b : Fin 32) (n : Fin 2430) :
    mulf (shapeCast S32x2430 (extractStridedSlice S32x1x2430 ![0, i, 0] u hi) h2)
        (divf (broadcast S32x2430 (Scalar.ofBits (F := Ideal) .f32 0x3F800000#32))
          (addf (shapeCast S32x2430 (extractStridedSlice S32x1x2430 ![0, j, 0] u hj) h2')
            (broadcast S32x2430 (Scalar.ofBits (F := Ideal) .f32 0x358637BD#32)))) (ix2 b n)
      = bil u ⟨i, Nat.lt_of_succ_le (hi.2 1)⟩ ⟨j, Nat.lt_of_succ_le (hj.2 1)⟩ b n := by
  simp only [mulf_apply, divf_apply, addf_apply, broadcast_apply, chan_apply]
  rfl

/-- THE BLOCK THE BODY STORES, entry by entry: bilinear channel p of the scaled mixed channels, times its scale. -/
theorem block_apply (b : Fin 32) (p : Fin 10) (n : Fin 2430) :
    k2_pay1 (k2_pay5 x3) (xdg x0 x1 x2)
      (k2_pay9 (k2_pay2 x0) (k2_pay3 x1) (k2_pay4 x2) (k2_pay6 x0 x1) (k2_pay7 x0))
      (k2_pay10 (k2_pay2 x0) (k2_pay3 x1) (k2_pay4 x2) (k2_pay6 x0 x1) (k2_pay7 x0))
      (k2_pay11 (k2_pay2 x0) (k2_pay3 x1) (k2_pay4 x2) (k2_pay6 x0 x1) (k2_pay7 x0))
      (k2_pay15 (k2_pay12 (k2_pay2 x0) (k2_pay3 x1) (k2_pay4 x2) (k2_pay6 x0 x1) (k2_pay7 x0))
        (k2_pay13 (k2_pay2 x0) (k2_pay3 x1) (k2_pay4 x2) (k2_pay6 x0 x1) (k2_pay7 x0)) (k2_pay14 (F := Ideal)))
      (k2_pay16 (xdg x0 x1 x2)) (k2_pay17 (xdg x0 x1 x2)) (k2_pay18 (xdg x0 x1 x2)) (k2_pay19 (xdg x0 x1 x2))
      (k2_pay20 (xdg x0 x1 x2)) (ix3 b p n)
      = bil (xdg x0 x1 x2) (Spec.pI p) (Spec.pJ p) b n * x3 (ix1 p) := by
  unfold k2_pay1 k2_pay5
  simp only [shapeCast_self, mulf_apply, scale_apply]
  refine congrArg (· * x3 (ix1 p)) ?_
  fin_cases p
  · refine Eq.trans ?_ (pay9_apply _ _ _ _ _ b n)
    exact stack_piece _ _ 0 rfl (by decide) _ _ rfl rfl b n
  · refine Eq.trans ?_ (pay10_apply _ _ _ _ _ b n)
    exact stack_piece _ _ 1 rfl (by decide) _ _ rfl rfl b n
  · refine Eq.trans ?_ (pay11_apply _ _ _ _ _ b n)
    exact stack_piece _ _ 2 rfl (by decide) _ _ rfl rfl b n
  · refine Eq.trans ?_ (pay15_apply _ _ _ _ _ b n)
    exact stack_piece _ _ 3 rfl (by decide) _ _ rfl rfl b n
  · refine Eq.trans ?_ (pay16_apply _ b n)
    exact stack_piece _ _ 4 rfl (by decide) _ _ rfl rfl b n
  · refine Eq.trans ?_ (pay17_apply _ b n)
    exact stack_piece _ _ 5 rfl (by decide) _ _ rfl rfl b n
  · refine Eq.trans ?_ (pay18_apply _ b n)
    exact stack_piece _ _ 6 rfl (by decide) _ _ rfl rfl b n
  · refine Eq.trans ?_ (pay19_apply _ b n)
    exact stack_piece _ _ 7 rfl (by decide) _ _ rfl rfl b n
  · refine Eq.trans ?_ (pay20_apply _ b n)
    exact stack_piece _ _ 8 rfl (by decide) _ _ rfl rfl b n
  · refine Eq.trans ?_ (pair_apply _ 3 4 slices_S32x5x2430_o0_3_0_S32x1x2430 slices_S32x5x2430_o0_4_0_S32x1x2430
      shapeCasts_S32x1x2430_S32x2430 shapeCasts_S32x1x2430_S32x2430 b n)
    exact stack_piece _ _ 9 rfl (by decide) _ _ rfl rfl b n

end Block

/-! ## From the blocks to the whole array -/

section Array
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The printed index maps, decided over the 32 grid points: the input and output blocks of samples move together, block
    t at point t; the weight and the two scale vectors are one block each. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 1) = 0 ∧ win2_3.index t (0 : Fin 1) = 0
    ∧ win2_4.index t (0 : Fin 3) = t.val ∧ win2_4.index t (1 : Fin 3) = 0 ∧ win2_4.index t (2 : Fin 3) = 0 :=
  (by decide +kernel : ∀ t : Fin grid2.N, _)

/-- Sample b of block t, among the 1024. -/
def row (t : Fin cfg2.N) (b : Fin 32) : Fin 1024 :=
  ⟨t.val * 32 + b.val, by have := t.isLt; have hN : cfg2.N = 32 := N_2; omega⟩

/-- The input block at point t is samples 32t … 32t + 31 of the input array. -/
theorem xblk_apply (c : Dev nD) (t : Fin cfg2.N) (b : Fin 32) (ch : Fin 6) (n : Fin 2430) :
    (iblk2 V c 0 t : FVec Ideal S32x6x2430 .f32) (ix3 b ch n)
      = (V c main_v28 : S1024x6x2430.Idx → EReal) (ix3 (row t b) ch n) := by
  obtain ⟨e0, e1, e2, -⟩ := idx_facts t
  unfold iblk2
  rw [View.read_apply]
  show V c main_v28 _ = V c main_v28 _
  refine congrArg _ (funext fun a => Fin.ext ?_)
  match a with
  | ⟨0, _⟩ => show win2_0.index t (0 : Fin 3) * 32 + 1 * b.val = t.val * 32 + b.val; rw [e0]; omega
  | ⟨1, _⟩ => show win2_0.index t (1 : Fin 3) * 6 + 1 * ch.val = ch.val; rw [e1]; omega
  | ⟨2, _⟩ => show win2_0.index t (2 : Fin 3) * 2430 + 1 * n.val = n.val; rw [e2]; omega

/-- The weight's one block is the weight. -/
theorem wblk_eq (c : Dev nD) (t : Fin cfg2.N) :
    (iblk2 V c 1 t : FVec Ideal S5x6 .f32) = (V c main_v22 : S5x6.Idx → EReal) := by
  obtain ⟨-, -, -, e0, e1, -⟩ := idx_facts t
  funext y
  unfold iblk2
  rw [View.read_apply]
  show V c main_v22 _ = V c main_v22 _
  refine congrArg _ (funext fun a => Fin.ext ?_)
  match a with
  | ⟨0, _⟩ => show win2_1.index t (0 : Fin 2) * 5 + 1 * (y 0).val = (y 0).val; rw [e0]; omega
  | ⟨1, _⟩ => show win2_1.index t (1 : Fin 2) * 6 + 1 * (y 1).val = (y 1).val; rw [e1]; omega

/-- The channel scales' one block is the vector of the five. -/
theorem sblk_eq (c : Dev nD) (t : Fin cfg2.N) :
    (iblk2 V c 2 t : FVec Ideal S5 .f32) = (V c main_v41 : S5.Idx → EReal) := by
  obtain ⟨-, -, -, -, -, e0, -⟩ := idx_facts t
  funext y
  unfold iblk2
  rw [View.read_apply]
  show V c main_v41 _ = V c main_v41 _
  refine congrArg _ (funext fun a => Fin.ext ?_)
  match a with
  | ⟨0, _⟩ => show win2_2.index t (0 : Fin 1) * 5 + 1 * (y 0).val = (y 0).val; rw [e0]; omega

/-- The pair scales' one block is the vector of the ten. -/
theorem rblk_eq (c : Dev nD) (t : Fin cfg2.N) :
    (iblk2 V c 3 t : FVec Ideal S10 .f32) = (V c main_v89 : S10.Idx → EReal) := by
  obtain ⟨-, -, -, -, -, -, e0, -⟩ := idx_facts t
  funext y
  unfold iblk2
  rw [View.read_apply]
  show V c main_v89 _ = V c main_v89 _
  refine congrArg _ (funext fun a => Fin.ext ?_)
  match a with
  | ⟨0, _⟩ => show win2_3.index t (0 : Fin 1) * 10 + 1 * (y 0).val = (y 0).val; rw [e0]; omega

end Array

/-! ## The whole output array as one function of the whole inputs -/

/-- Entry (b, p, n) of the output: bilinear channel p of the scaled mixed channels of sample b, times its scale. -/
def G (X : S1024x6x2430.Idx → EReal) (W : S5x6.Idx → EReal) (S : S5.Idx → EReal) (R : S10.Idx → EReal) :
    Spec.A3 1024 10 2430 :=
  fun b p n => Spec.pairs (fun b k n => Spec.zmix (Spec.of3 X) (Spec.of2 W) b k n * S (ix1 k)) b p n * R (ix1 p)

section Point
variable (x0 : FVec Ideal S32x6x2430 .f32) (x1 : FVec Ideal S5x6 .f32) (x2 : FVec Ideal S5 .f32) (x3 : FVec Ideal S10 .f32)

/-- A block whose samples are samples B(b) of the input array stores entries (B(b), p, n) of `G`. -/
theorem point_apply (X : S1024x6x2430.Idx → EReal) (W : S5x6.Idx → EReal) (S : S5.Idx → EReal) (R : S10.Idx → EReal)
    (B : Fin 32 → Fin 1024) (hx0 : ∀ b ch n, x0 (ix3 b ch n) = X (ix3 (B b) ch n)) (hx1 : x1 = W) (hx2 : x2 = S)
    (hx3 : x3 = R) (b : Fin 32) (p : Fin 10) (n : Fin 2430) :
    k2_pay1 (k2_pay5 x3) (xdg x0 x1 x2)
      (k2_pay9 (k2_pay2 x0) (k2_pay3 x1) (k2_pay4 x2) (k2_pay6 x0 x1) (k2_pay7 x0))
      (k2_pay10 (k2_pay2 x0) (k2_pay3 x1) (k2_pay4 x2) (k2_pay6 x0 x1) (k2_pay7 x0))
      (k2_pay11 (k2_pay2 x0) (k2_pay3 x1) (k2_pay4 x2) (k2_pay6 x0 x1) (k2_pay7 x0))
      (k2_pay15 (k2_pay12 (k2_pay2 x0) (k2_pay3 x1) (k2_pay4 x2) (k2_pay6 x0 x1) (k2_pay7 x0))
        (k2_pay13 (k2_pay2 x0) (k2_pay3 x1) (k2_pay4 x2) (k2_pay6 x0 x1) (k2_pay7 x0)) (k2_pay14 (F := Ideal)))
      (k2_pay16 (xdg x0 x1 x2)) (k2_pay17 (xdg x0 x1 x2)) (k2_pay18 (xdg x0 x1 x2)) (k2_pay19 (xdg x0 x1 x2))
      (k2_pay20 (xdg x0 x1 x2)) (ix3 b p n)
      = G X W S R (B b) p n := by
  subst hx1 hx2 hx3
  refine (block_apply x0 x1 x2 x3 b p n).trans ?_
  unfold bil G Spec.pairs Spec.zmix Spec.of3 Spec.of2
  rw [xdg_apply x0 x1 x2 b (Spec.pI p) n, xdg_apply x0 x1 x2 b (Spec.pJ p) n]
  simp only [hx0]

/-- The same at any index of the block. -/
theorem point_apply' (X : S1024x6x2430.Idx → EReal) (W : S5x6.Idx → EReal) (S : S5.Idx → EReal) (R : S10.Idx → EReal)
    (B : Fin 32 → Fin 1024) (hx0 : ∀ b ch n, x0 (ix3 b ch n) = X (ix3 (B b) ch n)) (hx1 : x1 = W) (hx2 : x2 = S)
    (hx3 : x3 = R) (y : S32x10x2430.Idx) :
    k2_pay1 (k2_pay5 x3) (xdg x0 x1 x2)
      (k2_pay9 (k2_pay2 x0) (k2_pay3 x1) (k2_pay4 x2) (k2_pay6 x0 x1) (k2_pay7 x0))
      (k2_pay10 (k2_pay2 x0) (k2_pay3 x1) (k2_pay4 x2) (k2_pay6 x0 x1) (k2_pay7 x0))
      (k2_pay11 (k2_pay2 x0) (k2_pay3 x1) (k2_pay4 x2) (k2_pay6 x0 x1) (k2_pay7 x0))
      (k2_pay15 (k2_pay12 (k2_pay2 x0) (k2_pay3 x1) (k2_pay4 x2) (k2_pay6 x0 x1) (k2_pay7 x0))
        (k2_pay13 (k2_pay2 x0) (k2_pay3 x1) (k2_pay4 x2) (k2_pay6 x0 x1) (k2_pay7 x0)) (k2_pay14 (F := Ideal)))
      (k2_pay16 (xdg x0 x1 x2)) (k2_pay17 (xdg x0 x1 x2)) (k2_pay18 (xdg x0 x1 x2)) (k2_pay19 (xdg x0 x1 x2))
      (k2_pay20 (xdg x0 x1 x2)) y
      = G X W S R (B (y 0)) (y 1) (y 2) := by
  obtain ⟨b, p, n, rfl⟩ : ∃ (b : Fin 32) (p : Fin 10) (n : Fin 2430), y = ix3 b p n := ⟨y 0, y 1, y 2, eq_ix3 y⟩
  exact point_apply x0 x1 x2 x3 X W S R B hx0 hx1 hx2 hx3 b p n

end Point

section Final
variable (V : (c : Dev nD) → (b : Ref sig .tc) → Buf (Elt Ideal) ((c : Thread nD τ).loc b))

/-- WHAT POINT t WRITES BACK is block t of `G` of the arrays as the region finds them. -/
theorem flushed_eq (c : Dev nD) (t : Fin cfg2.N) :
    (dat2 V c).flushed 4 t = ((cfg2.win 4).blk t).view.read (Elt Ideal)
      (Spec.to3 (G (V c main_v28) (V c main_v22) (V c main_v41) (V c main_v89))) := by
  show (cfg2.win 4).cut (grid2.coords t) ((dat2 V c).after 4 t) = _
  rw [after2_4]
  unfold out2_4
  rw [View.canon_unit_zero hz3]
  simp only [View.ld_unit_zero (S := S32x6x2430) hz3, View.ld_unit_zero (S := S5x6) hz2, View.ld_unit_zero (S := S5) hz1,
    View.ld_unit_zero (S := S10) hz1]
  obtain ⟨-, -, -, -, -, -, -, e0, e1, e2⟩ := idx_facts t
  funext j
  refine (point_apply' (iblk2 V c 0 t) (iblk2 V c 1 t) (iblk2 V c 2 t) (iblk2 V c 3 t) (V c main_v28) (V c main_v22)
    (V c main_v41) (V c main_v89) (row t) (xblk_apply V c t) (wblk_eq V c t) (sblk_eq V c t) (rblk_eq V c t)
    ((cfg2.win 4).xinj (grid2.coords t) j)).trans ?_
  rw [View.read_apply]
  show G _ _ _ _ _ _ _ = G _ _ _ _ (((cfg2.win 4).blk t).view.emb j 0) (((cfg2.win 4).blk t).view.emb j 1)
    (((cfg2.win 4).blk t).view.emb j 2)
  refine congr (congr (congrArg (G _ _ _ _) (Fin.ext ?_)) (Fin.ext ?_)) (Fin.ext ?_)
  · show t.val * 32 + (j 0).val = win2_4.index t (0 : Fin 3) * 32 + 1 * (j 0).val; rw [e0]; omega
  · show (j 1).val = win2_4.index t (1 : Fin 3) * 10 + 1 * (j 1).val; rw [e1]; omega
  · show (j 2).val = win2_4.index t (2 : Fin 3) * 2430 + 1 * (j 2).val; rw [e2]; omega

/-- An index of the output array is in point t's block iff each coordinate is in the block's range on its axis. -/
theorem mem_blk (t : Fin cfg2.N) (i : S1024x10x2430.Idx) :
    i ∈ ((cfg2.win 4).blk t).view.set ↔ ∀ a : Fin 3, win2_4.index t a * S32x10x2430.size a ≤ (i a).val
      ∧ (i a).val < win2_4.index t a * S32x10x2430.size a + S32x10x2430.size a := by
  show i ∈ ((View.whole main_v125).slice (win2_4.rect t)).set ↔ _
  rw [View.set_slice_whole, Rect.mem_set_unit]
  exact Iff.rfl

/-- Sample b is in the block of point b / 32: the 32 blocks cover the array. -/
theorem cover (i : S1024x10x2430.Idx) :
    ∃ t : Fin cfg2.N, (cfg2.win 4).flush t = true ∧ i ∈ ((cfg2.win 4).blk t).view.set := by
  have hN : cfg2.N = 32 := N_2
  have hi0 : (i 0).val < 1024 := (i 0).isLt
  have hi1 : (i 1).val < 10 := (i 1).isLt
  have hi2 : (i 2).val < 2430 := (i 2).isLt
  obtain ⟨t, ht⟩ : ∃ t : Fin cfg2.N, t.val = (i 0).val / 32 := ⟨⟨(i 0).val / 32, by omega⟩, rfl⟩
  obtain ⟨-, -, -, -, -, -, -, e0, e1, e2⟩ := idx_facts t
  refine ⟨t, flush2_4 t, ?_⟩
  rw [mem_blk]
  intro a
  match a with
  | ⟨0, _⟩ =>
    show win2_4.index t (0 : Fin 3) * 32 ≤ (i 0).val ∧ (i 0).val < win2_4.index t (0 : Fin 3) * 32 + 32
    rw [e0]; omega
  | ⟨1, _⟩ =>
    show win2_4.index t (1 : Fin 3) * 10 ≤ (i 1).val ∧ (i 1).val < win2_4.index t (1 : Fin 3) * 10 + 10
    rw [e1]; omega
  | ⟨2, _⟩ =>
    show win2_4.index t (2 : Fin 3) * 2430 ≤ (i 2).val ∧ (i 2).val < win2_4.index t (2 : Fin 3) * 2430 + 2430
    rw [e2]; omega

/-- THE OUTPUT ARRAY after the region is `G` of the arrays as the region finds them. -/
theorem arr_eq (c : Dev nD) :
    (dat2 V c).arrAt 4 cfg2.N = Spec.to3 (G (V c main_v28) (V c main_v22) (V c main_v41) (V c main_v89)) :=
  (dat2 V c).arrAt_eq_of_cover 4 _ (fun t _ => flushed_eq V c t) cover

/-- In the specification's words: the ten bilinear channels of the mixed channels times the five channel scales, each
    times its own scale. -/
theorem passC (c : Dev nD) :
    Spec.of3 ((Gen.dat2 (F := Ideal) V c).arrAt 4 cfg2.N : S1024x10x2430.Idx → EReal)
      = fun b p n => Spec.pairs (fun b k n => Spec.zmix (Spec.of3 (V c main_v28)) (Spec.of2 (V c main_v22)) b k n
          * (V c main_v41 : S5.Idx → EReal) (ValueIdx.ix1 k)) b p n * (V c main_v89 : S10.Idx → EReal) (ValueIdx.ix1 p) := by
  rw [arr_eq V c]
  rfl

end Final

end Cert.KernelIdeal.KBodyC

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.KBodyD.lean ====
/-
  The label kernel's value over the extended reals.

  The kernel visits 98 grid points. At point t it loads row block t (1024 rows of 128 features) of each of the two
  padded feature arrays, the matching 1024 labels of each of the two padded label arrays, and the whole table of
  eight normalised centres; it keeps one [1, 1] output block, zeroed at point 0 and carried from point to point.

  * Per row the body computes the unit-normalised row f / max(‖f‖, 1e-12), assembles the label's centre as
    0 + Σ_k [label = k] · centre_k (for a label from 1 to 7 exactly one indicator is 1, and 0 · x = 0, 1 · x = x
    hold at every extended real, so the assembled row is the label's centre), takes the inner product s of the
    two, and the row's term: 1 − s where the label is at least 1, else 0. That is the specification's label term.
  * The point adds the sum of its 2 × 1024 terms to the block. By induction on the point, after point n the block
    holds the contributions of points 0 … n, summed.
  * The block is written back after the last point only. A sum over the 100352 rows is the double sum over the 98
    blocks of 1024 rows, so the output array ends holding the label term summed over all padded rows of the first
    feature array, plus the same of the second.

  The one hypothesis: every label is below 8 (a label from 1 to 7 then names a row of the centre table).
-/
import proofs.«414715_j46866683134133_3_alg».proof.Proof.Gen.KernelIdeal.Frame
import proofs.«414715_j46866683134133_3_alg».proof.Proof.Spec
import proofs.«414715_j46866683134133_3_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.KBodyD

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## Layout operations of the body read at coordinates -/

section Layout
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `k` of a matrix `[n, b]`, cut out as `[1, b]`, reads at `(u, c)` the matrix at `(k, c)`. -/
theorem sliceRow_apply {n b : ℕ} (k : ℕ) (X : (⟨2, ![n, b]⟩ : Shape).Idx → α)
    (h : (⟨2, ![n, b]⟩ : Shape).Slices ![k, 0] ⟨2, ![1, b]⟩) (u : Fin 1) (c : Fin b) (kk : Fin n) (hk : kk.val = k) :
    extractStridedSlice ⟨2, ![1, b]⟩ ![k, 0] X h (ix2 u c) = X (ix2 kk c) :=
  slice2_axis0_apply k X h u c kk (by have := u.isLt; omega)

end Layout

/-! ## The body's sums read at coordinates (extended reals) -/

/-- The lane sum of a `[1024, 128]` block at row `r`: the sum over the 128 lanes. -/
theorem laneSum_apply (src : FVec Ideal S1024x128 .f32) (hφ : FKind.Formats .f32)
    (hacc : (0x00000000#32 : BitVec 32) = 0x00000000#32) (r : Fin 1024) :
    multiReduction .add [1] S1024 src 0x00000000#32 reduces_S1024x128_S1024 hφ hacc (ix1 r) = ∑ d : Fin 128, src (ix2 r d) := by
  refine (Ideal.multiReduction_add_single src 0x00000000#32 reduces_S1024x128_S1024 hφ hacc (ix1 r)).trans ?_
  refine Finset.sum_congr rfl fun d _ => congrArg src ?_
  funext a
  match a with
  | ⟨0, _⟩ => rfl
  | ⟨1, _⟩ => rfl

/-- The sum of a `[1, 1024]` row at its one index: the sum over the 1024 entries. -/
theorem rowSum_apply (src : FVec Ideal S1x1024 .f32) (hφ : FKind.Formats .f32)
    (hacc : (0x00000000#32 : BitVec 32) = 0x00000000#32) (u : Fin 1) :
    multiReduction .add [1] S1 src 0x00000000#32 reduces_S1x1024_S1 hφ hacc (ix1 u) = ∑ r : Fin 1024, src (ix2 u r) := by
  refine (Ideal.multiReduction_add_single src 0x00000000#32 reduces_S1x1024_S1 hφ hacc (ix1 u)).trans ?_
  refine Finset.sum_congr rfl fun d _ => congrArg src ?_
  funext a
  match a with
  | ⟨0, _⟩ => rfl
  | ⟨1, _⟩ => rfl

/-! ## Words of the body: the class indicator and the label test -/

/-- The indicator of a label's class: one where the label is the class, zero elsewhere. -/
def ind (l k : BitVec 32) : EReal := if l = k then 1 else 0

/-- The body's mask word — the comparison's bit widened and converted — is the indicator. -/
theorem mask_word (l k : BitVec 32) :
    FloatOps.sitofp (F := Ideal) .f32 ((IntOp.cmpi .eq l k).setWidth 32) = ind l k := by
  show ((((BitVec.ofBool (l == k)).setWidth 32).toInt : ℝ) : EReal) = ind l k
  unfold ind
  by_cases h : l = k
  · have e : (l == k) = true := by simp [h]
    have e1 : ((BitVec.ofBool true).setWidth 32).toInt = 1 := by decide
    rw [if_pos h, e, e1]; simp
  · have e : (l == k) = false := by simp [h]
    have e0 : ((BitVec.ofBool false).setWidth 32).toInt = 0 := by decide
    rw [if_neg h, e, e0]; simp

/-- The body's test "label ≥ 1" selects by the label read as a signed integer. -/
theorem select_sge_one {α : Type} (l : BitVec 32) (a b : α) :
    Scalar.select (IntOp.cmpi .sge l 1#32) a b = if 1 ≤ l.toInt then a else b := by
  show (if BitVec.ofBool ((1#32).sle l) = 1#1 then a else b) = _
  rw [BitVec.sle_eq_decide, show (1#32 : BitVec 32).toInt = 1 from by decide]
  by_cases h : 1 ≤ l.toInt
  · rw [if_pos h, decide_eq_true h]; rfl
  · rw [if_neg h, decide_eq_false h]; rfl

/-- A mask column of the body at a row and a lane: the indicator of the row's label. -/
theorem mask_apply (lab : IVec S1024 32) (k : BitVec 32) (h1 : 1 < 32) (r : Fin 1024) (d : Fin 128) :
    broadcastTo S1024x128 (shapeCast S1024x1 (sitofp (F := Ideal) .f32 (extui 32 (cmpi .eq lab (broadcast S1024 k)) h1))
      shapeCasts_S1024_S1024x1) broadcasts_S1024x1_S1024x128 (ix2 r d) = ind (lab (ix1 r)) k := by
  rw [broadcastTo_a1_ab_apply, shapeCast_a_a1_apply]
  exact mask_word _ _

/-- A centre row of the body broadcast over the rows, at a row and a lane: the centre's entry. -/
theorem crow_apply (k : ℕ) (cn : FVec Ideal S8x128 .f32) (h : S8x128.Slices ![k, 0] S1x128) (kk : Fin 8) (hk : kk.val = k)
    (r : Fin 1024) (d : Fin 128) :
    broadcastTo S1024x128 (extractStridedSlice S1x128 ![k, 0] cn h) broadcasts_S1x128_S1024x128 (ix2 r d) = cn (ix2 kk d) := by
  rw [broadcastTo_1b_ab_apply]
  exact sliceRow_apply k cn h 0 d kk hk

/-- The label's centre row, as the body assembles it: zero plus, class by class, indicator times centre. -/
def cgOf (cn : FVec Ideal S8x128 .f32) (l : BitVec 32) (d : Fin 128) : EReal :=
  Ideal.ofBits .f32 0x00000000#32 + ind l 0#32 * cn (ix2 (0 : Fin 8) d) + ind l 1#32 * cn (ix2 (1 : Fin 8) d)
    + ind l 2#32 * cn (ix2 (2 : Fin 8) d) + ind l 3#32 * cn (ix2 (3 : Fin 8) d) + ind l 4#32 * cn (ix2 (4 : Fin 8) d)
    + ind l 5#32 * cn (ix2 (5 : Fin 8) d) + ind l 6#32 * cn (ix2 (6 : Fin 8) d) + ind l 7#32 * cn (ix2 (7 : Fin 8) d)

/-- For a label from 1 to 7 exactly one indicator is one: the assembled row is the label's centre row
    (`0 · x = 0` and `1 · x = x` hold at every extended real). -/
theorem cgOf_eq (cn : FVec Ideal S8x128 .f32) (l : BitVec 32) (d : Fin 128) (h1 : 1 ≤ l.toInt) (h8 : l.toInt < 8) :
    cgOf cn l d = cn (ix2 (Spec.labRow l) d) := by
  have hl : l = BitVec.ofInt 32 l.toInt := BitVec.ofInt_toInt.symm
  generalize l.toInt = z at hl h1 h8
  subst hl
  unfold cgOf
  rw [Ideal.ofBits_zero_f32]
  interval_cases z <;> simp [ind, Spec.labRow] <;> rfl

/-! ## The body's arithmetic read at coordinates -/

/-- A square root at an index. -/
theorem sqrt_apply {s : Shape} {φ : FTy} (a : FVec Ideal s φ) (i : s.Idx) : sqrt a i = Ideal.sqrt (a i) := rfl

/-- An integer comparison at an index. -/
theorem cmpi_apply {s : Shape} {w : ℕ} (p : CmpIPredicate) (a b : IVec s w) (i : s.Idx) :
    cmpi p a b i = IntOp.cmpi p (a i) (b i) := rfl

/-- The one entry of a `[1, 1]` vector, extracted. -/
theorem extractAt00_apply {α : Type} (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- The normalised rows of the first feature block: each entry over the larger of its row's norm and 1e-12. -/
theorem unitA_apply (x : Vec Ideal S1024x128 .f32) (r : Fin 1024) (d : Fin 128) :
    k3_pay5 (F := Ideal) x (ix2 r d) = Spec.rowUnit (Spec.of2 x) r d := by
  unfold k3_pay5
  simp only [divf_apply, shapeCast_self, broadcastTo_a1_ab_apply, maximumf_apply, broadcast_apply, sqrt_apply,
    shapeCast_a_a1_apply, mulf_apply]
  rw [laneSum_apply]
  rfl

/-- The same of the second feature block. -/
theorem unitB_apply (x : Vec Ideal S1024x128 .f32) (r : Fin 1024) (d : Fin 128) :
    k3_pay12 (F := Ideal) x (ix2 r d) = Spec.rowUnit (Spec.of2 x) r d := by
  unfold k3_pay12
  simp only [divf_apply, shapeCast_self, broadcastTo_a1_ab_apply, maximumf_apply, broadcast_apply, sqrt_apply,
    shapeCast_a_a1_apply, mulf_apply]
  rw [laneSum_apply]
  rfl

/-- The first block's products: a normalised entry times the assembled centre row's entry. -/
theorem prodA_apply (cn : Vec Ideal S8x128 .f32) (lab : Vec Ideal S1024 .i32) (v16 : FVec Ideal S1024x128 .f32)
    (r : Fin 1024) (d : Fin 128) :
    k3_pay9 (F := Ideal) (k3_pay3 cn) (k3_pay4 lab) v16 (k3_pay6 cn lab) (k3_pay7 cn) (k3_pay8 lab) (ix2 r d)
      = v16 (ix2 r d) * cgOf cn (lab (ix1 r)) d := by
  unfold k3_pay9 k3_pay6 k3_pay7 k3_pay8 k3_pay3 k3_pay4
  simp only [mulf_apply, addf_apply, shapeCast_self, broadcast_apply, mask_apply,
    crow_apply 0 _ _ (0 : Fin 8) rfl, crow_apply 1 _ _ (1 : Fin 8) rfl, crow_apply 2 _ _ (2 : Fin 8) rfl,
    crow_apply 3 _ _ (3 : Fin 8) rfl, crow_apply 4 _ _ (4 : Fin 8) rfl, crow_apply 5 _ _ (5 : Fin 8) rfl,
    crow_apply 6 _ _ (6 : Fin 8) rfl, crow_apply 7 _ _ (7 : Fin 8) rfl]
  rfl

/-- The second block's assembled centre row. -/
theorem cgB_apply (cn : Vec Ideal S8x128 .f32) (lab : Vec Ideal S1024 .i32) (r : Fin 1024) (d : Fin 128) :
    k3_pay15 (F := Ideal) (k3_pay3 cn) (k3_pay11 lab) (k3_pay13 (k3_pay3 cn) lab) (k3_pay14 lab) (ix2 r d)
        + k3_pay16 (F := Ideal) (k3_pay11 lab) (ix2 r d) * k3_pay17 (F := Ideal) (k3_pay3 cn) (ix2 r d)
      = cgOf cn (lab (ix1 r)) d := by
  unfold k3_pay15 k3_pay13 k3_pay14 k3_pay16 k3_pay17 k3_pay3 k3_pay11
  simp only [mulf_apply, addf_apply, shapeCast_self, broadcast_apply, mask_apply,
    crow_apply 0 _ _ (0 : Fin 8) rfl, crow_apply 1 _ _ (1 : Fin 8) rfl, crow_apply 2 _ _ (2 : Fin 8) rfl,
    crow_apply 3 _ _ (3 : Fin 8) rfl, crow_apply 4 _ _ (4 : Fin 8) rfl, crow_apply 5 _ _ (5 : Fin 8) rfl,
    crow_apply 6 _ _ (6 : Fin 8) rfl, crow_apply 7 _ _ (7 : Fin 8) rfl]
  rfl

/-- A row's term as the body computes it: one minus the row's inner product where the label is at least 1, else zero. -/
def rowTerm (l : BitVec 32) (s : EReal) : EReal := if 1 ≤ l.toInt then Spec.c1 - s else Spec.c0

/-- The first block's contribution: its 1024 rows' terms, summed. -/
theorem sumA_apply (lab : IVec S1024 32) (v98 : FVec Ideal S1024x128 .f32) :
    k3_pay10 (F := Ideal) lab v98 = ∑ r : Fin 1024, rowTerm (lab (ix1 r)) (∑ d : Fin 128, v98 (ix2 r d)) := by
  unfold k3_pay10
  dsimp only
  rw [extractAt00_apply, shapeCast_a_a1_apply, rowSum_apply]
  refine Finset.sum_congr rfl fun r _ => ?_
  rw [shapeCast_a_1a_apply, select_apply, cmpi_apply, broadcast_apply, select_sge_one, subf_apply, broadcast_apply,
    broadcast_apply, laneSum_apply]
  rfl

/-- What the body stores: the block's previous contents plus the two blocks' contributions. -/
theorem store_apply (v109 : EReal) (lab : IVec S1024 32) (v121 v192 v199 v200 : FVec Ideal S1024x128 .f32)
    (prev : Vec Ideal S1x1 .f32) (j : S1x1.Idx) :
    k3_pay1 (F := Ideal) v109 lab v121 v192 v199 v200 prev j
      = prev j + (v109 + ∑ r : Fin 1024, rowTerm (lab (ix1 r))
          (∑ d : Fin 128, v121 (ix2 r d) * (v192 (ix2 r d) + v199 (ix2 r d) * v200 (ix2 r d)))) := by
  unfold k3_pay1
  dsimp only
  rw [addf_apply, shapeCast_self, broadcast_apply, extractAt00_apply, shapeCast_a_a1_apply, rowSum_apply]
  refine congrArg (fun z => prev j + (v109 + z)) (Finset.sum_congr rfl fun r _ => ?_)
  rw [shapeCast_a_1a_apply, select_apply, cmpi_apply, broadcast_apply, select_sge_one, subf_apply, broadcast_apply,
    broadcast_apply, laneSum_apply]
  rfl

/-! ## The body as one function, and its value -/

section Body
variable {F : FTy → Type} [FloatOps F]

/-- What one grid point stores in the output block, as one function of the five blocks it loads and of the output
    block's contents before the point. -/
def body (x0 x1 : Vec F S1024x128 .f32) (x2 x3 : Vec F S1024 .i32) (x4 : Vec F S8x128 .f32) (prev : Vec F S1x1 .f32) :
    Vec F S1x1 .f32 :=
  k3_pay1 (k3_pay10 (k3_pay4 x2) (k3_pay9 (k3_pay3 x4) (k3_pay4 x2) (k3_pay5 x0) (k3_pay6 x4 x2) (k3_pay7 x4) (k3_pay8 x2)))
    (k3_pay11 x3) (k3_pay12 x1) (k3_pay15 (k3_pay3 x4) (k3_pay11 x3) (k3_pay13 (k3_pay3 x4) x3) (k3_pay14 x3))
    (k3_pay16 (k3_pay11 x3)) (k3_pay17 (k3_pay3 x4)) prev

end Body

/-- A block's contribution: the label term of its 1024 rows, summed. -/
def blockTerm (cn : Vec Ideal S8x128 .f32) (f : Vec Ideal S1024x128 .f32) (lab : Vec Ideal S1024 .i32) : EReal :=
  ∑ r : Fin 1024, Spec.simTerm (Spec.of2 cn) (Spec.of2 f) (Spec.ofLab lab) r

/-- A row's term as the body computes it is the label term: where the label is at least 1 (and below 8) the assembled
    centre row is the label's; elsewhere both are zero. -/
theorem rowTerm_eq (cn : Vec Ideal S8x128 .f32) (f : Vec Ideal S1024x128 .f32) (lab : Vec Ideal S1024 .i32) (r : Fin 1024)
    (h8 : (lab (ix1 r)).toInt < 8) (P : Fin 128 → EReal)
    (hP : ∀ d, P d = Spec.rowUnit (Spec.of2 f) r d * cgOf cn (lab (ix1 r)) d) :
    rowTerm (lab (ix1 r)) (∑ d : Fin 128, P d) = Spec.simTerm (Spec.of2 cn) (Spec.of2 f) (Spec.ofLab lab) r := by
  unfold rowTerm Spec.simTerm
  show (if 1 ≤ (lab (ix1 r)).toInt then _ else _) = (if 1 ≤ (lab (ix1 r)).toInt then _ else _)
  by_cases h : 1 ≤ (lab (ix1 r)).toInt
  · rw [if_pos h, if_pos h]
    refine congrArg (Spec.c1 - ·) (Finset.sum_congr rfl fun d _ => ?_)
    rw [hP d, cgOf_eq cn _ d h h8]
    rfl
  · rw [if_neg h, if_neg h]

/-- The body's value: the previous contents plus the two blocks' contributions, when every label is below 8. -/
theorem body_apply (x0 x1 : Vec Ideal S1024x128 .f32) (x2 x3 : Vec Ideal S1024 .i32) (x4 : Vec Ideal S8x128 .f32)
    (prev : Vec Ideal S1x1 .f32) (hA : ∀ r : Fin 1024, (x2 (ix1 r)).toInt < 8) (hB : ∀ r : Fin 1024, (x3 (ix1 r)).toInt < 8)
    (j : S1x1.Idx) :
    body (F := Ideal) x0 x1 x2 x3 x4 prev j = prev j + (blockTerm x4 x0 x2 + blockTerm x4 x1 x3) := by
  unfold body
  rw [store_apply, sumA_apply]
  have e4 : ∀ r : Fin 1024, k3_pay4 (F := Ideal) x2 (ix1 r) = x2 (ix1 r) := fun r => by unfold k3_pay4; rw [shapeCast_self]
  have e11 : ∀ r : Fin 1024, k3_pay11 (F := Ideal) x3 (ix1 r) = x3 (ix1 r) := fun r => by unfold k3_pay11; rw [shapeCast_self]
  refine congrArg (fun z => prev j + z) (congrArg₂ (· + ·) (Finset.sum_congr rfl fun r _ => ?_) (Finset.sum_congr rfl fun r _ => ?_))
  · rw [e4 r]
    exact rowTerm_eq x4 x0 x2 r (hA r) _ fun d => by rw [prodA_apply, unitA_apply]
  · rw [e11 r]
    exact rowTerm_eq x4 x1 x3 r (hB r) _ fun d => by rw [cgB_apply, unitB_apply]

/-! ## What each control case leaves in the output block -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- At a later point the block holds the body's value over what the point before left. -/
theorem out_B (c : Dev nD) (i : grid3.Coords) (a1 : Memref sig .tc .vmem S1024x128 .f32) (h1 : a1.IsWhole) (a2 : Memref sig .tc .vmem S1024x128 .f32) (h2 : a2.IsWhole) (a3 : Memref sig .tc .vmem S1024 .i32) (h3 : a3.IsWhole) (a4 : Memref sig .tc .vmem S1024 .i32) (h4 : a4.IsWhole) (a5 : Memref sig .tc .vmem S8x128 .f32) (h5 : a5.IsWhole) (a6 : Memref sig .tc .vmem S1x1 .f32) (h6 : a6.IsWhole) (hc : ¬cond3_0 i) (x0 x1 : Vec F S1024x128 .f32) (x2 x3 : Vec F S1024 .i32) (x4 : Vec F S8x128 .f32) (xo5 : Vec F S1x1 .f32) :
    out3_B_5 c i a1 h1 a2 h2 a3 h3 a4 h4 a5 h5 a6 h6 hc x0 x1 x2 x3 x4 xo5 = body x0 x1 x2 x3 x4 xo5 := by
  unfold out3_B_5
  rw [View.read_writes_eq_canon _ _ _ (cover3_B_5 c i a1 h1 a2 h2 a3 h3 a4 h4 a5 h5 a6 h6 hc x0 x1 x2 x3 x4 xo5)]
  unfold kernelRun3_B
  dsimp only
  sl_unfold_words
  rw [View.canon_unit_zero hz2]
  simp only [View.readAt_eq_ld, h1.read_unread, h2.read_unread, h3.read_unread, h4.read_unread, h5.read_unread, h6.read_unread,
    View.ld_unit_zero (S := S1024x128) hz2, View.ld_unit_zero (S := S8x128) hz2, View.ld_unit_zero (S := S1x1) hz2,
    View.ld_unit_zero (S := S1024) hz1]
  rfl

/-- At the first point the block is zeroed, read back, and holds the body's value over the zero block. -/
theorem out_A (c : Dev nD) (i : grid3.Coords) (a1 : Memref sig .tc .vmem S1024x128 .f32) (h1 : a1.IsWhole) (a2 : Memref sig .tc .vmem S1024x128 .f32) (h2 : a2.IsWhole) (a3 : Memref sig .tc .vmem S1024 .i32) (h3 : a3.IsWhole) (a4 : Memref sig .tc .vmem S1024 .i32) (h4 : a4.IsWhole) (a5 : Memref sig .tc .vmem S8x128 .f32) (h5 : a5.IsWhole) (a6 : Memref sig .tc .vmem S1x1 .f32) (h6 : a6.IsWhole) (hc : cond3_0 i) (x0 x1 : Vec F S1024x128 .f32) (x2 x3 : Vec F S1024 .i32) (x4 : Vec F S8x128 .f32) :
    out3_A_5 c i a1 h1 a2 h2 a3 h3 a4 h4 a5 h5 a6 h6 hc x0 x1 x2 x3 x4 = body x0 x1 x2 x3 x4 (k3_pay2 (F := F)) := by
  unfold out3_A_5
  rw [View.read_writes_eq_canon _ _ _ (cover3_A_5 c i a1 h1 a2 h2 a3 h3 a4 h4 a5 h5 a6 h6 hc x0 x1 x2 x3 x4)]
  unfold kernelRun3_A
  dsimp only
  sl_unfold_words
  rw [View.canon_cons_unit_zero (S := S1x1) hz2, View.readCov_unit_zero (S := S1x1) _ hz2]
  simp only [View.readAt_eq_ld, h1.read_unread, h2.read_unread, h3.read_unread, h4.read_unread, h5.read_unread,
    View.ld_unit_zero (S := S1024x128) hz2, View.ld_unit_zero (S := S8x128) hz2, View.ld_unit_zero (S := S1x1) hz2,
    View.ld_unit_zero (S := S1024) hz1]
  rfl

end Pieces

/-! ## The blocks of a point, read off the arrays -/

section Points
variable (V : (c : Dev nD) → (b : Ref sig .tc) → Buf (Elt Ideal) ((c : Thread nD τ).loc b))

/-- The region's arrays: the two padded feature arrays, the two padded label arrays, the normalised centres. -/
abbrev arrFA (c : Dev nD) : Vec Ideal S100352x128 .f32 := V c main_v127
abbrev arrFB (c : Dev nD) : Vec Ideal S100352x128 .f32 := V c main_v128
abbrev arrLA (c : Dev nD) : Vec Ideal S100352 .i32 := V c main_v129
abbrev arrLB (c : Dev nD) : Vec Ideal S100352 .i32 := V c main_v130
abbrev arrCN (c : Dev nD) : Vec Ideal S8x128 .f32 := V c main_v27

/-- Their blocks at a grid point. -/
abbrev blkFA (c : Dev nD) (t : Fin cfg3.N) : Vec Ideal S1024x128 .f32 := iblk3 V c 0 t
abbrev blkFB (c : Dev nD) (t : Fin cfg3.N) : Vec Ideal S1024x128 .f32 := iblk3 V c 1 t
abbrev blkLA (c : Dev nD) (t : Fin cfg3.N) : Vec Ideal S1024 .i32 := iblk3 V c 2 t
abbrev blkLB (c : Dev nD) (t : Fin cfg3.N) : Vec Ideal S1024 .i32 := iblk3 V c 3 t
abbrev blkCN (c : Dev nD) (t : Fin cfg3.N) : Vec Ideal S8x128 .f32 := iblk3 V c 4 t

/-- The windows' block indices over the grid: point `t` takes row block `t` of the features and labels, the
    whole centre table, and the one output block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 1) = t.val ∧ win3_3.index t (0 : Fin 1) = t.val
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `r` of the first feature block at point `t` is row `1024 t + r` of the array. -/
theorem blkFA_apply (c : Dev nD) (t : Fin cfg3.N) (ht : t.val < 98) (r : Fin 1024) (d : Fin 128) :
    blkFA V c t (ix2 r d) = arrFA V c (ix2 (LibBlockedSum.blockIdx 98 1024 rfl ⟨t.val, ht⟩ r) d) := by
  show V c main_v127 (((cfg3.win 0).blk t).view.emb (ix2 r d)) = V c main_v127 _
  refine congrArg (V c main_v127) (funext fun a => Fin.ext ?_)
  match a with
  | ⟨0, _⟩ =>
    show win3_0.index t (0 : Fin 2) * 1024 + 1 * r.val = t.val * 1024 + r.val
    rw [(idx_facts t).1]; omega
  | ⟨1, _⟩ =>
    show win3_0.index t (1 : Fin 2) * 128 + 1 * d.val = d.val
    rw [(idx_facts t).2.1]; omega

/-- The same of the second feature block. -/
theorem blkFB_apply (c : Dev nD) (t : Fin cfg3.N) (ht : t.val < 98) (r : Fin 1024) (d : Fin 128) :
    blkFB V c t (ix2 r d) = arrFB V c (ix2 (LibBlockedSum.blockIdx 98 1024 rfl ⟨t.val, ht⟩ r) d) := by
  show V c main_v128 (((cfg3.win 1).blk t).view.emb (ix2 r d)) = V c main_v128 _
  refine congrArg (V c main_v128) (funext fun a => Fin.ext ?_)
  match a with
  | ⟨0, _⟩ =>
    show win3_1.index t (0 : Fin 2) * 1024 + 1 * r.val = t.val * 1024 + r.val
    rw [(idx_facts t).2.2.1]; omega
  | ⟨1, _⟩ =>
    show win3_1.index t (1 : Fin 2) * 128 + 1 * d.val = d.val
    rw [(idx_facts t).2.2.2.1]; omega

/-- Entry `r` of the first label block at point `t` is entry `1024 t + r` of the array. -/
theorem blkLA_apply (c : Dev nD) (t : Fin cfg3.N) (ht : t.val < 98) (r : Fin 1024) :
    blkLA V c t (ix1 r) = arrLA V c (ix1 (LibBlockedSum.blockIdx 98 1024 rfl ⟨t.val, ht⟩ r)) := by
  show V c main_v129 (((cfg3.win 2).blk t).view.emb (ix1 r)) = V c main_v129 _
  refine congrArg (V c main_v129) (funext fun a => Fin.ext ?_)
  match a with
  | ⟨0, _⟩ =>
    show win3_2.index t (0 : Fin 1) * 1024 + 1 * r.val = t.val * 1024 + r.val
    rw [(idx_facts t).2.2.2.2.1]; omega

/-- The same of the second label block. -/
theorem blkLB_apply (c : Dev nD) (t : Fin cfg3.N) (ht : t.val < 98) (r : Fin 1024) :
    blkLB V c t (ix1 r) = arrLB V c (ix1 (LibBlockedSum.blockIdx 98 1024 rfl ⟨t.val, ht⟩ r)) := by
  show V c main_v130 (((cfg3.win 3).blk t).view.emb (ix1 r)) = V c main_v130 _
  refine congrArg (V c main_v130) (funext fun a => Fin.ext ?_)
  match a with
  | ⟨0, _⟩ =>
    show win3_3.index t (0 : Fin 1) * 1024 + 1 * r.val = t.val * 1024 + r.val
    rw [(idx_facts t).2.2.2.2.2.1]; omega

/-- The centre block at every point is the whole centre table. -/
theorem blkCN_apply (c : Dev nD) (t : Fin cfg3.N) (k : Fin 8) (d : Fin 128) :
    blkCN V c t (ix2 k d) = arrCN V c (ix2 k d) := by
  show V c main_v27 (((cfg3.win 4).blk t).view.emb (ix2 k d)) = V c main_v27 _
  refine congrArg (V c main_v27) (funext fun a => Fin.ext ?_)
  match a with
  | ⟨0, _⟩ =>
    show win3_4.index t (0 : Fin 2) * 8 + 1 * k.val = k.val
    rw [(idx_facts t).2.2.2.2.2.2.1]; omega
  | ⟨1, _⟩ =>
    show win3_4.index t (1 : Fin 2) * 128 + 1 * d.val = d.val
    rw [(idx_facts t).2.2.2.2.2.2.2.1]; omega

/-! ## A point's contribution, in the arrays' rows -/

/-- The label term depends on the centre table, on the row's features and on the row's label only. -/
theorem simTerm_congr {N N' : ℕ} (cnv cnv' : Spec.A2 8 128) (f : Spec.A2 N 128) (f' : Spec.A2 N' 128)
    (lab : Fin N → BitVec 32) (lab' : Fin N' → BitVec 32) (i : Fin N) (i' : Fin N')
    (hc : cnv = cnv') (hf : f i = f' i') (hl : lab i = lab' i') :
    Spec.simTerm cnv f lab i = Spec.simTerm cnv' f' lab' i' := by
  subst hc
  unfold Spec.simTerm Spec.rowUnit
  rw [hl, hf]

/-- The label term of row `i` of the first padded feature array, and of the second. -/
abbrev termA (c : Dev nD) (i : Fin 100352) : EReal :=
  Spec.simTerm (Spec.of2 (arrCN V c)) (Spec.of2 (arrFA V c)) (Spec.ofLab (arrLA V c)) i
abbrev termB (c : Dev nD) (i : Fin 100352) : EReal :=
  Spec.simTerm (Spec.of2 (arrCN V c)) (Spec.of2 (arrFB V c)) (Spec.ofLab (arrLB V c)) i

/-- What grid point `a` adds: the label terms of rows `1024 a … 1024 a + 1023` of the first array, plus those of
    the second. -/
def gPt (c : Dev nD) (a : Fin 98) : EReal :=
  (∑ r : Fin 1024, termA V c (LibBlockedSum.blockIdx 98 1024 rfl a r))
    + ∑ r : Fin 1024, termB V c (LibBlockedSum.blockIdx 98 1024 rfl a r)

theorem blockTermA_eq (c : Dev nD) (t : Fin cfg3.N) (ht : t.val < 98) :
    blockTerm (blkCN V c t) (blkFA V c t) (blkLA V c t)
      = ∑ r : Fin 1024, termA V c (LibBlockedSum.blockIdx 98 1024 rfl ⟨t.val, ht⟩ r) := by
  unfold blockTerm
  refine Finset.sum_congr rfl fun r _ => ?_
  refine simTerm_congr _ _ _ _ _ _ r _ ?_ ?_ ?_
  · funext k d; exact blkCN_apply V c t k d
  · funext d; exact blkFA_apply V c t ht r d
  · exact blkLA_apply V c t ht r

theorem blockTermB_eq (c : Dev nD) (t : Fin cfg3.N) (ht : t.val < 98) :
    blockTerm (blkCN V c t) (blkFB V c t) (blkLB V c t)
      = ∑ r : Fin 1024, termB V c (LibBlockedSum.blockIdx 98 1024 rfl ⟨t.val, ht⟩ r) := by
  unfold blockTerm
  refine Finset.sum_congr rfl fun r _ => ?_
  refine simTerm_congr _ _ _ _ _ _ r _ ?_ ?_ ?_
  · funext k d; exact blkCN_apply V c t k d
  · funext d; exact blkFB_apply V c t ht r d
  · exact blkLB_apply V c t ht r

/-- The body's value at point `t`: what the block held plus the point's contribution. -/
theorem point_value (c : Dev nD) (t : Fin cfg3.N) (ht : t.val < 98)
    (hA : ∀ i : Fin 100352, (arrLA V c (ix1 i)).toInt < 8) (hB : ∀ i : Fin 100352, (arrLB V c (ix1 i)).toInt < 8)
    (prev : Vec Ideal S1x1 .f32) (j : S1x1.Idx) :
    body (F := Ideal) (blkFA V c t) (blkFB V c t) (blkLA V c t) (blkLB V c t) (blkCN V c t) prev j = prev j + gPt V c ⟨t.val, ht⟩ := by
  rw [body_apply (blkFA V c t) (blkFB V c t) (blkLA V c t) (blkLB V c t) (blkCN V c t) prev
      (fun r => by rw [blkLA_apply V c t ht r]; exact hA _) (fun r => by rw [blkLB_apply V c t ht r]; exact hB _) j,
    blockTermA_eq V c t ht, blockTermB_eq V c t ht]
  rfl

/-! ## The accumulation over the grid -/

/-- After point `n` the output block holds the contributions of points `0 … n`, summed. -/
theorem outsAt_eq (c : Dev nD)
    (hA : ∀ i : Fin 100352, (arrLA V c (ix1 i)).toInt < 8) (hB : ∀ i : Fin 100352, (arrLB V c (ix1 i)).toInt < 8) :
    ∀ (n : ℕ) (h : n < cfg3.N), outsAt3 V c n h = fun _ => LibBlockedSum.upto 98 (gPt V c) n
  | 0, h => by
    refine ((outsAt3_A V c ⟨0, h⟩ rfl).trans (out_A (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩)
      ((hcond3_0 ⟨0, h⟩).mpr rfl) (blkFA V c ⟨0, h⟩) (blkFB V c ⟨0, h⟩) (blkLA V c ⟨0, h⟩) (blkLB V c ⟨0, h⟩) (blkCN V c ⟨0, h⟩))).trans (funext fun j => ?_)
    rw [point_value V c ⟨0, h⟩ (show (0 : ℕ) < 98 by decide) hA hB, LibBlockedSum.upto_zero 98 _ (by decide)]
    show Ideal.ofBits .f32 0x00000000#32 + _ = _
    rw [Ideal.ofBits_zero_f32, zero_add]
  | n + 1, h => by
    have hN : cfg3.N = 98 := N_3
    have hn : n + 1 < 98 := by omega
    have hBc : ¬(⟨n + 1, h⟩ : Fin cfg3.N).val % 98 = 0 := by dsimp only; omega
    refine ((outsAt3_B V c ⟨n + 1, h⟩ hBc).trans (out_B (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩)
      (fun hh => hBc ((hcond3_0 ⟨n + 1, h⟩).mp hh)) (blkFA V c ⟨n + 1, h⟩) (blkFB V c ⟨n + 1, h⟩) (blkLA V c ⟨n + 1, h⟩) (blkLB V c ⟨n + 1, h⟩) (blkCN V c ⟨n + 1, h⟩)
      (outsAt3 V c n (Nat.lt_of_succ_lt h)))).trans (funext fun j => ?_)
    rw [point_value V c ⟨n + 1, h⟩ hn hA hB, LibBlockedSum.upto_succ 98 _ n hn, outsAt_eq c hA hB n]

end Points

/-! ## The output array after the region -/

section Final
variable (V : (c : Dev nD) → (b : Ref sig .tc) → Buf (Elt Ideal) ((c : Thread nD τ).loc b))

/-- All 98 points' contributions are the two sums over the 100352 padded rows: a sum over the rows is the double sum
    over the 98 blocks of 1024 rows. -/
theorem total_eq (c : Dev nD) :
    LibBlockedSum.upto 98 (gPt V c) 97
      = Spec.simSumP (Spec.of2 (V c main_v27)) (Spec.of2 (V c main_v127)) (Spec.ofLab (V c main_v129))
        + Spec.simSumP (Spec.of2 (V c main_v27)) (Spec.of2 (V c main_v128)) (Spec.ofLab (V c main_v130)) := by
  rw [LibBlockedSum.upto_last 98 _ 97 (by decide)]
  unfold gPt
  rw [Finset.sum_add_distrib, ← LibBlockedSum.sum_blocks 98 1024 rfl (termA V c),
    ← LibBlockedSum.sum_blocks 98 1024 rfl (termB V c)]
  rfl

/-- The last grid point. -/
abbrev tLast : Fin cfg3.N := ⟨97, lt_of_lt_of_eq (by decide) N_3.symm⟩

/-- The label kernel's result: after the region the `[1, 1]` output array holds the label term summed over all the
    padded rows of the first feature array, plus the same of the second — provided every label is below 8. -/
theorem labelsim_value (c : Dev nD)
    (hA : ∀ i, ((V c main_v129 : S100352.Idx → BitVec 32) i).toInt < 8)
    (hB : ∀ i, ((V c main_v130 : S100352.Idx → BitVec 32) i).toInt < 8) :
    ((dat3 (F := Ideal) V c).arrAt 5 cfg3.N : S1x1.Idx → EReal)
      = fun _ => Spec.simSumP (Spec.of2 (V c main_v27)) (Spec.of2 (V c main_v127)) (Spec.ofLab (V c main_v129))
        + Spec.simSumP (Spec.of2 (V c main_v27)) (Spec.of2 (V c main_v128)) (Spec.ofLab (V c main_v130)) := by
  have hN : cfg3.N = 98 := N_3
  have hA' : ∀ i : Fin 100352, (arrLA V c (ix1 i)).toInt < 8 := fun i => hA _
  have hB' : ∀ i : Fin 100352, (arrLB V c (ix1 i)).toInt < 8 := fun i => hB _
  rw [← total_eq V c]
  refine (dat3 V c).arrAt_eq_of_cover 5 (fun _ => (LibBlockedSum.upto 98 (gPt V c) 97 : EReal)) (fun t hf => ?_) (fun i => ?_)
  · have h97 : t.val = 97 := by have := (flush3_5 t).mp hf; have := t.isLt; omega
    show (cfg3.win 5).cut (grid3.coords t) ((dat3 V c).after 5 t) = _
    rw [after3_5, outsAt_eq V c hA' hB' t.val t.isLt, h97]
    rfl
  · refine ⟨tLast, (flush3_5 tLast).mpr rfl, ?_⟩
    show i ∈ ((View.whole main_v131).slice (win3_5.rect tLast)).set
    rw [View.set_slice_whole, Rect.mem_set_unit]
    intro a
    match a with
    | ⟨0, _⟩ =>
      show win3_5.index tLast (0 : Fin 2) * 1 ≤ (i 0 : ℕ) ∧ (i 0 : ℕ) < win3_5.index tLast (0 : Fin 2) * 1 + 1
      have h0 : (i 0 : ℕ) < 1 := (i 0).isLt
      rw [(idx_facts tLast).2.2.2.2.2.2.2.2.1]; omega
    | ⟨1, _⟩ =>
      show win3_5.index tLast (1 : Fin 2) * 1 ≤ (i 1 : ℕ) ∧ (i 1 : ℕ) < win3_5.index tLast (1 : Fin 2) * 1 + 1
      have h1 : (i 1 : ℕ) < 1 := (i 1).isLt
      rw [(idx_facts tLast).2.2.2.2.2.2.2.2.2]; omega

end Final

end Cert.KernelIdeal.KBodyD

end
-- ==== Proof.KAsm.lean ====
/-
  The kernel program's two results as the index-by-index mathematics, assembled from its parts: what each stretch of
  host operations computes from the buffers it reads, what each of the four grid computations leaves in its output
  array, and which buffers pass unchanged from one boundary to a later one.  Each part is a theorem for arbitrary
  contents at its entry; the chain instantiates them boundary by boundary from the launch memory.

  The chain: the gated, row-normalised weight w, the unit centres and the flattened input x at the first grid's entry;
  z = x·w and its raw covariance Σ_n z_k z_l; the channel scales 1/m_k and the whitening loss of z; the ten bilinear
  channels P of the scaled z and their raw covariance; their scales and loss; the scaled P, which is the first result
  after unflattening; the two feature sets and labels padded to whole blocks, the label term over the padded rows, which
  is the label term over the rows; and the sum of the two losses and the label term, the second result.
-/
import proofs.«414715_j46866683134133_3_alg».proof.Proof.Gen.KernelIdeal.Frame
import proofs.«414715_j46866683134133_3_alg».proof.Proof.Spec
import proofs.«414715_j46866683134133_3_alg».proof.Proof.KKeep
import proofs.«414715_j46866683134133_3_alg».proof.Proof.KHost0
import proofs.«414715_j46866683134133_3_alg».proof.Proof.KHost1
import proofs.«414715_j46866683134133_3_alg».proof.Proof.KHost2
import proofs.«414715_j46866683134133_3_alg».proof.Proof.KHost3
import proofs.«414715_j46866683134133_3_alg».proof.Proof.KBodyA
import proofs.«414715_j46866683134133_3_alg».proof.Proof.KBodyB4
import proofs.«414715_j46866683134133_3_alg».proof.Proof.KBodyC
import proofs.«414715_j46866683134133_3_alg».proof.Proof.KBodyD
import proofs.«414715_j46866683134133_3_alg».proof.Proof.Algebra
import Idealize.ShloMosaic.Lib.ValueIdx

noncomputable section

namespace Cert.KernelIdeal.KAsm

open Idealize.ShloMosaic Idealize.ShloMosaic.TcCoe

/-! ## The chain from the launch memory -/

section Chain
variable (m : (ℓ : Loc nD τ sig) → Buf (Elt Ideal) ℓ) (ρ : Dev nD → PrngReg) (c : Dev nD)

/-- The inputs, read off the launch memory. -/
abbrev xIn (hx : S1024x6x30x9x9.ShapeCasts S1024x6x2430) : Spec.A3 1024 6 2430 :=
  Spec.x3of (m ((c : Thread nD τ).loc main_arg0) : S1024x6x30x9x9.Idx → EReal) hx
abbrev cwIn : Spec.A2 5 6 := Spec.of2 (m ((c : Thread nD τ).loc main_arg3) : S5x6.Idx → EReal)
abbrev gIn : Spec.A2 5 6 := Spec.of2 (m ((c : Thread nD τ).loc main_arg4) : S5x6.Idx → EReal)
abbrev cfIn : Spec.A2 8 128 := Spec.of2 (m ((c : Thread nD τ).loc main_arg5) : S8x128.Idx → EReal)
abbrev fAIn : Spec.A2 100000 128 := Spec.of2 (m ((c : Thread nD τ).loc main_arg1) : S100000x128.Idx → EReal)
abbrev fBIn : Spec.A2 100000 128 := Spec.of2 (m ((c : Thread nD τ).loc main_arg2) : S100000x128.Idx → EReal)
abbrev lAIn : Fin 100000 → BitVec 32 := Spec.ofLab (m ((c : Thread nD τ).loc main_arg6) : S100000.Idx → BitVec 32)
abbrev lBIn : Fin 100000 → BitVec 32 := Spec.ofLab (m ((c : Thread nD τ).loc main_arg7) : S100000.Idx → BitVec 32)

/-- The channel mix z and the ten bilinear channels P of the scaled mix. -/
abbrev zK (hx : S1024x6x30x9x9.ShapeCasts S1024x6x2430) : Spec.A3 1024 5 2430 :=
  Spec.zmix (xIn m c hx) (Spec.wn (cwIn m c) (Spec.gbin (gIn m c)))
abbrev pK (hx : S1024x6x30x9x9.ShapeCasts S1024x6x2430) : Spec.A3 1024 10 2430 :=
  Spec.pairs (Spec.nrmK (zK m c hx))

/-! ### At the first grid's entry -/

theorem w5 :
    Spec.of2 (Gen.W5 m ρ c (Proc.devRef .tc main_v22) : S5x6.Idx → EReal) = Spec.wn (cwIn m c) (Spec.gbin (gIn m c)) :=
  KHost0.wn_eq (Gen.W0 m ρ c)

theorem c5 :
    Spec.of2 (Gen.W5 m ρ c (Proc.devRef .tc main_v27) : S8x128.Idx → EReal) = Spec.rowUnit (cfIn m c) :=
  KHost0.cnv_eq (Gen.W0 m ρ c)

theorem x5 (hx : S1024x6x30x9x9.ShapeCasts S1024x6x2430) :
    Spec.of3 (Gen.W5 m ρ c (Proc.devRef .tc main_v28) : S1024x6x2430.Idx → EReal) = xIn m c hx :=
  KHost0.x3_eq (Gen.W0 m ρ c)

/-! ### The first grid and the stretches after it -/

theorem cov6 (hx : S1024x6x30x9x9.ShapeCasts S1024x6x2430) :
    Spec.of3 (Gen.W6 m ρ c (Proc.devRef .tc main_v29) : S1024x5x5.Idx → EReal) = Spec.covRaw (zK m c hx) := by
  have e := KBodyA.passA (Gen.V5 m ρ) c
  have e28 : Spec.of3 (Gen.V5 m ρ c main_v28 : S1024x6x2430.Idx → EReal) = xIn m c hx := x5 m ρ c hx
  have e22 : Spec.of2 (Gen.V5 m ρ c main_v22 : S5x6.Idx → EReal) = Spec.wn (cwIn m c) (Spec.gbin (gIn m c)) :=
    w5 m ρ c
  rw [e28, e22] at e
  rw [← e]
  exact congrArg Spec.of3 (KKeep.W6_main_v29 m ρ c)

theorem sK9 (hx : S1024x6x30x9x9.ShapeCasts S1024x6x2430) :
    (fun k : Fin 5 => (Gen.W9 m ρ c (Proc.devRef .tc main_v41) : S5.Idx → EReal) (ValueIdx.ix1 k))
      = Spec.sK (zK m c hx) :=
  KHost1.scales_eq (Gen.W6 m ρ c) (zK m c hx) (cov6 m ρ c hx)

theorem loss9 (hx : S1024x6x30x9x9.ShapeCasts S1024x6x2430) :
    (Gen.W9 m ρ c (Proc.devRef .tc main_v76) : S_.Idx → EReal) = fun _ => Spec.lossTail (Spec.covK (zK m c hx)) :=
  KHost1.loss_eq (Gen.W6 m ρ c) (zK m c hx) (cov6 m ρ c hx)

/-! ### The second grid and the stretches after it -/

theorem cov10 (hx : S1024x6x30x9x9.ShapeCasts S1024x6x2430) :
    Spec.of3 (Gen.W10 m ρ c (Proc.devRef .tc main_v77) : S1024x10x10.Idx → EReal) = Spec.covRaw (pK m c hx) := by
  have e := KBodyB.passB_value (Gen.V9 m ρ) c
  have e28 : Spec.of3 (Gen.V9 m ρ c main_v28 : S1024x6x2430.Idx → EReal) = xIn m c hx :=
    (congrArg Spec.of3 (KKeep.W9_main_v28 m ρ c)).trans (x5 m ρ c hx)
  have e22 : Spec.of2 (Gen.V9 m ρ c main_v22 : S5x6.Idx → EReal) = Spec.wn (cwIn m c) (Spec.gbin (gIn m c)) :=
    (congrArg Spec.of2 (KKeep.W9_main_v22 m ρ c)).trans (w5 m ρ c)
  have es : ∀ k : Fin 5, (Gen.V9 m ρ c main_v41 : S5.Idx → EReal) (ValueIdx.ix1 k) = Spec.sK (zK m c hx) k :=
    fun k => congrFun (sK9 m ρ c hx) k
  rw [e28, e22] at e
  simp only [es] at e
  rw [← show Spec.of3 (Gen.W10 m ρ c (Proc.devRef .tc main_v77) : S1024x10x10.Idx → EReal)
      = Spec.of3 ((Gen.dat1 (Gen.V9 m ρ) c).arrAt 3 cfg1.N : S1024x10x10.Idx → EReal)
    from congrArg Spec.of3 (KKeep.W10_main_v77 m ρ c)] at e
  exact e

theorem sK13 (hx : S1024x6x30x9x9.ShapeCasts S1024x6x2430) :
    (fun k : Fin 10 => (Gen.W13 m ρ c (Proc.devRef .tc main_v89) : S10.Idx → EReal) (ValueIdx.ix1 k))
      = Spec.sK (pK m c hx) :=
  KHost2.scales_eq (Gen.W10 m ρ c) (pK m c hx) (cov10 m ρ c hx)

theorem loss13 (hx : S1024x6x30x9x9.ShapeCasts S1024x6x2430) :
    (Gen.W13 m ρ c (Proc.devRef .tc main_v124) : S_.Idx → EReal) = fun _ => Spec.lossTail (Spec.covK (pK m c hx)) :=
  KHost2.loss_eq (Gen.W10 m ρ c) (pK m c hx) (cov10 m ρ c hx)

/-! ### The third grid: the first result -/

theorem out14 (hx : S1024x6x30x9x9.ShapeCasts S1024x6x2430) :
    Spec.of3 (Gen.W14 m ρ c (Proc.devRef .tc main_v125) : S1024x10x2430.Idx → EReal)
      = Spec.outK (xIn m c hx) (cwIn m c) (gIn m c) := by
  have e := KBodyC.passC (Gen.V13 m ρ) c
  have e28 : Spec.of3 (Gen.V13 m ρ c main_v28 : S1024x6x2430.Idx → EReal) = xIn m c hx :=
    (congrArg Spec.of3 (KKeep.W13_main_v28 m ρ c)).trans (x5 m ρ c hx)
  have e22 : Spec.of2 (Gen.V13 m ρ c main_v22 : S5x6.Idx → EReal) = Spec.wn (cwIn m c) (Spec.gbin (gIn m c)) :=
    (congrArg Spec.of2 (KKeep.W13_main_v22 m ρ c)).trans (w5 m ρ c)
  have k41 : (Gen.V13 m ρ c main_v41 : S5.Idx → EReal) = Gen.W9 m ρ c (Proc.devRef .tc main_v41) :=
    KKeep.W13_main_v41 m ρ c
  have es : ∀ k : Fin 5, (Gen.V13 m ρ c main_v41 : S5.Idx → EReal) (ValueIdx.ix1 k) = Spec.sK (zK m c hx) k :=
    fun k => (congrFun k41 (ValueIdx.ix1 k)).trans (congrFun (sK9 m ρ c hx) k)
  have ep : ∀ p : Fin 10, (Gen.V13 m ρ c main_v89 : S10.Idx → EReal) (ValueIdx.ix1 p) = Spec.sK (pK m c hx) p :=
    fun p => congrFun (sK13 m ρ c hx) p
  rw [e28, e22] at e
  simp only [es, ep] at e
  rw [← show Spec.of3 (Gen.W14 m ρ c (Proc.devRef .tc main_v125) : S1024x10x2430.Idx → EReal)
      = Spec.of3 ((Gen.dat2 (Gen.V13 m ρ) c).arrAt 4 cfg2.N : S1024x10x2430.Idx → EReal)
    from congrArg Spec.of3 (KKeep.W14_main_v125 m ρ c)] at e
  exact e

theorem out24 (hx : S1024x6x30x9x9.ShapeCasts S1024x6x2430) (ho : S1024x10x2430.ShapeCasts S1024x10x30x9x9)
    :
    (Gen.W24 m ρ c (Proc.devRef .tc main_v126) : S1024x10x30x9x9.Idx → EReal)
      = Spec.out5of (Spec.outK (xIn m c hx) (cwIn m c) (gIn m c)) ho :=
  (KKeep.W24_main_v126 m ρ c).trans ((KHost3.out5 (Gen.W14 m ρ c)).trans
    (congrArg (fun a => Spec.out5of a ho) (out14 m ρ c hx)))

/-! ### The paddings, the fourth grid and the second result -/

theorem fA22 :
    Spec.of2 (Gen.W22 m ρ c (Proc.devRef .tc main_v127) : S100352x128.Idx → EReal) = KHost3.padRows (fAIn m c) := by
  have k : (Gen.W15 m ρ c (Proc.devRef .tc main_arg1) : S100000x128.Idx → EReal) = m ((c : Thread nD τ).loc main_arg1) :=
    KKeep.W15_main_arg1 m ρ c
  exact (KHost3.rowsA1 (Gen.W15 m ρ c) (KHost3.c33 (Gen.W14 m ρ c))).trans
    (congrArg (fun a => KHost3.padRows (Spec.of2 a)) k)

theorem fB22 :
    Spec.of2 (Gen.W22 m ρ c (Proc.devRef .tc main_v128) : S100352x128.Idx → EReal) = KHost3.padRows (fBIn m c) := by
  have k : (Gen.W15 m ρ c (Proc.devRef .tc main_arg2) : S100000x128.Idx → EReal) = m ((c : Thread nD τ).loc main_arg2) :=
    KKeep.W15_main_arg2 m ρ c
  exact (KHost3.rowsB1 (Gen.W15 m ρ c)).trans (congrArg (fun a => KHost3.padRows (Spec.of2 a)) k)

theorem lA22 :
    Spec.ofLab (Gen.W22 m ρ c (Proc.devRef .tc main_v129) : S100352.Idx → BitVec 32) = KHost3.padLab (lAIn m c) := by
  have k : (Gen.W15 m ρ c (Proc.devRef .tc main_arg6) : S100000.Idx → BitVec 32) = m ((c : Thread nD τ).loc main_arg6) :=
    KKeep.W15_main_arg6 m ρ c
  exact (KHost3.labA1 (Gen.W15 m ρ c)).trans (congrArg (fun a => KHost3.padLab (Spec.ofLab a)) k)

theorem lB22 :
    Spec.ofLab (Gen.W22 m ρ c (Proc.devRef .tc main_v130) : S100352.Idx → BitVec 32) = KHost3.padLab (lBIn m c) := by
  have k : (Gen.W15 m ρ c (Proc.devRef .tc main_arg7) : S100000.Idx → BitVec 32) = m ((c : Thread nD τ).loc main_arg7) :=
    KKeep.W15_main_arg7 m ρ c
  exact (KHost3.labB1 (Gen.W15 m ρ c)).trans (congrArg (fun a => KHost3.padLab (Spec.ofLab a)) k)

/-- A padded label vector stays below 8 at every index of the buffer that holds it. -/
theorem lab_lt (a : S100352.Idx → BitVec 32) (l : Fin 100000 → BitVec 32)
    (e : Spec.ofLab a = KHost3.padLab l) (hl : ∀ i, (l i).toInt < 8) : ∀ i, (a i).toInt < 8 := by
  intro i
  have h := KHost3.padLab_lt l hl (i 0)
  rw [← e] at h
  rw [ValueIdx.eq_ix1 i]
  exact h

theorem sim23
    (hlA : ∀ i, ((m ((c : Thread nD τ).loc main_arg6) : S100000.Idx → BitVec 32) i).toInt < 8)
    (hlB : ∀ i, ((m ((c : Thread nD τ).loc main_arg7) : S100000.Idx → BitVec 32) i).toInt < 8) :
    (Gen.W23 m ρ c (Proc.devRef .tc main_v131) : S1x1.Idx → EReal)
      = fun _ => Spec.simSum (Spec.rowUnit (cfIn m c)) (fAIn m c) (lAIn m c)
          + Spec.simSum (Spec.rowUnit (cfIn m c)) (fBIn m c) (lBIn m c) := by
  have eA := lA22 m ρ c
  have eB := lB22 m ρ c
  have e := KBodyD.labelsim_value (Gen.V22 m ρ) c
    (lab_lt _ (lAIn m c) eA fun i => hlA (ValueIdx.ix1 i))
    (lab_lt _ (lBIn m c) eB fun i => hlB (ValueIdx.ix1 i))
  have e27 : Spec.of2 (Gen.V22 m ρ c main_v27 : S8x128.Idx → EReal) = Spec.rowUnit (cfIn m c) :=
    (congrArg Spec.of2 (KKeep.W22_main_v27 m ρ c)).trans (c5 m ρ c)
  have e127 : Spec.of2 (Gen.V22 m ρ c main_v127 : S100352x128.Idx → EReal) = KHost3.padRows (fAIn m c) := fA22 m ρ c
  have e128 : Spec.of2 (Gen.V22 m ρ c main_v128 : S100352x128.Idx → EReal) = KHost3.padRows (fBIn m c) := fB22 m ρ c
  have e129 : Spec.ofLab (Gen.V22 m ρ c main_v129 : S100352.Idx → BitVec 32) = KHost3.padLab (lAIn m c) := eA
  have e130 : Spec.ofLab (Gen.V22 m ρ c main_v130 : S100352.Idx → BitVec 32) = KHost3.padLab (lBIn m c) := eB
  rw [e27, e127, e128, e129, e130, KHost3.simSumP_pad Spec.c0_eq, KHost3.simSumP_pad Spec.c0_eq] at e
  exact (KKeep.W23_main_v131 m ρ c).trans e

theorem loss24 (hx : S1024x6x30x9x9.ShapeCasts S1024x6x2430)

    (hlA : ∀ i, ((m ((c : Thread nD τ).loc main_arg6) : S100000.Idx → BitVec 32) i).toInt < 8)
    (hlB : ∀ i, ((m ((c : Thread nD τ).loc main_arg7) : S100000.Idx → BitVec 32) i).toInt < 8) :
    (Gen.W24 m ρ c (Proc.devRef .tc main_v134) : S_.Idx → EReal)
      = fun _ => Spec.lossK (xIn m c hx) (cwIn m c) (gIn m c) (cfIn m c) (fAIn m c) (fBIn m c) (lAIn m c) (lBIn m c) := by
  have e76 : (Gen.W23 m ρ c (Proc.devRef .tc main_v76) : S_.Idx → EReal)
      = fun _ => Spec.lossTail (Spec.covK (zK m c hx)) :=
    (KKeep.W23_main_v76 m ρ c).trans (loss9 m ρ c hx)
  have e124 : (Gen.W23 m ρ c (Proc.devRef .tc main_v124) : S_.Idx → EReal)
      = fun _ => Spec.lossTail (Spec.covK (pK m c hx)) :=
    (KKeep.W23_main_v124 m ρ c).trans (loss13 m ρ c hx)
  have e131 := sim23 m ρ c hlA hlB
  have e := KHost3.lossSum_of (Gen.W23 m ρ c) _ _ _ e76 e124 e131
  exact e

end Chain

/-! ## The two results -/

/-- The kernel program's two result buffers at the final boundary are the specification's two results of the inputs
    at launch, labels below 8. -/
theorem kernel_results (hx : (⟨5, ![1024, 6, 30, 9, 9]⟩ : Shape).ShapeCasts ⟨3, ![1024, 6, 2430]⟩)
    (ho : (⟨3, ![1024, 10, 2430]⟩ : Shape).ShapeCasts ⟨5, ![1024, 10, 30, 9, 9]⟩)
    :
    ∀ (m : (ℓ : Loc nD τ sig) → Buf (Elt Ideal) ℓ) (ρ : Dev nD → PrngReg) (c : Dev nD),
      (∀ i, ((m ((c.tc : Thread nD τ).loc main_arg6) : (⟨1, ![100000]⟩ : Shape).Idx → BitVec 32) i).toInt < 8) →
      (∀ i, ((m ((c.tc : Thread nD τ).loc main_arg7) : (⟨1, ![100000]⟩ : Shape).Idx → BitVec 32) i).toInt < 8) →
      (Gen.W24 m ρ c (Proc.devRef .tc main_v126) : (⟨5, ![1024, 10, 30, 9, 9]⟩ : Shape).Idx → EReal)
          = Spec.out5of (Spec.outK
              (Spec.x3of (m ((c.tc : Thread nD τ).loc main_arg0) : (⟨5, ![1024, 6, 30, 9, 9]⟩ : Shape).Idx → EReal) hx)
              (Spec.of2 (m ((c.tc : Thread nD τ).loc main_arg3) : (⟨2, ![5, 6]⟩ : Shape).Idx → EReal))
              (Spec.of2 (m ((c.tc : Thread nD τ).loc main_arg4) : (⟨2, ![5, 6]⟩ : Shape).Idx → EReal))) ho
      ∧ (Gen.W24 m ρ c (Proc.devRef .tc main_v134) : (⟨0, ![]⟩ : Shape).Idx → EReal)
          = fun _ => Spec.lossK
              (Spec.x3of (m ((c.tc : Thread nD τ).loc main_arg0) : (⟨5, ![1024, 6, 30, 9, 9]⟩ : Shape).Idx → EReal) hx)
              (Spec.of2 (m ((c.tc : Thread nD τ).loc main_arg3) : (⟨2, ![5, 6]⟩ : Shape).Idx → EReal))
              (Spec.of2 (m ((c.tc : Thread nD τ).loc main_arg4) : (⟨2, ![5, 6]⟩ : Shape).Idx → EReal))
              (Spec.of2 (m ((c.tc : Thread nD τ).loc main_arg5) : (⟨2, ![8, 128]⟩ : Shape).Idx → EReal))
              (Spec.of2 (m ((c.tc : Thread nD τ).loc main_arg1) : (⟨2, ![100000, 128]⟩ : Shape).Idx → EReal))
              (Spec.of2 (m ((c.tc : Thread nD τ).loc main_arg2) : (⟨2, ![100000, 128]⟩ : Shape).Idx → EReal))
              (Spec.ofLab (m ((c.tc : Thread nD τ).loc main_arg6) : (⟨1, ![100000]⟩ : Shape).Idx → BitVec 32))
              (Spec.ofLab (m ((c.tc : Thread nD τ).loc main_arg7) : (⟨1, ![100000]⟩ : Shape).Idx → BitVec 32)) :=
  fun m ρ c hlA hlB =>
    ⟨out24 m ρ c hx ho, loss24 m ρ c hx hlA hlB⟩

end Cert.KernelIdeal.KAsm

end
-- ==== Proof.RPart0.lean ====
/-
  The first thirty-seven values of the reference program, read index by index over the extended reals.

  * %0 … %24: the gate g is binarised as (sign g + 1)/2 and written in its straight-through form g + (g_bin − g); the
    5×6 weight is multiplied by the mask (1 − g)·eye + g·1, where eye compares the row number with the column number;
    each row is divided by max(√(Σ_c w[k,c]²), 1e-12).  That is `Spec.wn` of the weight and `Spec.gste` of the gate.
  * %25 … %36: the input x[b, c, h, i, j] is flattened to x[b, c, n], its positions moved before its channels, and
    sample and position made one row number r = b·2430 + n; the 2488320×6 array is multiplied by the transposed
    weight, z[r, k] = Σ_c x[r, c]·w[k, c]; each column k is divided by max(√(Σ_r z[r,k]²), 1e-6), the sum over all
    2488320 rows being the double sum over the 1024 samples and the 2430 positions of a sample; the rows are then
    unflattened and the channels moved back before the positions.  That is `Spec.nrmR` of `Spec.zmix`.

  Each stretch is first written as one whole-array term of its arguments and read at an index; the program's buffers
  after its first fifty-six operations hold those terms.
-/
import proofs.«414715_j46866683134133_3_alg».proof.ReferenceIdeal
import proofs.«414715_j46866683134133_3_alg».proof.Proof.Gen.ReferenceIdeal
import proofs.«414715_j46866683134133_3_alg».proof.Proof.Spec
import proofs.«414715_j46866683134133_3_alg».proof.Proof.LibBlockedSum
import proofs.«414715_j46866683134133_3_alg».proof.Proof.RefOps
import Idealize.ShloMosaic.Lib.StableHlo.Run
import Idealize.ShloMosaic.Lib.IdealHost
import Idealize.ShloMosaic.Lib.StackMember
import Idealize.ShloMosaic.Lib.Pipeline.Value
import Idealize.ShloMosaic.PureOps.Ideal.Laws

noncomputable section

namespace Cert.ReferenceIdeal.RPart0

open Cert.ReferenceIdeal Idealize.ShloMosaic Idealize.ShloMosaic.ValueIdx
open scoped BigOperators

/-! ## The two stretches as whole-array terms, for any float values

Which array operations the program applies, in which order, does not depend on what a float is: the terms and the
statement that the buffers hold them are for every float instance; only the reading at an index below is over the
extended reals. -/

section Terms
variable {F : FTy → Type} [FloatOps F]

/-- A float word spread over an array. -/
def splat (T : Shape) (h : S_.BroadcastsInDim T (![] : Fin 0 → Fin T.rank)) (w : BitVec 32) : FVec F T .f32 :=
  broadcastInDim T ![] h (constant (F := F) S_ .f32 w)

/-- The straight-through gate g + ((sign g + 1)/2 − g). -/
def gsteT (g : FVec F S5x6 .f32) : FVec F S5x6 .f32 :=
  addf g (subf (Host.divf (addf (Host.sign g) (splat S5x6 Gen.bcast_S_S5x6 0x3F800000#32)) (splat S5x6 Gen.bcast_S_S5x6 0x40000000#32)) g)

/-- The diagonal's indicator: row number against column number as 32-bit words, the answer bit as a float. -/
def eyeT : FVec F S5x6 .f32 :=
  uitofp .f32 (cmpi .eq (addi (iotaInDim S5x6 32 0) (broadcastInDim S5x6 ![] Gen.bcast_S_S5x6 (constantI S_ 32 0#32))) (iotaInDim S5x6 32 1))

/-- The weight under the mask (1 − g)·eye + g·1. -/
def wpreT (cw g : FVec F S5x6 .f32) : FVec F S5x6 .f32 :=
  mulf cw (addf (mulf (subf (splat S5x6 Gen.bcast_S_S5x6 0x3F800000#32) (gsteT g)) eyeT)
    (mulf (gsteT g) (splat S5x6 Gen.bcast_S_S5x6 0x3F800000#32)))

/-- Each row of a 5×6 array divided by max(its Euclidean norm, 1e-12): the squares summed along the row from 0.0, kept as a
    column, its root, the floor, spread back over the row. -/
def rowUnitT (w : FVec F S5x6 .f32) : FVec F S5x6 .f32 :=
  Host.divf w (broadcastInDim S5x6 ![0, 1] Gen.bcast_S5x1_S5x6_0_1
    (maximumf (Host.sqrt (broadcastInDim S5x1 ![0] Gen.bcast_S5_S5x1_0
        (Host.reduceAdd (mulf w w) (constant (F := F) S_ .f32 0x00000000#32) Gen.reducesTo_S5x6_S5_d1 Gen.h_S_)))
      (splat S5x1 Gen.bcast_S_S5x1 0x2B8CBCCC#32)))

/-- The gated, row-normalised weight. -/
def wnT (cw g : FVec F S5x6 .f32) : FVec F S5x6 .f32 := rowUnitT (wpreT cw g)

/-- The input with its three trailing axes flattened, positions moved before channels, and sample and position made
    one row number: a 2488320×6 array. -/
def xrowsT (X : FVec F S1024x6x30x9x9 .f32) : FVec F S2488320x6 .f32 :=
  shapeCast S2488320x6
    (transpose S1024x2430x6 [0, 2, 1] (shapeCast S1024x6x2430 X Gen.shapeCasts_S1024x6x30x9x9_S1024x6x2430)
      Gen.transposes_S1024x6x2430_S1024x2430x6_0_2_1)
    Gen.shapeCasts_S1024x2430x6_S2488320x6

/-- The product of the flattened input with the transposed weight: row r = b·2430 + n, channel k. -/
def zrowsT (X : FVec F S1024x6x30x9x9 .f32) (w : FVec F S5x6 .f32) : FVec F S2488320x5 .f32 :=
  Host.dotGeneral dot_S2488320x6_S6x5_S2488320x5_1_0_0_1_n_n none (xrowsT X) (transpose S6x5 [1, 0] w Gen.transposes_S5x6_S6x5_1_0)

/-- Each column of a 2488320×5 array divided by max(its Euclidean norm, 1e-6): the squares summed down the column from 0.0,
    kept as a row, its root, the floor, spread back down the column. -/
def colUnitT (z : FVec F S2488320x5 .f32) : FVec F S2488320x5 .f32 :=
  Host.divf z (broadcastInDim S2488320x5 ![0, 1] Gen.bcast_S1x5_S2488320x5_0_1
    (maximumf (Host.sqrt (broadcastInDim S1x5 ![1] Gen.bcast_S5_S1x5_1
        (Host.reduceAdd (mulf z z) (constant (F := F) S_ .f32 0x00000000#32) Gen.reducesTo_S2488320x5_S5_d0 Gen.h_S_)))
      (splat S1x5 Gen.bcast_S_S1x5 0x358637BD#32)))

/-- Rows unflattened to sample and position, channels moved before positions. -/
def backT (u : FVec F S2488320x5 .f32) : FVec F S1024x5x2430 .f32 :=
  transpose S1024x5x2430 [0, 2, 1] (shapeCast S1024x2430x5 u Gen.shapeCasts_S2488320x5_S1024x2430x5)
    Gen.transposes_S1024x2430x5_S1024x5x2430_0_2_1

/-- The channel mix normalised per channel over all samples and positions. -/
def nrmT (X : FVec F S1024x6x30x9x9 .f32) (w : FVec F S5x6 .f32) : FVec F S1024x5x2430 .f32 :=
  backT (colUnitT (zrowsT X w))

end Terms

/-! ## The program's buffers hold those terms -/

section Run
variable {F : FTy → Type} [FloatOps F]
open Idealize.ShloMosaic.StableHlo

/-- After the first stretch of the program the buffer of %24 holds the gated, row-normalised weight of the two 5×6
    arguments … -/
theorem run_v24 (V : Valuation τ sig (Elt F)) :
    (after (RefRun.opsA (F := F)) V (Proc.devRef .tc main_v24) : FVec F S5x6 .f32)
      = wnT (V (Proc.devRef .tc main_arg3)) (V (Proc.devRef .tc main_arg4)) := by
  after_results_simp
  rfl

/-- … and the buffer of %36 the normalised channel mix of the input and that weight. -/
theorem run_v36 (V : Valuation τ sig (Elt F)) :
    (after (RefRun.opsA (F := F)) V (Proc.devRef .tc main_v36) : FVec F S1024x5x2430 .f32)
      = nrmT (V (Proc.devRef .tc main_arg0)) (wnT (V (Proc.devRef .tc main_arg3)) (V (Proc.devRef .tc main_arg4))) := by
  after_results_simp
  rfl

end Run

/-! ## The terms read at an index over the extended reals -/

open Cert.LibBlockedSum (blockIdx sum_blocks)

theorem splat_apply (T : Shape) (h : S_.BroadcastsInDim T (![] : Fin 0 → Fin T.rank)) (w : BitVec 32) (j : T.Idx) :
    splat (F := Ideal) T h w j = Ideal.ofBits .f32 w := rfl

/-- The host's square root at an index. -/
theorem hostSqrt_apply {s : Shape} (x : FVec Ideal s .f32) (i : s.Idx) : Host.sqrt x i = Ideal.sqrt (x i) := rfl

theorem gsteT_apply (g : FVec Ideal S5x6 .f32) (k : Fin 5) (c : Fin 6) :
    gsteT g (ix2 k c) = Spec.gste (Spec.of2 g) k c := rfl

/-- Two numbers below 2³² are equal as words exactly when they are equal, and the answer bit read as a float is 1 or 0. -/
theorem eye_word (k c : ℕ) (hk : k < 2 ^ 32) (hc : c < 2 ^ 32) :
    (((IntOp.cmpi .eq (IntOp.addi (BitVec.ofNat 32 k) 0#32) (BitVec.ofNat 32 c)).toNat : ℝ) : EReal) = if k = c then 1 else 0 := by
  unfold IntOp.cmpi IntOp.addi
  by_cases h : k = c
  · subst h; simp
  · have hne : BitVec.ofNat 32 k ≠ BitVec.ofNat 32 c := fun e => h (by
      have := congrArg BitVec.toNat e
      simp only [BitVec.toNat_ofNat] at this
      rwa [Nat.mod_eq_of_lt hk, Nat.mod_eq_of_lt hc] at this)
    simp [h, hne]

theorem eyeT_apply (k : Fin 5) (c : Fin 6) : eyeT (F := Ideal) (ix2 k c) = Spec.eyeE k c :=
  eye_word k.val c.val (by have := k.isLt; omega) (by have := c.isLt; omega)

theorem wpreT_apply (cw g : FVec Ideal S5x6 .f32) (k : Fin 5) (c : Fin 6) :
    wpreT cw g (ix2 k c) = Spec.wpre (Spec.of2 cw) (Spec.gste (Spec.of2 g)) k c := by
  show cw (ix2 k c) * ((Spec.c1 - gsteT g (ix2 k c)) * eyeT (F := Ideal) (ix2 k c) + gsteT g (ix2 k c) * Spec.c1) = _
  rw [eyeT_apply, gsteT_apply]
  rfl

theorem red56 : S5x6.Reduces [1] S5 := by decide

/-- Column c' inserted into row k's index. -/
theorem lift56 (k : Fin 5) (c' : Fin 6) : red56.lift (ix1 k) c' = ix2 k c' := by
  funext a; apply Fin.ext
  match a with
  | ⟨0, _⟩ => rfl
  | ⟨1, _⟩ => rfl

theorem rowUnitT_apply (w : FVec Ideal S5x6 .f32) (k : Fin 5) (c : Fin 6) :
    rowUnitT w (ix2 k c) = Spec.rowUnit (Spec.of2 w) k c := by
  unfold rowUnitT
  rw [hostDivf_apply,
    broadcastInDim_apply (s := S5x1) (t := S5x6) ![0, 1] Gen.bcast_S5x1_S5x6_0_1 _ (ix2 k c) (ix2 k (0 : Fin 1))
      (fun a => by match a with | ⟨0, _⟩ => rfl | ⟨1, _⟩ => rfl),
    maximumf_apply, splat_apply, hostSqrt_apply,
    broadcastInDim_apply (s := S5) (t := S5x1) ![0] Gen.bcast_S5_S5x1_0 _ (ix2 k (0 : Fin 1)) (ix1 k)
      (fun a => by match a with | ⟨0, _⟩ => rfl),
    hostReduceAdd_apply, Ideal.hostReduceAdd_single Gen.reducesTo_S5x6_S5_d1 red56]
  show Ideal.div _ (max (Ideal.sqrt (Ideal.ofBits .f32 0x00000000#32 + ∑ c' : Fin 6, mulf w w (red56.lift (ix1 k) c'))) Spec.e12) = _
  rw [Ideal.ofBits_zero_f32, zero_add]
  simp only [lift56]
  rfl

/-- %0 … %24: the gated, row-normalised weight is the specification's. -/
theorem wnT_eq (cw g : FVec Ideal S5x6 .f32) :
    Spec.of2 (wnT cw g) = Spec.wn (Spec.of2 cw) (Spec.gste (Spec.of2 g)) := by
  have hw : Spec.of2 (wpreT cw g) = Spec.wpre (Spec.of2 cw) (Spec.gste (Spec.of2 g)) :=
    funext fun k => funext fun c => wpreT_apply cw g k c
  funext k c
  show rowUnitT (wpreT cw g) (ix2 k c) = Spec.rowUnit (Spec.wpre (Spec.of2 cw) (Spec.gste (Spec.of2 g))) k c
  rw [rowUnitT_apply, hw]

/-- Row number b·2430 + n of the flattened arrays. -/
abbrev rowOf (b : Fin 1024) (n : Fin 2430) : Fin 2488320 := blockIdx 1024 2430 rfl b n

theorem xrowsT_apply (X : FVec Ideal S1024x6x30x9x9 .f32) (b : Fin 1024) (n : Fin 2430) (c : Fin 6) :
    xrowsT X (ix2 (rowOf b n) c) = Spec.x3of X Gen.shapeCasts_S1024x6x30x9x9_S1024x6x2430 b c n := by
  unfold xrowsT
  rw [shapeCast_apply (s := S1024x2430x6) (t := S2488320x6) _ Gen.shapeCasts_S1024x2430x6_S2488320x6
      (ix2 (rowOf b n) c) (ix3 b n c) (by
        rw [Shape.rowMajor_val_three, Shape.rowMajor_val_two]
        show (b.val * 2430 + n.val) * 6 + c.val = (b.val * 2430 + n.val) * 6 + c.val
        rfl),
    transpose_apply (s := S1024x6x2430) (t := S1024x2430x6) [0, 2, 1] _ Gen.transposes_S1024x6x2430_S1024x2430x6_0_2_1
      (ix3 b n c) (ix3 b c n) (fun a => by match a with | ⟨0, _⟩ => rfl | ⟨1, _⟩ => rfl | ⟨2, _⟩ => rfl)]
  rfl

/-- The weight transposed. -/
theorem transposeW_apply (w : FVec Ideal S5x6 .f32) (c : Fin 6) (k : Fin 5) :
    transpose S6x5 [1, 0] w Gen.transposes_S5x6_S6x5_1_0 (ix2 c k) = w (ix2 k c) :=
  transpose_apply (s := S5x6) (t := S6x5) [1, 0] w Gen.transposes_S5x6_S6x5_1_0 (ix2 c k) (ix2 k c)
    (fun a => by match a with | ⟨0, _⟩ => rfl | ⟨1, _⟩ => rfl)

theorem zrowsT_apply (X : FVec Ideal S1024x6x30x9x9 .f32) (w : FVec Ideal S5x6 .f32) (b : Fin 1024) (n : Fin 2430) (k : Fin 5) :
    zrowsT X w (ix2 (rowOf b n) k)
      = Spec.zmix (Spec.x3of X Gen.shapeCasts_S1024x6x30x9x9_S1024x6x2430) (Spec.of2 w) b k n := by
  unfold zrowsT
  refine (StackMember.dotGeneral_plain_apply none (xrowsT X) (transpose S6x5 [1, 0] w Gen.transposes_S5x6_S6x5_1_0) (rowOf b n) k).trans ?_
  refine Finset.sum_congr rfl fun c _ => ?_
  rw [xrowsT_apply, transposeW_apply]
  rfl

theorem redCol : S2488320x5.Reduces [0] S5 :=
  ⟨Gen.reducesTo_S2488320x5_S5_d0.1, Nat.one_pos, Gen.reducesTo_S2488320x5_S5_d0.2⟩

/-- Row r inserted into column k's index. -/
theorem liftCol (k : Fin 5) (r : Fin 2488320) : redCol.lift (ix1 k) r = ix2 r k := by
  funext a; apply Fin.ext
  match a with
  | ⟨0, _⟩ => rfl
  | ⟨1, _⟩ => rfl

theorem colUnitT_apply (z : FVec Ideal S2488320x5 .f32) (r : Fin 2488320) (k : Fin 5) :
    colUnitT z (ix2 r k)
      = Ideal.div (z (ix2 r k)) (max (Ideal.sqrt (∑ r' : Fin 2488320, z (ix2 r' k) * z (ix2 r' k))) Spec.e6) := by
  unfold colUnitT
  rw [hostDivf_apply,
    broadcastInDim_apply (s := S1x5) (t := S2488320x5) ![0, 1] Gen.bcast_S1x5_S2488320x5_0_1 _ (ix2 r k) (ix2 (0 : Fin 1) k)
      (fun a => by match a with | ⟨0, _⟩ => rfl | ⟨1, _⟩ => rfl),
    maximumf_apply, splat_apply, hostSqrt_apply,
    broadcastInDim_apply (s := S5) (t := S1x5) ![1] Gen.bcast_S5_S1x5_1 _ (ix2 (0 : Fin 1) k) (ix1 k)
      (fun a => by match a with | ⟨0, _⟩ => rfl),
    hostReduceAdd_apply, Ideal.hostReduceAdd_single Gen.reducesTo_S2488320x5_S5_d0 redCol]
  show Ideal.div _ (max (Ideal.sqrt (Ideal.ofBits .f32 0x00000000#32 + ∑ r' : Fin 2488320, mulf z z (redCol.lift (ix1 k) r'))) Spec.e6) = _
  rw [Ideal.ofBits_zero_f32, zero_add]
  simp only [liftCol]
  rfl

theorem backT_apply (u : FVec Ideal S2488320x5 .f32) (b : Fin 1024) (k : Fin 5) (n : Fin 2430) :
    backT u (ix3 b k n) = u (ix2 (rowOf b n) k) := by
  unfold backT
  rw [transpose_apply (s := S1024x2430x5) (t := S1024x5x2430) [0, 2, 1] _ Gen.transposes_S1024x2430x5_S1024x5x2430_0_2_1
      (ix3 b k n) (ix3 b n k) (fun a => by match a with | ⟨0, _⟩ => rfl | ⟨1, _⟩ => rfl | ⟨2, _⟩ => rfl),
    shapeCast_apply (s := S2488320x5) (t := S1024x2430x5) u Gen.shapeCasts_S2488320x5_S1024x2430x5
      (ix3 b n k) (ix2 (rowOf b n) k) (by
        rw [Shape.rowMajor_val_three, Shape.rowMajor_val_two]
        show (b.val * 2430 + n.val) * 5 + k.val = (b.val * 2430 + n.val) * 5 + k.val
        rfl)]

/-- %25 … %36: the normalised channel mix is the specification's; the column's sum over all 2488320 rows is the double
    sum over samples and positions. -/
theorem nrmT_eq (X : FVec Ideal S1024x6x30x9x9 .f32) (w : FVec Ideal S5x6 .f32) :
    Spec.of3 (nrmT X w)
      = Spec.nrmR (Spec.zmix (Spec.x3of X Gen.shapeCasts_S1024x6x30x9x9_S1024x6x2430) (Spec.of2 w)) := by
  funext b k n
  show backT (colUnitT (zrowsT X w)) (ix3 b k n) = _
  rw [backT_apply, colUnitT_apply, zrowsT_apply, sum_blocks 1024 2430 rfl]
  simp only [zrowsT_apply]
  rfl

/-! ## The two buffers are the specification's arrays -/

section Final
open Idealize.ShloMosaic.StableHlo

/-- %24 is the specification's gated, row-normalised weight of the weight and the gate's straight-through form. -/
theorem v24_eq (V : Valuation τ sig (Elt Ideal)) :
    Spec.of2 (after (RefRun.opsA (F := Ideal)) V (Proc.devRef .tc main_v24) : S5x6.Idx → EReal)
      = Spec.wn (Spec.of2 (V (Proc.devRef .tc main_arg3) : S5x6.Idx → EReal))
          (Spec.gste (Spec.of2 (V (Proc.devRef .tc main_arg4) : S5x6.Idx → EReal))) :=
  (congrArg (Spec.of2 (n0 := 5) (n1 := 6)) (run_v24 V)).trans (wnT_eq _ _)

/-- %36 is the specification's channel mix of the flattened input with %24, normalised per channel. -/
theorem v36_eq (V : Valuation τ sig (Elt Ideal)) :
    Spec.of3 (after (RefRun.opsA (F := Ideal)) V (Proc.devRef .tc main_v36) : S1024x5x2430.Idx → EReal)
      = Spec.nrmR (Spec.zmix
          (Spec.x3of (V (Proc.devRef .tc main_arg0) : S1024x6x30x9x9.Idx → EReal) Gen.shapeCasts_S1024x6x30x9x9_S1024x6x2430)
          (Spec.of2 (after (RefRun.opsA (F := Ideal)) V (Proc.devRef .tc main_v24) : S5x6.Idx → EReal))) :=
  ((congrArg (Spec.of3 (n0 := 1024) (n1 := 5) (n2 := 2430)) (run_v36 V)).trans (nrmT_eq _ _)).trans
    (congrArg (fun w : S5x6.Idx → EReal => Spec.nrmR (Spec.zmix
      (Spec.x3of (V (Proc.devRef .tc main_arg0) : S1024x6x30x9x9.Idx → EReal) Gen.shapeCasts_S1024x6x30x9x9_S1024x6x2430)
      (Spec.of2 w))) (run_v24 V).symm)

/-- … and so the channel mix of the flattened input with the specification's weight, normalised per channel. -/
theorem v36_eq_wn (V : Valuation τ sig (Elt Ideal)) :
    Spec.of3 (after (RefRun.opsA (F := Ideal)) V (Proc.devRef .tc main_v36) : S1024x5x2430.Idx → EReal)
      = Spec.nrmR (Spec.zmix
          (Spec.x3of (V (Proc.devRef .tc main_arg0) : S1024x6x30x9x9.Idx → EReal) Gen.shapeCasts_S1024x6x30x9x9_S1024x6x2430)
          (Spec.wn (Spec.of2 (V (Proc.devRef .tc main_arg3) : S5x6.Idx → EReal))
            (Spec.gste (Spec.of2 (V (Proc.devRef .tc main_arg4) : S5x6.Idx → EReal))))) :=
  (v36_eq V).trans (congrArg (fun w : Spec.A2 5 6 => Spec.nrmR (Spec.zmix
    (Spec.x3of (V (Proc.devRef .tc main_arg0) : S1024x6x30x9x9.Idx → EReal) Gen.shapeCasts_S1024x6x30x9x9_S1024x6x2430) w))
    (v24_eq V))

end Final

end Cert.ReferenceIdeal.RPart0

end
-- ==== Proof.RPart2.lean ====
/-
  The reference's second half, read over the extended reals.

  From the normalised five-channel tensor u[b, k, n] the program gathers, along the channel axis, the channels i and j
  of each of the ten pairs i < j (two constant tables of channel numbers; the masks that would move a negative entry up
  by five are all false), forms u_i · (1 / (u_j + 1e-6)), flattens samples and positions into 2488320 rows, divides each
  of the ten columns by max(√(the column's sum of squares), 1e-6) and unflattens. Row b · 2430 + n of the flattened
  tensor is entry (b, ·, n), so the column's sum over the rows is the double sum over b and n: the result is the
  specification's normalisation of the specification's ten channels.

  Of that tensor the program then takes the whitening loss: per sample the 10 × 10 matrix of sums over n of products
  of channels, over 2429, plus 1e-5 on the diagonal (a compare of the row and column numbers converted to a float);
  times the strict upper triangle's indicator (0.0 where row ≥ column, else 1.0), in absolute value, summed, over the
  indicator's own sum, at least 0.0; the mean over the 1024 samples. Every sum starts from the literal 0.0, which is 0.
  Last, the tensor's trailing axis is unflattened to 30 × 9 × 9.
-/
import proofs.«414715_j46866683134133_3_alg».proof.ReferenceIdeal
import proofs.«414715_j46866683134133_3_alg».proof.Proof.Gen.ReferenceIdeal
import proofs.«414715_j46866683134133_3_alg».proof.Proof.Spec
import proofs.«414715_j46866683134133_3_alg».proof.Proof.LibBlockedSum
import Idealize.ShloMosaic.Lib.StableHlo.Run
import proofs.«414715_j46866683134133_3_alg».proof.Proof.RefOps
import Idealize.ShloMosaic.Lib.ValueIdx
import Idealize.ShloMosaic.Lib.Pipeline.Value
import Idealize.ShloMosaic.PureOps.Ideal.Laws

noncomputable section

namespace Cert.ReferenceIdeal.RPart2

open Idealize.ShloMosaic Idealize.ShloMosaic.ValueIdx Cert.ReferenceIdeal.Gen
open scoped BigOperators

/-! ## The stretch as functions of what it reads -/

section Stages
variable {F : FTy → Type} [FloatOps F]

abbrev gD : GatherDims S1024x5x2430 S10x1 S1024x10x2430 := gather_S1024x5x2430_S10x1_S1024x10x2430_02_1_n_n_1_1_102412430
abbrev dD : DotDims S1024x10x2430 S1024x10x2430 S1024x10x10 := dot_S1024x10x2430_S1024x10x2430_S1024x10x10_2_2_1_1_0_0

/-- A table of ten channel numbers as the column of start indices a gather reads: a negative entry would be moved up by
    five where the mask says so. -/
def idxCol (c : IVec S10 32) (m : IVec S10 1) : IVec S10x1 32 :=
  broadcastInDim S10x1 ![0] bcast_S10_S10x1_0
    (select m (addi c (broadcastInDim S10 ![] bcast_S_S10 (constantI S_ 32 5#32))) c)

/-- The ten products u_i · (1 / (u_j + 1e-6)), the channels i and j read off the two tables. -/
def prodF (x : FVec F S1024x5x2430 .f32) (cI : IVec S10 32) (mI : IVec S10 1) (cJ : IVec S10 32) (mJ : IVec S10 1) :
    FVec F S1024x10x2430 .f32 :=
  mulf (Host.gather gD x (idxCol cI mI))
    (Host.divf (broadcastInDim S1024x10x2430 ![] bcast_S_S1024x10x2430 (constant S_ .f32 0x3F800000#32))
      (addf (Host.gather gD x (idxCol cJ mJ))
        (broadcastInDim S1024x10x2430 ![] bcast_S_S1024x10x2430 (constant S_ .f32 0x358637BD#32))))

/-- Samples and positions flattened into rows, the channels as columns. -/
def flatF (y : FVec F S1024x10x2430 .f32) : FVec F S2488320x10 .f32 :=
  shapeCast S2488320x10 (transpose S1024x2430x10 [0, 2, 1] y transposes_S1024x10x2430_S1024x2430x10_0_2_1)
    shapeCasts_S1024x2430x10_S2488320x10

/-- Each column's max(Euclidean norm, 1e-6). -/
def colNormF (w : FVec F S2488320x10 .f32) : FVec F S1x10 .f32 :=
  maximumf
    (Host.sqrt (broadcastInDim S1x10 ![1] bcast_S10_S1x10_1
      (Host.reduceAdd (mulf w w) (constant S_ .f32 0x00000000#32) reducesTo_S2488320x10_S10_d0 h_S_)))
    (broadcastInDim S1x10 ![] bcast_S_S1x10 (constant S_ .f32 0x358637BD#32))

/-- Every column divided by that, and the rows unflattened. -/
def normF (y : FVec F S1024x10x2430 .f32) : FVec F S1024x10x2430 .f32 :=
  transpose S1024x10x2430 [0, 2, 1]
    (shapeCast S1024x2430x10
      (Host.divf (flatF y) (broadcastInDim S2488320x10 ![0, 1] bcast_S1x10_S2488320x10_0_1 (colNormF (flatF y))))
      shapeCasts_S2488320x10_S1024x2430x10)
    transposes_S1024x2430x10_S1024x10x2430_0_2_1

end Stages

section Tail
variable {F : FTy → Type} [FloatOps F]

/-- The indicator of the diagonal, as a compare of the two coordinate arrays converted to a float. -/
def eyeF : FVec F S10x10 .f32 :=
  uitofp .f32 (cmpi .eq (addi (iotaInDim S10x10 32 0) (broadcastInDim S10x10 ![] bcast_S_S10x10 (constantI S_ 32 0#32)))
    (iotaInDim S10x10 32 1))

/-- A matrix spread over the samples. -/
def spreadF (T : FVec F S10x10 .f32) : FVec F S1024x10x10 .f32 :=
  broadcastInDim S1024x10x10 ![0, 1, 2] bcast_S1x10x10_S1024x10x10_0_1_2
    (broadcastInDim S1x10x10 ![1, 2] bcast_S10x10_S1x10x10_1_2 T)

/-- The covariance: per sample the products summed over the positions, over 2429, plus 1e-5 on the diagonal. -/
def covF (w : FVec F S1024x10x2430 .f32) : FVec F S1024x10x10 .f32 :=
  addf
    (Host.divf (Host.dotGeneral dD none w w)
      (broadcastInDim S1024x10x10 ![] bcast_S_S1024x10x10 (constant S_ .f32 0x4517D000#32)))
    (spreadF (mulf (broadcastInDim S10x10 ![] bcast_S_S10x10 (constant S_ .f32 0x3727C5AC#32)) eyeF))

/-- The strict upper triangle's indicator: 0.0 where row ≥ column, else 1.0. -/
def triF : FVec F S10x10 .f32 :=
  select
    (cmpi .sge (addi (iotaInDim S10x10 32 0) (broadcastInDim S10x10 ![] bcast_S_S10x10 (constantI S_ 32 0#32)))
      (iotaInDim S10x10 32 1))
    (broadcastInDim S10x10 ![] bcast_S_S10x10 (constant S_ .f32 0x00000000#32) : FVec F S10x10 .f32)
    (broadcastInDim S10x10 ![] bcast_S_S10x10 (constant S_ .f32 0x3F800000#32))

/-- Its sum. -/
def triSumF : FVec F S_ .f32 :=
  Host.reduceAdd (triF : FVec F S10x10 .f32) (constant S_ .f32 0x00000000#32) reducesTo_S10x10_S_d0_1 h_S_

/-- Per sample, Σ |cov · triu|. -/
def absSumF (w : FVec F S1024x10x2430 .f32) : FVec F S1024 .f32 :=
  Host.reduceAdd (Host.absf (mulf (covF w) (spreadF triF))) (constant S_ .f32 0x00000000#32)
    reducesTo_S1024x10x10_S1024_d1_2 h_S_

/-- Per sample, max(that over Σ triu, 0). -/
def ratioF (w : FVec F S1024x10x2430 .f32) : FVec F S1024 .f32 :=
  maximumf (Host.divf (absSumF w) (broadcastInDim S1024 ![] bcast_S_S1024 triSumF))
    (broadcastInDim S1024 ![] bcast_S_S1024 (constant S_ .f32 0x00000000#32))

/-- Their mean over the 1024 samples. -/
def tailF (w : FVec F S1024x10x2430 .f32) : FVec F S_ .f32 :=
  Host.divf (Host.reduceAdd (ratioF w) (constant S_ .f32 0x00000000#32) reducesTo_S1024_S_d0 h_S_)
    (constant S_ .f32 0x44800000#32)

end Tail

/-! ## The stretch's three results are those functions of what the buffers held -/

section After
variable {F : FTy → Type} [FloatOps F]
open Idealize.ShloMosaic.StableHlo

theorem after_v88 (U : Valuation τ sig (Elt F)) :
    StableHlo.after (RefRun.opsC (F := F)) U (Proc.devRef .tc main_v88)
      = normF (prodF (U (Proc.devRef .tc main_v36)) (U (Proc.devRef .tc main_c)) (U (Proc.devRef .tc main_c_0))
          (U (Proc.devRef .tc main_c_1)) (U (Proc.devRef .tc main_c_2))) := by
  after_results_simp
  rfl

theorem after_v116 (U : Valuation τ sig (Elt F)) :
    StableHlo.after (RefRun.opsC (F := F)) U (Proc.devRef .tc main_v116)
      = tailF (normF (prodF (U (Proc.devRef .tc main_v36)) (U (Proc.devRef .tc main_c)) (U (Proc.devRef .tc main_c_0))
          (U (Proc.devRef .tc main_c_1)) (U (Proc.devRef .tc main_c_2)))) := by
  after_results_simp
  rfl

theorem after_v117 (U : Valuation τ sig (Elt F)) :
    StableHlo.after (RefRun.opsC (F := F)) U (Proc.devRef .tc main_v117)
      = shapeCast S1024x10x30x9x9
          (normF (prodF (U (Proc.devRef .tc main_v36)) (U (Proc.devRef .tc main_c)) (U (Proc.devRef .tc main_c_0))
            (U (Proc.devRef .tc main_c_1)) (U (Proc.devRef .tc main_c_2))))
          shapeCasts_S1024x10x2430_S1024x10x30x9x9 := by
  after_results_simp
  rfl

end After

section Aux
open Cert.Spec
theorem hsqrt_apply {s : Shape} {φ : FTy} (a : FVec Ideal s φ) (i : s.Idx) : Host.sqrt a i = Ideal.sqrt (a i) := rfl
theorem hdivf_apply {s : Shape} {φ : FTy} (a b : FVec Ideal s φ) (i : s.Idx) : Host.divf a b i = Ideal.div (a i) (b i) := rfl
theorem habsf_apply {s : Shape} {φ : FTy} (a : FVec Ideal s φ) (i : s.Idx) : Host.absf a i = absE (a i) := rfl
theorem bcast0_apply {s : Shape} (h : S_.BroadcastsInDim s (![] : Fin 0 → Fin s.rank)) (w : BitVec 32) (i : s.Idx) :
    broadcastInDim s ![] h (constant (F := Ideal) S_ .f32 w) i = Ideal.ofBits .f32 w := rfl
theorem hreduceAdd_eq {s t : Shape} {axes : List (Fin s.rank)} (x : FVec Ideal s .f32) (w : BitVec 32)
    (h : s.ReducesTo axes t) (hu : 0 < S_.numel) :
    Host.reduceAdd x (constant (F := Ideal) S_ .f32 w) h hu = Ideal.hostReduceAdd h x (Ideal.ofBits .f32 w) := rfl
end Aux

/-! ## Reading the ten products and their normalisation, index by index, over the extended reals -/

section Read
open Cert.Spec Cert.LibBlockedSum

/-- The gather along the channel axis: sample and position kept, the channel the table's entry (read signed, clamped
    into 0 … 4). -/
theorem gather_read (x : S1024x5x2430.Idx → EReal) (idx : IVec S10x1 32) (b : Fin 1024) (p : Fin 10) (n : Fin 2430) :
    Host.gather gD x idx (ix3 b p n)
      = x (ix3 b ⟨min (idx (ix2 p (0 : Fin 1))).toInt.toNat 4, by omega⟩ n) := by
  unfold Host.gather
  refine congrArg x (funext fun a => Fin.ext ?_)
  show gD.start (ix3 b p n) idx a + gD.batchCoord (ix3 b p n) a + gD.offCoord (ix3 b p n) a = _
  match a with
  | ⟨0, _⟩ =>
    have h1 : gD.start (ix3 b p n) idx ⟨0, by decide⟩ = 0 := rfl
    have h2 : gD.batchCoord (ix3 b p n) ⟨0, by decide⟩ = 0 := rfl
    have h3 : gD.offCoord (ix3 b p n) ⟨0, by decide⟩ = b.val := rfl
    rw [h1, h2, h3]; exact Nat.zero_add _
  | ⟨1, _⟩ =>
    have hm : (⟨1, by decide⟩ : Fin S1024x5x2430.rank) ∈ gD.startIndexMap := List.mem_singleton.mpr rfl
    have hsi : gD.siIdx (ix3 b p n)
        ⟨List.idxOf (⟨1, by decide⟩ : Fin S1024x5x2430.rank) gD.startIndexMap, List.idxOf_lt_length_iff.2 hm⟩
          = ix2 p (0 : Fin 1) := by
      funext c; refine Fin.ext ?_
      match c with
      | ⟨0, _⟩ => rfl
      | ⟨1, _⟩ => rfl
    have h1 : gD.start (ix3 b p n) idx ⟨1, by decide⟩ = min (idx (ix2 p (0 : Fin 1))).toInt.toNat 4 := by
      unfold GatherDims.start
      rw [dif_pos hm, hsi]
      rfl
    have h2 : gD.batchCoord (ix3 b p n) ⟨1, by decide⟩ = 0 := rfl
    have h3 : gD.offCoord (ix3 b p n) ⟨1, by decide⟩ = 0 := rfl
    rw [h1, h2, h3]; rfl
  | ⟨2, _⟩ =>
    have h1 : gD.start (ix3 b p n) idx ⟨2, by decide⟩ = 0 := rfl
    have h2 : gD.batchCoord (ix3 b p n) ⟨2, by decide⟩ = 0 := rfl
    have h3 : gD.offCoord (ix3 b p n) ⟨2, by decide⟩ = n.val := rfl
    rw [h1, h2, h3]; exact Nat.zero_add _

/-- Under the all-false mask nothing is moved: the column holds the table. -/
theorem idxCol_read (c : IVec S10 32) (p : Fin 10) :
    idxCol c (constantI S10 1 0#1) (ix2 p (0 : Fin 1)) = c (ix1 p) := by
  unfold idxCol
  refine (broadcastInDim_apply _ _ _ (ix2 p (0 : Fin 1)) (ix1 p) (fun a => ?_)).trans ?_
  · match a with
    | ⟨0, _⟩ => rfl
  · exact select_zero _ _

/-- The product at (b, p, n), for any two tables that name the channels i and j at p. -/
theorem prodF_read (x : FVec Ideal S1024x5x2430 .f32) (cI cJ : IVec S10 32) (b : Fin 1024) (p : Fin 10) (n : Fin 2430)
    (i j : Fin 5) (hi : i.val = min (cI (ix1 p)).toInt.toNat 4) (hj : j.val = min (cJ (ix1 p)).toInt.toNat 4) :
    prodF x cI (constantI S10 1 0#1) cJ (constantI S10 1 0#1) (ix3 b p n)
      = x (ix3 b i n) * Ideal.div (Ideal.ofBits .f32 0x3F800000#32) (x (ix3 b j n) + Ideal.ofBits .f32 0x358637BD#32) := by
  unfold prodF
  show Host.gather gD x (idxCol cI (constantI S10 1 0#1)) (ix3 b p n)
      * Ideal.div (Ideal.ofBits .f32 0x3F800000#32)
          (Host.gather gD x (idxCol cJ (constantI S10 1 0#1)) (ix3 b p n) + Ideal.ofBits .f32 0x358637BD#32) = _
  rw [gather_read, gather_read]
  have ei : (⟨min (idxCol cI (constantI S10 1 0#1) (ix2 p (0 : Fin 1))).toInt.toNat 4, by omega⟩ : Fin 5) = i :=
    Fin.ext (by show min (idxCol cI (constantI S10 1 0#1) (ix2 p (0 : Fin 1))).toInt.toNat 4 = i.val
                rw [idxCol_read]; exact hi.symm)
  have ej : (⟨min (idxCol cJ (constantI S10 1 0#1) (ix2 p (0 : Fin 1))).toInt.toNat 4, by omega⟩ : Fin 5) = j :=
    Fin.ext (by show min (idxCol cJ (constantI S10 1 0#1) (ix2 p (0 : Fin 1))).toInt.toNat 4 = j.val
                rw [idxCol_read]; exact hj.symm)
  rw [ei, ej]

/-- The two tables' entries, as channel numbers. -/
theorem tblI : ∀ p : Fin 10, (pI p).val = min (lit0 p).toInt.toNat 4 := by decide
theorem tblJ : ∀ p : Fin 10, (pJ p).val = min (lit1 p).toInt.toNat 4 := by decide

/-- A rank-1 index's row-major position is its coordinate. -/
theorem rowMajor_ix1 (p : Fin 10) : S10.rowMajor (ix1 p) = p := Fin.ext (Shape.rowMajor_val_one _)

/-- With the program's two tables the products are the ten bilinear channels. -/
theorem prodF_tables (x : FVec Ideal S1024x5x2430 .f32) :
    of3 (prodF x (fun i => lit0 (S10.rowMajor i)) (constantI S10 1 0#1) (fun i => lit1 (S10.rowMajor i)) (constantI S10 1 0#1))
      = pairs (of3 x) := by
  funext b p n
  show prodF x (fun i => lit0 (S10.rowMajor i)) (constantI S10 1 0#1) (fun i => lit1 (S10.rowMajor i)) (constantI S10 1 0#1)
      (ix3 b p n) = _
  rw [prodF_read x _ _ b p n (pI p) (pJ p)
    (by show (pI p).val = min (lit0 (S10.rowMajor (ix1 p))).toInt.toNat 4; rw [rowMajor_ix1]; exact tblI p)
    (by show (pJ p).val = min (lit1 (S10.rowMajor (ix1 p))).toInt.toNat 4; rw [rowMajor_ix1]; exact tblJ p)]
  rfl

/-- Row b · 2430 + n, column p of the flattened tensor is entry (b, p, n). -/
theorem flatF_read (y : FVec Ideal S1024x10x2430 .f32) (b : Fin 1024) (p : Fin 10) (n : Fin 2430) (r : Fin 2488320)
    (hr : r.val = b.val * 2430 + n.val) : flatF y (ix2 r p) = y (ix3 b p n) := by
  unfold flatF
  refine (shapeCast_apply _ _ (ix2 r p) (ix3 b n p) ?_).trans ?_
  · rw [Shape.rowMajor_val_three, Shape.rowMajor_val_two]
    show (b.val * 2430 + n.val) * 10 + p.val = r.val * 10 + p.val
    rw [hr]
  · refine transpose_apply _ _ _ (ix3 b n p) (ix3 b p n) (fun a => ?_)
    match a with
    | ⟨0, _⟩ => rfl
    | ⟨1, _⟩ => rfl
    | ⟨2, _⟩ => rfl

/-- A column's max(√(sum of its squares), 1e-6). -/
theorem colNormF_read (w : FVec Ideal S2488320x10 .f32) (p : Fin 10) :
    colNormF w (ix2 (0 : Fin 1) p)
      = max (Ideal.sqrt (∑ r : Fin 2488320, w (ix2 r p) * w (ix2 r p))) (Ideal.ofBits .f32 0x358637BD#32) := by
  unfold colNormF
  have hR : S2488320x10.Reduces [0] S10 := by decide
  have e : ∀ k : Fin 2488320, hR.lift (ix1 p) k = ix2 k p := fun k => funext fun a => Fin.ext
    (match a with
      | ⟨0, _⟩ => rfl
      | ⟨1, _⟩ => rfl)
  rw [maximumf_apply, hsqrt_apply, bcast0_apply,
    broadcastInDim_apply _ _ _ (ix2 (0 : Fin 1) p) (ix1 p) (fun a => by match a with | ⟨0, _⟩ => rfl),
    hreduceAdd_eq, Ideal.hostReduceAdd_single reducesTo_S2488320x10_S10_d0 hR, Ideal.ofBits_zero_f32, zero_add]
  have e2 : (∑ k : Fin (S2488320x10.size 0), mulf w w (hR.lift (ix1 p) k))
      = ∑ r : Fin 2488320, w (ix2 r p) * w (ix2 r p) := by
    refine Finset.sum_congr rfl fun k _ => ?_
    rw [e k, mulf_apply]
  rw [e2]

/-- The normalised tensor at (b, p, n): the entry over its channel's max(√(sum of squares over all b, n), 1e-6). -/
theorem normF_read (y : FVec Ideal S1024x10x2430 .f32) (b : Fin 1024) (p : Fin 10) (n : Fin 2430) :
    normF y (ix3 b p n)
      = Ideal.div (y (ix3 b p n))
          (max (Ideal.sqrt (∑ b' : Fin 1024, ∑ n' : Fin 2430, y (ix3 b' p n') * y (ix3 b' p n')))
            (Ideal.ofBits .f32 0x358637BD#32)) := by
  unfold normF
  refine (transpose_apply _ _ _ (ix3 b p n) (ix3 b n p) (fun a => ?_)).trans ?_
  · match a with
    | ⟨0, _⟩ => rfl
    | ⟨1, _⟩ => rfl
    | ⟨2, _⟩ => rfl
  refine (shapeCast_apply _ _ (ix3 b n p) (ix2 (blockIdx 1024 2430 rfl b n) p) ?_).trans ?_
  · rw [Shape.rowMajor_val_three, Shape.rowMajor_val_two]
    rfl
  rw [hdivf_apply, broadcastInDim_apply _ _ _ (ix2 (blockIdx 1024 2430 rfl b n) p) (ix2 (0 : Fin 1) p)
      (fun a => by match a with | ⟨0, _⟩ => rfl | ⟨1, _⟩ => rfl),
    colNormF_read, flatF_read y b p n (blockIdx 1024 2430 rfl b n) rfl]
  have e3 : (∑ r : Fin 2488320, flatF y (ix2 r p) * flatF y (ix2 r p))
      = ∑ b' : Fin 1024, ∑ n' : Fin 2430, y (ix3 b' p n') * y (ix3 b' p n') := by
    rw [sum_blocks 1024 2430 rfl]
    refine Finset.sum_congr rfl fun b' _ => Finset.sum_congr rfl fun n' _ => ?_
    rw [flatF_read y b' p n' (blockIdx 1024 2430 rfl b' n') rfl]
  rw [e3]

/-- So the stretch's normalisation is the specification's. -/
theorem normF_eq (y : FVec Ideal S1024x10x2430 .f32) : of3 (normF y) = nrmR (of3 y) := by
  funext b p n
  exact normF_read y b p n

end Read

/-! ## Reading the whitening tail -/

section ReadTail
open Cert.Spec

/-- A rank-3 index set is the product of its three coordinate ranges, so a sum over it is the triple sum; -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl
/-- a rank-1 index set is its one coordinate's range. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum of a vector over its one axis, from 0.0. -/
theorem sumAll1 (Y : FVec Ideal S1024 .f32) (i : S_.Idx) :
    Host.reduceAdd Y (constant (F := Ideal) S_ .f32 0x00000000#32) reducesTo_S1024_S_d0 h_S_ i = ∑ b : Fin 1024, Y (ix1 b) := by
  rw [hreduceAdd_eq, Ideal.hostReduceAdd_total _ (fun b => b.elim0), Ideal.ofBits_zero_f32, zero_add]
  exact sum_idx1 Y

/-- The sum of a matrix over both axes, from 0.0. -/
theorem sumAll2 (T : FVec Ideal S10x10 .f32) (i : S_.Idx) :
    Host.reduceAdd T (constant (F := Ideal) S_ .f32 0x00000000#32) reducesTo_S10x10_S_d0_1 h_S_ i
      = ∑ k : Fin 10, ∑ l : Fin 10, T (ix2 k l) := by
  rw [hreduceAdd_eq, Ideal.hostReduceAdd_total _ (fun b => b.elim0), Ideal.ofBits_zero_f32, zero_add]
  exact sum_idx2 T

/-- The sum over the two trailing axes, per sample, from 0.0. -/
theorem sumInner (X : FVec Ideal S1024x10x10 .f32) (b : Fin 1024) :
    Host.reduceAdd X (constant (F := Ideal) S_ .f32 0x00000000#32) reducesTo_S1024x10x10_S1024_d1_2 h_S_ (ix1 b)
      = ∑ k : Fin 10, ∑ l : Fin 10, X (ix3 b k l) := by
  have hd : ∀ (a : Fin 1024) (k l : Fin 10),
      (reducesTo_S1024x10x10_S1024_d1_2.drop (ix3 a k l) = ix1 b) ↔ a = b := fun a k l =>
    ⟨fun h => Fin.ext (congrArg Fin.val (congrFun h (0 : Fin 1))),
     fun h => by subst h; funext c; match c with | ⟨0, _⟩ => rfl⟩
  rw [hreduceAdd_eq]
  unfold Ideal.hostReduceAdd
  rw [Ideal.ofBits_zero_f32, zero_add, Finset.sum_filter, sum_idx3]
  refine (Finset.sum_eq_single b (fun a _ hab => ?_) (fun h => absurd (Finset.mem_univ b) h)).trans ?_
  · exact Finset.sum_eq_zero fun k _ => Finset.sum_eq_zero fun l _ => if_neg fun h => hab ((hd a k l).1 h)
  · exact Finset.sum_congr rfl fun k _ => Finset.sum_congr rfl fun l _ => if_pos ((hd b k l).2 rfl)

/-- The two coordinate compares, as words. -/
theorem eye_word : ∀ k l : Fin 10,
    IntOp.cmpi .eq (IntOp.addi (BitVec.ofNat 32 k.val) 0#32) (BitVec.ofNat 32 l.val) = if k.val = l.val then 1#1 else 0#1 := by
  decide
theorem tri_word : ∀ k l : Fin 10,
    IntOp.cmpi .sge (IntOp.addi (BitVec.ofNat 32 k.val) 0#32) (BitVec.ofNat 32 l.val) = if l.val ≤ k.val then 1#1 else 0#1 := by
  decide

/-- The converted compare is the diagonal's indicator. -/
theorem eyeF_read (k l : Fin 10) : (eyeF (F := Ideal)) (ix2 k l) = eyeE k l := by
  show (((IntOp.cmpi .eq (IntOp.addi (BitVec.ofNat 32 k.val) 0#32) (BitVec.ofNat 32 l.val)).toNat : ℝ) : EReal) = _
  rw [eye_word]
  unfold eyeE
  by_cases h : k.val = l.val
  · rw [if_pos h, if_pos h]; simp
  · rw [if_neg h, if_neg h]; simp

/-- The select on row ≥ column is the strict upper triangle's indicator. -/
theorem triF_read (k l : Fin 10) : (triF (F := Ideal)) (ix2 k l) = triu1 k l := by
  show Scalar.select (IntOp.cmpi .sge (IntOp.addi (BitVec.ofNat 32 k.val) 0#32) (BitVec.ofNat 32 l.val))
      (Ideal.ofBits .f32 0x00000000#32) (Ideal.ofBits .f32 0x3F800000#32) = _
  rw [tri_word]
  unfold triu1 c0 c1
  by_cases h : l.val ≤ k.val
  · rw [if_pos h, if_pos h]; exact select_one _ _
  · rw [if_neg h, if_neg h]; exact select_zero _ _

/-- The batched product contracting the positions. -/
theorem dot_read (l r : FVec Ideal S1024x10x2430 .f32) (b : Fin 1024) (k k' : Fin 10) :
    Host.dotGeneral dD none l r (ix3 b k k') = ∑ n : Fin 2430, l (ix3 b k n) * r (ix3 b k' n) := by
  show FloatOps.dotGeneral dD none HostSchedule.single l r (ix3 b k k') = _
  rw [Ideal.dotGeneral_apply, ← Equiv.sum_comp (contrEquiv1 dD 2430 rfl rfl).symm]
  refine Finset.sum_congr rfl fun n _ => ?_
  have hq := contrEquiv1_symm_val dD 2430 rfl rfl n
  have e1 : dD.lhsIdx (ix3 b k k') ((contrEquiv1 dD 2430 rfl rfl).symm n) = ix3 b k n := funext fun a => Fin.ext
    (match a with
      | ⟨0, _⟩ => rfl
      | ⟨1, _⟩ => rfl
      | ⟨2, _⟩ => (dD.lhsIdx_val_of_single rfl _ _).trans hq)
  have e2 : dD.rhsIdx (ix3 b k k') ((contrEquiv1 dD 2430 rfl rfl).symm n) = ix3 b k' n := funext fun a => Fin.ext
    (match a with
      | ⟨0, _⟩ => rfl
      | ⟨1, _⟩ => rfl
      | ⟨2, _⟩ => (dD.rhsIdx_val_of_single rfl _ _).trans hq)
  rw [e1, e2]

/-- A matrix spread over the samples reads itself at every sample. -/
theorem spreadF_read (T : FVec Ideal S10x10 .f32) (b : Fin 1024) (k l : Fin 10) :
    spreadF T (ix3 b k l) = T (ix2 k l) := by
  unfold spreadF
  rw [broadcastInDim_apply _ _ _ (ix3 b k l) (ix3 (0 : Fin 1) k l)
      (fun a => by match a with | ⟨0, _⟩ => rfl | ⟨1, _⟩ => rfl | ⟨2, _⟩ => rfl),
    broadcastInDim_apply _ _ _ (ix3 (0 : Fin 1) k l) (ix2 k l)
      (fun a => by match a with | ⟨0, _⟩ => rfl | ⟨1, _⟩ => rfl)]

/-- The covariance at (b, k, l). -/
theorem covF_read (w : FVec Ideal S1024x10x2430 .f32) (b : Fin 1024) (k l : Fin 10) :
    covF w (ix3 b k l) = Ideal.div (covRaw (of3 w) b k l) n2429 + e5 * eyeE k l := by
  unfold covF
  rw [addf_apply, hdivf_apply, bcast0_apply, dot_read, spreadF_read, mulf_apply, bcast0_apply, eyeF_read]
  rfl

/-- Σ triu. -/
theorem triSumF_read (j : S_.Idx) : (triSumF (F := Ideal)) j = ∑ k : Fin 10, ∑ l : Fin 10, triu1 k l := by
  unfold triSumF
  rw [sumAll2]
  exact Finset.sum_congr rfl fun k _ => Finset.sum_congr rfl fun l _ => triF_read k l

/-- Σ |cov · triu| at sample b. -/
theorem absSumF_read (w : FVec Ideal S1024x10x2430 .f32) (b : Fin 1024) :
    absSumF w (ix1 b)
      = ∑ k : Fin 10, ∑ l : Fin 10, absE ((Ideal.div (covRaw (of3 w) b k l) n2429 + e5 * eyeE k l) * triu1 k l) := by
  unfold absSumF
  rw [sumInner]
  refine Finset.sum_congr rfl fun k _ => Finset.sum_congr rfl fun l _ => ?_
  rw [habsf_apply, mulf_apply, covF_read, spreadF_read, triF_read]

/-- The ratio at sample b. -/
theorem ratioF_read (w : FVec Ideal S1024x10x2430 .f32) (b : Fin 1024) :
    ratioF w (ix1 b)
      = max (Ideal.div
          (∑ k : Fin 10, ∑ l : Fin 10, absE ((Ideal.div (covRaw (of3 w) b k l) n2429 + e5 * eyeE k l) * triu1 k l))
          (∑ k : Fin 10, ∑ l : Fin 10, triu1 k l)) c0 := by
  unfold ratioF
  rw [maximumf_apply, hdivf_apply, absSumF_read, bcast0_apply,
    broadcastInDim_apply _ _ _ (ix1 b) ix0 (fun a => a.elim0), triSumF_read]
  rfl

/-- The tail is the specification's, of the covariance of the tensor it is given. -/
theorem tailF_read (w : FVec Ideal S1024x10x2430 .f32) :
    tailF w = fun _ => lossTail (fun b k l => Ideal.div (covRaw (of3 w) b k l) n2429 + e5 * eyeE k l) := by
  funext i
  unfold tailF
  rw [hdivf_apply, sumAll1]
  have e : (∑ b : Fin 1024, ratioF w (ix1 b))
      = ∑ b : Fin 1024, max (Ideal.div
          (∑ k : Fin 10, ∑ l : Fin 10, absE ((Ideal.div (covRaw (of3 w) b k l) n2429 + e5 * eyeE k l) * triu1 k l))
          (∑ k : Fin 10, ∑ l : Fin 10, triu1 k l)) c0 :=
    Finset.sum_congr rfl fun b _ => ratioF_read w b
  rw [e]
  rfl

end ReadTail

/-! ## The three results of the stretch -/

section Results
open Cert.Spec Idealize.ShloMosaic.StableHlo

/-- A tensor read by coordinates and written back is itself. -/
theorem to3_of3 {n0 n1 n2 : ℕ} (a : (⟨3, ![n0, n1, n2]⟩ : Shape).Idx → EReal) : to3 (of3 a) = a :=
  funext fun i => congrArg a (eq_ix3 i).symm

variable (U : Valuation τ sig (Elt Ideal))
  (hc : U (Proc.devRef .tc main_c) = fun i => lit0 (S10.rowMajor i))
  (hc1 : U (Proc.devRef .tc main_c_1) = fun i => lit1 (S10.rowMajor i))
  (hc0 : U (Proc.devRef .tc main_c_0) = constantI S10 1 0#1)
  (hc2 : U (Proc.devRef .tc main_c_2) = constantI S10 1 0#1)
include hc hc1 hc0 hc2

/-- The first result before its last reshape: the ten bilinear channels of u, each divided by max(its norm, 1e-6). -/
theorem v88_eq :
    of3 (StableHlo.after (RefRun.opsC (F := Ideal)) U (Proc.devRef .tc main_v88))
      = nrmR (pairs (of3 (U (Proc.devRef .tc main_v36)))) := by
  rw [after_v88, hc, hc0, hc1, hc2, normF_eq, prodF_tables]

/-- The whitening loss of that tensor. -/
theorem v116_eq :
    StableHlo.after (RefRun.opsC (F := Ideal)) U (Proc.devRef .tc main_v116)
      = fun _ => lossTail (fun b k l =>
          Ideal.div (covRaw (nrmR (pairs (of3 (U (Proc.devRef .tc main_v36))))) b k l) n2429 + e5 * eyeE k l) := by
  rw [after_v116, hc, hc0, hc1, hc2, tailF_read, normF_eq, prodF_tables]
  rfl

/-- The first result: that tensor with its last axis unflattened. -/
theorem v117_eq :
    StableHlo.after (RefRun.opsC (F := Ideal)) U (Proc.devRef .tc main_v117)
      = out5of (nrmR (pairs (of3 (U (Proc.devRef .tc main_v36))))) shapeCasts_S1024x10x2430_S1024x10x30x9x9 := by
  rw [after_v117, hc, hc0, hc1, hc2]
  unfold out5of
  rw [← prodF_tables, ← normF_eq, to3_of3]

end Results

end Cert.ReferenceIdeal.RPart2

end
-- ==== Proof.RPart3.lean ====
/-
  The label term of the reference, read index by index.

  The centre table c[8,128] and a feature table f[100000,128] are row-normalised: every row divided by
  max(√Σ_d row_d², 1e-12).  A label l picks row l of the normalised centres (a negative label is first moved up by 8, and
  the row index is then clamped into 0…7); the similarity of row i is s_i = Σ_d f̂[i,d]·ĉ[row(l_i),d]; the row's term is
  1 − s_i where 1 ≤ l_i and 0 elsewhere; the terms are summed over the rows.  Where 1 ≤ l_i < 8 neither the move nor the
  clamp changes the row index, and elsewhere the term is 0 whatever row was read, so the sum is
  Σ_i (if 1 ≤ l_i then 1 − Σ_d f̂[i,d]·ĉ[l_i mod 8,d] else 0).  The scalar result is the two whitening losses added, plus
  the two label sums added.
-/
import proofs.«414715_j46866683134133_3_alg».proof.ReferenceIdeal
import proofs.«414715_j46866683134133_3_alg».proof.Proof.Gen.ReferenceIdeal
import proofs.«414715_j46866683134133_3_alg».proof.Proof.Spec
import proofs.«414715_j46866683134133_3_alg».proof.Proof.RefOps
import Idealize.ShloMosaic.Lib.StableHlo.Run
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

noncomputable section

namespace Cert.ReferenceIdeal.RPart3

open Idealize.ShloMosaic Idealize.ShloMosaic.TcCoe Idealize.ShloMosaic.ValueIdx Idealize.ShloMosaic.StableHlo
open Cert.ReferenceIdeal Cert.ReferenceIdeal.Gen
open scoped BigOperators

/-! ## Broadcasts of a column, read at an index -/

/-- A vector kept as an [n,1] column reads, at (p, 0), the vector at p. -/
theorem col_of_vec {α : Type} {n : ℕ} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  refine broadcastInDim_apply _ h v _ (ix1 p) fun a => ?_
  match a with
  | ⟨0, _⟩ =>
    show p.val = if n = 1 then 0 else p.val
    have := p.isLt
    split <;> omega

/-- An [n,1] column laid along the rows of an [n,m] rectangle reads, at (p, q), the column at (p, 0). -/
theorem rect_of_col {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v _ (ix2 p (0 : Fin 1)) fun a => ?_
  match a with
  | ⟨0, _⟩ =>
    show p.val = if n = 1 then 0 else p.val
    have := p.isLt
    split <;> omega
  | ⟨1, _⟩ =>
    show (0 : ℕ) = if (1 : ℕ) = 1 then 0 else q.val
    rw [if_pos rfl]

/-! ## A row-normalised table, read at an index -/

/-- The sum over axis 1 of an [n,128] table from the initial value 0.0, at row k. -/
theorem rowSum_read {n : ℕ} (y : FVec Ideal ⟨2, ![n, 128]⟩ .f32)
    (hr : (⟨2, ![n, 128]⟩ : Shape).ReducesTo [1] ⟨1, ![n]⟩) (hR : (⟨2, ![n, 128]⟩ : Shape).Reduces [1] ⟨1, ![n]⟩)
    (hu : 0 < (⟨0, ![]⟩ : Shape).numel) (k : Fin n) :
    Host.reduceAdd y (constant (F := Ideal) ⟨0, ![]⟩ .f32 0x00000000#32) hr hu (ix1 k) = ∑ d : Fin 128, y (ix2 k d) := by
  show Ideal.hostReduceAdd hr y (Ideal.ofBits .f32 0x00000000#32) (ix1 k) = _
  rw [Ideal.hostReduceAdd_single hr hR, Ideal.ofBits_zero_f32, zero_add]
  refine Finset.sum_congr rfl fun d _ => congrArg y ?_
  funext a
  match a with
  | ⟨0, _⟩ => rfl
  | ⟨1, _⟩ => rfl

/-- Every row divided by max(its Euclidean norm, 1e-12): the program's spelling read at (k, c). -/
theorem rowUnit_read {n : ℕ} (x : FVec Ideal ⟨2, ![n, 128]⟩ .f32)
    (hb2 : (⟨2, ![n, 1]⟩ : Shape).BroadcastsInDim ⟨2, ![n, 128]⟩ ![0, 1])
    (hb1 : (⟨1, ![n]⟩ : Shape).BroadcastsInDim ⟨2, ![n, 1]⟩ ![0])
    (hb0 : (⟨0, ![]⟩ : Shape).BroadcastsInDim ⟨2, ![n, 1]⟩ ![])
    (hr : (⟨2, ![n, 128]⟩ : Shape).ReducesTo [1] ⟨1, ![n]⟩) (hR : (⟨2, ![n, 128]⟩ : Shape).Reduces [1] ⟨1, ![n]⟩)
    (hu : 0 < (⟨0, ![]⟩ : Shape).numel) (k : Fin n) (c : Fin 128) :
    Host.divf x (broadcastInDim ⟨2, ![n, 128]⟩ ![0, 1] hb2
      (maximumf (Host.sqrt (broadcastInDim ⟨2, ![n, 1]⟩ ![0] hb1
          (Host.reduceAdd (mulf x x) (constant (F := Ideal) ⟨0, ![]⟩ .f32 0x00000000#32) hr hu)))
        (broadcastInDim ⟨2, ![n, 1]⟩ ![] hb0 (constant (F := Ideal) ⟨0, ![]⟩ .f32 0x2B8CBCCC#32)))) (ix2 k c)
      = Spec.rowUnit (Spec.of2 x) k c := by
  rw [hostDivf_apply, rect_of_col hb2, maximumf_apply, broadcastInDim_scalar_apply hb0]
  show Ideal.div (x (ix2 k c)) (max (Ideal.sqrt (broadcastInDim (s := ⟨1, ![n]⟩) ⟨2, ![n, 1]⟩ ![0] hb1 _ (ix2 k (0 : Fin 1)))) _) = _
  rw [col_of_vec hb1, rowSum_read _ hr hR hu]
  rfl

/-! ## The label's row of the centre table -/

/-- A label that is not negative is left where it is by the move of negative labels up by 8. -/
theorem wrap_read (lab : IVec S100000 32) (hb : S_.BroadcastsInDim S100000 ![]) (i : Fin 100000)
    (h0 : 0 ≤ (lab (ix1 i)).toInt) :
    select (cmpi .slt lab (broadcastInDim S100000 ![] hb (constantI S_ 32 0#32)))
      (addi lab (broadcastInDim S100000 ![] hb (constantI S_ 32 8#32))) lab (ix1 i) = lab (ix1 i) := by
  rw [select_apply]
  show Scalar.select (IntOp.cmpi .slt (lab (ix1 i)) (broadcastInDim S100000 ![] hb (constantI S_ 32 0#32) (ix1 i))) _ _ = _
  rw [broadcastInDim_scalar_apply hb]
  have hc : IntOp.cmpi .slt (lab (ix1 i)) (constantI S_ 32 0#32 ix0) = 0#1 := by
    show BitVec.ofBool ((lab (ix1 i)).slt 0#32) = 0#1
    have : (lab (ix1 i)).slt 0#32 = false := by
      simp only [BitVec.slt, show (0#32 : BitVec 32).toInt = 0 from by decide, decide_eq_false_iff_not, not_lt]
      exact h0
    rw [this]; rfl
  rw [hc, select_zero]

/-- The gather's dimension numbers: axis 0 of the table is collapsed and start-indexed, axis 1 is the result's offset axis. -/
abbrev gd : GatherDims S8x128 S100000x1 S100000x128 := gather_S8x128_S100000x1_S100000x128_1_0_n_n_0_1_1128

/-- On the table's axis 0 the gather reads the start index of result row i, signed, clamped into 0…7. -/
theorem gather_axis0 (idx : IVec S100000x1 32) (i : Fin 100000) (c : Fin 128) :
    (gd.operandIdx (ix2 i c) idx (0 : Fin 2)).val = min (idx (ix2 i (0 : Fin 1))).toInt.toNat 7 := by
  show gd.start (ix2 i c) idx (0 : Fin 2) + gd.batchCoord (ix2 i c) (0 : Fin 2) + gd.offCoord (ix2 i c) (0 : Fin 2) = _
  have hb : (0 : Fin 2) ∉ gd.operandBatchingDims := by decide
  have hk : (0 : Fin 2) ∉ gd.sKept := by decide
  have hm : (0 : Fin 2) ∈ gd.startIndexMap := by decide
  rw [GatherDims.batchCoord_eq_zero _ _ _ hb, GatherDims.offCoord_eq_zero _ _ _ hk]
  unfold GatherDims.start
  rw [dif_pos hm]
  have hsi : gd.siIdx (ix2 i c) ⟨List.idxOf (0 : Fin 2) gd.startIndexMap, List.idxOf_lt_length_iff.2 hm⟩ = ix2 i (0 : Fin 1) := by
    funext b; refine Fin.ext ?_
    match b with
    | ⟨0, _⟩ => rfl
    | ⟨1, _⟩ => rfl
  rw [hsi]
  rfl

/-- On the table's axis 1 it reads the result's column. -/
theorem gather_axis1 (idx : IVec S100000x1 32) (i : Fin 100000) (c : Fin 128) :
    (gd.operandIdx (ix2 i c) idx (1 : Fin 2)).val = c.val := by
  show gd.start (ix2 i c) idx (1 : Fin 2) + gd.batchCoord (ix2 i c) (1 : Fin 2) + gd.offCoord (ix2 i c) (1 : Fin 2) = _
  have hb : (1 : Fin 2) ∉ gd.operandBatchingDims := by decide
  have hk : (1 : Fin 2) ∈ gd.sKept := by decide
  have hm : (1 : Fin 2) ∉ gd.startIndexMap := by decide
  rw [GatherDims.batchCoord_eq_zero _ _ _ hb]
  unfold GatherDims.start GatherDims.offCoord
  rw [dif_neg hm, dif_pos hk, Nat.zero_add]
  rfl

/-- The gather along axis 0 of an [8,128] table at a column of 100000 start indices reads, at (i, c), the table's
    row "start index i, read signed and clamped into 0…7" at column c. -/
theorem gather_read {α : Type} (x : S8x128.Idx → α) (idx : IVec S100000x1 32) (i : Fin 100000) (c : Fin 128)
    (w : BitVec 32) (hw : idx (ix2 i (0 : Fin 1)) = w) :
    Host.gather gather_S8x128_S100000x1_S100000x128_1_0_n_n_0_1_1128 x idx (ix2 i c)
      = x (ix2 (⟨min w.toInt.toNat 7, Nat.lt_succ_of_le (Nat.min_le_right _ _)⟩ : Fin 8) c) := by
  subst hw
  unfold Host.gather
  refine congrArg x ?_
  funext a
  refine Fin.ext ?_
  match a with
  | ⟨0, _⟩ => exact gather_axis0 idx i c
  | ⟨1, _⟩ => exact gather_axis1 idx i c

/-- A label between 1 and 7 names its own row: the clamp of the signed start index is the label's value mod 8. -/
theorem row_of_label (l : BitVec 32) (h1 : 1 ≤ l.toInt) (h8 : l.toInt < 8) :
    (⟨min l.toInt.toNat 7, Nat.lt_succ_of_le (Nat.min_le_right _ _)⟩ : Fin 8) = Spec.labRow l := by
  refine Fin.ext ?_
  show min l.toInt.toNat 7 = l.toNat % 8
  have e : l.toInt = (l.toNat : ℤ) := by
    rw [BitVec.toInt_eq_toNat_cond] at h1 ⊢
    split <;> rename_i hc
    · rfl
    · rw [if_neg hc] at h1
      have := l.isLt
      omega
  rw [e] at h8 ⊢
  rw [Int.toNat_natCast]
  omega

/-! ## The program's spelling of the label term, and what it reads -/

/-- The centre table, every row divided by max(its norm, 1e-12). -/
def unit8 (x : FVec Ideal S8x128 .f32) : FVec Ideal S8x128 .f32 :=
  Host.divf x (broadcastInDim S8x128 ![0, 1] bcast_S8x1_S8x128_0_1
    (maximumf (Host.sqrt (broadcastInDim S8x1 ![0] bcast_S8_S8x1_0
        (Host.reduceAdd (mulf x x) (constant (F := Ideal) S_ .f32 0x00000000#32) reducesTo_S8x128_S8_d1 h_S_)))
      (broadcastInDim S8x1 ![] bcast_S_S8x1 (constant (F := Ideal) S_ .f32 0x2B8CBCCC#32))))

/-- A feature table, every row divided by max(its norm, 1e-12). -/
def unitN (x : FVec Ideal S100000x128 .f32) : FVec Ideal S100000x128 .f32 :=
  Host.divf x (broadcastInDim S100000x128 ![0, 1] bcast_S100000x1_S100000x128_0_1
    (maximumf (Host.sqrt (broadcastInDim S100000x1 ![0] bcast_S100000_S100000x1_0
        (Host.reduceAdd (mulf x x) (constant (F := Ideal) S_ .f32 0x00000000#32) reducesTo_S100000x128_S100000_d1 h_S_)))
      (broadcastInDim S100000x1 ![] bcast_S_S100000x1 (constant (F := Ideal) S_ .f32 0x2B8CBCCC#32))))

theorem unit8_apply (x : FVec Ideal S8x128 .f32) (k : Fin 8) (c : Fin 128) :
    unit8 x (ix2 k c) = Spec.rowUnit (Spec.of2 x) k c :=
  rowUnit_read x _ _ _ _ (by decide) _ k c

theorem unitN_apply (x : FVec Ideal S100000x128 .f32) (k : Fin 100000) (c : Fin 128) :
    unitN x (ix2 k c) = Spec.rowUnit (Spec.of2 x) k c :=
  rowUnit_read x _ _ _ _ (by decide) _ k c

/-- The labels with the negative ones moved up by 8. -/
def wrapV (lab : IVec S100000 32) : IVec S100000 32 :=
  select (cmpi .slt lab (broadcastInDim S100000 ![] bcast_S_S100000 (constantI S_ 32 0#32)))
    (addi lab (broadcastInDim S100000 ![] bcast_S_S100000 (constantI S_ 32 8#32))) lab

/-- The similarities: row i of the features times the gathered row of the centres, summed over the 128 columns. -/
def simV (cn : FVec Ideal S8x128 .f32) (fn : FVec Ideal S100000x128 .f32) (lab : IVec S100000 32) : FVec Ideal S100000 .f32 :=
  Host.reduceAdd
    (mulf fn (Host.gather gather_S8x128_S100000x1_S100000x128_1_0_n_n_0_1_1128 cn
      (broadcastInDim S100000x1 ![0] bcast_S100000_S100000x1_0 (wrapV lab))))
    (constant (F := Ideal) S_ .f32 0x00000000#32) reducesTo_S100000x128_S100000_d1 h_S_

/-- The rows' terms: 1 − similarity where the label is at least 1, 0.0 elsewhere. -/
def termV (cn : FVec Ideal S8x128 .f32) (fn : FVec Ideal S100000x128 .f32) (lab : IVec S100000 32) : FVec Ideal S100000 .f32 :=
  select (cmpi .sge lab (broadcastInDim S100000 ![] bcast_S_S100000 (constantI S_ 32 1#32)))
    (subf (broadcastInDim S100000 ![] bcast_S_S100000 (constant (F := Ideal) S_ .f32 0x3F800000#32)) (simV cn fn lab))
    (broadcastInDim S100000 ![] bcast_S_S100000 (id (constant (F := Ideal) S_ .f32 0x00000000#32)))

/-- Their sum over the rows. -/
def sumV (cn : FVec Ideal S8x128 .f32) (fn : FVec Ideal S100000x128 .f32) (lab : IVec S100000 32) : FVec Ideal S_ .f32 :=
  Host.reduceAdd (termV cn fn lab) (constant (F := Ideal) S_ .f32 0x00000000#32) reducesTo_S100000_S_d0 h_S_

/-- The similarity of row i, where its label is between 1 and 7: the label's own row of the centres is the one read. -/
theorem simV_apply (cn : FVec Ideal S8x128 .f32) (fn : FVec Ideal S100000x128 .f32) (lab : IVec S100000 32) (i : Fin 100000)
    (h1 : 1 ≤ (lab (ix1 i)).toInt) (h8 : (lab (ix1 i)).toInt < 8) :
    simV cn fn lab (ix1 i) = ∑ d : Fin 128, fn (ix2 i d) * cn (ix2 (Spec.labRow (lab (ix1 i))) d) := by
  unfold simV
  rw [rowSum_read _ _ (by decide) _ i]
  refine Finset.sum_congr rfl fun d _ => ?_
  have hw : broadcastInDim S100000x1 ![0] bcast_S100000_S100000x1_0 (wrapV lab) (ix2 i (0 : Fin 1)) = lab (ix1 i) := by
    rw [col_of_vec bcast_S100000_S100000x1_0]
    exact wrap_read lab _ i (by omega)
  rw [mulf_apply, gather_read cn _ i d _ hw, row_of_label _ h1 h8]

/-- The term of row i is the specification's. -/
theorem termV_apply (c : FVec Ideal S8x128 .f32) (f : FVec Ideal S100000x128 .f32) (lab : IVec S100000 32)
    (h8 : ∀ j, (lab j).toInt < 8) (i : Fin 100000) :
    termV (unit8 c) (unitN f) lab (ix1 i)
      = Spec.simTerm (Spec.rowUnit (Spec.of2 c)) (Spec.of2 f) (Spec.ofLab lab) i := by
  unfold termV Spec.simTerm
  rw [select_apply]
  show Scalar.select (IntOp.cmpi .sge (lab (ix1 i)) (broadcastInDim S100000 ![] bcast_S_S100000 (constantI S_ 32 1#32) (ix1 i)))
    (subf _ _ (ix1 i)) (broadcastInDim S100000 ![] bcast_S_S100000 (id (constant (F := Ideal) S_ .f32 0x00000000#32)) (ix1 i)) = _
  rw [broadcastInDim_scalar_apply bcast_S_S100000, broadcastInDim_scalar_apply bcast_S_S100000]
  have hc : IntOp.cmpi .sge (lab (ix1 i)) (constantI S_ 32 1#32 ix0) = BitVec.ofBool (decide (1 ≤ (lab (ix1 i)).toInt)) := by
    show BitVec.ofBool ((1#32 : BitVec 32).sle (lab (ix1 i))) = _
    simp only [BitVec.sle, show (1#32 : BitVec 32).toInt = 1 from by decide]
  rw [hc]
  by_cases h1 : 1 ≤ (lab (ix1 i)).toInt
  · rw [decide_eq_true h1, if_pos (show 1 ≤ (Spec.ofLab lab i).toInt from h1)]
    show Scalar.select 1#1 _ _ = _
    rw [select_one, subf_apply, broadcastInDim_scalar_apply bcast_S_S100000, simV_apply _ _ _ i h1 (h8 _)]
    refine congrArg (fun s => Spec.c1 - s) (Finset.sum_congr rfl fun d _ => ?_)
    rw [unitN_apply, unit8_apply]
    rfl
  · rw [decide_eq_false h1, if_neg (show ¬ 1 ≤ (Spec.ofLab lab i).toInt from h1)]
    show Scalar.select 0#1 _ _ = _
    rw [select_zero]
    rfl

/-- The sum of the terms is the specification's sum. -/
theorem sumV_eq (c : FVec Ideal S8x128 .f32) (f : FVec Ideal S100000x128 .f32) (lab : IVec S100000 32)
    (h8 : ∀ j, (lab j).toInt < 8) (j : S_.Idx) :
    sumV (unit8 c) (unitN f) lab j = Spec.simSum (Spec.rowUnit (Spec.of2 c)) (Spec.of2 f) (Spec.ofLab lab) := by
  show Ideal.hostReduceAdd reducesTo_S100000_S_d0 (termV (unit8 c) (unitN f) lab) (Ideal.ofBits .f32 0x00000000#32) j = _
  rw [Ideal.hostReduceAdd_total _ (fun b => b.elim0), Ideal.ofBits_zero_f32, zero_add]
  unfold Spec.simSum
  refine (Equiv.sum_comp (idxEquiv1 (n := 100000)).symm _).symm.trans (Finset.sum_congr rfl fun i _ => ?_)
  exact termV_apply c f lab h8 i

/-- The scalar result as the program spells it from the two whitening losses and the label inputs. -/
def tailV (a b : FVec Ideal S_ .f32) (c : FVec Ideal S8x128 .f32) (fA fB : FVec Ideal S100000x128 .f32)
    (lA lB : IVec S100000 32) : FVec Ideal S_ .f32 :=
  addf (addf a b) (addf (sumV (unit8 c) (unitN fA) lA) (sumV (unit8 c) (unitN fB) lB))

theorem tailV_eq (a b : FVec Ideal S_ .f32) (c : FVec Ideal S8x128 .f32) (fA fB : FVec Ideal S100000x128 .f32)
    (lA lB : IVec S100000 32) (hA : ∀ j, (lA j).toInt < 8) (hB : ∀ j, (lB j).toInt < 8) :
    tailV a b c fA fB lA lB = fun _ => (a ix0 + b ix0)
      + (Spec.simSum (Spec.rowUnit (Spec.of2 c)) (Spec.of2 fA) (Spec.ofLab lA)
        + Spec.simSum (Spec.rowUnit (Spec.of2 c)) (Spec.of2 fB) (Spec.ofLab lB)) := by
  funext j
  rw [eq_ix0 j]
  show (a ix0 + b ix0) + (sumV (unit8 c) (unitN fA) lA ix0 + sumV (unit8 c) (unitN fB) lB ix0) = _
  rw [sumV_eq c fA lA hA, sumV_eq c fB lB hB]

/-! ## The run of the last stretch of the reference -/

set_option maxHeartbeats 8000000 in
/-- After the last 81 operations of the reference, run from any contents U, the scalar result buffer holds what the
    program's spelling makes of U's two whitening losses, centre table, feature tables and labels. -/
theorem v165_tail (U : Valuation τ sig (Elt Ideal)) :
    StableHlo.after (RefRun.opsD (F := Ideal)) U main_v165
      = tailV (U main_v64) (U main_v116) (U main_arg5) (U main_arg1) (U main_arg2) (U main_arg6) (U main_arg7) := by
  after_results_simp
  rfl

/-- So it holds the sum of the two whitening losses plus the two label sums of the specification — every label being
    below 8. The two losses are named by what their buffers hold. -/
theorem v165_eq_of (U : Valuation τ sig (Elt Ideal))
    (hA : ∀ i, ((U main_arg6 : S100000.Idx → BitVec 32) i).toInt < 8)
    (hB : ∀ i, ((U main_arg7 : S100000.Idx → BitVec 32) i).toInt < 8)
    (a b : S_.Idx → EReal) (ha : U main_v64 = a) (hb : U main_v116 = b) :
    StableHlo.after (RefRun.opsD (F := Ideal)) U main_v165
      = fun _ => (a ValueIdx.ix0 + b ValueIdx.ix0)
        + (Spec.simSum (Spec.rowUnit (Spec.of2 (U main_arg5))) (Spec.of2 (U main_arg1)) (Spec.ofLab (U main_arg6))
          + Spec.simSum (Spec.rowUnit (Spec.of2 (U main_arg5))) (Spec.of2 (U main_arg2)) (Spec.ofLab (U main_arg7))) := by
  subst ha hb
  rw [v165_tail U]
  exact tailV_eq _ _ _ _ _ _ _ hA hB

/-- The same with the two losses read off U. -/
theorem v165_eq (U : Valuation τ sig (Elt Ideal))
    (hA : ∀ i, ((U main_arg6 : S100000.Idx → BitVec 32) i).toInt < 8)
    (hB : ∀ i, ((U main_arg7 : S100000.Idx → BitVec 32) i).toInt < 8) :
    StableHlo.after (RefRun.opsD (F := Ideal)) U main_v165
      = fun _ => (@HAdd.hAdd EReal EReal EReal instHAdd ((U main_v64) ValueIdx.ix0) ((U main_v116) ValueIdx.ix0))
        + (Spec.simSum (Spec.rowUnit (Spec.of2 (U main_arg5))) (Spec.of2 (U main_arg1)) (Spec.ofLab (U main_arg6))
          + Spec.simSum (Spec.rowUnit (Spec.of2 (U main_arg5))) (Spec.of2 (U main_arg2)) (Spec.ofLab (U main_arg7))) :=
  v165_eq_of U hA hB _ _ rfl rfl

end Cert.ReferenceIdeal.RPart3

end
-- ==== Proof.lean ====
/-
  The kernel and its reference compute the same two results over the extended reals.

  Both programs mix six input channels into five with a gated, row-normalised 5×6 weight, normalise every mixed channel
  by m = max(√(its sum of squares over all samples and positions), 1e-6), form ten bilinear channels
  u_i · (1 / (u_j + 1e-6)), i < j, normalise those the same way (the first result), and add three scalars: the whitening
  loss of the five channels, that of the ten, and a label term (for every row with label ≥ 1, one minus the inner
  product of the unit-normalised row with its label's unit-normalised centre).

  They differ in arrangement only. The reference divides a channel by m, the kernel multiplies it by 1/m; the reference
  takes the covariance Σ_n u_k u_l of normalised channels, the kernel scales the raw sum Σ_n z_k z_l by (1/m_k)(1/m_l);
  the reference prints the gate in its straight-through form g + (g_bin − g); the kernel sums the label term over rows
  padded with label 0 to 98 blocks of 1024, block after block, and picks a row's centre by a sum over the eight classes.
  Since m is never 0, x / m = x · (1/m) at every extended real, and 1/m is a nonnegative real (0 when m = +∞), so it
  moves across a finite sum: both identities hold for every tensor, infinite entries included (a bilinear channel
  may have them: its denominator can vanish). The inputs' finiteness is used once, for g + (g_bin − g) = g_bin; the
  labels being below 8 (the added precondition) makes the sum over the classes the label's own centre.

  The modules: Spec (the mathematics, index by index), Algebra (the identities above), PreFacts (the precondition read
  back), KRun and RefOps (each program's run with its result buffers), KHost0–3, KBodyA–D, KKeep, KAsm (the kernel
  program's buffers, stage by stage, as Spec's functions), RPart0–3, RefKeep, RefConsts, RAsm (the reference's), Final
  (the five claims from those).
-/
import proofs.«414715_j46866683134133_3_alg».proof.Proof.Final
import proofs.«414715_j46866683134133_3_alg».proof.Proof.KAsm
import proofs.«414715_j46866683134133_3_alg».proof.Proof.RPart0
import proofs.«414715_j46866683134133_3_alg».proof.Proof.RPart2
import proofs.«414715_j46866683134133_3_alg».proof.Proof.RPart3

noncomputable section

namespace Cert.Proof

open Idealize.ShloMosaic Idealize.SL.Sem

theorem claim : Cert.Claim :=
  Cert.Final.claim_of
    Cert.ReferenceIdeal.Gen.shapeCasts_S1024x6x30x9x9_S1024x6x2430
    Cert.ReferenceIdeal.Gen.shapeCasts_S1024x10x2430_S1024x10x30x9x9
    (Cert.KernelIdeal.KAsm.kernel_results _ _)
    (fun V => Cert.ReferenceIdeal.RPart0.v24_eq V)
    (fun V => Cert.ReferenceIdeal.RPart0.v36_eq V)
    (fun U hc hc1 hc0 hc2 => Cert.ReferenceIdeal.RPart2.v116_eq U hc hc1 hc0 hc2)
    (fun U hc hc1 hc0 hc2 => Cert.ReferenceIdeal.RPart2.v117_eq U hc hc1 hc0 hc2)
    (fun U hA hB => Cert.ReferenceIdeal.RPart3.v165_eq U hA hB)

end Cert.Proof

end
